-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S8x4096x33 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x65536x32 : Shape := ⟨3, ![8, 65536, 32]⟩
abbrev S8x65536 : Shape := ⟨2, ![8, 65536]⟩
abbrev S_ : Shape := ⟨0, ![]⟩

class Facts : Prop where
  bcast_S_S8x65536x32 : S_.BroadcastsInDim S8x65536x32 (![] : Fin 0 → Fin S8x65536x32.rank)
  reducesTo_S8x65536x32_S_d0_1_2 : S8x65536x32.ReducesTo [0, 1, 2] S_
  h_S_ : 0 < S_.numel
  bcast_S_S8x65536 : S_.BroadcastsInDim S8x65536 (![] : Fin 0 → Fin S8x65536.rank)
  reducesTo_S8x65536_S_d0_1 : S8x65536.ReducesTo [0, 1] S_

variable [Facts]

def fn {F : FTy → Type} [FloatOps F] (main_arg0 : FVec F S8x65536x32 .f32) (main_arg1 : IVec S8x65536 32) : IVec S_ 1 :=
  let main_v0 : FVec F S8x65536x32 .f32 := Host.absf main_arg0
  let main_cst : FVec F S_ .f32 := constant S_ .f32 0x7F800000#32
  let main_v1 : FVec F S8x65536x32 .f32 := broadcastInDim S8x65536x32 ![] bcast_S_S8x65536x32 main_cst
  let main_v2 : IVec S8x65536x32 1 := cmpf .olt main_v0 main_v1
  let main_c : IVec S_ 1 := constantI S_ 1 1#1
  let main_v3 : IVec S_ 1 := (fun x v => Host.reduce IntOp.andi x v reducesTo_S8x65536x32_S_d0_1_2 h_S_) main_v2 main_c
  let main_c_0 : IVec S_ 32 := constantI S_ 32 0#32
  let main_v4 : IVec S8x65536 32 := broadcastInDim S8x65536 ![] bcast_S_S8x65536 main_c_0
  let main_v5 : IVec S8x65536 1 := cmpi .sge main_arg1 main_v4
  let main_c_1 : IVec S_ 1 := constantI S_ 1 1#1
  let main_v6 : IVec S_ 1 := (fun x v => Host.reduce IntOp.andi x v reducesTo_S8x65536_S_d0_1 h_S_) main_v5 main_c_1
  let main_v7 : IVec S_ 1 := andi main_v3 main_v6
  let main_c_2 : IVec S_ 32 := constantI S_ 32 33#32
  let main_v8 : IVec S8x65536 32 := broadcastInDim S8x65536 ![] bcast_S_S8x65536 main_c_2
  let main_v9 : IVec S8x65536 1 := cmpi .slt main_arg1 main_v8
  let main_c_3 : IVec S_ 1 := constantI S_ 1 1#1
  let main_v10 : IVec S_ 1 := (fun x v => Host.reduce IntOp.andi x v reducesTo_S8x65536_S_d0_1 h_S_) main_v9 main_c_3
  let main_v11 : IVec S_ 1 := andi main_v7 main_v10
  main_v11
-- ==== Kernel.lean ====
abbrev S8x65536x32 : Shape := ⟨3, ![8, 65536, 32]⟩
abbrev S8x65536 : Shape := ⟨2, ![8, 65536]⟩
abbrev S8x33x32 : Shape := ⟨3, ![8, 33, 32]⟩
abbrev S8x33 : Shape := ⟨2, ![8, 33]⟩
abbrev S8x4096x32 : Shape := ⟨3, ![8, 4096, 32]⟩
abbrev S8x4096 : Shape := ⟨2, ![8, 4096]⟩
abbrev S1x1x33 : Shape := ⟨3, ![1, 1, 33]⟩
abbrev S8x4096x1 : Shape := ⟨3, ![8, 4096, 1]⟩
abbrev S8x4096x33 : Shape := ⟨3, ![8, 4096, 33]⟩
abbrev S_ : Shape := ⟨0, ![]⟩
abbrev S8x33x1 : Shape := ⟨3, ![8, 33, 1]⟩
abbrev S1 : Shape := ⟨1, ![1]⟩
abbrev S8 : Shape := ⟨1, ![8]⟩
abbrev S8x2048x32 : Shape := ⟨3, ![8, 2048, 32]⟩
abbrev S8x2048 : Shape := ⟨2, ![8, 2048]⟩
abbrev S8x2048x1 : Shape := ⟨3, ![8, 2048, 1]⟩
abbrev S8x2048x33 : Shape := ⟨3, ![8, 2048, 33]⟩
abbrev S8x33x1x32 : Shape := ⟨4, ![8, 33, 1, 32]⟩
abbrev S8x1x33x32 : Shape := ⟨4, ![8, 1, 33, 32]⟩
abbrev S8x33x33x32 : Shape := ⟨4, ![8, 33, 33, 32]⟩
abbrev S8x33x33 : Shape := ⟨3, ![8, 33, 33]⟩
abbrev S33x33 : Shape := ⟨2, ![33, 33]⟩
abbrev S1x33x33 : Shape := ⟨3, ![1, 33, 33]⟩
abbrev S8x1x33 : Shape := ⟨3, ![8, 1, 33]⟩

abbrev nBuf : Space → Nat
  | .hbm => 125
  | .vmem => 15
  | .smem => 0
  | _ => 0

abbrev bufTy : (tb : Table) → Fin (tcTables nBuf tb) → BufTy
  | .hbm, ⟨0, _⟩ => ⟨S8x65536x32, .f32⟩
  | .hbm, ⟨1, _⟩ => ⟨S8x65536, .i32⟩
  | .hbm, ⟨2, _⟩ => ⟨S8x33x32, .f32⟩
  | .hbm, ⟨3, _⟩ => ⟨S8x33, .f32⟩
  | .hbm, ⟨4, _⟩ => ⟨S_, .f32⟩
  | .hbm, ⟨5, _⟩ => ⟨S8x33, .f32⟩
  | .hbm, ⟨6, _⟩ => ⟨S8x33, .f32⟩
  | .hbm, ⟨7, _⟩ => ⟨S8x33x1, .f32⟩
  | .hbm, ⟨8, _⟩ => ⟨S8x33x32, .f32⟩
  | .hbm, ⟨9, _⟩ => ⟨S8x33x32, .f32⟩
  | .hbm, ⟨10, _⟩ => ⟨S_, .f32⟩
  | .hbm, ⟨11, _⟩ => ⟨S8x33, .f32⟩
  | .hbm, ⟨12, _⟩ => ⟨S8x33, .i1⟩
  | .hbm, ⟨13, _⟩ => ⟨S_, .i32⟩
  | .hbm, ⟨14, _⟩ => ⟨S1, .i32⟩
  | .hbm, ⟨15, _⟩ => ⟨S_, .i1⟩
  | .hbm, ⟨16, _⟩ => ⟨S8, .i1⟩
  | .hbm, ⟨17, _⟩ => ⟨S8x33, .i1⟩
  | .hbm, ⟨18, _⟩ => ⟨S8x33, .f32⟩
  | .hbm, ⟨19, _⟩ => ⟨S_, .f32⟩
  | .hbm, ⟨20, _⟩ => ⟨S8, .f32⟩
  | .hbm, ⟨21, _⟩ => ⟨S8x33, .f32⟩
  | .hbm, ⟨22, _⟩ => ⟨S_, .f32⟩
  | .hbm, ⟨23, _⟩ => ⟨S8x33, .f32⟩
  | .hbm, ⟨24, _⟩ => ⟨S8x33, .f32⟩
  | .hbm, ⟨25, _⟩ => ⟨S8x33, .f32⟩
  | .hbm, ⟨26, _⟩ => ⟨S8x33, .f32⟩
  | .hbm, ⟨27, _⟩ => ⟨S_, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S8, .f32⟩
  | .hbm, ⟨33, _⟩ => ⟨S8x33x1x32, .f32⟩
  | .hbm, ⟨34, _⟩ => ⟨S8x1x33x32, .f32⟩
  | .hbm, ⟨35, _⟩ => ⟨S8x33x33x32, .f32⟩
  | .hbm, ⟨36, _⟩ => ⟨S8x33x33x32, .f32⟩
  | .hbm, ⟨37, _⟩ => ⟨S8x33x33x32, .f32⟩
  | .hbm, ⟨38, _⟩ => ⟨S8x33x33x32, .f32⟩
  | .hbm, ⟨39, _⟩ => ⟨S_, .f32⟩
  | .hbm, ⟨40, _⟩ => ⟨S8x33x33, .f32⟩
  | .hbm, ⟨41, _⟩ => ⟨S_, .i1⟩
  | .hbm, ⟨42, _⟩ => ⟨S33x33, .i1⟩
  | .hbm, ⟨43, _⟩ => ⟨S33x33, .i32⟩
  | .hbm, ⟨44, _⟩ => ⟨S_, .i32⟩
  | .hbm, ⟨45, _⟩ => ⟨S33x33, .i32⟩
  | .hbm, ⟨46, _⟩ => ⟨S33x33, .i32⟩
  | .hbm, ⟨47, _⟩ => ⟨S33x33, .i32⟩
  | .hbm, ⟨48, _⟩ => ⟨S33x33, .i1⟩
  | .hbm, ⟨49, _⟩ => ⟨S_, .i1⟩
  | .hbm, ⟨50, _⟩ => ⟨S33x33, .i1⟩
  | .hbm, ⟨51, _⟩ => ⟨S33x33, .i1⟩
  | .hbm, ⟨52, _⟩ => ⟨S1x33x33, .i1⟩
  | .hbm, ⟨53, _⟩ => ⟨S8x33x1, .i1⟩
  | .hbm, ⟨54, _⟩ => ⟨S8x1x33, .i1⟩
  | .hbm, ⟨55, _⟩ => ⟨S8x33x33, .i1⟩
  | .hbm, ⟨56, _⟩ => ⟨S8x33x33, .i1⟩
  | .hbm, ⟨57, _⟩ => ⟨S8x33x33, .i1⟩
  | .hbm, ⟨58, _⟩ => ⟨S8x33x33, .i1⟩
  | .hbm, ⟨59, _⟩ => ⟨S8x33x33, .i1⟩
  | .hbm, ⟨60, _⟩ => ⟨S_, .f32⟩
  | .hbm, ⟨61, _⟩ => ⟨S_, .f32⟩
  | .hbm, ⟨62, _⟩ => ⟨S8x33x33, .f32⟩
  | .hbm, ⟨63, _⟩ => ⟨S8x33x33, .f32⟩
  | .hbm, ⟨64, _⟩ => ⟨S_, .f32⟩
  | .hbm, ⟨65, _⟩ => ⟨S8x33x33, .f32⟩
  | .hbm, ⟨66, _⟩ => ⟨S8x33x33, .f32⟩
  | .hbm, ⟨67, _⟩ => ⟨S8x33x33, .f32⟩
  | .hbm, ⟨68, _⟩ => ⟨S_, .f32⟩
  | .hbm, ⟨69, _⟩ => ⟨S8x33x33, .f32⟩
  | .hbm, ⟨70, _⟩ => ⟨S8x33x33, .f32⟩
  | .hbm, ⟨71, _⟩ => ⟨S_, .f32⟩
  | .hbm, ⟨72, _⟩ => ⟨S8x33x33, .f32⟩
  | .hbm, ⟨73, _⟩ => ⟨S8x33x33, .f32⟩
  | .hbm, ⟨74, _⟩ => ⟨S8x33x33, .f32⟩
  | .hbm, ⟨75, _⟩ => ⟨S8x33x33, .f32⟩
  | .hbm, ⟨76, _⟩ => ⟨S_, .f32⟩
  | .hbm, ⟨77, _⟩ => ⟨S8, .f32⟩
  | .hbm, ⟨78, _⟩ => ⟨S8, .f32⟩
  | .hbm, ⟨79, _⟩ => ⟨S8, .f32⟩
  | .hbm, ⟨80, _⟩ => ⟨S_, .f32⟩
  | .hbm, ⟨81, _⟩ => ⟨S8, .f32⟩
  | .hbm, ⟨82, _⟩ => ⟨S8, .f32⟩
  | .hbm, ⟨83, _⟩ => ⟨S_, .f32⟩
  | .hbm, ⟨84, _⟩ => ⟨S8, .f32⟩
  | .hbm, ⟨85, _⟩ => ⟨S_, .f32⟩
  | .hbm, ⟨86, _⟩ => ⟨S8, .f32⟩
  | .hbm, ⟨87, _⟩ => ⟨S8, .f32⟩
  | .hbm, ⟨88, _⟩ => ⟨S8, .f32⟩
  | .hbm, ⟨89, _⟩ => ⟨S8x33x32, .f32⟩
  | .hbm, ⟨90, _⟩ => ⟨S_, .f32⟩
  | .hbm, ⟨91, _⟩ => ⟨S8x33, .f32⟩
  | .hbm, ⟨92, _⟩ => ⟨S_, .f32⟩
  | .hbm, ⟨93, _⟩ => ⟨S8x33, .f32⟩
  | .hbm, ⟨94, _⟩ => ⟨S8x33, .f32⟩
  | .hbm, ⟨95, _⟩ => ⟨S8x33, .f32⟩
  | .hbm, ⟨96, _⟩ => ⟨S8x33, .f32⟩
  | .hbm, ⟨97, _⟩ => ⟨S_, .f32⟩
  | .hbm, ⟨98, _⟩ => ⟨S8, .f32⟩
  | .hbm, ⟨99, _⟩ => ⟨S_, .f32⟩
  | .hbm, ⟨100, _⟩ => ⟨S8, .f32⟩
  | .hbm, ⟨101, _⟩ => ⟨S8, .f32⟩
  | .hbm, ⟨102, _⟩ => ⟨S8, .f32⟩
  | .hbm, ⟨103, _⟩ => ⟨S_, .f32⟩
  | .hbm, ⟨104, _⟩ => ⟨S8, .f32⟩
  | .hbm, ⟨105, _⟩ => ⟨S8, .f32⟩
  | .hbm, ⟨106, _⟩ => ⟨S_, .f32⟩
  | .hbm, ⟨107, _⟩ => ⟨S8, .f32⟩
  | .hbm, ⟨108, _⟩ => ⟨S8, .f32⟩
  | .hbm, ⟨109, _⟩ => ⟨S8, .f32⟩
  | .hbm, ⟨110, _⟩ => ⟨S_, .f32⟩
  | .hbm, ⟨111, _⟩ => ⟨S8, .f32⟩
  | .hbm, ⟨112, _⟩ => ⟨S8, .f32⟩
  | .hbm, ⟨113, _⟩ => ⟨S8, .f32⟩
  | .hbm, ⟨114, _⟩ => ⟨S_, .f32⟩
  | .hbm, ⟨115, _⟩ => ⟨S8, .f32⟩
  | .hbm, ⟨116, _⟩ => ⟨S8, .i1⟩
  | .hbm, ⟨117, _⟩ => ⟨S_, .f32⟩
  | .hbm, ⟨118, _⟩ => ⟨S_, .f32⟩
  | .hbm, ⟨119, _⟩ => ⟨S8, .f32⟩
  | .hbm, ⟨120, _⟩ => ⟨S8, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .local _ .vmem, ⟨0, _⟩ => ⟨S8x4096x32, .f32⟩
  | .local _ .vmem, ⟨1, _⟩ => ⟨S8x4096x32, .f32⟩
  | .local _ .vmem, ⟨2, _⟩ => ⟨S8x4096, .i32⟩
  | .local _ .vmem, ⟨3, _⟩ => ⟨S8x4096, .i32⟩
  | .local _ .vmem, ⟨4, _⟩ => ⟨S8x33x32, .f32⟩
  | .local _ .vmem, ⟨5, _⟩ => ⟨S8x33, .f32⟩
  | .local _ .vmem, ⟨6, _⟩ => ⟨S8x33x32, .f32⟩
  | .local _ .vmem, ⟨7, _⟩ => ⟨S8x33, .f32⟩
  | .local _ .vmem, ⟨8, _⟩ => ⟨S8x2048x32, .f32⟩
  | .local _ .vmem, ⟨9, _⟩ => ⟨S8x2048x32, .f32⟩
  | .local _ .vmem, ⟨10, _⟩ => ⟨S8x2048, .i32⟩
  | .local _ .vmem, ⟨11, _⟩ => ⟨S8x2048, .i32⟩
  | .local _ .vmem, ⟨12, _⟩ => ⟨S8x33x32, .f32⟩
  | .local _ .vmem, ⟨13, _⟩ => ⟨S8x33, .f32⟩
  | .local _ .vmem, ⟨14, _⟩ => ⟨S8x33, .f32⟩
  | _, _ => ⟨S8x65536x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_c_7 : Ref sig .tc := ⟨.hbm, 41, rfl⟩
abbrev main_v29 : Ref sig .tc := ⟨.hbm, 42, rfl⟩
abbrev main_call0_v0 : Ref sig .tc := ⟨.hbm, 43, rfl⟩
abbrev main_call0_c : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_c_0 : Ref sig .tc := ⟨.hbm, 49, rfl⟩
abbrev main_call0_v5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_call1_v0 : Ref sig .tc := ⟨.hbm, 61, rfl⟩
abbrev main_call1_v1 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_cst_11 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_12 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_13 : Ref sig .tc := ⟨.hbm, 80, rfl⟩
abbrev main_v52 : Ref sig .tc := ⟨.hbm, 81, rfl⟩
abbrev main_v53 : Ref sig .tc := ⟨.hbm, 82, rfl⟩
abbrev main_cst_14 : Ref sig .tc := ⟨.hbm, 83, rfl⟩
abbrev main_v54 : Ref sig .tc := ⟨.hbm, 84, rfl⟩
abbrev main_cst_15 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_16 : Ref sig .tc := ⟨.hbm, 90, rfl⟩
abbrev main_v59 : Ref sig .tc := ⟨.hbm, 91, rfl⟩
abbrev main_cst_17 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_18 : Ref sig .tc := ⟨.hbm, 97, rfl⟩
abbrev main_v64 : Ref sig .tc := ⟨.hbm, 98, rfl⟩
abbrev main_cst_19 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_20 : Ref sig .tc := ⟨.hbm, 103, rfl⟩
abbrev main_v68 : Ref sig .tc := ⟨.hbm, 104, rfl⟩
abbrev main_v69 : Ref sig .tc := ⟨.hbm, 105, rfl⟩
abbrev main_cst_21 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_22 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_23 : Ref sig .tc := ⟨.hbm, 114, rfl⟩
abbrev main_v76 : Ref sig .tc := ⟨.hbm, 115, rfl⟩
abbrev main_v77 : Ref sig .tc := ⟨.hbm, 116, rfl⟩
abbrev main_cst_24 : Ref sig .tc := ⟨.hbm, 117, rfl⟩
abbrev main_call2_v0 : Ref sig .tc := ⟨.hbm, 118, rfl⟩
abbrev main_call2_v1 : Ref sig .tc := ⟨.hbm, 119, rfl⟩
abbrev main_v78 : Ref sig .tc := ⟨.hbm, 120, rfl⟩
abbrev main_cst_25 : Ref sig .tc := ⟨.hbm, 121, rfl⟩
abbrev main_v79 : Ref sig .tc := ⟨.hbm, 122, rfl⟩
abbrev main_cst_26 : Ref sig .tc := ⟨.hbm, 123, rfl⟩
abbrev main_v80 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v27 : BitVec 1 := Scalar.cmpi .eq arg0 c15_i32
  let v28 : BitVec 32 := Scalar.extui v27
  let c0_i32_16 : BitVec 32 := 0#32
  let v29 : BitVec 1 := Scalar.cmpi .ne v28 c0_i32_16
  v29

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x33x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x33 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![32], ![false]⟩

def k1_cond2 (i : grid1.Coords) : BitVec 1 :=
  let arg0 : BitVec 32 := BitVec.ofNat 32 (i 0).val
  let c31_i32 : BitVec 32 := 31#32
  let v40 : BitVec 1 := Scalar.cmpi .eq arg0 c31_i32
  let v41 : BitVec 32 := Scalar.extui v40
  let c0_i32_19 : BitVec 32 := 0#32
  let v42 : BitVec 1 := Scalar.cmpi .ne v41 c0_i32_19
  v42

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8x2048x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x33x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x33 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  inb_S8x33x32_S8x33x32_0_0_0 : ∀ a, (![0, 0, 0] : Fin 3 → Nat) a + S8x33x32.size a ≤ S8x33x32.size a
  h_S8x33x32 : 0 < S8x33x32.numel
  shapeCasts_S8x33x32_S8x33x32 : S8x33x32.ShapeCasts S8x33x32
  inb_S8x33_S8x33_0_0 : ∀ a, (![0, 0] : Fin 2 → Nat) a + S8x33.size a ≤ S8x33.size a
  h_S8x33 : 0 < S8x33.numel
  shapeCasts_S8x33_S8x33 : S8x33.ShapeCasts S8x33
  inb_S8x4096x32_S8x4096x32_0_0_0 : ∀ a, (![0, 0, 0] : Fin 3 → Nat) a + S8x4096x32.size a ≤ S8x4096x32.size a
  h_S8x4096x32 : 0 < S8x4096x32.numel
  bitsLt_bf16_f32 : FTy.bits .bf16 < FTy.bits .f32
  inb_S8x4096_S8x4096_0_0 : ∀ a, (![0, 0] : Fin 2 → Nat) a + S8x4096.size a ≤ S8x4096.size a
  h_S8x4096 : 0 < S8x4096.numel
  iota_S1x1x33_d2_w32 : S1x1x33.Iotas .tc 32 [2]
  shapeCasts_S8x4096_S8x4096x1 : S8x4096.ShapeCasts S8x4096x1
  broadcasts_S8x4096x1_S8x4096x33 : S8x4096x1.Broadcasts S8x4096x33
  broadcasts_S1x1x33_S8x4096x33 : S1x1x33.Broadcasts S8x4096x33
  natLt_1_32 : 1 < 32
  reduces_S8x4096x33_S8x33 : S8x4096x33.Reduces [1] S8x33
  bcast_S_S8x33 : S_.BroadcastsInDim S8x33 (![] : Fin 0 → Fin S8x33.rank)
  bcast_S8x33_S8x33x1_0_1 : S8x33.BroadcastsInDim S8x33x1 (![0, 1] : Fin 2 → Fin S8x33x1.rank)
  bcast_S8x33x1_S8x33x32_0_1_2 : S8x33x1.BroadcastsInDim S8x33x32 (![0, 1, 2] : Fin 3 → Fin S8x33x32.rank)
  bcast_S_S1 : S_.BroadcastsInDim S1 (![] : Fin 0 → Fin S1.rank)
  bcast_S_S8 : S_.BroadcastsInDim S8 (![] : Fin 0 → Fin S8.rank)
  reducesTo_S8x33_S8_d1 : S8x33.ReducesTo [1] S8
  h_S_ : 0 < S_.numel
  inb_S8x2048x32_S8x2048x32_0_0_0 : ∀ a, (![0, 0, 0] : Fin 3 → Nat) a + S8x2048x32.size a ≤ S8x2048x32.size a
  h_S8x2048x32 : 0 < S8x2048x32.numel
  inb_S8x2048_S8x2048_0_0 : ∀ a, (![0, 0] : Fin 2 → Nat) a + S8x2048.size a ≤ S8x2048.size a
  h_S8x2048 : 0 < S8x2048.numel
  shapeCasts_S8x2048_S8x2048x1 : S8x2048.ShapeCasts S8x2048x1
  broadcasts_S8x2048x1_S8x2048x33 : S8x2048x1.Broadcasts S8x2048x33
  broadcasts_S1x1x33_S8x2048x33 : S1x1x33.Broadcasts S8x2048x33
  reduces_S8x2048x32_S8x2048 : S8x2048x32.Reduces [2] S8x2048
  reduces_S8x2048x33_S8x33 : S8x2048x33.Reduces [1] S8x33
  bcast_S8x33x32_S8x33x1x32_0_1_3 : S8x33x32.BroadcastsInDim S8x33x1x32 (![0, 1, 3] : Fin 3 → Fin S8x33x1x32.rank)
  bcast_S8x33x32_S8x1x33x32_0_2_3 : S8x33x32.BroadcastsInDim S8x1x33x32 (![0, 2, 3] : Fin 3 → Fin S8x1x33x32.rank)
  bcast_S8x33x1x32_S8x33x33x32_0_1_2_3 : S8x33x1x32.BroadcastsInDim S8x33x33x32 (![0, 1, 2, 3] : Fin 4 → Fin S8x33x33x32.rank)
  bcast_S8x1x33x32_S8x33x33x32_0_1_2_3 : S8x1x33x32.BroadcastsInDim S8x33x33x32 (![0, 1, 2, 3] : Fin 4 → Fin S8x33x33x32.rank)
  reducesTo_S8x33x33x32_S8x33x33_d3 : S8x33x33x32.ReducesTo [3] S8x33x33
  bcast_S_S33x33 : S_.BroadcastsInDim S33x33 (![] : Fin 0 → Fin S33x33.rank)
  bcast_S33x33_S1x33x33_1_2 : S33x33.BroadcastsInDim S1x33x33 (![1, 2] : Fin 2 → Fin S1x33x33.rank)
  bcast_S8x33_S8x1x33_0_2 : S8x33.BroadcastsInDim S8x1x33 (![0, 2] : Fin 2 → Fin S8x1x33.rank)
  bcast_S8x33x1_S8x33x33_0_1_2 : S8x33x1.BroadcastsInDim S8x33x33 (![0, 1, 2] : Fin 3 → Fin S8x33x33.rank)
  bcast_S8x1x33_S8x33x33_0_1_2 : S8x1x33.BroadcastsInDim S8x33x33 (![0, 1, 2] : Fin 3 → Fin S8x33x33.rank)
  bcast_S1x33x33_S8x33x33_0_1_2 : S1x33x33.BroadcastsInDim S8x33x33 (![0, 1, 2] : Fin 3 → Fin S8x33x33.rank)
  bcast_S_S8x33x33 : S_.BroadcastsInDim S8x33x33 (![] : Fin 0 → Fin S8x33x33.rank)
  reducesTo_S8x33x33_S8_d1_2 : S8x33x33.ReducesTo [1, 2] S8
  reducesTo_S8x33x32_S8x33_d2 : S8x33x32.ReducesTo [2] S8x33
  reducesTo_S8_S_d0 : S8.ReducesTo [0] S_
  dot_S8x4096x33_S8x4096x32_S8x33x32_1_1_2_2_0_0_wf : DotDims.WF S8x4096x33 S8x4096x32 S8x33x32 [1] [1] [2] [2] [0] [0]
  scatter_S8x33_S1_S8_0_1_1_0_wf : ScatterDims.WF S8x33 S1 S8 [0] [1] [1] 0
  dot_S8x2048x33_S8x33x32_S8x2048x32_2_1_1_2_0_0_wf : DotDims.WF S8x2048x33 S8x33x32 S8x2048x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x4096x32.size a ≤ S8x65536x32.size a
  hwx0_0 : ∀ i : grid0.Coords, EltTy.bits .f32 = 32 ∨ (Rect.block (s := S8x65536x32) S8x4096x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S8x65536.size a
  hwx0_1 : ∀ i : grid0.Coords, EltTy.bits .i32 = 32 ∨ (Rect.block (s := S8x65536) S8x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x33x32.size a ≤ S8x33x32.size a
  hwx0_2 : ∀ i : grid0.Coords, EltTy.bits .f32 = 32 ∨ (Rect.block (s := S8x33x32) S8x33x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x33.size a ≤ S8x33.size a
  hwx0_3 : ∀ i : grid0.Coords, EltTy.bits .f32 = 32 ∨ (Rect.block (s := S8x33) S8x33.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x2048x32.size a ≤ S8x65536x32.size a
  hwx1_0 : ∀ i : grid1.Coords, EltTy.bits .f32 = 32 ∨ (Rect.block (s := S8x65536x32) S8x2048x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x2048.size a ≤ S8x65536.size a
  hwx1_1 : ∀ i : grid1.Coords, EltTy.bits .i32 = 32 ∨ (Rect.block (s := S8x65536) S8x2048.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x33x32.size a ≤ S8x33x32.size a
  hwx1_2 : ∀ i : grid1.Coords, EltTy.bits .f32 = 32 ∨ (Rect.block (s := S8x33x32) S8x33x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x33.size a ≤ S8x33.size a
  hwx1_3 : ∀ i : grid1.Coords, EltTy.bits .f32 = 32 ∨ (Rect.block (s := S8x33) S8x33.size (cc1_transform_3 i) (hinb1_3 i)).WholeWords (EltTy.packing .f32)

variable [Facts₀]

def dot_S8x4096x33_S8x4096x32_S8x33x32_1_1_2_2_0_0 : DotDims S8x4096x33 S8x4096x32 S8x33x32 where
  lhsContracting := [1]
  rhsContracting := [1]
  lhsNonContracting := [2]
  rhsNonContracting := [2]
  lhsBatch := [0]
  rhsBatch := [0]
  wf := dot_S8x4096x33_S8x4096x32_S8x33x32_1_1_2_2_0_0_wf
def scatter_S8x33_S1_S8_0_1_1_0 : ScatterDims S8x33 S1 S8 where
  updateWindowDims := [0]
  insertedWindowDims := [1]
  scatterDimsToOperandDims := [1]
  indexVectorDim := 0
  wf := scatter_S8x33_S1_S8_0_1_1_0_wf
def dot_S8x2048x33_S8x33x32_S8x2048x32_2_1_1_2_0_0 : DotDims S8x2048x33 S8x33x32 S8x2048x32 where
  lhsContracting := [2]
  rhsContracting := [1]
  lhsNonContracting := [1]
  rhsNonContracting := [2]
  lhsBatch := [0]
  rhsBatch := [0]
  wf := dot_S8x2048x33_S8x33x32_S8x2048x32_2_1_1_2_0_0_wf

abbrev win0_0 : Pipeline.Window sig grid0 :=
  Pipeline.Window.ofSpec (Memref.whole main_arg0) S8x4096x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x33x32.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x33.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S8x2048x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S8x33x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S8x33.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x65536x32 : Shape := ⟨3, ![8, 65536, 32]⟩
abbrev S8x65536 : Shape := ⟨2, ![8, 65536]⟩
abbrev S8 : Shape := ⟨1, ![8]⟩
abbrev S8x1 : Shape := ⟨2, ![8, 1]⟩
abbrev S_ : Shape := ⟨0, ![]⟩
abbrev S524288 : Shape := ⟨1, ![524288]⟩
abbrev S524288x32 : Shape := ⟨2, ![524288, 32]⟩
abbrev S264x32 : Shape := ⟨2, ![264, 32]⟩
abbrev S524288x1 : Shape := ⟨2, ![524288, 1]⟩
abbrev S8x33x32 : Shape := ⟨3, ![8, 33, 32]⟩
abbrev S264 : Shape := ⟨1, ![264]⟩
abbrev S8x33 : Shape := ⟨2, ![8, 33]⟩
abbrev S8x33x1 : Shape := ⟨3, ![8, 33, 1]⟩
abbrev S1 : Shape := ⟨1, ![1]⟩
abbrev S8x65536x1 : Shape := ⟨3, ![8, 65536, 1]⟩
abbrev S8x65536x2 : Shape := ⟨3, ![8, 65536, 2]⟩
abbrev S8x33x1x32 : Shape := ⟨4, ![8, 33, 1, 32]⟩
abbrev S8x1x33x32 : Shape := ⟨4, ![8, 1, 33, 32]⟩
abbrev S8x33x33x32 : Shape := ⟨4, ![8, 33, 33, 32]⟩
abbrev S8x33x33 : Shape := ⟨3, ![8, 33, 33]⟩
abbrev S33x33 : Shape := ⟨2, ![33, 33]⟩
abbrev S1x33x33 : Shape := ⟨3, ![1, 33, 33]⟩
abbrev S8x1x33 : Shape := ⟨3, ![8, 1, 33]⟩

abbrev nBuf : Space → Nat
  | .hbm => 191
  | .vmem => 0
  | .smem => 0
  | _ => 0

abbrev hbmTy0_0 (i : Nat) : BufTy := match i % 128 with
  | 0 => ⟨S8x65536x32, .f32⟩
  | 1 => ⟨S8x65536, .i32⟩
  | 2 => ⟨S8, .i32⟩
  | 3 => ⟨S8x1, .i32⟩
  | 4 => ⟨S_, .i32⟩
  | 5 => ⟨S8x1, .i32⟩
  | 6 => ⟨S8x1, .i32⟩
  | 7 => ⟨S8x65536, .i32⟩
  | 8 => ⟨S8x65536, .i32⟩
  | 9 => ⟨S524288, .i32⟩
  | 10 => ⟨S524288x32, .f32⟩
  | 11 => ⟨S_, .f32⟩
  | 12 => ⟨S264x32, .f32⟩
  | 13 => ⟨S524288x1, .i32⟩
  | 14 => ⟨S264x32, .f32⟩
  | 15 => ⟨S8x33x32, .f32⟩
  | 16 => ⟨S_, .f32⟩
  | 17 => ⟨S524288, .f32⟩
  | 18 => ⟨S_, .f32⟩
  | 19 => ⟨S264, .f32⟩
  | 20 => ⟨S524288x1, .i32⟩
  | 21 => ⟨S264, .f32⟩
  | 22 => ⟨S8x33, .f32⟩
  | 23 => ⟨S_, .f32⟩
  | 24 => ⟨S8x33, .f32⟩
  | 25 => ⟨S8x33, .f32⟩
  | 26 => ⟨S8x33x1, .f32⟩
  | 27 => ⟨S8x33x32, .f32⟩
  | 28 => ⟨S8x33x32, .f32⟩
  | 29 => ⟨S_, .f32⟩
  | 30 => ⟨S8x33, .f32⟩
  | 31 => ⟨S8x33, .i1⟩
  | 32 => ⟨S_, .i32⟩
  | 33 => ⟨S1, .i32⟩
  | 34 => ⟨S_, .i1⟩
  | 35 => ⟨S8, .i1⟩
  | 36 => ⟨S8x33, .i1⟩
  | 37 => ⟨S8x33, .f32⟩
  | 38 => ⟨S_, .f32⟩
  | 39 => ⟨S8, .f32⟩
  | 40 => ⟨S8, .i32⟩
  | 41 => ⟨S8x1, .i32⟩
  | 42 => ⟨S_, .i32⟩
  | 43 => ⟨S8x1, .i32⟩
  | 44 => ⟨S8x1, .i1⟩
  | 45 => ⟨S_, .i32⟩
  | 46 => ⟨S8x1, .i32⟩
  | 47 => ⟨S8x1, .i32⟩
  | 48 => ⟨S8x1, .i32⟩
  | 49 => ⟨S_, .i32⟩
  | 50 => ⟨S8x65536, .i32⟩
  | 51 => ⟨S8x65536, .i1⟩
  | 52 => ⟨S_, .i32⟩
  | 53 => ⟨S8x65536, .i32⟩
  | 54 => ⟨S8x65536, .i32⟩
  | 55 => ⟨S8x65536, .i32⟩
  | 56 => ⟨S8x65536, .i32⟩
  | 57 => ⟨S8x65536x1, .i32⟩
  | 58 => ⟨S8x65536x1, .i32⟩
  | 59 => ⟨S8x65536x2, .i32⟩
  | 60 => ⟨S8x65536x32, .f32⟩
  | 61 => ⟨S8x65536x32, .f32⟩
  | 62 => ⟨S8x65536x32, .f32⟩
  | 63 => ⟨S_, .f32⟩
  | 64 => ⟨S8x65536, .f32⟩
  | 65 => ⟨S_, .f32⟩
  | 66 => ⟨S8x65536, .f32⟩
  | 67 => ⟨S8x65536, .f32⟩
  | 68 => ⟨S8x65536, .f32⟩
  | 69 => ⟨S_, .i32⟩
  | 70 => ⟨S8x65536, .i32⟩
  | 71 => ⟨S8x65536, .i1⟩
  | 72 => ⟨S_, .f32⟩
  | 73 => ⟨S8x65536, .f32⟩
  | 74 => ⟨S8x65536, .f32⟩
  | 75 => ⟨S_, .f32⟩
  | 76 => ⟨S8x65536, .f32⟩
  | 77 => ⟨S8x65536, .f32⟩
  | 78 => ⟨S_, .f32⟩
  | 79 => ⟨S_, .f32⟩
  | 80 => ⟨S8x65536, .f32⟩
  | 81 => ⟨S8x65536, .f32⟩
  | 82 => ⟨S524288, .f32⟩
  | 83 => ⟨S_, .f32⟩
  | 84 => ⟨S264, .f32⟩
  | 85 => ⟨S524288x1, .i32⟩
  | 86 => ⟨S264, .f32⟩
  | 87 => ⟨S8x33, .f32⟩
  | 88 => ⟨S_, .f32⟩
  | 89 => ⟨S8x33, .f32⟩
  | 90 => ⟨S8x33, .f32⟩
  | 91 => ⟨S8x33, .f32⟩
  | 92 => ⟨S8x33, .f32⟩
  | 93 => ⟨S_, .f32⟩
  | 94 => ⟨S8, .f32⟩
  | 95 => ⟨S_, .f32⟩
  | 96 => ⟨S8, .f32⟩
  | 97 => ⟨S8, .f32⟩
  | 98 => ⟨S8, .f32⟩
  | 99 => ⟨S8x33x1x32, .f32⟩
  | 100 => ⟨S8x1x33x32, .f32⟩
  | 101 => ⟨S8x33x33x32, .f32⟩
  | 102 => ⟨S8x33x33x32, .f32⟩
  | 103 => ⟨S8x33x33x32, .f32⟩
  | 104 => ⟨S8x33x33x32, .f32⟩
  | 105 => ⟨S_, .f32⟩
  | 106 => ⟨S8x33x33, .f32⟩
  | 107 => ⟨S_, .i1⟩
  | 108 => ⟨S33x33, .i1⟩
  | 109 => ⟨S33x33, .i32⟩
  | 110 => ⟨S_, .i32⟩
  | 111 => ⟨S33x33, .i32⟩
  | 112 => ⟨S33x33, .i32⟩
  | 113 => ⟨S33x33, .i32⟩
  | 114 => ⟨S33x33, .i1⟩
  | 115 => ⟨S_, .i1⟩
  | 116 => ⟨S33x33, .i1⟩
  | 117 => ⟨S33x33, .i1⟩
  | 118 => ⟨S1x33x33, .i1⟩
  | 119 => ⟨S8x33x1, .i1⟩
  | 120 => ⟨S8x1x33, .i1⟩
  | 121 => ⟨S8x33x33, .i1⟩
  | 122 => ⟨S8x33x33, .i1⟩
  | 123 => ⟨S8x33x33, .i1⟩
  | 124 => ⟨S8x33x33, .i1⟩
  | 125 => ⟨S8x33x33, .i1⟩
  | 126 => ⟨S_, .f32⟩
  | 127 => ⟨S_, .f32⟩
  | _ => ⟨S8x65536x32, .f32⟩

abbrev hbmTy0_1 (i : Nat) : BufTy := match i % 128 with
  | 0 => ⟨S8x33x33, .f32⟩
  | 1 => ⟨S8x33x33, .f32⟩
  | 2 => ⟨S_, .f32⟩
  | 3 => ⟨S8x33x33, .f32⟩
  | 4 => ⟨S8x33x33, .f32⟩
  | 5 => ⟨S8x33x33, .f32⟩
  | 6 => ⟨S_, .f32⟩
  | 7 => ⟨S8x33x33, .f32⟩
  | 8 => ⟨S8x33x33, .f32⟩
  | 9 => ⟨S_, .f32⟩
  | 10 => ⟨S8x33x33, .f32⟩
  | 11 => ⟨S8x33x33, .f32⟩
  | 12 => ⟨S8x33x33, .f32⟩
  | 13 => ⟨S8x33x33, .f32⟩
  | 14 => ⟨S_, .f32⟩
  | 15 => ⟨S8, .f32⟩
  | 16 => ⟨S8, .f32⟩
  | 17 => ⟨S8, .f32⟩
  | 18 => ⟨S_, .f32⟩
  | 19 => ⟨S8, .f32⟩
  | 20 => ⟨S8, .f32⟩
  | 21 => ⟨S_, .f32⟩
  | 22 => ⟨S8, .f32⟩
  | 23 => ⟨S_, .f32⟩
  | 24 => ⟨S8, .f32⟩
  | 25 => ⟨S8, .f32⟩
  | 26 => ⟨S8, .f32⟩
  | 27 => ⟨S8x33x32, .f32⟩
  | 28 => ⟨S_, .f32⟩
  | 29 => ⟨S8x33, .f32⟩
  | 30 => ⟨S_, .f32⟩
  | 31 => ⟨S8x33, .f32⟩
  | 32 => ⟨S8x33, .f32⟩
  | 33 => ⟨S8x33, .f32⟩
  | 34 => ⟨S8x33, .f32⟩
  | 35 => ⟨S_, .f32⟩
  | 36 => ⟨S8, .f32⟩
  | 37 => ⟨S_, .f32⟩
  | 38 => ⟨S8, .f32⟩
  | 39 => ⟨S8, .f32⟩
  | 40 => ⟨S8, .f32⟩
  | 41 => ⟨S_, .f32⟩
  | 42 => ⟨S8, .f32⟩
  | 43 => ⟨S8, .f32⟩
  | 44 => ⟨S_, .f32⟩
  | 45 => ⟨S8, .f32⟩
  | 46 => ⟨S8, .f32⟩
  | 47 => ⟨S8, .f32⟩
  | 48 => ⟨S_, .f32⟩
  | 49 => ⟨S8, .f32⟩
  | 50 => ⟨S8, .f32⟩
  | 51 => ⟨S8, .f32⟩
  | 52 => ⟨S_, .f32⟩
  | 53 => ⟨S8, .f32⟩
  | 54 => ⟨S8, .i1⟩
  | 55 => ⟨S_, .f32⟩
  | 56 => ⟨S_, .f32⟩
  | 57 => ⟨S8, .f32⟩
  | 58 => ⟨S8, .f32⟩
  | 59 => ⟨S_, .f32⟩
  | 60 => ⟨S_, .f32⟩
  | 61 => ⟨S_, .f32⟩
  | 62 => ⟨S_, .f32⟩
  | _ => ⟨S8x65536x32, .f32⟩

abbrev hbmTy (i : Nat) : BufTy := match i / 128 with
  | 0 => hbmTy0_0 i
  | 1 => hbmTy0_1 i
  | _ => ⟨S8x65536x32, .f32⟩

abbrev bufTy : (tb : Table) → Fin (tcTables nBuf tb) → BufTy
  | .hbm, ⟨i, _⟩ => hbmTy i
  | _, _ => ⟨S8x65536x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_c_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_7 : Ref sig .tc := ⟨.hbm, 42, rfl⟩
abbrev main_v31 : Ref sig .tc := ⟨.hbm, 43, rfl⟩
abbrev main_v32 : Ref sig .tc := ⟨.hbm, 44, rfl⟩
abbrev main_c_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_9 : Ref sig .tc := ⟨.hbm, 49, rfl⟩
abbrev main_v36 : Ref sig .tc := ⟨.hbm, 50, rfl⟩
abbrev main_v37 : Ref sig .tc := ⟨.hbm, 51, rfl⟩
abbrev main_c_10 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_11 : Ref sig .tc := ⟨.hbm, 63, rfl⟩
abbrev main_v48 : Ref sig .tc := ⟨.hbm, 64, rfl⟩
abbrev main_cst_12 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_13 : Ref sig .tc := ⟨.hbm, 69, rfl⟩
abbrev main_v52 : Ref sig .tc := ⟨.hbm, 70, rfl⟩
abbrev main_v53 : Ref sig .tc := ⟨.hbm, 71, rfl⟩
abbrev main_cst_14 : Ref sig .tc := ⟨.hbm, 72, rfl⟩
abbrev main_v54 : Ref sig .tc := ⟨.hbm, 73, rfl⟩
abbrev main_v55 : Ref sig .tc := ⟨.hbm, 74, rfl⟩
abbrev main_cst_15 : Ref sig .tc := ⟨.hbm, 75, rfl⟩
abbrev main_v56 : Ref sig .tc := ⟨.hbm, 76, rfl⟩
abbrev main_v57 : Ref sig .tc := ⟨.hbm, 77, rfl⟩
abbrev main_cst_16 : Ref sig .tc := ⟨.hbm, 78, rfl⟩
abbrev main_call0_v0 : Ref sig .tc := ⟨.hbm, 79, rfl⟩
abbrev main_call0_v1 : Ref sig .tc := ⟨.hbm, 80, rfl⟩
abbrev main_v58 : Ref sig .tc := ⟨.hbm, 81, rfl⟩
abbrev main_v59 : Ref sig .tc := ⟨.hbm, 82, rfl⟩
abbrev main_cst_17 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_18 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_19 : Ref sig .tc := ⟨.hbm, 93, rfl⟩
abbrev main_v68 : Ref sig .tc := ⟨.hbm, 94, rfl⟩
abbrev main_cst_20 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_21 : Ref sig .tc := ⟨.hbm, 105, rfl⟩
abbrev main_v78 : Ref sig .tc := ⟨.hbm, 106, rfl⟩
abbrev main_c_22 : Ref sig .tc := ⟨.hbm, 107, rfl⟩
abbrev main_v79 : Ref sig .tc := ⟨.hbm, 108, rfl⟩
abbrev main_call1_v0 : Ref sig .tc := ⟨.hbm, 109, rfl⟩
abbrev main_call1_c : Ref sig .tc := ⟨.hbm, 110, rfl⟩
abbrev main_call1_v1 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_call1_c_0 : Ref sig .tc := ⟨.hbm, 115, rfl⟩
abbrev main_call1_v5 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_23 : Ref sig .tc := ⟨.hbm, 126, rfl⟩
abbrev main_call2_v0 : Ref sig .tc := ⟨.hbm, 127, rfl⟩
abbrev main_call2_v1 : Ref sig .tc := ⟨.hbm, 128, rfl⟩
abbrev main_v89 : Ref sig .tc := ⟨.hbm, 129, rfl⟩
abbrev main_cst_24 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_25 : Ref sig .tc := ⟨.hbm, 134, rfl⟩
abbrev main_v93 : Ref sig .tc := ⟨.hbm, 135, rfl⟩
abbrev main_v94 : Ref sig .tc := ⟨.hbm, 136, rfl⟩
abbrev main_cst_26 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_27 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_28 : Ref sig .tc := ⟨.hbm, 146, rfl⟩
abbrev main_v102 : Ref sig .tc := ⟨.hbm, 147, rfl⟩
abbrev main_v103 : Ref sig .tc := ⟨.hbm, 148, rfl⟩
abbrev main_cst_29 : Ref sig .tc := ⟨.hbm, 149, rfl⟩
abbrev main_v104 : Ref sig .tc := ⟨.hbm, 150, rfl⟩
abbrev main_cst_30 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_31 : Ref sig .tc := ⟨.hbm, 156, rfl⟩
abbrev main_v109 : Ref sig .tc := ⟨.hbm, 157, rfl⟩
abbrev main_cst_32 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_cst_33 : Ref sig .tc := ⟨.hbm, 163, rfl⟩
abbrev main_v114 : Ref sig .tc := ⟨.hbm, 164, rfl⟩
abbrev main_cst_34 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_cst_35 : Ref sig .tc := ⟨.hbm, 169, rfl⟩
abbrev main_v118 : Ref sig .tc := ⟨.hbm, 170, rfl⟩
abbrev main_v119 : Ref sig .tc := ⟨.hbm, 171, rfl⟩
abbrev main_cst_36 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_cst_37 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_cst_38 : Ref sig .tc := ⟨.hbm, 180, rfl⟩
abbrev main_v126 : Ref sig .tc := ⟨.hbm, 181, rfl⟩
abbrev main_v127 : Ref sig .tc := ⟨.hbm, 182, rfl⟩
abbrev main_cst_39 : Ref sig .tc := ⟨.hbm, 183, rfl⟩
abbrev main_call3_v0 : Ref sig .tc := ⟨.hbm, 184, rfl⟩
abbrev main_call3_v1 : Ref sig .tc := ⟨.hbm, 185, rfl⟩
abbrev main_v128 : Ref sig .tc := ⟨.hbm, 186, rfl⟩
abbrev main_cst_40 : Ref sig .tc := ⟨.hbm, 187, rfl⟩
abbrev main_v129 : Ref sig .tc := ⟨.hbm, 188, rfl⟩
abbrev main_cst_41 : Ref sig .tc := ⟨.hbm, 189, rfl⟩
abbrev main_v130 : Ref sig .tc := ⟨.hbm, 190, rfl⟩

abbrev nD : Nat := 1
abbrev τ : Topo := Topo.v7x

variable {F : FTy → Type} [FloatOps F]

class Facts₀ : Prop where
  bcast_S8_S8x1_0 : S8.BroadcastsInDim S8x1 (![0] : Fin 1 → Fin S8x1.rank)
  bcast_S_S8x1 : S_.BroadcastsInDim S8x1 (![] : Fin 0 → Fin S8x1.rank)
  bcast_S8x1_S8x65536_0_1 : S8x1.BroadcastsInDim S8x65536 (![0, 1] : Fin 2 → Fin S8x65536.rank)
  shapeCasts_S8x65536_S524288 : S8x65536.ShapeCasts S524288
  shapeCasts_S8x65536x32_S524288x32 : S8x65536x32.ShapeCasts S524288x32
  bcast_S_S264x32 : S_.BroadcastsInDim S264x32 (![] : Fin 0 → Fin S264x32.rank)
  bcast_S524288_S524288x1_0 : S524288.BroadcastsInDim S524288x1 (![0] : Fin 1 → Fin S524288x1.rank)
  shapeCasts_S264x32_S8x33x32 : S264x32.ShapeCasts S8x33x32
  bcast_S_S524288 : S_.BroadcastsInDim S524288 (![] : Fin 0 → Fin S524288.rank)
  bcast_S_S264 : S_.BroadcastsInDim S264 (![] : Fin 0 → Fin S264.rank)
  shapeCasts_S264_S8x33 : S264.ShapeCasts S8x33
  bcast_S_S8x33 : S_.BroadcastsInDim S8x33 (![] : Fin 0 → Fin S8x33.rank)
  bcast_S8x33_S8x33x1_0_1 : S8x33.BroadcastsInDim S8x33x1 (![0, 1] : Fin 2 → Fin S8x33x1.rank)
  bcast_S8x33x1_S8x33x32_0_1_2 : S8x33x1.BroadcastsInDim S8x33x32 (![0, 1, 2] : Fin 3 → Fin S8x33x32.rank)
  bcast_S_S1 : S_.BroadcastsInDim S1 (![] : Fin 0 → Fin S1.rank)
  bcast_S_S8 : S_.BroadcastsInDim S8 (![] : Fin 0 → Fin S8.rank)
  reducesTo_S8x33_S8_d1 : S8x33.ReducesTo [1] S8
  h_S_ : 0 < S_.numel
  bcast_S_S8x65536 : S_.BroadcastsInDim S8x65536 (![] : Fin 0 → Fin S8x65536.rank)
  bcast_S8x65536_S8x65536x1_0_1 : S8x65536.BroadcastsInDim S8x65536x1 (![0, 1] : Fin 2 → Fin S8x65536x1.rank)
  concatenates_S8x65536x1_S8x65536x1_S8x65536x2_d2 : Shape.Concatenates [S8x65536x1, S8x65536x1] S8x65536x2 2
  reducesTo_S8x65536x32_S8x65536_d2 : S8x65536x32.ReducesTo [2] S8x65536
  bcast_S8x33x32_S8x33x1x32_0_1_3 : S8x33x32.BroadcastsInDim S8x33x1x32 (![0, 1, 3] : Fin 3 → Fin S8x33x1x32.rank)
  bcast_S8x33x32_S8x1x33x32_0_2_3 : S8x33x32.BroadcastsInDim S8x1x33x32 (![0, 2, 3] : Fin 3 → Fin S8x1x33x32.rank)
  bcast_S8x33x1x32_S8x33x33x32_0_1_2_3 : S8x33x1x32.BroadcastsInDim S8x33x33x32 (![0, 1, 2, 3] : Fin 4 → Fin S8x33x33x32.rank)
  bcast_S8x1x33x32_S8x33x33x32_0_1_2_3 : S8x1x33x32.BroadcastsInDim S8x33x33x32 (![0, 1, 2, 3] : Fin 4 → Fin S8x33x33x32.rank)
  reducesTo_S8x33x33x32_S8x33x33_d3 : S8x33x33x32.ReducesTo [3] S8x33x33
  bcast_S_S33x33 : S_.BroadcastsInDim S33x33 (![] : Fin 0 → Fin S33x33.rank)
  bcast_S33x33_S1x33x33_1_2 : S33x33.BroadcastsInDim S1x33x33 (![1, 2] : Fin 2 → Fin S1x33x33.rank)
  bcast_S8x33_S8x1x33_0_2 : S8x33.BroadcastsInDim S8x1x33 (![0, 2] : Fin 2 → Fin S8x1x33.rank)
  bcast_S8x33x1_S8x33x33_0_1_2 : S8x33x1.BroadcastsInDim S8x33x33 (![0, 1, 2] : Fin 3 → Fin S8x33x33.rank)
  bcast_S8x1x33_S8x33x33_0_1_2 : S8x1x33.BroadcastsInDim S8x33x33 (![0, 1, 2] : Fin 3 → Fin S8x33x33.rank)
  bcast_S1x33x33_S8x33x33_0_1_2 : S1x33x33.BroadcastsInDim S8x33x33 (![0, 1, 2] : Fin 3 → Fin S8x33x33.rank)
  bcast_S_S8x33x33 : S_.BroadcastsInDim S8x33x33 (![] : Fin 0 → Fin S8x33x33.rank)
  reducesTo_S8x33x33_S8_d1_2 : S8x33x33.ReducesTo [1, 2] S8
  reducesTo_S8x33x32_S8x33_d2 : S8x33x32.ReducesTo [2] S8x33
  reducesTo_S8_S_d0 : S8.ReducesTo [0] S_
  scatter_S264x32_S524288x1_S524288x32_1_0_0_1_wf : ScatterDims.WF S264x32 S524288x1 S524288x32 [1] [0] [0] 1
  scatter_S264_S524288x1_S524288_n_0_0_1_wf : ScatterDims.WF S264 S524288x1 S524288 [] [0] [0] 1
  scatter_S8x33_S1_S8_0_1_1_0_wf : ScatterDims.WF S8x33 S1 S8 [0] [1] [1] 0
  gather_S8x33x32_S8x65536x2_S8x65536x32_2_01_n_n_01_2_1132_wf : GatherDims.WF S8x33x32 S8x65536x2 S8x65536x32 [2] [0, 1] [] [0, 1] [] 2 ![1, 1, 32]

variable [Facts₀]

def scatter_S264x32_S524288x1_S524288x32_1_0_0_1 : ScatterDims S264x32 S524288x1 S524288x32 where
  updateWindowDims := [1]
  insertedWindowDims := [0]
  scatterDimsToOperandDims := [0]
  indexVectorDim := 1
  wf := scatter_S264x32_S524288x1_S524288x32_1_0_0_1_wf
def scatter_S264_S524288x1_S524288_n_0_0_1 : ScatterDims S264 S524288x1 S524288 where
  updateWindowDims := []
  insertedWindowDims := [0]
  scatterDimsToOperandDims := [0]
  indexVectorDim := 1
  wf := scatter_S264_S524288x1_S524288_n_0_0_1_wf
def scatter_S8x33_S1_S8_0_1_1_0 : ScatterDims S8x33 S1 S8 where
  updateWindowDims := [0]
  insertedWindowDims := [1]
  scatterDimsToOperandDims := [1]
  indexVectorDim := 0
  wf := scatter_S8x33_S1_S8_0_1_1_0_wf
def gather_S8x33x32_S8x65536x2_S8x65536x32_2_01_n_n_01_2_1132 : GatherDims S8x33x32 S8x65536x2 S8x65536x32 where
  offsetDims := [2]
  collapsedSliceDims := [0, 1]
  operandBatchingDims := []
  startIndicesBatchingDims := []
  startIndexMap := [0, 1]
  indexVectorDim := 2
  sliceSizes := ![1, 1, 32]
  wf := gather_S8x33x32_S8x65536x2_S8x65536x32_2_01_n_n_01_2_1132_wf

class Facts : Prop extends Facts₀ where

variable [Facts]
-- ==== Proof.K.R0Runs.lean ====
/-
  Region 0 (the per-batch segment sums and counts, accumulated over the 16 tiles of the point axis): what its
  three control cases share. The body resets both accumulators at the first tile, adds the tile's partial sums
  at every tile, and copies the accumulators to the two result blocks at the last tile only. Here: a window's
  block read off the array the region is entered with, the two branch conditions as facts about the tile's
  number, where the result windows are idle, and the names of the staging and scratch memrefs.
-/
import proofs.«420528_j52673478918521_3_alg».proof.Proof.Gen.Kernel.Launch
import proofs.«420528_j52673478918521_3_alg».proof.Proof.Gen.Kernel.Skeleton
import proofs.«420528_j52673478918521_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The embeddings' staging buffer holds the tile's block at every tile. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The labels' staging buffer holds the tile's block at every tile. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions -/

/-- "This is the first tile": the reset branch's condition, from the tile's coordinate. -/
abbrev cond_0 (i : grid0.Coords) : Prop := (Scalar.cmpi .ne (Scalar.extui (Scalar.cmpi .eq (BitVec.ofNat 32 (i 0).val) 0#32)) 0#32) = 1#1
theorem hcond_0 : ∀ t : Fin cfg0.N, cond_0 (grid0.coords t) ↔ t.val = 0 :=
  (by decide +kernel : ∀ t : Fin grid0.N, cond_0 (grid0.coords t) ↔ t.val = 0)

/-- "This is the last tile": the write-out branch's condition. -/
abbrev cond_1 (i : grid0.Coords) : Prop := k0_cond2 i = 1#1
theorem hcond_1 : ∀ t : Fin cfg0.N, cond_1 (grid0.coords t) ↔ t.val = 15 :=
  (by decide +kernel : ∀ t : Fin grid0.N, cond_1 (grid0.coords t) ↔ t.val = 15)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
/-- Before the last tile nothing is stored into the sums' result block, and it is not written back. -/
theorem idleAt_2 : ∀ t : Fin cfg0.N, ¬cond_1 (grid0.coords t) → cfg0.idle 2 (grid0.coords t) = true := by decide +kernel
theorem noFlush_2 : ∀ t : Fin cfg0.N, ¬cond_1 (grid0.coords t) → (cfg0.win 2).flush t = false := by decide +kernel
theorem idleAt_3 : ∀ t : Fin cfg0.N, ¬cond_1 (grid0.coords t) → cfg0.idle 3 (grid0.coords t) = true := by decide +kernel
theorem noFlush_3 : ∀ t : Fin cfg0.N, ¬cond_1 (grid0.coords t) → (cfg0.win 3).flush t = false := by decide +kernel
/-- At the last tile both result blocks are stored. -/
theorem liveAt_2 : ∀ t : Fin cfg0.N, cond_1 (grid0.coords t) → cfg0.idle 2 (grid0.coords t) = false := by decide +kernel
theorem liveAt_3 : ∀ t : Fin cfg0.N, cond_1 (grid0.coords t) → cfg0.idle 3 (grid0.coords t) = false := by decide +kernel

/-! ## The memrefs the body is called with -/

abbrev VO_2 : View sig .tc .vmem S8x33x32 .f32 := (Memref.whole cc0_stg2_0 : Memref sig .tc .vmem S8x33x32 .f32).view
abbrev VO_3 : View sig .tc .vmem S8x33 .f32 := (Memref.whole cc0_stg3_0 : Memref sig .tc .vmem S8x33 .f32).view
abbrev ms_0 (t : Fin cfg0.N) : Memref sig .tc .vmem S8x4096x32 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S8x4096 .i32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S8x33x32 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S8x33 .f32 := win0_3.stage (cfg0.slots t 3)
abbrev hs_3 (t : Fin cfg0.N) : (ms_3 t).IsWhole := hstage0_3 ((cfg0.slots t 3).cast nbuf0_3)
/-- The two accumulators: whole scoped buffers of the kernel's own. -/
abbrev scM_0 : Memref sig .tc .vmem S8x33x32 .f32 := Memref.whole cc0_scratch0
abbrev scM_1 : Memref sig .tc .vmem S8x33 .f32 := Memref.whole cc0_scratch1
abbrev VS_0 : View sig .tc .vmem S8x33x32 .f32 := scM_0.view
abbrev VS_1 : View sig .tc .vmem S8x33 .f32 := scM_1.view

/-- The scoped buffers of the other region, which this region never touches, each at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_scratch0), ((c : Thread nD τ).loc cc1_scratch0) ↦{fullShare} f))

/-- What the region is handed besides its windows: both accumulators at some contents, the other region's scoped
    buffers, the generator register. -/
theorem PhiA_eq (c : Dev nD) :
    (Pipeline.ΦA spec0 c : sProp 𝕄)
      = iprop(iprop((∃ d, owns (c : Thread nD τ) scM_0 fullShare d) ∗ (∃ d, owns (c : Thread nD τ) scM_1 fullShare d) ∗ otherScoped c) ∗ (∃ r, prngReg c r)) := by
  unfold Pipeline.ΦA otherScoped; rw [scopedRest0_eq]; simp only [scM_0, scM_1, owns_whole]; try rfl

end Cert.Kernel.Reg0

end
-- ==== Proof.K.R0RunA.lean ====
/-
  Region 0 at its FIRST tile: the body resets both accumulators, loads the tile's embeddings and labels, and
  stores each accumulator as "what it held plus the tile's partial sum". The run is found by symbolic execution of
  the body; its witness is the list of pieces each accumulator ends with.
-/
import proofs.«420528_j52673478918521_3_alg».proof.Proof.K.R0Runs

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_A (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : cond_0 i) (hc1 : ¬cond_1 i)
    (x0 : Vec F S8x4096x32 .f32) (x1 : Vec F S8x4096 .i32) :
    Σ' (LS0 : List (View.Piece (Elt F) S8x33x32 .f32)), { LS1 : List (View.Piece (Elt F) S8x33 .f32) //
      ∀ (E : Set ℕ) (K : PUnit → sProp 𝕄),
        iprop(owns (c : Thread nD τ) arg1 fullShare x0 ∗ owns (c : Thread nD τ) arg2 fullShare x1 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__sum_count_kernel i arg1 harg1 arg2 harg2 arg3 harg3 arg4 harg4 arg5 harg5 arg6 harg6) K } := by
  refine ⟨?_, ?_, fun E K => ?run⟩
  case run =>
    simp only [cc0__sum_count_kernel_eq_skeleton]; unfold cc0__sum_count_kernel_skel
    unfold owns
    iintro ⟨⟨%f0, %hf0, H0⟩, ⟨%f1, %hf1, H1⟩, ⟨%ds0, %fs0, -, HS0⟩, ⟨%ds1, %fs1, -, HS1⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    iexists _; iexact HS1

end Cert.Kernel.Reg0

end
-- ==== Proof.K.R0RunB.lean ====
/-
  Region 0 at a MIDDLE tile (neither first nor last): no reset and no write-out; each accumulator, entered at what
  the tile before left, is stored back as that plus this tile's partial sum.
-/
import proofs.«420528_j52673478918521_3_alg».proof.Proof.K.R0RunA

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_B (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : ¬cond_1 i)
    (x0 : Vec F S8x4096x32 .f32) (x1 : Vec F S8x4096 .i32) (xs0 : Vec F S8x33x32 .f32) (xs1 : Vec F S8x33 .f32) :
    Σ' (LS0 : List (View.Piece (Elt F) S8x33x32 .f32)), { LS1 : List (View.Piece (Elt F) S8x33 .f32) //
      ∀ (E : Set ℕ) (K : PUnit → sProp 𝕄),
        iprop(owns (c : Thread nD τ) arg1 fullShare x0 ∗ owns (c : Thread nD τ) arg2 fullShare x1 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__sum_count_kernel i arg1 harg1 arg2 harg2 arg3 harg3 arg4 harg4 arg5 harg5 arg6 harg6) K } := by
  refine ⟨?_, ?_, fun E K => ?run⟩
  case run =>
    simp only [cc0__sum_count_kernel_eq_skeleton]; unfold cc0__sum_count_kernel_skel
    unfold owns
    iintro ⟨⟨%f0, %hf0, H0⟩, ⟨%f1, %hf1, H1⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    iexists _; iexact HS1

end Cert.Kernel.Reg0

end
-- ==== Proof.K.R0RunC.lean ====
/-
  Region 0 at its LAST tile: the accumulators are updated as at a middle tile and then copied whole into the two
  result blocks (the sums' and the counts'), which the pipeline writes back after this tile.
-/
import proofs.«420528_j52673478918521_3_alg».proof.Proof.K.R0RunB

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_C (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : cond_1 i)
    (x0 : Vec F S8x4096x32 .f32) (x1 : Vec F S8x4096 .i32) (xs0 : Vec F S8x33x32 .f32) (xs1 : Vec F S8x33 .f32) :
    Σ' (L2 : List (View.Piece (Elt F) S8x33x32 .f32)) (L3 : List (View.Piece (Elt F) S8x33 .f32)) (LS0 : List (View.Piece (Elt F) S8x33x32 .f32)), { LS1 : List (View.Piece (Elt F) S8x33 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__sum_count_kernel i arg1 harg1 arg2 harg2 arg3 harg3 arg4 harg4 arg5 harg5 arg6 harg6) K } := by
  refine ⟨?_, ?_, ?_, ?_, fun E K => ?run⟩
  case run =>
    simp only [cc0__sum_count_kernel_eq_skeleton]; unfold cc0__sum_count_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.Kernel.Reg0

end
-- ==== Proof.K.R0Frame.lean ====
/-
  Region 0's proof data. After tile n the two accumulators hold the running segment sums and counts of tiles
  0..n (what the case's run leaves, the case chosen by the tile's number); the result blocks are stored at the last
  tile only. The invariant between tiles keeps both accumulators at those contents; the body obligation is the
  case's run at every tile.
-/
import proofs.«420528_j52673478918521_3_alg».proof.Proof.K.R0RunC

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover_A_0 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : cond_0 i) (hc1 : ¬cond_1 i)
    (x0 : Vec F S8x4096x32 .f32) (x1 : Vec F S8x4096 .i32) (y : S8x33x32.Idx) :
    ∃ pc ∈ (kernelRun_A c i arg1 harg1 arg2 harg2 arg3 harg3 arg4 harg4 arg5 harg5 arg6 harg6 hc0 hc1 x0 x1).1, y ∈ pc.1.set :=
  View.cover_of_tiledL (kernelRun_A c i arg1 harg1 arg2 harg2 arg3 harg3 arg4 harg4 arg5 harg5 arg6 harg6 hc0 hc1 x0 x1).1 S8x33x32.size (by sl_kernel_rfl) y
theorem scover_A_1 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : cond_0 i) (hc1 : ¬cond_1 i)
    (x0 : Vec F S8x4096x32 .f32) (x1 : Vec F S8x4096 .i32) (y : S8x33.Idx) :
    ∃ pc ∈ (kernelRun_A c i arg1 harg1 arg2 harg2 arg3 harg3 arg4 harg4 arg5 harg5 arg6 harg6 hc0 hc1 x0 x1).2.1, y ∈ pc.1.set :=
  View.cover_of_tiledL (kernelRun_A c i arg1 harg1 arg2 harg2 arg3 harg3 arg4 harg4 arg5 harg5 arg6 harg6 hc0 hc1 x0 x1).2.1 S8x33.size (by sl_kernel_rfl) y
/-- The sums' accumulator after the first tile. -/
def sout_A_0 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : cond_0 i) (hc1 : ¬cond_1 i)
    (x0 : Vec F S8x4096x32 .f32) (x1 : Vec F S8x4096 .i32) : Vec F S8x33x32 .f32 :=
  VS_0.read (Elt F) (VS_0.writes (Elt F) VS_0.junk (kernelRun_A c i arg1 harg1 arg2 harg2 arg3 harg3 arg4 harg4 arg5 harg5 arg6 harg6 hc0 hc1 x0 x1).1)
/-- The counts' accumulator after the first tile. -/
def sout_A_1 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : cond_0 i) (hc1 : ¬cond_1 i)
    (x0 : Vec F S8x4096x32 .f32) (x1 : Vec F S8x4096 .i32) : Vec F S8x33 .f32 :=
  VS_1.read (Elt F) (VS_1.writes (Elt F) VS_1.junk (kernelRun_A c i arg1 harg1 arg2 harg2 arg3 harg3 arg4 harg4 arg5 harg5 arg6 harg6 hc0 hc1 x0 x1).2.1)

theorem scover_B_0 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : ¬cond_1 i)
    (x0 : Vec F S8x4096x32 .f32) (x1 : Vec F S8x4096 .i32) (xs0 : Vec F S8x33x32 .f32) (xs1 : Vec F S8x33 .f32) (y : S8x33x32.Idx) :
    ∃ pc ∈ (kernelRun_B c i arg1 harg1 arg2 harg2 arg3 harg3 arg4 harg4 arg5 harg5 arg6 harg6 hc0 hc1 x0 x1 xs0 xs1).1, y ∈ pc.1.set :=
  View.cover_of_tiledL (kernelRun_B c i arg1 harg1 arg2 harg2 arg3 harg3 arg4 harg4 arg5 harg5 arg6 harg6 hc0 hc1 x0 x1 xs0 xs1).1 S8x33x32.size (by sl_kernel_rfl) y
theorem scover_B_1 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : ¬cond_1 i)
    (x0 : Vec F S8x4096x32 .f32) (x1 : Vec F S8x4096 .i32) (xs0 : Vec F S8x33x32 .f32) (xs1 : Vec F S8x33 .f32) (y : S8x33.Idx) :
    ∃ pc ∈ (kernelRun_B c i arg1 harg1 arg2 harg2 arg3 harg3 arg4 harg4 arg5 harg5 arg6 harg6 hc0 hc1 x0 x1 xs0 xs1).2.1, y ∈ pc.1.set :=
  View.cover_of_tiledL (kernelRun_B c i arg1 harg1 arg2 harg2 arg3 harg3 arg4 harg4 arg5 harg5 arg6 harg6 hc0 hc1 x0 x1 xs0 xs1).2.1 S8x33.size (by sl_kernel_rfl) y
/-- The sums' accumulator after a middle tile, over what the tile before left. -/
def sout_B_0 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : ¬cond_1 i)
    (x0 : Vec F S8x4096x32 .f32) (x1 : Vec F S8x4096 .i32) (xs0 : Vec F S8x33x32 .f32) (xs1 : Vec F S8x33 .f32) : Vec F S8x33x32 .f32 :=
  VS_0.read (Elt F) (VS_0.writes (Elt F) VS_0.junk (kernelRun_B c i arg1 harg1 arg2 harg2 arg3 harg3 arg4 harg4 arg5 harg5 arg6 harg6 hc0 hc1 x0 x1 xs0 xs1).1)
def sout_B_1 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : ¬cond_1 i)
    (x0 : Vec F S8x4096x32 .f32) (x1 : Vec F S8x4096 .i32) (xs0 : Vec F S8x33x32 .f32) (xs1 : Vec F S8x33 .f32) : Vec F S8x33 .f32 :=
  VS_1.read (Elt F) (VS_1.writes (Elt F) VS_1.junk (kernelRun_B c i arg1 harg1 arg2 harg2 arg3 harg3 arg4 harg4 arg5 harg5 arg6 harg6 hc0 hc1 x0 x1 xs0 xs1).2.1)

theorem cover_C_2 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : cond_1 i)
    (x0 : Vec F S8x4096x32 .f32) (x1 : Vec F S8x4096 .i32) (xs0 : Vec F S8x33x32 .f32) (xs1 : Vec F S8x33 .f32) (y : S8x33x32.Idx) :
    ∃ pc ∈ (kernelRun_C c i arg1 harg1 arg2 harg2 arg3 harg3 arg4 harg4 arg5 harg5 arg6 harg6 hc0 hc1 x0 x1 xs0 xs1).1, y ∈ pc.1.set :=
  View.cover_of_tiledL (kernelRun_C c i arg1 harg1 arg2 harg2 arg3 harg3 arg4 harg4 arg5 harg5 arg6 harg6 hc0 hc1 x0 x1 xs0 xs1).1 S8x33x32.size (by sl_kernel_rfl) y
theorem cover_C_3 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : cond_1 i)
    (x0 : Vec F S8x4096x32 .f32) (x1 : Vec F S8x4096 .i32) (xs0 : Vec F S8x33x32 .f32) (xs1 : Vec F S8x33 .f32) (y : S8x33.Idx) :
    ∃ pc ∈ (kernelRun_C c i arg1 harg1 arg2 harg2 arg3 harg3 arg4 harg4 arg5 harg5 arg6 harg6 hc0 hc1 x0 x1 xs0 xs1).2.1, y ∈ pc.1.set :=
  View.cover_of_tiledL (kernelRun_C c i arg1 harg1 arg2 harg2 arg3 harg3 arg4 harg4 arg5 harg5 arg6 harg6 hc0 hc1 x0 x1 xs0 xs1).2.1 S8x33.size (by sl_kernel_rfl) y
theorem scover_C_0 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : cond_1 i)
    (x0 : Vec F S8x4096x32 .f32) (x1 : Vec F S8x4096 .i32) (xs0 : Vec F S8x33x32 .f32) (xs1 : Vec F S8x33 .f32) (y : S8x33x32.Idx) :
    ∃ pc ∈ (kernelRun_C c i arg1 harg1 arg2 harg2 arg3 harg3 arg4 harg4 arg5 harg5 arg6 harg6 hc0 hc1 x0 x1 xs0 xs1).2.2.1, y ∈ pc.1.set :=
  View.cover_of_tiledL (kernelRun_C c i arg1 harg1 arg2 harg2 arg3 harg3 arg4 harg4 arg5 harg5 arg6 harg6 hc0 hc1 x0 x1 xs0 xs1).2.2.1 S8x33x32.size (by sl_kernel_rfl) y
theorem scover_C_1 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : cond_1 i)
    (x0 : Vec F S8x4096x32 .f32) (x1 : Vec F S8x4096 .i32) (xs0 : Vec F S8x33x32 .f32) (xs1 : Vec F S8x33 .f32) (y : S8x33.Idx) :
    ∃ pc ∈ (kernelRun_C c i arg1 harg1 arg2 harg2 arg3 harg3 arg4 harg4 arg5 harg5 arg6 harg6 hc0 hc1 x0 x1 xs0 xs1).2.2.2.1, y ∈ pc.1.set :=
  View.cover_of_tiledL (kernelRun_C c i arg1 harg1 arg2 harg2 arg3 harg3 arg4 harg4 arg5 harg5 arg6 harg6 hc0 hc1 x0 x1 xs0 xs1).2.2.2.1 S8x33.size (by sl_kernel_rfl) y
/-- The sums' result block as the last tile stores it. -/
def out_C_2 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : cond_1 i)
    (x0 : Vec F S8x4096x32 .f32) (x1 : Vec F S8x4096 .i32) (xs0 : Vec F S8x33x32 .f32) (xs1 : Vec F S8x33 .f32) : Vec F S8x33x32 .f32 :=
  VO_2.read (Elt F) (VO_2.writes (Elt F) VO_2.junk (kernelRun_C c i arg1 harg1 arg2 harg2 arg3 harg3 arg4 harg4 arg5 harg5 arg6 harg6 hc0 hc1 x0 x1 xs0 xs1).1)
/-- The counts' result block as the last tile stores it. -/
def out_C_3 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : cond_1 i)
    (x0 : Vec F S8x4096x32 .f32) (x1 : Vec F S8x4096 .i32) (xs0 : Vec F S8x33x32 .f32) (xs1 : Vec F S8x33 .f32) : Vec F S8x33 .f32 :=
  VO_3.read (Elt F) (VO_3.writes (Elt F) VO_3.junk (kernelRun_C c i arg1 harg1 arg2 harg2 arg3 harg3 arg4 harg4 arg5 harg5 arg6 harg6 hc0 hc1 x0 x1 xs0 xs1).2.1)
def sout_C_0 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : cond_1 i)
    (x0 : Vec F S8x4096x32 .f32) (x1 : Vec F S8x4096 .i32) (xs0 : Vec F S8x33x32 .f32) (xs1 : Vec F S8x33 .f32) : Vec F S8x33x32 .f32 :=
  VS_0.read (Elt F) (VS_0.writes (Elt F) VS_0.junk (kernelRun_C c i arg1 harg1 arg2 harg2 arg3 harg3 arg4 harg4 arg5 harg5 arg6 harg6 hc0 hc1 x0 x1 xs0 xs1).2.2.1)
def sout_C_1 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : cond_1 i)
    (x0 : Vec F S8x4096x32 .f32) (x1 : Vec F S8x4096 .i32) (xs0 : Vec F S8x33x32 .f32) (xs1 : Vec F S8x33 .f32) : Vec F S8x33 .f32 :=
  VS_1.read (Elt F) (VS_1.writes (Elt F) VS_1.junk (kernelRun_C c i arg1 harg1 arg2 harg2 arg3 harg3 arg4 harg4 arg5 harg5 arg6 harg6 hc0 hc1 x0 x1 xs0 xs1).2.2.2.1)

/-- Placeholders for a result block at a tile that stores nothing into it (never consulted: the block is neither
    written back there nor read later). -/
def idle_2 : Vec F S8x33x32 .f32 := VO_2.read (Elt F) (VO_2.writes (Elt F) VO_2.junk [])
def idle_3 : Vec F S8x33 .f32 := VO_3.read (Elt F) (VO_3.writes (Elt F) VO_3.junk [])

/-! ## The accumulation, tile by tile -/

/-- After tile `n`: (the two result blocks, the two accumulators). -/
def outsAt (c : Dev nD) : (n : ℕ) → n < cfg0.N → (Vec F S8x33x32 .f32 × Vec F S8x33 .f32) × (Vec F S8x33x32 .f32 × Vec F S8x33 .f32)
  | 0, hn => ((idle_2, idle_3),
      (sout_A_0 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM_0 (Memref.isWhole_whole _) scM_1 (Memref.isWhole_whole _) ((hcond_0 ⟨0, hn⟩).mpr rfl) (fun h => absurd ((hcond_1 ⟨0, hn⟩).mp h) (show ¬ (0 : ℕ) = 15 by decide)) (iblk V c 0 ⟨0, hn⟩) (iblk V c 1 ⟨0, hn⟩),
       sout_A_1 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM_0 (Memref.isWhole_whole _) scM_1 (Memref.isWhole_whole _) ((hcond_0 ⟨0, hn⟩).mpr rfl) (fun h => absurd ((hcond_1 ⟨0, hn⟩).mp h) (show ¬ (0 : ℕ) = 15 by decide)) (iblk V c 0 ⟨0, hn⟩) (iblk V c 1 ⟨0, hn⟩)))
  | n + 1, hn =>
    if h1 : n + 1 = 15 then
      ((out_C_2 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => absurd ((hcond_0 ⟨n + 1, hn⟩).mp h) (Nat.succ_ne_zero n)) ((hcond_1 ⟨n + 1, hn⟩).mpr h1) (iblk V c 0 ⟨n + 1, hn⟩) (iblk V c 1 ⟨n + 1, hn⟩) (outsAt c n (Nat.lt_of_succ_lt hn)).2.1 (outsAt c n (Nat.lt_of_succ_lt hn)).2.2,
        out_C_3 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => absurd ((hcond_0 ⟨n + 1, hn⟩).mp h) (Nat.succ_ne_zero n)) ((hcond_1 ⟨n + 1, hn⟩).mpr h1) (iblk V c 0 ⟨n + 1, hn⟩) (iblk V c 1 ⟨n + 1, hn⟩) (outsAt c n (Nat.lt_of_succ_lt hn)).2.1 (outsAt c n (Nat.lt_of_succ_lt hn)).2.2),
       (sout_C_0 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => absurd ((hcond_0 ⟨n + 1, hn⟩).mp h) (Nat.succ_ne_zero n)) ((hcond_1 ⟨n + 1, hn⟩).mpr h1) (iblk V c 0 ⟨n + 1, hn⟩) (iblk V c 1 ⟨n + 1, hn⟩) (outsAt c n (Nat.lt_of_succ_lt hn)).2.1 (outsAt c n (Nat.lt_of_succ_lt hn)).2.2,
        sout_C_1 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => absurd ((hcond_0 ⟨n + 1, hn⟩).mp h) (Nat.succ_ne_zero n)) ((hcond_1 ⟨n + 1, hn⟩).mpr h1) (iblk V c 0 ⟨n + 1, hn⟩) (iblk V c 1 ⟨n + 1, hn⟩) (outsAt c n (Nat.lt_of_succ_lt hn)).2.1 (outsAt c n (Nat.lt_of_succ_lt hn)).2.2))
    else
      ((idle_2, idle_3),
       (sout_B_0 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => absurd ((hcond_0 ⟨n + 1, hn⟩).mp h) (Nat.succ_ne_zero n)) (fun h => h1 ((hcond_1 ⟨n + 1, hn⟩).mp h)) (iblk V c 0 ⟨n + 1, hn⟩) (iblk V c 1 ⟨n + 1, hn⟩) (outsAt c n (Nat.lt_of_succ_lt hn)).2.1 (outsAt c n (Nat.lt_of_succ_lt hn)).2.2,
        sout_B_1 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => absurd ((hcond_0 ⟨n + 1, hn⟩).mp h) (Nat.succ_ne_zero n)) (fun h => h1 ((hcond_1 ⟨n + 1, hn⟩).mp h)) (iblk V c 0 ⟨n + 1, hn⟩) (iblk V c 1 ⟨n + 1, hn⟩) (outsAt c n (Nat.lt_of_succ_lt hn)).2.1 (outsAt c n (Nat.lt_of_succ_lt hn)).2.2))

/-- The tile before `t` (for `t` not the first). -/
abbrev prevLt (t : Fin cfg0.N) : t.val - 1 < cfg0.N := Nat.lt_of_le_of_lt (Nat.sub_le _ _) t.isLt

theorem outsAt_A (c : Dev nD) (t : Fin cfg0.N) (h0 : t.val = 0) (h1 : ¬t.val = 15) :
    outsAt V c t.val t.isLt = ((idle_2, idle_3),
      (sout_A_0 c (grid0.coords t) (ms_0 t) (hs_0 t) (ms_1 t) (hs_1 t) (ms_2 t) (hs_2 t) (ms_3 t) (hs_3 t) scM_0 (Memref.isWhole_whole _) scM_1 (Memref.isWhole_whole _) ((hcond_0 t).mpr h0) (fun h => h1 ((hcond_1 t).mp h)) (iblk V c 0 t) (iblk V c 1 t),
       sout_A_1 c (grid0.coords t) (ms_0 t) (hs_0 t) (ms_1 t) (hs_1 t) (ms_2 t) (hs_2 t) (ms_3 t) (hs_3 t) scM_0 (Memref.isWhole_whole _) scM_1 (Memref.isWhole_whole _) ((hcond_0 t).mpr h0) (fun h => h1 ((hcond_1 t).mp h)) (iblk V c 0 t) (iblk V c 1 t))) := by
  obtain ⟨n, hn⟩ := t
  cases n with
  | zero => rfl
  | succ n => exact absurd h0 (Nat.succ_ne_zero n)

theorem outsAt_B (c : Dev nD) (t : Fin cfg0.N) (h0 : ¬t.val = 0) (h1 : ¬t.val = 15) :
    outsAt V c t.val t.isLt = ((idle_2, idle_3),
      (sout_B_0 c (grid0.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) (fun h => h1 ((hcond_1 t).mp h)) (iblk V c 0 t) (iblk V c 1 t) (outsAt V c (t.val - 1) (prevLt t)).2.1 (outsAt V c (t.val - 1) (prevLt t)).2.2,
       sout_B_1 c (grid0.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) (fun h => h1 ((hcond_1 t).mp h)) (iblk V c 0 t) (iblk V c 1 t) (outsAt V c (t.val - 1) (prevLt t)).2.1 (outsAt V c (t.val - 1) (prevLt t)).2.2)) := by
  obtain ⟨n, hn⟩ := t
  cases n with
  | zero => exact absurd rfl h0
  | succ n => exact (dif_neg h1).trans rfl

theorem outsAt_C (c : Dev nD) (t : Fin cfg0.N) (h0 : ¬t.val = 0) (h1 : t.val = 15) :
    outsAt V c t.val t.isLt =
      ((out_C_2 c (grid0.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) ((hcond_1 t).mpr h1) (iblk V c 0 t) (iblk V c 1 t) (outsAt V c (t.val - 1) (prevLt t)).2.1 (outsAt V c (t.val - 1) (prevLt t)).2.2,
        out_C_3 c (grid0.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) ((hcond_1 t).mpr h1) (iblk V c 0 t) (iblk V c 1 t) (outsAt V c (t.val - 1) (prevLt t)).2.1 (outsAt V c (t.val - 1) (prevLt t)).2.2),
       (sout_C_0 c (grid0.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) ((hcond_1 t).mpr h1) (iblk V c 0 t) (iblk V c 1 t) (outsAt V c (t.val - 1) (prevLt t)).2.1 (outsAt V c (t.val - 1) (prevLt t)).2.2,
        sout_C_1 c (grid0.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) ((hcond_1 t).mpr h1) (iblk V c 0 t) (iblk V c 1 t) (outsAt V c (t.val - 1) (prevLt t)).2.1 (outsAt V c (t.val - 1) (prevLt t)).2.2)) := by
  obtain ⟨n, hn⟩ := t
  cases n with
  | zero => exact absurd rfl h0
  | succ n => exact (dif_pos h1).trans rfl

/-! ## The invariant between tiles -/

/-- Before tile `n`: at the first tile whatever the region was handed; afterwards both accumulators at what tile
    `n - 1` left, the other region's scoped buffers and the generator register riding along. -/
def PhiS (c : Dev nD) : (n : ℕ) → n ≤ cfg0.N → sProp 𝕄
  | 0, _ => Pipeline.ΦA spec0 c
  | n + 1, hn => iprop(iprop(owns (c : Thread nD τ) scM_0 fullShare ((outsAt V c n hn).2.1) ∗ owns (c : Thread nD τ) scM_1 fullShare ((outsAt V c n hn).2.2) ∗ otherScoped c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM_0 fullShare ((outsAt V c n hn).2.1) ∗ owns (c : Thread nD τ) scM_1 fullShare ((outsAt V c n hn).2.2) ∗ otherScoped c) ∗ (∃ r, prngReg c r)) := rfl
theorem PhiS_pos (c : Dev nD) (n : ℕ) (h : n ≤ cfg0.N) (hz : n ≠ 0) :
    PhiS V c n h = iprop(iprop(owns (c : Thread nD τ) scM_0 fullShare ((outsAt V c (n - 1) (by omega)).2.1) ∗ owns (c : Thread nD τ) scM_1 fullShare ((outsAt V c (n - 1) (by omega)).2.2) ∗ otherScoped c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1.1
    | ⟨3, _⟩ => (outsAt V c t.val t.isLt).1.2
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1.1 := by dsimp only [dat]
theorem after_3 (c : Dev nD) (t : Fin cfg0.N) : (dat V c).after 3 t = (outsAt V c t.val t.isLt).1.2 := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  have hN : t.val < 16 := lt_of_lt_of_eq t.isLt (show cfg0.N = 16 from N_0)
  by_cases h1 : t.val = 15
  · have h0 : ¬t.val = 0 := by omega
    rw [show (dat V c).leavesExact 2 t = owns (c : Thread nD τ) (ms_2 t) fullShare ((dat V c).after 2 t) from by
      unfold Dat.leavesExact; rw [liveAt_2 t ((hcond_1 t).mpr h1)], after_2]
    rw [show (dat V c).leavesExact 3 t = owns (c : Thread nD τ) (ms_3 t) fullShare ((dat V c).after 3 t) from by
      unfold Dat.leavesExact; rw [liveAt_3 t ((hcond_1 t).mpr h1)], after_3]
    rw [outsAt_C V c t h0 h1]
    unfold out_C_2 out_C_3 sout_C_0 sout_C_1; (try dsimp only)
    rw [PhiS_castSucc V c t, PhiS_pos V c _ _ h0]
    iintro ⟨⟨⟨HS0, HS1, Hoth⟩, Hg⟩, Ho, ⟨%d0, H0⟩, ⟨%d1, H1⟩, ⟨%d2, H2⟩, ⟨%d3, H3⟩⟩
    iapply ((kernelRun_C c (grid0.coords t) _ _ _ _ _ _ _ _ _ _ _ _ (fun h => h0 ((hcond_0 t).mp h)) ((hcond_1 t).mpr h1) (iblk V c 0 t) (iblk V c 1 t) _ _).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro; exact View.read_writes_of_cover _ _ _ _ _ (scover_C_0 c _ _ _ _ _ _ _ _ _ _ _ _ _ _ _ _ _ _ _)
        isplitl [HS1]
        · unfold owns; iexists _; isplitr
          swap; · iexact HS1
          ipureintro; exact View.read_writes_of_cover _ _ _ _ _ (scover_C_1 c _ _ _ _ _ _ _ _ _ _ _ _ _ _ _ _ _ _ _)
        iexact Hoth
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover_C_2 c _ _ _ _ _ _ _ _ _ _ _ _ _ _ _ _ _ _ _)
    unfold owns; iexists _; isplitr
    swap; · iexact H3
    ipureintro; exact View.read_writes_of_cover _ _ _ _ _ (cover_C_3 c _ _ _ _ _ _ _ _ _ _ _ _ _ _ _ _ _ _ _)
  · rw [Dat.leavesExact_idle (dat V c) 2 t (idleAt_2 t (fun h => h1 ((hcond_1 t).mp h))) (noFlush_2 t (fun h => h1 ((hcond_1 t).mp h)))]
    rw [Dat.leavesExact_idle (dat V c) 3 t (idleAt_3 t (fun h => h1 ((hcond_1 t).mp h))) (noFlush_3 t (fun h => h1 ((hcond_1 t).mp h)))]
    by_cases h0 : t.val = 0
    · rw [outsAt_A V c t h0 h1]
      unfold sout_A_0 sout_A_1; (try dsimp only)
      rw [PhiS_castSucc V c t, PhiS_zero V c _ _ h0, PhiA_eq]
      iintro ⟨⟨⟨HS0, HS1, Hoth⟩, Hg⟩, Ho, ⟨%d0, H0⟩, ⟨%d1, H1⟩, ⟨%d2, H2⟩, ⟨%d3, H3⟩⟩
      iapply ((kernelRun_A c (grid0.coords t) _ _ _ _ _ _ _ _ _ _ _ _ ((hcond_0 t).mpr h0) (fun h => h1 ((hcond_1 t).mp h)) (iblk V c 0 t) (iblk V c 1 t)).2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover_A_0 c _ _ _ _ _ _ _ _ _ _ _ _ _ _ _ _ _)
          isplitl [HS1]
          · unfold owns; iexists _; isplitr
            swap; · iexact HS1
            ipureintro; exact View.read_writes_of_cover _ _ _ _ _ (scover_A_1 c _ _ _ _ _ _ _ _ _ _ _ _ _ _ _ _ _)
          iexact Hoth
        iexact Hg
      isplitl [Ho]; · iexact Ho
      isplitl [H0]; · iexact H0
      isplitl [H1]; · iexact H1
      isplitl [H2]; · iexists _; iexact H2
      iexists _; iexact H3
    · rw [outsAt_B V c t h0 h1]
      unfold sout_B_0 sout_B_1; (try dsimp only)
      rw [PhiS_castSucc V c t, PhiS_pos V c _ _ h0]
      iintro ⟨⟨⟨HS0, HS1, Hoth⟩, Hg⟩, Ho, ⟨%d0, H0⟩, ⟨%d1, H1⟩, ⟨%d2, H2⟩, ⟨%d3, H3⟩⟩
      iapply ((kernelRun_B c (grid0.coords t) _ _ _ _ _ _ _ _ _ _ _ _ (fun h => h0 ((hcond_0 t).mp h)) (fun h => h1 ((hcond_1 t).mp h)) (iblk V c 0 t) (iblk V c 1 t) _ _).2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover_B_0 c _ _ _ _ _ _ _ _ _ _ _ _ _ _ _ _ _ _ _)
          isplitl [HS1]
          · unfold owns; iexists _; isplitr
            swap; · iexact HS1
            ipureintro; exact View.read_writes_of_cover _ _ _ _ _ (scover_B_1 c _ _ _ _ _ _ _ _ _ _ _ _ _ _ _ _ _ _ _)
          iexact Hoth
        iexact Hg
      isplitl [Ho]; · iexact Ho
      isplitl [H0]; · iexact H0
      isplitl [H1]; · iexact H1
      isplitl [H2]; · iexists _; iexact H2
      iexists _; iexact H3

theorem body_obligation (c : Dev nD) : BodyObligation (dat (F := F) V c) (defs₀ (F := F)) Variants.none () Set.univ := fun t => by
  rw [bigSep_W0, bigSep_W0]
  exact sound_body V c t

/-- What the region is handed is the invariant before the first tile. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last tile the invariant gives it back, the accumulators' contents forgotten. -/
theorem hout (c : Dev nD) : (dat V c).Φ (Fin.last cfg0.N) ⊢ Pipeline.ΦA spec0 c := by
  have ht : (Fin.last cfg0.N).val ≠ 0 := by rw [Fin.val_last]; have : cfg0.N = 16 := N_0; omega
  rw [show (dat V c).Φ (Fin.last cfg0.N) = PhiS V c (Fin.last cfg0.N).val (Nat.le_of_lt_succ (Fin.last cfg0.N).isLt) from rfl, PhiS_pos V c _ _ ht, PhiA_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end Cert.Kernel.Reg0

end
-- ==== Proof.K.R1Runs.lean ====
/-
  Region 1 (the per-batch, per-label sums of the hinge terms, accumulated over the 32 tiles of the point axis): what
  its three control cases share. The body resets the accumulator at the first tile, adds the tile's partial sums at
  every tile (each point's hinge term is taken from its distance to the center of its own label, read off the
  centers' block), and copies the accumulator to the result block at the last tile only. Here: a window's block read
  off the array the region is entered with, the two branch conditions as facts about the tile's number, where the
  result window is idle, and the names of the staging and scratch memrefs.
-/
import proofs.«420528_j52673478918521_3_alg».proof.Proof.Gen.Kernel.Launch
import proofs.«420528_j52673478918521_3_alg».proof.Proof.Gen.Kernel.Skeleton
import proofs.«420528_j52673478918521_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The embeddings' staging buffer holds the tile's block at every tile. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The labels' staging buffer holds the tile's block at every tile. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The centers' staging buffer holds the centers at every tile: they are brought in at the first tile, and since
    their block index never moves, what the body leaves in place there is still the block at every later tile. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions -/

/-- "This is the first tile": the reset branch's condition, from the tile's coordinate. -/
abbrev cond_0 (i : grid1.Coords) : Prop := (Scalar.cmpi .ne (Scalar.extui (Scalar.cmpi .eq (BitVec.ofNat 32 (i 0).val) 0#32)) 0#32) = 1#1
theorem hcond_0 : ∀ t : Fin cfg1.N, cond_0 (grid1.coords t) ↔ t.val = 0 :=
  (by decide +kernel : ∀ t : Fin grid1.N, cond_0 (grid1.coords t) ↔ t.val = 0)

/-- "This is the last tile": the write-out branch's condition. -/
abbrev cond_1 (i : grid1.Coords) : Prop := k1_cond2 i = 1#1
theorem hcond_1 : ∀ t : Fin cfg1.N, cond_1 (grid1.coords t) ↔ t.val = 31 :=
  (by decide +kernel : ∀ t : Fin grid1.N, cond_1 (grid1.coords t) ↔ t.val = 31)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
/-- Before the last tile nothing is stored into the result block, and it is not written back. -/
theorem idleAt_3 : ∀ t : Fin cfg1.N, ¬cond_1 (grid1.coords t) → cfg1.idle 3 (grid1.coords t) = true := by decide +kernel
theorem noFlush_3 : ∀ t : Fin cfg1.N, ¬cond_1 (grid1.coords t) → (cfg1.win 3).flush t = false := by decide +kernel
/-- At the last tile the result block is stored. -/
theorem liveAt_3 : ∀ t : Fin cfg1.N, cond_1 (grid1.coords t) → cfg1.idle 3 (grid1.coords t) = false := by decide +kernel

/-! ## The memrefs the body is called with -/

abbrev VO_3 : View sig .tc .vmem S8x33 .f32 := (Memref.whole cc1_stg3_0 : Memref sig .tc .vmem S8x33 .f32).view
abbrev ms_0 (t : Fin cfg1.N) : Memref sig .tc .vmem S8x2048x32 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S8x2048 .i32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S8x33x32 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S8x33 .f32 := win1_3.stage (cfg1.slots t 3)
abbrev hs_3 (t : Fin cfg1.N) : (ms_3 t).IsWhole := hstage1_3 ((cfg1.slots t 3).cast nbuf1_3)
/-- The accumulator: a whole scoped buffer of the kernel's own. -/
abbrev scM_0 : Memref sig .tc .vmem S8x33 .f32 := Memref.whole cc1_scratch0
abbrev VS_0 : View sig .tc .vmem S8x33 .f32 := scM_0.view

/-- The scoped buffers of the other region, which this region never touches, each at some contents. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- Nine conjuncts beside a tenth, the ninth split off from the first eight. -/
theorem sep_split_last (P1 P2 P3 P4 P5 P6 P7 P8 PS G : sProp 𝕄) :
    iprop((P1 ∗ P2 ∗ P3 ∗ P4 ∗ P5 ∗ P6 ∗ P7 ∗ P8 ∗ PS) ∗ G) = iprop(iprop(iprop(P1 ∗ P2 ∗ P3 ∗ P4 ∗ P5 ∗ P6 ∗ P7 ∗ P8) ∗ PS) ∗ G) :=
  BI.Entails.antisymm
    (show iprop((P1 ∗ P2 ∗ P3 ∗ P4 ∗ P5 ∗ P6 ∗ P7 ∗ P8 ∗ PS) ∗ G) ⊢ iprop(iprop(iprop(P1 ∗ P2 ∗ P3 ∗ P4 ∗ P5 ∗ P6 ∗ P7 ∗ P8) ∗ PS) ∗ G) from by
      iintro ⟨⟨H1, H2, H3, H4, H5, H6, H7, H8, HS⟩, Hg⟩
      isplitl [H1 H2 H3 H4 H5 H6 H7 H8 HS]
      · isplitl [H1 H2 H3 H4 H5 H6 H7 H8]
        · isplitl [H1]; · iexact H1
          isplitl [H2]; · iexact H2
          isplitl [H3]; · iexact H3
          isplitl [H4]; · iexact H4
          isplitl [H5]; · iexact H5
          isplitl [H6]; · iexact H6
          isplitl [H7]; · iexact H7
          iexact H8
        iexact HS
      iexact Hg)
    (show iprop(iprop(iprop(P1 ∗ P2 ∗ P3 ∗ P4 ∗ P5 ∗ P6 ∗ P7 ∗ P8) ∗ PS) ∗ G) ⊢ iprop((P1 ∗ P2 ∗ P3 ∗ P4 ∗ P5 ∗ P6 ∗ P7 ∗ P8 ∗ PS) ∗ G) from by
      iintro ⟨⟨⟨H1, H2, H3, H4, H5, H6, H7, H8⟩, HS⟩, Hg⟩
      isplitl [H1 H2 H3 H4 H5 H6 H7 H8 HS]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact HS
      iexact Hg)

/-- What the region is handed besides its windows: the other region's scoped buffers, the accumulator at some
    contents, the generator register. -/
theorem PhiA_eq (c : Dev nD) :
    (Pipeline.ΦA spec1 c : sProp 𝕄)
      = iprop(iprop(otherScoped c ∗ (∃ d, owns (c : Thread nD τ) scM_0 fullShare d)) ∗ (∃ r, prngReg c r)) := by
  unfold Pipeline.ΦA otherScoped; rw [scopedRest1_eq]; simp only [scM_0, owns_whole]
  exact sep_split_last _ _ _ _ _ _ _ _ _ _

end Cert.Kernel.Reg1

end
-- ==== Proof.K.R1RunA.lean ====
/-
  Region 1 at its FIRST tile: the body resets the accumulator, loads the tile's embeddings and labels and the
  centers, and stores the accumulator as "what it held plus the tile's partial sums of the hinge terms". The run is
  found by symbolic execution of the body; its witness is the list of pieces the accumulator ends with.
-/
import proofs.«420528_j52673478918521_3_alg».proof.Proof.K.R1Runs

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_A (c : Dev nD) (i : grid1.Coords) (arg1 : Memref sig .tc .vmem S8x2048x32 .f32) (harg1 : arg1.IsWhole) (arg2 : Memref sig .tc .vmem S8x2048 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33 .f32) (harg5 : arg5.IsWhole) (hc0 : cond_0 i) (hc1 : ¬cond_1 i)
    (x0 : Vec F S8x2048x32 .f32) (x1 : Vec F S8x2048 .i32) (x2 : Vec F S8x33x32 .f32) :
    { LS0 : List (View.Piece (Elt F) S8x33 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg5.view.loc (c : Thread nD τ) ↦[arg5.view.set]{fullShare} arg5.view.writes (Elt F) f LS0)) -∗ K ⟨⟩))
          ⊢ wp frame (wpE (defs₀ (F := F)) Variants.none c none) E (cc1__hinge_kernel i arg1 harg1 arg2 harg2 arg3 harg3 arg4 harg4 arg5 harg5) K } := by
  refine ⟨?_, fun E K => ?run⟩
  case run =>
    simp only [cc1__hinge_kernel_eq_skeleton]; unfold cc1__hinge_kernel_skel
    simp only [k1_part1_eq_skeleton]; unfold k1_part1_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Reg1

end
-- ==== Proof.K.R1RunB.lean ====
/-
  Region 1 at a MIDDLE tile (neither first nor last): no reset and no write-out; the accumulator, entered at what
  the tile before left, is stored back as that plus this tile's partial sums of the hinge terms.
-/
import proofs.«420528_j52673478918521_3_alg».proof.Proof.K.R1RunA

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_B (c : Dev nD) (i : grid1.Coords) (arg1 : Memref sig .tc .vmem S8x2048x32 .f32) (harg1 : arg1.IsWhole) (arg2 : Memref sig .tc .vmem S8x2048 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33 .f32) (harg5 : arg5.IsWhole) (hc0 : ¬cond_0 i) (hc1 : ¬cond_1 i)
    (x0 : Vec F S8x2048x32 .f32) (x1 : Vec F S8x2048 .i32) (x2 : Vec F S8x33x32 .f32) (xs0 : Vec F S8x33 .f32) :
    { LS0 : List (View.Piece (Elt F) S8x33 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg5.view.loc (c : Thread nD τ) ↦[arg5.view.set]{fullShare} arg5.view.writes (Elt F) f LS0)) -∗ K ⟨⟩))
          ⊢ wp frame (wpE (defs₀ (F := F)) Variants.none c none) E (cc1__hinge_kernel i arg1 harg1 arg2 harg2 arg3 harg3 arg4 harg4 arg5 harg5) K } := by
  refine ⟨?_, fun E K => ?run⟩
  case run =>
    simp only [cc1__hinge_kernel_eq_skeleton]; unfold cc1__hinge_kernel_skel
    simp only [k1_part1_eq_skeleton]; unfold k1_part1_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2
    obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Reg1

end
-- ==== Proof.K.R1RunC.lean ====
/-
  Region 1 at its LAST tile: the accumulator is updated as at a middle tile and then copied whole into the result
  block, which the pipeline writes back after this tile.
-/
import proofs.«420528_j52673478918521_3_alg».proof.Proof.K.R1RunB

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_C (c : Dev nD) (i : grid1.Coords) (arg1 : Memref sig .tc .vmem S8x2048x32 .f32) (harg1 : arg1.IsWhole) (arg2 : Memref sig .tc .vmem S8x2048 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33 .f32) (harg5 : arg5.IsWhole) (hc0 : ¬cond_0 i) (hc1 : cond_1 i)
    (x0 : Vec F S8x2048x32 .f32) (x1 : Vec F S8x2048 .i32) (x2 : Vec F S8x33x32 .f32) (xs0 : Vec F S8x33 .f32) :
    Σ' (L3 : List (View.Piece (Elt F) S8x33 .f32)), { LS0 : List (View.Piece (Elt F) S8x33 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1__hinge_kernel i arg1 harg1 arg2 harg2 arg3 harg3 arg4 harg4 arg5 harg5) K } := by
  refine ⟨?_, ?_, fun E K => ?run⟩
  case run =>
    simp only [cc1__hinge_kernel_eq_skeleton]; unfold cc1__hinge_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2
    obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Reg1

end
-- ==== Proof.K.R1Frame.lean ====
/-
  Region 1's proof data. After tile n the accumulator holds the running per-label sums of the hinge terms of tiles
  0..n (what the case's run leaves, the case chosen by the tile's number); the result block is stored at the last
  tile only. The invariant between tiles keeps the accumulator at those contents; the body obligation is the case's
  run at every tile.
-/
import proofs.«420528_j52673478918521_3_alg».proof.Proof.K.R1RunC

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover_A_0 (c : Dev nD) (i : grid1.Coords) (arg1 : Memref sig .tc .vmem S8x2048x32 .f32) (harg1 : arg1.IsWhole) (arg2 : Memref sig .tc .vmem S8x2048 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33 .f32) (harg5 : arg5.IsWhole) (hc0 : cond_0 i) (hc1 : ¬cond_1 i)
    (x0 : Vec F S8x2048x32 .f32) (x1 : Vec F S8x2048 .i32) (x2 : Vec F S8x33x32 .f32) (y : S8x33.Idx) :
    ∃ pc ∈ (kernelRun_A c i arg1 harg1 arg2 harg2 arg3 harg3 arg4 harg4 arg5 harg5 hc0 hc1 x0 x1 x2).1, y ∈ pc.1.set :=
  View.cover_of_tiledL (kernelRun_A c i arg1 harg1 arg2 harg2 arg3 harg3 arg4 harg4 arg5 harg5 hc0 hc1 x0 x1 x2).1 S8x33.size (by sl_kernel_rfl) y
/-- The accumulator after the first tile. -/
def sout_A_0 (c : Dev nD) (i : grid1.Coords) (arg1 : Memref sig .tc .vmem S8x2048x32 .f32) (harg1 : arg1.IsWhole) (arg2 : Memref sig .tc .vmem S8x2048 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33 .f32) (harg5 : arg5.IsWhole) (hc0 : cond_0 i) (hc1 : ¬cond_1 i)
    (x0 : Vec F S8x2048x32 .f32) (x1 : Vec F S8x2048 .i32) (x2 : Vec F S8x33x32 .f32) : Vec F S8x33 .f32 :=
  VS_0.read (Elt F) (VS_0.writes (Elt F) VS_0.junk (kernelRun_A c i arg1 harg1 arg2 harg2 arg3 harg3 arg4 harg4 arg5 harg5 hc0 hc1 x0 x1 x2).1)

theorem scover_B_0 (c : Dev nD) (i : grid1.Coords) (arg1 : Memref sig .tc .vmem S8x2048x32 .f32) (harg1 : arg1.IsWhole) (arg2 : Memref sig .tc .vmem S8x2048 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33 .f32) (harg5 : arg5.IsWhole) (hc0 : ¬cond_0 i) (hc1 : ¬cond_1 i)
    (x0 : Vec F S8x2048x32 .f32) (x1 : Vec F S8x2048 .i32) (x2 : Vec F S8x33x32 .f32) (xs0 : Vec F S8x33 .f32) (y : S8x33.Idx) :
    ∃ pc ∈ (kernelRun_B c i arg1 harg1 arg2 harg2 arg3 harg3 arg4 harg4 arg5 harg5 hc0 hc1 x0 x1 x2 xs0).1, y ∈ pc.1.set :=
  View.cover_of_tiledL (kernelRun_B c i arg1 harg1 arg2 harg2 arg3 harg3 arg4 harg4 arg5 harg5 hc0 hc1 x0 x1 x2 xs0).1 S8x33.size (by sl_kernel_rfl) y
/-- The accumulator after a middle tile, over what the tile before left. -/
def sout_B_0 (c : Dev nD) (i : grid1.Coords) (arg1 : Memref sig .tc .vmem S8x2048x32 .f32) (harg1 : arg1.IsWhole) (arg2 : Memref sig .tc .vmem S8x2048 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33 .f32) (harg5 : arg5.IsWhole) (hc0 : ¬cond_0 i) (hc1 : ¬cond_1 i)
    (x0 : Vec F S8x2048x32 .f32) (x1 : Vec F S8x2048 .i32) (x2 : Vec F S8x33x32 .f32) (xs0 : Vec F S8x33 .f32) : Vec F S8x33 .f32 :=
  VS_0.read (Elt F) (VS_0.writes (Elt F) VS_0.junk (kernelRun_B c i arg1 harg1 arg2 harg2 arg3 harg3 arg4 harg4 arg5 harg5 hc0 hc1 x0 x1 x2 xs0).1)

theorem cover_C_3 (c : Dev nD) (i : grid1.Coords) (arg1 : Memref sig .tc .vmem S8x2048x32 .f32) (harg1 : arg1.IsWhole) (arg2 : Memref sig .tc .vmem S8x2048 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33 .f32) (harg5 : arg5.IsWhole) (hc0 : ¬cond_0 i) (hc1 : cond_1 i)
    (x0 : Vec F S8x2048x32 .f32) (x1 : Vec F S8x2048 .i32) (x2 : Vec F S8x33x32 .f32) (xs0 : Vec F S8x33 .f32) (y : S8x33.Idx) :
    ∃ pc ∈ (kernelRun_C c i arg1 harg1 arg2 harg2 arg3 harg3 arg4 harg4 arg5 harg5 hc0 hc1 x0 x1 x2 xs0).1, y ∈ pc.1.set :=
  View.cover_of_tiledL (kernelRun_C c i arg1 harg1 arg2 harg2 arg3 harg3 arg4 harg4 arg5 harg5 hc0 hc1 x0 x1 x2 xs0).1 S8x33.size (by sl_kernel_rfl) y
theorem scover_C_0 (c : Dev nD) (i : grid1.Coords) (arg1 : Memref sig .tc .vmem S8x2048x32 .f32) (harg1 : arg1.IsWhole) (arg2 : Memref sig .tc .vmem S8x2048 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33 .f32) (harg5 : arg5.IsWhole) (hc0 : ¬cond_0 i) (hc1 : cond_1 i)
    (x0 : Vec F S8x2048x32 .f32) (x1 : Vec F S8x2048 .i32) (x2 : Vec F S8x33x32 .f32) (xs0 : Vec F S8x33 .f32) (y : S8x33.Idx) :
    ∃ pc ∈ (kernelRun_C c i arg1 harg1 arg2 harg2 arg3 harg3 arg4 harg4 arg5 harg5 hc0 hc1 x0 x1 x2 xs0).2.1, y ∈ pc.1.set :=
  View.cover_of_tiledL (kernelRun_C c i arg1 harg1 arg2 harg2 arg3 harg3 arg4 harg4 arg5 harg5 hc0 hc1 x0 x1 x2 xs0).2.1 S8x33.size (by sl_kernel_rfl) y
/-- The result block as the last tile stores it. -/
def out_C_3 (c : Dev nD) (i : grid1.Coords) (arg1 : Memref sig .tc .vmem S8x2048x32 .f32) (harg1 : arg1.IsWhole) (arg2 : Memref sig .tc .vmem S8x2048 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33 .f32) (harg5 : arg5.IsWhole) (hc0 : ¬cond_0 i) (hc1 : cond_1 i)
    (x0 : Vec F S8x2048x32 .f32) (x1 : Vec F S8x2048 .i32) (x2 : Vec F S8x33x32 .f32) (xs0 : Vec F S8x33 .f32) : Vec F S8x33 .f32 :=
  VO_3.read (Elt F) (VO_3.writes (Elt F) VO_3.junk (kernelRun_C c i arg1 harg1 arg2 harg2 arg3 harg3 arg4 harg4 arg5 harg5 hc0 hc1 x0 x1 x2 xs0).1)
/-- The accumulator after the last tile. -/
def sout_C_0 (c : Dev nD) (i : grid1.Coords) (arg1 : Memref sig .tc .vmem S8x2048x32 .f32) (harg1 : arg1.IsWhole) (arg2 : Memref sig .tc .vmem S8x2048 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33 .f32) (harg5 : arg5.IsWhole) (hc0 : ¬cond_0 i) (hc1 : cond_1 i)
    (x0 : Vec F S8x2048x32 .f32) (x1 : Vec F S8x2048 .i32) (x2 : Vec F S8x33x32 .f32) (xs0 : Vec F S8x33 .f32) : Vec F S8x33 .f32 :=
  VS_0.read (Elt F) (VS_0.writes (Elt F) VS_0.junk (kernelRun_C c i arg1 harg1 arg2 harg2 arg3 harg3 arg4 harg4 arg5 harg5 hc0 hc1 x0 x1 x2 xs0).2.1)

/-- Placeholder for the result block at a tile that stores nothing into it (never consulted: the block is neither
    written back there nor read later). -/
def idle_3 : Vec F S8x33 .f32 := VO_3.read (Elt F) (VO_3.writes (Elt F) VO_3.junk [])

/-! ## The accumulation, tile by tile -/

/-- After tile `n`: (the result block, the accumulator). -/
def outsAt (c : Dev nD) : (n : ℕ) → n < cfg1.N → Vec F S8x33 .f32 × Vec F S8x33 .f32
  | 0, hn => (idle_3,
      sout_A_0 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM_0 (Memref.isWhole_whole _) ((hcond_0 ⟨0, hn⟩).mpr rfl) (fun h => absurd ((hcond_1 ⟨0, hn⟩).mp h) (show ¬ (0 : ℕ) = 31 by decide)) (iblk V c 0 ⟨0, hn⟩) (iblk V c 1 ⟨0, hn⟩) (iblk V c 2 ⟨0, hn⟩))
  | n + 1, hn =>
    if h1 : n + 1 = 31 then
      (out_C_3 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) (fun h => absurd ((hcond_0 ⟨n + 1, hn⟩).mp h) (Nat.succ_ne_zero n)) ((hcond_1 ⟨n + 1, hn⟩).mpr h1) (iblk V c 0 ⟨n + 1, hn⟩) (iblk V c 1 ⟨n + 1, hn⟩) (iblk V c 2 ⟨n + 1, hn⟩) (outsAt c n (Nat.lt_of_succ_lt hn)).2,
       sout_C_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) (fun h => absurd ((hcond_0 ⟨n + 1, hn⟩).mp h) (Nat.succ_ne_zero n)) ((hcond_1 ⟨n + 1, hn⟩).mpr h1) (iblk V c 0 ⟨n + 1, hn⟩) (iblk V c 1 ⟨n + 1, hn⟩) (iblk V c 2 ⟨n + 1, hn⟩) (outsAt c n (Nat.lt_of_succ_lt hn)).2)
    else
      (idle_3,
       sout_B_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) (fun h => absurd ((hcond_0 ⟨n + 1, hn⟩).mp h) (Nat.succ_ne_zero n)) (fun h => h1 ((hcond_1 ⟨n + 1, hn⟩).mp h)) (iblk V c 0 ⟨n + 1, hn⟩) (iblk V c 1 ⟨n + 1, hn⟩) (iblk V c 2 ⟨n + 1, hn⟩) (outsAt c n (Nat.lt_of_succ_lt hn)).2)

/-- The tile before `t` (for `t` not the first). -/
abbrev prevLt (t : Fin cfg1.N) : t.val - 1 < cfg1.N := Nat.lt_of_le_of_lt (Nat.sub_le _ _) t.isLt

theorem outsAt_A (c : Dev nD) (t : Fin cfg1.N) (h0 : t.val = 0) (h1 : ¬t.val = 31) :
    outsAt V c t.val t.isLt = (idle_3,
      sout_A_0 c (grid1.coords t) (ms_0 t) (hs_0 t) (ms_1 t) (hs_1 t) (ms_2 t) (hs_2 t) (ms_3 t) (hs_3 t) scM_0 (Memref.isWhole_whole _) ((hcond_0 t).mpr h0) (fun h => h1 ((hcond_1 t).mp h)) (iblk V c 0 t) (iblk V c 1 t) (iblk V c 2 t)) := by
  obtain ⟨n, hn⟩ := t
  cases n with
  | zero => rfl
  | succ n => exact absurd h0 (Nat.succ_ne_zero n)

theorem outsAt_B (c : Dev nD) (t : Fin cfg1.N) (h0 : ¬t.val = 0) (h1 : ¬t.val = 31) :
    outsAt V c t.val t.isLt = (idle_3,
      sout_B_0 c (grid1.coords t) (ms_0 t) (hs_0 t) (ms_1 t) (hs_1 t) (ms_2 t) (hs_2 t) (ms_3 t) (hs_3 t) scM_0 (Memref.isWhole_whole _) (fun h => h0 ((hcond_0 t).mp h)) (fun h => h1 ((hcond_1 t).mp h)) (iblk V c 0 t) (iblk V c 1 t) (iblk V c 2 t) (outsAt V c (t.val - 1) (prevLt t)).2) := by
  obtain ⟨n, hn⟩ := t
  cases n with
  | zero => exact absurd rfl h0
  | succ n => exact (dif_neg h1).trans rfl

theorem outsAt_C (c : Dev nD) (t : Fin cfg1.N) (h0 : ¬t.val = 0) (h1 : t.val = 31) :
    outsAt V c t.val t.isLt =
      (out_C_3 c (grid1.coords t) (ms_0 t) (hs_0 t) (ms_1 t) (hs_1 t) (ms_2 t) (hs_2 t) (ms_3 t) (hs_3 t) scM_0 (Memref.isWhole_whole _) (fun h => h0 ((hcond_0 t).mp h)) ((hcond_1 t).mpr h1) (iblk V c 0 t) (iblk V c 1 t) (iblk V c 2 t) (outsAt V c (t.val - 1) (prevLt t)).2,
       sout_C_0 c (grid1.coords t) (ms_0 t) (hs_0 t) (ms_1 t) (hs_1 t) (ms_2 t) (hs_2 t) (ms_3 t) (hs_3 t) scM_0 (Memref.isWhole_whole _) (fun h => h0 ((hcond_0 t).mp h)) ((hcond_1 t).mpr h1) (iblk V c 0 t) (iblk V c 1 t) (iblk V c 2 t) (outsAt V c (t.val - 1) (prevLt t)).2) := by
  obtain ⟨n, hn⟩ := t
  cases n with
  | zero => exact absurd rfl h0
  | succ n => exact (dif_pos h1).trans rfl

/-! ## The invariant between tiles -/

/-- Before tile `n`: at the first tile whatever the region was handed; afterwards the accumulator at what tile
    `n - 1` left, the other region's scoped buffers and the generator register riding along. -/
def PhiS (c : Dev nD) : (n : ℕ) → n ≤ cfg1.N → sProp 𝕄
  | 0, _ => Pipeline.ΦA spec1 c
  | n + 1, hn => iprop(iprop(otherScoped c ∗ owns (c : Thread nD τ) scM_0 fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(otherScoped c ∗ owns (c : Thread nD τ) scM_0 fullShare ((outsAt V c n hn).2)) ∗ (∃ r, prngReg c r)) := rfl
theorem PhiS_pos (c : Dev nD) (n : ℕ) (h : n ≤ cfg1.N) (hz : n ≠ 0) :
    PhiS V c n h = iprop(iprop(otherScoped c ∗ owns (c : Thread nD τ) scM_0 fullShare ((outsAt V c (n - 1) (by omega)).2)) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  have hN : t.val < 32 := lt_of_lt_of_eq t.isLt (show cfg1.N = 32 from N_1)
  by_cases h1 : t.val = 31
  · have h0 : ¬t.val = 0 := by omega
    rw [show (dat V c).leavesExact 3 t = owns (c : Thread nD τ) (ms_3 t) fullShare ((dat V c).after 3 t) from by
      unfold Dat.leavesExact; rw [liveAt_3 t ((hcond_1 t).mpr h1)], after_3]
    rw [outsAt_C V c t h0 h1]
    unfold out_C_3 sout_C_0; (try dsimp only)
    rw [PhiS_castSucc V c t, PhiS_pos V c _ _ h0]
    iintro ⟨⟨⟨Hoth, HS0⟩, Hg⟩, Ho, ⟨%d0, H0⟩, ⟨%d1, H1⟩, ⟨%d2, H2⟩, ⟨%d3, H3⟩⟩
    iapply ((kernelRun_C c (grid1.coords t) _ _ _ _ _ _ _ _ _ _ (fun h => h0 ((hcond_0 t).mp h)) ((hcond_1 t).mpr h1) (iblk V c 0 t) (iblk V c 1 t) (iblk V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hoth Hg]
    · isplitl [HS0 Hoth]
      · isplitl [Hoth]; · iexact Hoth
        unfold owns; iexists _; isplitr
        swap; · iexact HS0
        ipureintro; exact View.read_writes_of_cover _ _ _ _ _ (scover_C_0 c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover_C_3 c _ _ _ _ _ _ _ _ _ _ _ _ _ _ _ _ _)
  · rw [Dat.leavesExact_idle (dat V c) 3 t (idleAt_3 t (fun h => h1 ((hcond_1 t).mp h))) (noFlush_3 t (fun h => h1 ((hcond_1 t).mp h)))]
    by_cases h0 : t.val = 0
    · rw [outsAt_A V c t h0 h1]
      unfold sout_A_0; (try dsimp only)
      rw [PhiS_castSucc V c t, PhiS_zero V c _ _ h0, PhiA_eq]
      iintro ⟨⟨⟨Hoth, HS0⟩, Hg⟩, Ho, ⟨%d0, H0⟩, ⟨%d1, H1⟩, ⟨%d2, H2⟩, ⟨%d3, H3⟩⟩
      iapply ((kernelRun_A c (grid1.coords t) _ _ _ _ _ _ _ _ _ _ ((hcond_0 t).mpr h0) (fun h => h1 ((hcond_1 t).mp h)) (iblk V c 0 t) (iblk V c 1 t) (iblk V c 2 t)).2 Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [Hoth]; · iexact Hoth
          unfold owns; iexists _; isplitr
          swap; · iexact HS0
          ipureintro; exact View.read_writes_of_cover _ _ _ _ _ (scover_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [outsAt_B V c t h0 h1]
      unfold sout_B_0; (try dsimp only)
      rw [PhiS_castSucc V c t, PhiS_pos V c _ _ h0]
      iintro ⟨⟨⟨Hoth, HS0⟩, Hg⟩, Ho, ⟨%d0, H0⟩, ⟨%d1, H1⟩, ⟨%d2, H2⟩, ⟨%d3, H3⟩⟩
      iapply ((kernelRun_B c (grid1.coords t) _ _ _ _ _ _ _ _ _ _ (fun h => h0 ((hcond_0 t).mp h)) (fun h => h1 ((hcond_1 t).mp h)) (iblk V c 0 t) (iblk V c 1 t) (iblk V c 2 t) _).2 Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [Hoth]; · iexact Hoth
          unfold owns; iexists _; isplitr
          swap; · iexact HS0
          ipureintro; exact View.read_writes_of_cover _ _ _ _ _ (scover_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation (c : Dev nD) : BodyObligation (dat (F := F) V c) (defs₀ (F := F)) Variants.none () Set.univ := fun t => by
  rw [bigSep_W1, bigSep_W1]
  exact sound_body V c t

/-- What the region is handed is the invariant before the first tile. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last tile the invariant gives it back, the accumulator's contents forgotten. -/
theorem hout (c : Dev nD) : (dat V c).Φ (Fin.last cfg1.N) ⊢ Pipeline.ΦA spec1 c := by
  have ht : (Fin.last cfg1.N).val ≠ 0 := by rw [Fin.val_last]; have : cfg1.N = 32 := N_1; omega
  rw [show (dat V c).Φ (Fin.last cfg1.N) = PhiS V c (Fin.last cfg1.N).val (Nat.le_of_lt_succ (Fin.last cfg1.N).isLt) from rfl, PhiS_pos V c _ _ ht, PhiA_eq]
  iintro ⟨⟨Hoth, HS0⟩, Hg⟩
  isplitl [HS0 Hoth]
  · isplitl [Hoth]; · iexact Hoth
    iexists _; iexact HS0
  iexact Hg

end Cert.Kernel.Reg1

end
-- ==== Proof.K.RunCond.lean ====
/-
  The run of the whole program from the two regions' segment records. Between @main's items every unscoped buffer
  of the core is held at a valuation: the launch contents, then what region 0 leaves in its two result arrays, the
  host operations up to region 1 applied, what region 1 leaves in its result array, and the remaining host operations
  applied. At the end the result scalar and the two arguments are read off the last valuation.
-/
import proofs.«420528_j52673478918521_3_alg».proof.Proof.Gen.Kernel.Regions

set_option maxRecDepth 1072

noncomputable section

namespace Cert.Kernel.RunCond

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The run of @main given the two regions' segment records: as the conditional frame, with the result buffer's final
    contents (the last valuation at `main_v80`) kept in the post beside the unchanged arguments. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      r.2.mem ((c.tc : Thread nD τ).loc main_v80) = V10 m outs c main_v80
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨hpre0 c, hpost0 c, hpre1 c, hpost1 c, .rfl, .rfl, .rfl, .rfl, .rfl, .rfl, sep_mono .rfl (hE2 c)⟩)
    (hinit := ?_) (QY := fun c s => s.mem ((c.tc : Thread nD τ).loc main_v80) = V10 m outs c main_v80 ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact ⟨h (Proc.devRef .tc main_v80) (Finset.mem_filter.mpr ⟨StableHlo.devRef_mem_tcRefs main_v80, by decide⟩), (h (Proc.devRef .tc main_arg0) (Finset.mem_filter.mpr ⟨StableHlo.devRef_mem_tcRefs main_arg0, by decide⟩)).trans (V10_main_arg0 m outs c),
        (h (Proc.devRef .tc main_arg1) (Finset.mem_filter.mpr ⟨StableHlo.devRef_mem_tcRefs main_arg1, by decide⟩)).trans (V10_main_arg1 m outs c)⟩
    · iexact HSI

end Cert.Kernel.RunCond

end
-- ==== Proof.K.Run.lean ====
/-
  The two regions put together. Region 0 is entered with the launch memory and leaves the per-label segment sums
  and counts in its two result arrays; the host operations between the regions make the centers; region 1 is
  entered with those and leaves the per-label hinge sums in its result array; the remaining host operations make
  the scalar loss. The run: every weakly fair execution terminates, the result buffer ends at the last valuation's
  contents, the arguments end unchanged.
-/
import proofs.«420528_j52673478918521_3_alg».proof.Proof.K.R0Frame
import proofs.«420528_j52673478918521_3_alg».proof.Proof.K.R1Frame
import proofs.«420528_j52673478918521_3_alg».proof.Proof.K.RunCond
import Idealize.ShloMosaic.Lib.Pipeline.FrameSuffix
import Idealize.ShloMosaic.Lib.Pipeline.RegionsLoop

set_option maxRecDepth 16384

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between @main's items -/

/-- Region 0's entry contents: the launch memory. -/
abbrev Vr0 : (c : Dev nD) → (b : Ref sig .tc) → Buf (Elt F) ((c : Thread nD τ).loc b) := fun c b => V0 m c b

/-- After region 0: its arrays at what the pipeline wrote back, every other buffer as launched. -/
def W1 (c : Dev nD) : Valuation τ sig (Elt F) :=
  Pipeline.withArrays spec0 c (V0 m c) fun w => (Reg0.dat (Vr0 m) c).arrAt w cfg0.N

/-- What region 0 leaves, as the family the valuations between the items are written over. -/
def outsA : Outs (F := F) := fun _ r c => W1 m c r

/-- Region 1's entry contents: the host operations between the regions applied. -/
abbrev Vr2 : (c : Dev nD) → (b : Ref sig .tc) → Buf (Elt F) ((c : Thread nD τ).loc b) := fun c b => V2 m (outsA m) c b

/-- After region 1: its arrays at what the pipeline wrote back, every other buffer as entered. -/
def W3 (c : Dev nD) : Valuation τ sig (Elt F) :=
  Pipeline.withArrays spec1 c (V2 m (outsA m) c) fun w => (Reg1.dat (Vr2 m) c).arrAt w cfg1.N

/-- What both regions leave: region 1's result is read at item 3, region 0's at item 1. -/
def outs : Outs (F := F) := fun J r c => if J = 3 then W3 m c r else W1 m c r

theorem outs_one (r : Ref sig .tc) (c : Dev nD) : outs m 1 r c = W1 m c r := rfl
theorem outs_three (r : Ref sig .tc) (c : Dev nD) : outs m 3 r c = W3 m c r := rfl
theorem V1_outs (c : Dev nD) : V1 m (outs m) c = V1 m (outsA m) c := rfl
theorem V2_outs (c : Dev nD) : V2 m (outs m) c = V2 m (outsA m) c := rfl

/-- Region 0's result arrays after it: the write-backs folded. -/
theorem outs_v0_0 (c : Dev nD) : outs m 1 main_v0_0 c = (Reg0.dat (Vr0 m) c).arrAt 2 cfg0.N := by
  show W1 m c (Proc.devRef .tc (Pipeline.arrRef spec0 2)) = _
  unfold W1; exact Pipeline.withArrays_arr spec0 launch0.win.arr_inj c _ _ 2
theorem outs_v0_1 (c : Dev nD) : outs m 1 main_v0_1 c = (Reg0.dat (Vr0 m) c).arrAt 3 cfg0.N := by
  show W1 m c (Proc.devRef .tc (Pipeline.arrRef spec0 3)) = _
  unfold W1; exact Pipeline.withArrays_arr spec0 launch0.win.arr_inj c _ _ 3
/-- Region 1's result array after it. -/
theorem outs_v13 (c : Dev nD) : outs m 3 main_v13 c = (Reg1.dat (Vr2 m) c).arrAt 3 cfg1.N := by
  show W3 m c (Proc.devRef .tc (Pipeline.arrRef spec1 3)) = _
  unfold W3; exact Pipeline.withArrays_arr spec1 launch1.win.arr_inj c _ _ 3

/-- At region 0's exit each of its arrays holds what the pipeline leaves, -/
theorem hF0 (c : Dev nD) (w : Fin cfg0.W) : (Reg0.dat (Vr0 m) c).arrAt w cfg0.N = V1 m (outs m) c (Pipeline.arrRef spec0 w) :=
  match w with
  | ⟨0, _⟩ => (((Reg0.dat (Vr0 m) c).arrAt_in 0 rfl _).trans (Reg0.A_eq (Vr0 m) c 0)).trans (V1_of m (outs m) c main_arg0 (by decide)).symm
  | ⟨1, _⟩ => (((Reg0.dat (Vr0 m) c).arrAt_in 1 rfl _).trans (Reg0.A_eq (Vr0 m) c 1)).trans (V1_of m (outs m) c main_arg1 (by decide)).symm
  | ⟨2, _⟩ => by
      show _ = V1 m (outs m) c main_v0_0
      simp only [V1, Function.update_of_ne (StableHlo.devRef_ne_of_ne (by decide) : (Proc.devRef .tc main_v0_0 : DevRef τ sig) ≠ Proc.devRef .tc main_v0_1), Function.update_self]
      exact (outs_v0_0 m c).symm
  | ⟨3, _⟩ => by
      show _ = V1 m (outs m) c main_v0_1
      simp only [V1, Function.update_self]
      exact (outs_v0_1 m c).symm
/-- and every other buffer what it held at entry. -/
theorem hrest0 (c : Dev nD) : ∀ b, b ∉ Finset.univ.image (Pipeline.arrRef spec0) → V1 m (outs m) c b = Vr0 m c b :=
  fun b hb => V1_of m (outs m) c b (by
    intro h
    rcases List.mem_cons.mp h with rfl | h
    · exact hb (Finset.mem_image.mpr ⟨2, Finset.mem_univ _, rfl⟩)
    · rcases List.mem_cons.mp h with rfl | h
      · exact hb (Finset.mem_image.mpr ⟨3, Finset.mem_univ _, rfl⟩)
      · exact absurd h (List.not_mem_nil))

theorem hF1 (c : Dev nD) (w : Fin cfg1.W) : (Reg1.dat (Vr2 m) c).arrAt w cfg1.N = V3 m (outs m) c (Pipeline.arrRef spec1 w) :=
  match w with
  | ⟨0, _⟩ => (((Reg1.dat (Vr2 m) c).arrAt_in 0 rfl _).trans (Reg1.A_eq (Vr2 m) c 0)).trans (V3_of m (outs m) c main_arg0 (by decide)).symm
  | ⟨1, _⟩ => (((Reg1.dat (Vr2 m) c).arrAt_in 1 rfl _).trans (Reg1.A_eq (Vr2 m) c 1)).trans (V3_of m (outs m) c main_arg1 (by decide)).symm
  | ⟨2, _⟩ => (((Reg1.dat (Vr2 m) c).arrAt_in 2 rfl _).trans (Reg1.A_eq (Vr2 m) c 2)).trans (V3_of m (outs m) c main_v5 (by decide)).symm
  | ⟨3, _⟩ => by
      show _ = V3 m (outs m) c main_v13
      simp only [V3, Function.update_self]
      exact (outs_v13 m c).symm
theorem hrest1 (c : Dev nD) : ∀ b, b ∉ Finset.univ.image (Pipeline.arrRef spec1) → V3 m (outs m) c b = Vr2 m c b :=
  fun b hb => V3_of m (outs m) c b (by
    intro h
    rcases List.mem_cons.mp h with rfl | h
    · exact hb (Finset.mem_image.mpr ⟨3, Finset.mem_univ _, rfl⟩)
    · exact absurd h (List.not_mem_nil))

/-! ## The proof data family and what rides beside the buffers -/

def pdats : (p : Fin 2) → (c : Dev nD) → Dat τ (Elt F) Unit ℕ (UR sig nD τ) ℕ (cfgs p) c
  | ⟨0, _⟩ => fun c => Reg0.dat (Vr0 m) c
  | ⟨1, _⟩ => fun c => Reg1.dat (Vr2 m) c
abbrev 𝒱₀ : Variants := Variants.none
abbrev L : GSem nD τ sig → Finset Unit := fun _ => ∅
abbrev lv : GSem nD τ sig → Unit → ℕ := fun _ _ => 0
/-- Beside the buffers through every item: the generator register at some state, and the core owing nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0 as a segment: entered with every unscoped buffer at its entry valuation, left with the region's arrays
    at what the pipeline wrote back and every other buffer as entered; the accumulators and the other region's scoped
    buffers go into the region's invariant and come back at contents not named; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (Vr0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) (Reg0.A_eq (Vr0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reg0.hin (Vr0 m) c)
    unfold Pipeline.ΦA
    iintro ⟨Hp, -, Hr⟩
    isplitl [Hr]; · iexact Hr
    iexact Hp
  hout c := by
    rw [Pipeline.ownSems0_none]
    refine BIBase.Entails.trans (Reg0.hout (Vr0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (fun b => V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at its entry valuation, left with the region's arrays
    at what the pipeline wrote back and every other buffer as entered; the accumulators and the other region's scoped
    buffers go into the region's invariant and come back at contents not named; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (Vr2 m) c).loose
  hwaits := Pipeline.hwaits_of_owed_zero _ _ _ _ L lv 1 fun _ _ => rfl
  pre c := iprop(StableHlo.held (c : Thread nD τ) (Pipeline.ucRefs τ sig) (V2 m (outsA m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr2 m c) (Reg1.A_eq (Vr2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reg1.hin (Vr2 m) c)
    unfold Pipeline.ΦA
    iintro ⟨Hp, -, Hr⟩
    isplitl [Hr]; · iexact Hr
    iexact Hp
  hout c := by
    rw [Pipeline.ownSems0_none]
    refine BIBase.Entails.trans (Reg1.hout (Vr2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr2 m c) (fun b => V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
theorem run_main : θ_run defs (onTc (τ := τ) (main (F := F))) ⟨m, fun _ => 0, ρ⟩ (fun r => ∀ c : Dev nD,
      r.2.mem ((c.tc : Thread nD τ).loc main_v80) = V10 m (outs m) c main_v80
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  RunCond.run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by
      iintro ⟨-, HO⟩; iexact HO)
    (reg0 m) (fun c => .rfl) (fun c => .rfl)
    (reg1 m) (fun c => by rw [V2_outs m c]; exact .rfl) (fun c => .rfl)

end Cert.Kernel.Run

end
-- ==== Proof.KI.R0Runs.lean ====
/-
  Region 0 (the per-batch segment sums and counts, accumulated over the 16 tiles of the point axis): what its
  three control cases share. The body resets both accumulators at the first tile, adds the tile's partial sums
  at every tile, and copies the accumulators to the two result blocks at the last tile only. Here: a window's
  block read off the array the region is entered with, the two branch conditions as facts about the tile's
  number, where the result windows are idle, and the names of the staging and scratch memrefs.
-/
import proofs.«420528_j52673478918521_3_alg».proof.Proof.Gen.KernelIdeal.Launch
import proofs.«420528_j52673478918521_3_alg».proof.Proof.Gen.KernelIdeal.Skeleton
import proofs.«420528_j52673478918521_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The embeddings' staging buffer holds the tile's block at every tile. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The labels' staging buffer holds the tile's block at every tile. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions -/

/-- "This is the first tile": the reset branch's condition, from the tile's coordinate. -/
abbrev cond_0 (i : grid0.Coords) : Prop := (Scalar.cmpi .ne (Scalar.extui (Scalar.cmpi .eq (BitVec.ofNat 32 (i 0).val) 0#32)) 0#32) = 1#1
theorem hcond_0 : ∀ t : Fin cfg0.N, cond_0 (grid0.coords t) ↔ t.val = 0 :=
  (by decide +kernel : ∀ t : Fin grid0.N, cond_0 (grid0.coords t) ↔ t.val = 0)

/-- "This is the last tile": the write-out branch's condition. -/
abbrev cond_1 (i : grid0.Coords) : Prop := k0_cond2 i = 1#1
theorem hcond_1 : ∀ t : Fin cfg0.N, cond_1 (grid0.coords t) ↔ t.val = 15 :=
  (by decide +kernel : ∀ t : Fin grid0.N, cond_1 (grid0.coords t) ↔ t.val = 15)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
/-- Before the last tile nothing is stored into the sums' result block, and it is not written back. -/
theorem idleAt_2 : ∀ t : Fin cfg0.N, ¬cond_1 (grid0.coords t) → cfg0.idle 2 (grid0.coords t) = true := by decide +kernel
theorem noFlush_2 : ∀ t : Fin cfg0.N, ¬cond_1 (grid0.coords t) → (cfg0.win 2).flush t = false := by decide +kernel
theorem idleAt_3 : ∀ t : Fin cfg0.N, ¬cond_1 (grid0.coords t) → cfg0.idle 3 (grid0.coords t) = true := by decide +kernel
theorem noFlush_3 : ∀ t : Fin cfg0.N, ¬cond_1 (grid0.coords t) → (cfg0.win 3).flush t = false := by decide +kernel
/-- At the last tile both result blocks are stored. -/
theorem liveAt_2 : ∀ t : Fin cfg0.N, cond_1 (grid0.coords t) → cfg0.idle 2 (grid0.coords t) = false := by decide +kernel
theorem liveAt_3 : ∀ t : Fin cfg0.N, cond_1 (grid0.coords t) → cfg0.idle 3 (grid0.coords t) = false := by decide +kernel

/-! ## The memrefs the body is called with -/

abbrev VO_2 : View sig .tc .vmem S8x33x32 .f32 := (Memref.whole cc0_stg2_0 : Memref sig .tc .vmem S8x33x32 .f32).view
abbrev VO_3 : View sig .tc .vmem S8x33 .f32 := (Memref.whole cc0_stg3_0 : Memref sig .tc .vmem S8x33 .f32).view
abbrev ms_0 (t : Fin cfg0.N) : Memref sig .tc .vmem S8x4096x32 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S8x4096 .i32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S8x33x32 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S8x33 .f32 := win0_3.stage (cfg0.slots t 3)
abbrev hs_3 (t : Fin cfg0.N) : (ms_3 t).IsWhole := hstage0_3 ((cfg0.slots t 3).cast nbuf0_3)
/-- The two accumulators: whole scoped buffers of the kernel's own. -/
abbrev scM_0 : Memref sig .tc .vmem S8x33x32 .f32 := Memref.whole cc0_scratch0
abbrev scM_1 : Memref sig .tc .vmem S8x33 .f32 := Memref.whole cc0_scratch1
abbrev VS_0 : View sig .tc .vmem S8x33x32 .f32 := scM_0.view
abbrev VS_1 : View sig .tc .vmem S8x33 .f32 := scM_1.view

/-- The scoped buffers of the other region, which this region never touches, each at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_scratch0), ((c : Thread nD τ).loc cc1_scratch0) ↦{fullShare} f))

/-- What the region is handed besides its windows: both accumulators at some contents, the other region's scoped
    buffers, the generator register. -/
theorem PhiA_eq (c : Dev nD) :
    (Pipeline.ΦA spec0 c : sProp 𝕄)
      = iprop(iprop((∃ d, owns (c : Thread nD τ) scM_0 fullShare d) ∗ (∃ d, owns (c : Thread nD τ) scM_1 fullShare d) ∗ otherScoped c) ∗ (∃ r, prngReg c r)) := by
  unfold Pipeline.ΦA otherScoped; rw [scopedRest0_eq]; simp only [scM_0, scM_1, owns_whole]; try rfl

end Cert.KernelIdeal.Reg0

end
-- ==== Proof.KI.R0RunA.lean ====
/-
  Region 0 at its FIRST tile: the body resets both accumulators, loads the tile's embeddings and labels, and
  stores each accumulator as "what it held plus the tile's partial sum". The run is found by symbolic execution of
  the body; its witness is the list of pieces each accumulator ends with.
-/
import proofs.«420528_j52673478918521_3_alg».proof.Proof.KI.R0Runs

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_A (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : cond_0 i) (hc1 : ¬cond_1 i)
    (x0 : Vec F S8x4096x32 .f32) (x1 : Vec F S8x4096 .i32) :
    Σ' (LS0 : List (View.Piece (Elt F) S8x33x32 .f32)), { LS1 : List (View.Piece (Elt F) S8x33 .f32) //
      ∀ (E : Set ℕ) (K : PUnit → sProp 𝕄),
        iprop(owns (c : Thread nD τ) arg1 fullShare x0 ∗ owns (c : Thread nD τ) arg2 fullShare x1 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__sum_count_kernel i arg1 harg1 arg2 harg2 arg3 harg3 arg4 harg4 arg5 harg5 arg6 harg6) K } := by
  refine ⟨?_, ?_, fun E K => ?run⟩
  case run =>
    simp only [cc0__sum_count_kernel_eq_skeleton]; unfold cc0__sum_count_kernel_skel
    unfold owns
    iintro ⟨⟨%f0, %hf0, H0⟩, ⟨%f1, %hf1, H1⟩, ⟨%ds0, %fs0, -, HS0⟩, ⟨%ds1, %fs1, -, HS1⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    iexists _; iexact HS1

end Cert.KernelIdeal.Reg0

end
-- ==== Proof.KI.R0RunB.lean ====
/-
  Region 0 at a MIDDLE tile (neither first nor last): no reset and no write-out; each accumulator, entered at what
  the tile before left, is stored back as that plus this tile's partial sum.
-/
import proofs.«420528_j52673478918521_3_alg».proof.Proof.KI.R0RunA

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_B (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : ¬cond_1 i)
    (x0 : Vec F S8x4096x32 .f32) (x1 : Vec F S8x4096 .i32) (xs0 : Vec F S8x33x32 .f32) (xs1 : Vec F S8x33 .f32) :
    Σ' (LS0 : List (View.Piece (Elt F) S8x33x32 .f32)), { LS1 : List (View.Piece (Elt F) S8x33 .f32) //
      ∀ (E : Set ℕ) (K : PUnit → sProp 𝕄),
        iprop(owns (c : Thread nD τ) arg1 fullShare x0 ∗ owns (c : Thread nD τ) arg2 fullShare x1 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__sum_count_kernel i arg1 harg1 arg2 harg2 arg3 harg3 arg4 harg4 arg5 harg5 arg6 harg6) K } := by
  refine ⟨?_, ?_, fun E K => ?run⟩
  case run =>
    simp only [cc0__sum_count_kernel_eq_skeleton]; unfold cc0__sum_count_kernel_skel
    unfold owns
    iintro ⟨⟨%f0, %hf0, H0⟩, ⟨%f1, %hf1, H1⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    iexists _; iexact HS1

end Cert.KernelIdeal.Reg0

end
-- ==== Proof.KI.R0RunC.lean ====
/-
  Region 0 at its LAST tile: the accumulators are updated as at a middle tile and then copied whole into the two
  result blocks (the sums' and the counts'), which the pipeline writes back after this tile.
-/
import proofs.«420528_j52673478918521_3_alg».proof.Proof.KI.R0RunB

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_C (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : cond_1 i)
    (x0 : Vec F S8x4096x32 .f32) (x1 : Vec F S8x4096 .i32) (xs0 : Vec F S8x33x32 .f32) (xs1 : Vec F S8x33 .f32) :
    Σ' (L2 : List (View.Piece (Elt F) S8x33x32 .f32)) (L3 : List (View.Piece (Elt F) S8x33 .f32)) (LS0 : List (View.Piece (Elt F) S8x33x32 .f32)), { LS1 : List (View.Piece (Elt F) S8x33 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__sum_count_kernel i arg1 harg1 arg2 harg2 arg3 harg3 arg4 harg4 arg5 harg5 arg6 harg6) K } := by
  refine ⟨?_, ?_, ?_, ?_, fun E K => ?run⟩
  case run =>
    simp only [cc0__sum_count_kernel_eq_skeleton]; unfold cc0__sum_count_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.KernelIdeal.Reg0

end
-- ==== Proof.KI.R0Frame.lean ====
/-
  Region 0's proof data. After tile n the two accumulators hold the running segment sums and counts of tiles
  0..n (what the case's run leaves, the case chosen by the tile's number); the result blocks are stored at the last
  tile only. The invariant between tiles keeps both accumulators at those contents; the body obligation is the
  case's run at every tile.
-/
import proofs.«420528_j52673478918521_3_alg».proof.Proof.KI.R0RunC

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover_A_0 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : cond_0 i) (hc1 : ¬cond_1 i)
    (x0 : Vec F S8x4096x32 .f32) (x1 : Vec F S8x4096 .i32) (y : S8x33x32.Idx) :
    ∃ pc ∈ (kernelRun_A c i arg1 harg1 arg2 harg2 arg3 harg3 arg4 harg4 arg5 harg5 arg6 harg6 hc0 hc1 x0 x1).1, y ∈ pc.1.set :=
  View.cover_of_tiledL (kernelRun_A c i arg1 harg1 arg2 harg2 arg3 harg3 arg4 harg4 arg5 harg5 arg6 harg6 hc0 hc1 x0 x1).1 S8x33x32.size (by sl_kernel_rfl) y
theorem scover_A_1 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : cond_0 i) (hc1 : ¬cond_1 i)
    (x0 : Vec F S8x4096x32 .f32) (x1 : Vec F S8x4096 .i32) (y : S8x33.Idx) :
    ∃ pc ∈ (kernelRun_A c i arg1 harg1 arg2 harg2 arg3 harg3 arg4 harg4 arg5 harg5 arg6 harg6 hc0 hc1 x0 x1).2.1, y ∈ pc.1.set :=
  View.cover_of_tiledL (kernelRun_A c i arg1 harg1 arg2 harg2 arg3 harg3 arg4 harg4 arg5 harg5 arg6 harg6 hc0 hc1 x0 x1).2.1 S8x33.size (by sl_kernel_rfl) y
/-- The sums' accumulator after the first tile. -/
def sout_A_0 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : cond_0 i) (hc1 : ¬cond_1 i)
    (x0 : Vec F S8x4096x32 .f32) (x1 : Vec F S8x4096 .i32) : Vec F S8x33x32 .f32 :=
  VS_0.read (Elt F) (VS_0.writes (Elt F) VS_0.junk (kernelRun_A c i arg1 harg1 arg2 harg2 arg3 harg3 arg4 harg4 arg5 harg5 arg6 harg6 hc0 hc1 x0 x1).1)
/-- The counts' accumulator after the first tile. -/
def sout_A_1 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : cond_0 i) (hc1 : ¬cond_1 i)
    (x0 : Vec F S8x4096x32 .f32) (x1 : Vec F S8x4096 .i32) : Vec F S8x33 .f32 :=
  VS_1.read (Elt F) (VS_1.writes (Elt F) VS_1.junk (kernelRun_A c i arg1 harg1 arg2 harg2 arg3 harg3 arg4 harg4 arg5 harg5 arg6 harg6 hc0 hc1 x0 x1).2.1)

theorem scover_B_0 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : ¬cond_1 i)
    (x0 : Vec F S8x4096x32 .f32) (x1 : Vec F S8x4096 .i32) (xs0 : Vec F S8x33x32 .f32) (xs1 : Vec F S8x33 .f32) (y : S8x33x32.Idx) :
    ∃ pc ∈ (kernelRun_B c i arg1 harg1 arg2 harg2 arg3 harg3 arg4 harg4 arg5 harg5 arg6 harg6 hc0 hc1 x0 x1 xs0 xs1).1, y ∈ pc.1.set :=
  View.cover_of_tiledL (kernelRun_B c i arg1 harg1 arg2 harg2 arg3 harg3 arg4 harg4 arg5 harg5 arg6 harg6 hc0 hc1 x0 x1 xs0 xs1).1 S8x33x32.size (by sl_kernel_rfl) y
theorem scover_B_1 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : ¬cond_1 i)
    (x0 : Vec F S8x4096x32 .f32) (x1 : Vec F S8x4096 .i32) (xs0 : Vec F S8x33x32 .f32) (xs1 : Vec F S8x33 .f32) (y : S8x33.Idx) :
    ∃ pc ∈ (kernelRun_B c i arg1 harg1 arg2 harg2 arg3 harg3 arg4 harg4 arg5 harg5 arg6 harg6 hc0 hc1 x0 x1 xs0 xs1).2.1, y ∈ pc.1.set :=
  View.cover_of_tiledL (kernelRun_B c i arg1 harg1 arg2 harg2 arg3 harg3 arg4 harg4 arg5 harg5 arg6 harg6 hc0 hc1 x0 x1 xs0 xs1).2.1 S8x33.size (by sl_kernel_rfl) y
/-- The sums' accumulator after a middle tile, over what the tile before left. -/
def sout_B_0 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : ¬cond_1 i)
    (x0 : Vec F S8x4096x32 .f32) (x1 : Vec F S8x4096 .i32) (xs0 : Vec F S8x33x32 .f32) (xs1 : Vec F S8x33 .f32) : Vec F S8x33x32 .f32 :=
  VS_0.read (Elt F) (VS_0.writes (Elt F) VS_0.junk (kernelRun_B c i arg1 harg1 arg2 harg2 arg3 harg3 arg4 harg4 arg5 harg5 arg6 harg6 hc0 hc1 x0 x1 xs0 xs1).1)
def sout_B_1 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : ¬cond_1 i)
    (x0 : Vec F S8x4096x32 .f32) (x1 : Vec F S8x4096 .i32) (xs0 : Vec F S8x33x32 .f32) (xs1 : Vec F S8x33 .f32) : Vec F S8x33 .f32 :=
  VS_1.read (Elt F) (VS_1.writes (Elt F) VS_1.junk (kernelRun_B c i arg1 harg1 arg2 harg2 arg3 harg3 arg4 harg4 arg5 harg5 arg6 harg6 hc0 hc1 x0 x1 xs0 xs1).2.1)

theorem cover_C_2 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : cond_1 i)
    (x0 : Vec F S8x4096x32 .f32) (x1 : Vec F S8x4096 .i32) (xs0 : Vec F S8x33x32 .f32) (xs1 : Vec F S8x33 .f32) (y : S8x33x32.Idx) :
    ∃ pc ∈ (kernelRun_C c i arg1 harg1 arg2 harg2 arg3 harg3 arg4 harg4 arg5 harg5 arg6 harg6 hc0 hc1 x0 x1 xs0 xs1).1, y ∈ pc.1.set :=
  View.cover_of_tiledL (kernelRun_C c i arg1 harg1 arg2 harg2 arg3 harg3 arg4 harg4 arg5 harg5 arg6 harg6 hc0 hc1 x0 x1 xs0 xs1).1 S8x33x32.size (by sl_kernel_rfl) y
theorem cover_C_3 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : cond_1 i)
    (x0 : Vec F S8x4096x32 .f32) (x1 : Vec F S8x4096 .i32) (xs0 : Vec F S8x33x32 .f32) (xs1 : Vec F S8x33 .f32) (y : S8x33.Idx) :
    ∃ pc ∈ (kernelRun_C c i arg1 harg1 arg2 harg2 arg3 harg3 arg4 harg4 arg5 harg5 arg6 harg6 hc0 hc1 x0 x1 xs0 xs1).2.1, y ∈ pc.1.set :=
  View.cover_of_tiledL (kernelRun_C c i arg1 harg1 arg2 harg2 arg3 harg3 arg4 harg4 arg5 harg5 arg6 harg6 hc0 hc1 x0 x1 xs0 xs1).2.1 S8x33.size (by sl_kernel_rfl) y
theorem scover_C_0 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : cond_1 i)
    (x0 : Vec F S8x4096x32 .f32) (x1 : Vec F S8x4096 .i32) (xs0 : Vec F S8x33x32 .f32) (xs1 : Vec F S8x33 .f32) (y : S8x33x32.Idx) :
    ∃ pc ∈ (kernelRun_C c i arg1 harg1 arg2 harg2 arg3 harg3 arg4 harg4 arg5 harg5 arg6 harg6 hc0 hc1 x0 x1 xs0 xs1).2.2.1, y ∈ pc.1.set :=
  View.cover_of_tiledL (kernelRun_C c i arg1 harg1 arg2 harg2 arg3 harg3 arg4 harg4 arg5 harg5 arg6 harg6 hc0 hc1 x0 x1 xs0 xs1).2.2.1 S8x33x32.size (by sl_kernel_rfl) y
theorem scover_C_1 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : cond_1 i)
    (x0 : Vec F S8x4096x32 .f32) (x1 : Vec F S8x4096 .i32) (xs0 : Vec F S8x33x32 .f32) (xs1 : Vec F S8x33 .f32) (y : S8x33.Idx) :
    ∃ pc ∈ (kernelRun_C c i arg1 harg1 arg2 harg2 arg3 harg3 arg4 harg4 arg5 harg5 arg6 harg6 hc0 hc1 x0 x1 xs0 xs1).2.2.2.1, y ∈ pc.1.set :=
  View.cover_of_tiledL (kernelRun_C c i arg1 harg1 arg2 harg2 arg3 harg3 arg4 harg4 arg5 harg5 arg6 harg6 hc0 hc1 x0 x1 xs0 xs1).2.2.2.1 S8x33.size (by sl_kernel_rfl) y
/-- The sums' result block as the last tile stores it. -/
def out_C_2 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : cond_1 i)
    (x0 : Vec F S8x4096x32 .f32) (x1 : Vec F S8x4096 .i32) (xs0 : Vec F S8x33x32 .f32) (xs1 : Vec F S8x33 .f32) : Vec F S8x33x32 .f32 :=
  VO_2.read (Elt F) (VO_2.writes (Elt F) VO_2.junk (kernelRun_C c i arg1 harg1 arg2 harg2 arg3 harg3 arg4 harg4 arg5 harg5 arg6 harg6 hc0 hc1 x0 x1 xs0 xs1).1)
/-- The counts' result block as the last tile stores it. -/
def out_C_3 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : cond_1 i)
    (x0 : Vec F S8x4096x32 .f32) (x1 : Vec F S8x4096 .i32) (xs0 : Vec F S8x33x32 .f32) (xs1 : Vec F S8x33 .f32) : Vec F S8x33 .f32 :=
  VO_3.read (Elt F) (VO_3.writes (Elt F) VO_3.junk (kernelRun_C c i arg1 harg1 arg2 harg2 arg3 harg3 arg4 harg4 arg5 harg5 arg6 harg6 hc0 hc1 x0 x1 xs0 xs1).2.1)
def sout_C_0 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : cond_1 i)
    (x0 : Vec F S8x4096x32 .f32) (x1 : Vec F S8x4096 .i32) (xs0 : Vec F S8x33x32 .f32) (xs1 : Vec F S8x33 .f32) : Vec F S8x33x32 .f32 :=
  VS_0.read (Elt F) (VS_0.writes (Elt F) VS_0.junk (kernelRun_C c i arg1 harg1 arg2 harg2 arg3 harg3 arg4 harg4 arg5 harg5 arg6 harg6 hc0 hc1 x0 x1 xs0 xs1).2.2.1)
def sout_C_1 (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : cond_1 i)
    (x0 : Vec F S8x4096x32 .f32) (x1 : Vec F S8x4096 .i32) (xs0 : Vec F S8x33x32 .f32) (xs1 : Vec F S8x33 .f32) : Vec F S8x33 .f32 :=
  VS_1.read (Elt F) (VS_1.writes (Elt F) VS_1.junk (kernelRun_C c i arg1 harg1 arg2 harg2 arg3 harg3 arg4 harg4 arg5 harg5 arg6 harg6 hc0 hc1 x0 x1 xs0 xs1).2.2.2.1)

/-- Placeholders for a result block at a tile that stores nothing into it (never consulted: the block is neither
    written back there nor read later). -/
def idle_2 : Vec F S8x33x32 .f32 := VO_2.read (Elt F) (VO_2.writes (Elt F) VO_2.junk [])
def idle_3 : Vec F S8x33 .f32 := VO_3.read (Elt F) (VO_3.writes (Elt F) VO_3.junk [])

/-! ## The accumulation, tile by tile -/

/-- After tile `n`: (the two result blocks, the two accumulators). -/
def outsAt (c : Dev nD) : (n : ℕ) → n < cfg0.N → (Vec F S8x33x32 .f32 × Vec F S8x33 .f32) × (Vec F S8x33x32 .f32 × Vec F S8x33 .f32)
  | 0, hn => ((idle_2, idle_3),
      (sout_A_0 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM_0 (Memref.isWhole_whole _) scM_1 (Memref.isWhole_whole _) ((hcond_0 ⟨0, hn⟩).mpr rfl) (fun h => absurd ((hcond_1 ⟨0, hn⟩).mp h) (show ¬ (0 : ℕ) = 15 by decide)) (iblk V c 0 ⟨0, hn⟩) (iblk V c 1 ⟨0, hn⟩),
       sout_A_1 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM_0 (Memref.isWhole_whole _) scM_1 (Memref.isWhole_whole _) ((hcond_0 ⟨0, hn⟩).mpr rfl) (fun h => absurd ((hcond_1 ⟨0, hn⟩).mp h) (show ¬ (0 : ℕ) = 15 by decide)) (iblk V c 0 ⟨0, hn⟩) (iblk V c 1 ⟨0, hn⟩)))
  | n + 1, hn =>
    if h1 : n + 1 = 15 then
      ((out_C_2 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => absurd ((hcond_0 ⟨n + 1, hn⟩).mp h) (Nat.succ_ne_zero n)) ((hcond_1 ⟨n + 1, hn⟩).mpr h1) (iblk V c 0 ⟨n + 1, hn⟩) (iblk V c 1 ⟨n + 1, hn⟩) (outsAt c n (Nat.lt_of_succ_lt hn)).2.1 (outsAt c n (Nat.lt_of_succ_lt hn)).2.2,
        out_C_3 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => absurd ((hcond_0 ⟨n + 1, hn⟩).mp h) (Nat.succ_ne_zero n)) ((hcond_1 ⟨n + 1, hn⟩).mpr h1) (iblk V c 0 ⟨n + 1, hn⟩) (iblk V c 1 ⟨n + 1, hn⟩) (outsAt c n (Nat.lt_of_succ_lt hn)).2.1 (outsAt c n (Nat.lt_of_succ_lt hn)).2.2),
       (sout_C_0 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => absurd ((hcond_0 ⟨n + 1, hn⟩).mp h) (Nat.succ_ne_zero n)) ((hcond_1 ⟨n + 1, hn⟩).mpr h1) (iblk V c 0 ⟨n + 1, hn⟩) (iblk V c 1 ⟨n + 1, hn⟩) (outsAt c n (Nat.lt_of_succ_lt hn)).2.1 (outsAt c n (Nat.lt_of_succ_lt hn)).2.2,
        sout_C_1 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => absurd ((hcond_0 ⟨n + 1, hn⟩).mp h) (Nat.succ_ne_zero n)) ((hcond_1 ⟨n + 1, hn⟩).mpr h1) (iblk V c 0 ⟨n + 1, hn⟩) (iblk V c 1 ⟨n + 1, hn⟩) (outsAt c n (Nat.lt_of_succ_lt hn)).2.1 (outsAt c n (Nat.lt_of_succ_lt hn)).2.2))
    else
      ((idle_2, idle_3),
       (sout_B_0 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => absurd ((hcond_0 ⟨n + 1, hn⟩).mp h) (Nat.succ_ne_zero n)) (fun h => h1 ((hcond_1 ⟨n + 1, hn⟩).mp h)) (iblk V c 0 ⟨n + 1, hn⟩) (iblk V c 1 ⟨n + 1, hn⟩) (outsAt c n (Nat.lt_of_succ_lt hn)).2.1 (outsAt c n (Nat.lt_of_succ_lt hn)).2.2,
        sout_B_1 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) scM_1 (Memref.isWhole_whole _) (fun h => absurd ((hcond_0 ⟨n + 1, hn⟩).mp h) (Nat.succ_ne_zero n)) (fun h => h1 ((hcond_1 ⟨n + 1, hn⟩).mp h)) (iblk V c 0 ⟨n + 1, hn⟩) (iblk V c 1 ⟨n + 1, hn⟩) (outsAt c n (Nat.lt_of_succ_lt hn)).2.1 (outsAt c n (Nat.lt_of_succ_lt hn)).2.2))

/-- The tile before `t` (for `t` not the first). -/
abbrev prevLt (t : Fin cfg0.N) : t.val - 1 < cfg0.N := Nat.lt_of_le_of_lt (Nat.sub_le _ _) t.isLt

theorem outsAt_A (c : Dev nD) (t : Fin cfg0.N) (h0 : t.val = 0) (h1 : ¬t.val = 15) :
    outsAt V c t.val t.isLt = ((idle_2, idle_3),
      (sout_A_0 c (grid0.coords t) (ms_0 t) (hs_0 t) (ms_1 t) (hs_1 t) (ms_2 t) (hs_2 t) (ms_3 t) (hs_3 t) scM_0 (Memref.isWhole_whole _) scM_1 (Memref.isWhole_whole _) ((hcond_0 t).mpr h0) (fun h => h1 ((hcond_1 t).mp h)) (iblk V c 0 t) (iblk V c 1 t),
       sout_A_1 c (grid0.coords t) (ms_0 t) (hs_0 t) (ms_1 t) (hs_1 t) (ms_2 t) (hs_2 t) (ms_3 t) (hs_3 t) scM_0 (Memref.isWhole_whole _) scM_1 (Memref.isWhole_whole _) ((hcond_0 t).mpr h0) (fun h => h1 ((hcond_1 t).mp h)) (iblk V c 0 t) (iblk V c 1 t))) := by
  obtain ⟨n, hn⟩ := t
  cases n with
  | zero => rfl
  | succ n => exact absurd h0 (Nat.succ_ne_zero n)

theorem outsAt_B (c : Dev nD) (t : Fin cfg0.N) (h0 : ¬t.val = 0) (h1 : ¬t.val = 15) :
    outsAt V c t.val t.isLt = ((idle_2, idle_3),
      (sout_B_0 c (grid0.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) (fun h => h1 ((hcond_1 t).mp h)) (iblk V c 0 t) (iblk V c 1 t) (outsAt V c (t.val - 1) (prevLt t)).2.1 (outsAt V c (t.val - 1) (prevLt t)).2.2,
       sout_B_1 c (grid0.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) (fun h => h1 ((hcond_1 t).mp h)) (iblk V c 0 t) (iblk V c 1 t) (outsAt V c (t.val - 1) (prevLt t)).2.1 (outsAt V c (t.val - 1) (prevLt t)).2.2)) := by
  obtain ⟨n, hn⟩ := t
  cases n with
  | zero => exact absurd rfl h0
  | succ n => exact (dif_neg h1).trans rfl

theorem outsAt_C (c : Dev nD) (t : Fin cfg0.N) (h0 : ¬t.val = 0) (h1 : t.val = 15) :
    outsAt V c t.val t.isLt =
      ((out_C_2 c (grid0.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) ((hcond_1 t).mpr h1) (iblk V c 0 t) (iblk V c 1 t) (outsAt V c (t.val - 1) (prevLt t)).2.1 (outsAt V c (t.val - 1) (prevLt t)).2.2,
        out_C_3 c (grid0.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) ((hcond_1 t).mpr h1) (iblk V c 0 t) (iblk V c 1 t) (outsAt V c (t.val - 1) (prevLt t)).2.1 (outsAt V c (t.val - 1) (prevLt t)).2.2),
       (sout_C_0 c (grid0.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) ((hcond_1 t).mpr h1) (iblk V c 0 t) (iblk V c 1 t) (outsAt V c (t.val - 1) (prevLt t)).2.1 (outsAt V c (t.val - 1) (prevLt t)).2.2,
        sout_C_1 c (grid0.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) ((hcond_1 t).mpr h1) (iblk V c 0 t) (iblk V c 1 t) (outsAt V c (t.val - 1) (prevLt t)).2.1 (outsAt V c (t.val - 1) (prevLt t)).2.2)) := by
  obtain ⟨n, hn⟩ := t
  cases n with
  | zero => exact absurd rfl h0
  | succ n => exact (dif_pos h1).trans rfl

/-! ## The invariant between tiles -/

/-- Before tile `n`: at the first tile whatever the region was handed; afterwards both accumulators at what tile
    `n - 1` left, the other region's scoped buffers and the generator register riding along. -/
def PhiS (c : Dev nD) : (n : ℕ) → n ≤ cfg0.N → sProp 𝕄
  | 0, _ => Pipeline.ΦA spec0 c
  | n + 1, hn => iprop(iprop(owns (c : Thread nD τ) scM_0 fullShare ((outsAt V c n hn).2.1) ∗ owns (c : Thread nD τ) scM_1 fullShare ((outsAt V c n hn).2.2) ∗ otherScoped c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM_0 fullShare ((outsAt V c n hn).2.1) ∗ owns (c : Thread nD τ) scM_1 fullShare ((outsAt V c n hn).2.2) ∗ otherScoped c) ∗ (∃ r, prngReg c r)) := rfl
theorem PhiS_pos (c : Dev nD) (n : ℕ) (h : n ≤ cfg0.N) (hz : n ≠ 0) :
    PhiS V c n h = iprop(iprop(owns (c : Thread nD τ) scM_0 fullShare ((outsAt V c (n - 1) (by omega)).2.1) ∗ owns (c : Thread nD τ) scM_1 fullShare ((outsAt V c (n - 1) (by omega)).2.2) ∗ otherScoped c) ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1.1
    | ⟨3, _⟩ => (outsAt V c t.val t.isLt).1.2
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1.1 := by dsimp only [dat]
theorem after_3 (c : Dev nD) (t : Fin cfg0.N) : (dat V c).after 3 t = (outsAt V c t.val t.isLt).1.2 := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  have hN : t.val < 16 := lt_of_lt_of_eq t.isLt (show cfg0.N = 16 from N_0)
  by_cases h1 : t.val = 15
  · have h0 : ¬t.val = 0 := by omega
    rw [show (dat V c).leavesExact 2 t = owns (c : Thread nD τ) (ms_2 t) fullShare ((dat V c).after 2 t) from by
      unfold Dat.leavesExact; rw [liveAt_2 t ((hcond_1 t).mpr h1)], after_2]
    rw [show (dat V c).leavesExact 3 t = owns (c : Thread nD τ) (ms_3 t) fullShare ((dat V c).after 3 t) from by
      unfold Dat.leavesExact; rw [liveAt_3 t ((hcond_1 t).mpr h1)], after_3]
    rw [outsAt_C V c t h0 h1]
    unfold out_C_2 out_C_3 sout_C_0 sout_C_1; (try dsimp only)
    rw [PhiS_castSucc V c t, PhiS_pos V c _ _ h0]
    iintro ⟨⟨⟨HS0, HS1, Hoth⟩, Hg⟩, Ho, ⟨%d0, H0⟩, ⟨%d1, H1⟩, ⟨%d2, H2⟩, ⟨%d3, H3⟩⟩
    iapply ((kernelRun_C c (grid0.coords t) _ _ _ _ _ _ _ _ _ _ _ _ (fun h => h0 ((hcond_0 t).mp h)) ((hcond_1 t).mpr h1) (iblk V c 0 t) (iblk V c 1 t) _ _).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro; exact View.read_writes_of_cover _ _ _ _ _ (scover_C_0 c _ _ _ _ _ _ _ _ _ _ _ _ _ _ _ _ _ _ _)
        isplitl [HS1]
        · unfold owns; iexists _; isplitr
          swap; · iexact HS1
          ipureintro; exact View.read_writes_of_cover _ _ _ _ _ (scover_C_1 c _ _ _ _ _ _ _ _ _ _ _ _ _ _ _ _ _ _ _)
        iexact Hoth
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover_C_2 c _ _ _ _ _ _ _ _ _ _ _ _ _ _ _ _ _ _ _)
    unfold owns; iexists _; isplitr
    swap; · iexact H3
    ipureintro; exact View.read_writes_of_cover _ _ _ _ _ (cover_C_3 c _ _ _ _ _ _ _ _ _ _ _ _ _ _ _ _ _ _ _)
  · rw [Dat.leavesExact_idle (dat V c) 2 t (idleAt_2 t (fun h => h1 ((hcond_1 t).mp h))) (noFlush_2 t (fun h => h1 ((hcond_1 t).mp h)))]
    rw [Dat.leavesExact_idle (dat V c) 3 t (idleAt_3 t (fun h => h1 ((hcond_1 t).mp h))) (noFlush_3 t (fun h => h1 ((hcond_1 t).mp h)))]
    by_cases h0 : t.val = 0
    · rw [outsAt_A V c t h0 h1]
      unfold sout_A_0 sout_A_1; (try dsimp only)
      rw [PhiS_castSucc V c t, PhiS_zero V c _ _ h0, PhiA_eq]
      iintro ⟨⟨⟨HS0, HS1, Hoth⟩, Hg⟩, Ho, ⟨%d0, H0⟩, ⟨%d1, H1⟩, ⟨%d2, H2⟩, ⟨%d3, H3⟩⟩
      iapply ((kernelRun_A c (grid0.coords t) _ _ _ _ _ _ _ _ _ _ _ _ ((hcond_0 t).mpr h0) (fun h => h1 ((hcond_1 t).mp h)) (iblk V c 0 t) (iblk V c 1 t)).2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover_A_0 c _ _ _ _ _ _ _ _ _ _ _ _ _ _ _ _ _)
          isplitl [HS1]
          · unfold owns; iexists _; isplitr
            swap; · iexact HS1
            ipureintro; exact View.read_writes_of_cover _ _ _ _ _ (scover_A_1 c _ _ _ _ _ _ _ _ _ _ _ _ _ _ _ _ _)
          iexact Hoth
        iexact Hg
      isplitl [Ho]; · iexact Ho
      isplitl [H0]; · iexact H0
      isplitl [H1]; · iexact H1
      isplitl [H2]; · iexists _; iexact H2
      iexists _; iexact H3
    · rw [outsAt_B V c t h0 h1]
      unfold sout_B_0 sout_B_1; (try dsimp only)
      rw [PhiS_castSucc V c t, PhiS_pos V c _ _ h0]
      iintro ⟨⟨⟨HS0, HS1, Hoth⟩, Hg⟩, Ho, ⟨%d0, H0⟩, ⟨%d1, H1⟩, ⟨%d2, H2⟩, ⟨%d3, H3⟩⟩
      iapply ((kernelRun_B c (grid0.coords t) _ _ _ _ _ _ _ _ _ _ _ _ (fun h => h0 ((hcond_0 t).mp h)) (fun h => h1 ((hcond_1 t).mp h)) (iblk V c 0 t) (iblk V c 1 t) _ _).2.2 Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover_B_0 c _ _ _ _ _ _ _ _ _ _ _ _ _ _ _ _ _ _ _)
          isplitl [HS1]
          · unfold owns; iexists _; isplitr
            swap; · iexact HS1
            ipureintro; exact View.read_writes_of_cover _ _ _ _ _ (scover_B_1 c _ _ _ _ _ _ _ _ _ _ _ _ _ _ _ _ _ _ _)
          iexact Hoth
        iexact Hg
      isplitl [Ho]; · iexact Ho
      isplitl [H0]; · iexact H0
      isplitl [H1]; · iexact H1
      isplitl [H2]; · iexists _; iexact H2
      iexists _; iexact H3

theorem body_obligation (c : Dev nD) : BodyObligation (dat (F := F) V c) (defs₀ (F := F)) Variants.none () Set.univ := fun t => by
  rw [bigSep_W0, bigSep_W0]
  exact sound_body V c t

/-- What the region is handed is the invariant before the first tile. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last tile the invariant gives it back, the accumulators' contents forgotten. -/
theorem hout (c : Dev nD) : (dat V c).Φ (Fin.last cfg0.N) ⊢ Pipeline.ΦA spec0 c := by
  have ht : (Fin.last cfg0.N).val ≠ 0 := by rw [Fin.val_last]; have : cfg0.N = 16 := N_0; omega
  rw [show (dat V c).Φ (Fin.last cfg0.N) = PhiS V c (Fin.last cfg0.N).val (Nat.le_of_lt_succ (Fin.last cfg0.N).isLt) from rfl, PhiS_pos V c _ _ ht, PhiA_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end Cert.KernelIdeal.Reg0

end
-- ==== Proof.KI.R1Runs.lean ====
/-
  Region 1 (the per-batch, per-label sums of the hinge terms, accumulated over the 32 tiles of the point axis): what
  its three control cases share. The body resets the accumulator at the first tile, adds the tile's partial sums at
  every tile (each point's hinge term is taken from its distance to the center of its own label, read off the
  centers' block), and copies the accumulator to the result block at the last tile only. Here: a window's block read
  off the array the region is entered with, the two branch conditions as facts about the tile's number, where the
  result window is idle, and the names of the staging and scratch memrefs.
-/
import proofs.«420528_j52673478918521_3_alg».proof.Proof.Gen.KernelIdeal.Launch
import proofs.«420528_j52673478918521_3_alg».proof.Proof.Gen.KernelIdeal.Skeleton
import proofs.«420528_j52673478918521_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The embeddings' staging buffer holds the tile's block at every tile. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The labels' staging buffer holds the tile's block at every tile. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The centers' staging buffer holds the centers at every tile: they are brought in at the first tile, and since
    their block index never moves, what the body leaves in place there is still the block at every later tile. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions -/

/-- "This is the first tile": the reset branch's condition, from the tile's coordinate. -/
abbrev cond_0 (i : grid1.Coords) : Prop := (Scalar.cmpi .ne (Scalar.extui (Scalar.cmpi .eq (BitVec.ofNat 32 (i 0).val) 0#32)) 0#32) = 1#1
theorem hcond_0 : ∀ t : Fin cfg1.N, cond_0 (grid1.coords t) ↔ t.val = 0 :=
  (by decide +kernel : ∀ t : Fin grid1.N, cond_0 (grid1.coords t) ↔ t.val = 0)

/-- "This is the last tile": the write-out branch's condition. -/
abbrev cond_1 (i : grid1.Coords) : Prop := k1_cond2 i = 1#1
theorem hcond_1 : ∀ t : Fin cfg1.N, cond_1 (grid1.coords t) ↔ t.val = 31 :=
  (by decide +kernel : ∀ t : Fin grid1.N, cond_1 (grid1.coords t) ↔ t.val = 31)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
/-- Before the last tile nothing is stored into the result block, and it is not written back. -/
theorem idleAt_3 : ∀ t : Fin cfg1.N, ¬cond_1 (grid1.coords t) → cfg1.idle 3 (grid1.coords t) = true := by decide +kernel
theorem noFlush_3 : ∀ t : Fin cfg1.N, ¬cond_1 (grid1.coords t) → (cfg1.win 3).flush t = false := by decide +kernel
/-- At the last tile the result block is stored. -/
theorem liveAt_3 : ∀ t : Fin cfg1.N, cond_1 (grid1.coords t) → cfg1.idle 3 (grid1.coords t) = false := by decide +kernel

/-! ## The memrefs the body is called with -/

abbrev VO_3 : View sig .tc .vmem S8x33 .f32 := (Memref.whole cc1_stg3_0 : Memref sig .tc .vmem S8x33 .f32).view
abbrev ms_0 (t : Fin cfg1.N) : Memref sig .tc .vmem S8x2048x32 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S8x2048 .i32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S8x33x32 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S8x33 .f32 := win1_3.stage (cfg1.slots t 3)
abbrev hs_3 (t : Fin cfg1.N) : (ms_3 t).IsWhole := hstage1_3 ((cfg1.slots t 3).cast nbuf1_3)
/-- The accumulator: a whole scoped buffer of the kernel's own. -/
abbrev scM_0 : Memref sig .tc .vmem S8x33 .f32 := Memref.whole cc1_scratch0
abbrev VS_0 : View sig .tc .vmem S8x33 .f32 := scM_0.view

/-- The scoped buffers of the other region, which this region never touches, each at some contents. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- Nine conjuncts beside a tenth, the ninth split off from the first eight. -/
theorem sep_split_last (P1 P2 P3 P4 P5 P6 P7 P8 PS G : sProp 𝕄) :
    iprop((P1 ∗ P2 ∗ P3 ∗ P4 ∗ P5 ∗ P6 ∗ P7 ∗ P8 ∗ PS) ∗ G) = iprop(iprop(iprop(P1 ∗ P2 ∗ P3 ∗ P4 ∗ P5 ∗ P6 ∗ P7 ∗ P8) ∗ PS) ∗ G) :=
  BI.Entails.antisymm
    (show iprop((P1 ∗ P2 ∗ P3 ∗ P4 ∗ P5 ∗ P6 ∗ P7 ∗ P8 ∗ PS) ∗ G) ⊢ iprop(iprop(iprop(P1 ∗ P2 ∗ P3 ∗ P4 ∗ P5 ∗ P6 ∗ P7 ∗ P8) ∗ PS) ∗ G) from by
      iintro ⟨⟨H1, H2, H3, H4, H5, H6, H7, H8, HS⟩, Hg⟩
      isplitl [H1 H2 H3 H4 H5 H6 H7 H8 HS]
      · isplitl [H1 H2 H3 H4 H5 H6 H7 H8]
        · isplitl [H1]; · iexact H1
          isplitl [H2]; · iexact H2
          isplitl [H3]; · iexact H3
          isplitl [H4]; · iexact H4
          isplitl [H5]; · iexact H5
          isplitl [H6]; · iexact H6
          isplitl [H7]; · iexact H7
          iexact H8
        iexact HS
      iexact Hg)
    (show iprop(iprop(iprop(P1 ∗ P2 ∗ P3 ∗ P4 ∗ P5 ∗ P6 ∗ P7 ∗ P8) ∗ PS) ∗ G) ⊢ iprop((P1 ∗ P2 ∗ P3 ∗ P4 ∗ P5 ∗ P6 ∗ P7 ∗ P8 ∗ PS) ∗ G) from by
      iintro ⟨⟨⟨H1, H2, H3, H4, H5, H6, H7, H8⟩, HS⟩, Hg⟩
      isplitl [H1 H2 H3 H4 H5 H6 H7 H8 HS]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact HS
      iexact Hg)

/-- What the region is handed besides its windows: the other region's scoped buffers, the accumulator at some
    contents, the generator register. -/
theorem PhiA_eq (c : Dev nD) :
    (Pipeline.ΦA spec1 c : sProp 𝕄)
      = iprop(iprop(otherScoped c ∗ (∃ d, owns (c : Thread nD τ) scM_0 fullShare d)) ∗ (∃ r, prngReg c r)) := by
  unfold Pipeline.ΦA otherScoped; rw [scopedRest1_eq]; simp only [scM_0, owns_whole]
  exact sep_split_last _ _ _ _ _ _ _ _ _ _

end Cert.KernelIdeal.Reg1

end
-- ==== Proof.KI.R1RunA.lean ====
/-
  Region 1 at its FIRST tile: the body resets the accumulator, loads the tile's embeddings and labels and the
  centers, and stores the accumulator as "what it held plus the tile's partial sums of the hinge terms". The run is
  found by symbolic execution of the body; its witness is the list of pieces the accumulator ends with.
-/
import proofs.«420528_j52673478918521_3_alg».proof.Proof.KI.R1Runs

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_A (c : Dev nD) (i : grid1.Coords) (arg1 : Memref sig .tc .vmem S8x2048x32 .f32) (harg1 : arg1.IsWhole) (arg2 : Memref sig .tc .vmem S8x2048 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33 .f32) (harg5 : arg5.IsWhole) (hc0 : cond_0 i) (hc1 : ¬cond_1 i)
    (x0 : Vec F S8x2048x32 .f32) (x1 : Vec F S8x2048 .i32) (x2 : Vec F S8x33x32 .f32) :
    { LS0 : List (View.Piece (Elt F) S8x33 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg5.view.loc (c : Thread nD τ) ↦[arg5.view.set]{fullShare} arg5.view.writes (Elt F) f LS0)) -∗ K ⟨⟩))
          ⊢ wp frame (wpE (defs₀ (F := F)) Variants.none c none) E (cc1__hinge_kernel i arg1 harg1 arg2 harg2 arg3 harg3 arg4 harg4 arg5 harg5) K } := by
  refine ⟨?_, fun E K => ?run⟩
  case run =>
    simp only [cc1__hinge_kernel_eq_skeleton]; unfold cc1__hinge_kernel_skel
    simp only [k1_part1_eq_skeleton]; unfold k1_part1_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Reg1

end
-- ==== Proof.KI.R1RunB.lean ====
/-
  Region 1 at a MIDDLE tile (neither first nor last): no reset and no write-out; the accumulator, entered at what
  the tile before left, is stored back as that plus this tile's partial sums of the hinge terms.
-/
import proofs.«420528_j52673478918521_3_alg».proof.Proof.KI.R1RunA

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_B (c : Dev nD) (i : grid1.Coords) (arg1 : Memref sig .tc .vmem S8x2048x32 .f32) (harg1 : arg1.IsWhole) (arg2 : Memref sig .tc .vmem S8x2048 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33 .f32) (harg5 : arg5.IsWhole) (hc0 : ¬cond_0 i) (hc1 : ¬cond_1 i)
    (x0 : Vec F S8x2048x32 .f32) (x1 : Vec F S8x2048 .i32) (x2 : Vec F S8x33x32 .f32) (xs0 : Vec F S8x33 .f32) :
    { LS0 : List (View.Piece (Elt F) S8x33 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg5.view.loc (c : Thread nD τ) ↦[arg5.view.set]{fullShare} arg5.view.writes (Elt F) f LS0)) -∗ K ⟨⟩))
          ⊢ wp frame (wpE (defs₀ (F := F)) Variants.none c none) E (cc1__hinge_kernel i arg1 harg1 arg2 harg2 arg3 harg3 arg4 harg4 arg5 harg5) K } := by
  refine ⟨?_, fun E K => ?run⟩
  case run =>
    simp only [cc1__hinge_kernel_eq_skeleton]; unfold cc1__hinge_kernel_skel
    simp only [k1_part1_eq_skeleton]; unfold k1_part1_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2
    obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Reg1

end
-- ==== Proof.KI.R1RunC.lean ====
/-
  Region 1 at its LAST tile: the accumulator is updated as at a middle tile and then copied whole into the result
  block, which the pipeline writes back after this tile.
-/
import proofs.«420528_j52673478918521_3_alg».proof.Proof.KI.R1RunB

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_C (c : Dev nD) (i : grid1.Coords) (arg1 : Memref sig .tc .vmem S8x2048x32 .f32) (harg1 : arg1.IsWhole) (arg2 : Memref sig .tc .vmem S8x2048 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33 .f32) (harg5 : arg5.IsWhole) (hc0 : ¬cond_0 i) (hc1 : cond_1 i)
    (x0 : Vec F S8x2048x32 .f32) (x1 : Vec F S8x2048 .i32) (x2 : Vec F S8x33x32 .f32) (xs0 : Vec F S8x33 .f32) :
    Σ' (L3 : List (View.Piece (Elt F) S8x33 .f32)), { LS0 : List (View.Piece (Elt F) S8x33 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1__hinge_kernel i arg1 harg1 arg2 harg2 arg3 harg3 arg4 harg4 arg5 harg5) K } := by
  refine ⟨?_, ?_, fun E K => ?run⟩
  case run =>
    simp only [cc1__hinge_kernel_eq_skeleton]; unfold cc1__hinge_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2
    obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Reg1

end
-- ==== Proof.KI.R1Frame.lean ====
/-
  Region 1's proof data. After tile n the accumulator holds the running per-label sums of the hinge terms of tiles
  0..n (what the case's run leaves, the case chosen by the tile's number); the result block is stored at the last
  tile only. The invariant between tiles keeps the accumulator at those contents; the body obligation is the case's
  run at every tile.
-/
import proofs.«420528_j52673478918521_3_alg».proof.Proof.KI.R1RunC

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover_A_0 (c : Dev nD) (i : grid1.Coords) (arg1 : Memref sig .tc .vmem S8x2048x32 .f32) (harg1 : arg1.IsWhole) (arg2 : Memref sig .tc .vmem S8x2048 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33 .f32) (harg5 : arg5.IsWhole) (hc0 : cond_0 i) (hc1 : ¬cond_1 i)
    (x0 : Vec F S8x2048x32 .f32) (x1 : Vec F S8x2048 .i32) (x2 : Vec F S8x33x32 .f32) (y : S8x33.Idx) :
    ∃ pc ∈ (kernelRun_A c i arg1 harg1 arg2 harg2 arg3 harg3 arg4 harg4 arg5 harg5 hc0 hc1 x0 x1 x2).1, y ∈ pc.1.set :=
  View.cover_of_tiledL (kernelRun_A c i arg1 harg1 arg2 harg2 arg3 harg3 arg4 harg4 arg5 harg5 hc0 hc1 x0 x1 x2).1 S8x33.size (by sl_kernel_rfl) y
/-- The accumulator after the first tile. -/
def sout_A_0 (c : Dev nD) (i : grid1.Coords) (arg1 : Memref sig .tc .vmem S8x2048x32 .f32) (harg1 : arg1.IsWhole) (arg2 : Memref sig .tc .vmem S8x2048 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33 .f32) (harg5 : arg5.IsWhole) (hc0 : cond_0 i) (hc1 : ¬cond_1 i)
    (x0 : Vec F S8x2048x32 .f32) (x1 : Vec F S8x2048 .i32) (x2 : Vec F S8x33x32 .f32) : Vec F S8x33 .f32 :=
  VS_0.read (Elt F) (VS_0.writes (Elt F) VS_0.junk (kernelRun_A c i arg1 harg1 arg2 harg2 arg3 harg3 arg4 harg4 arg5 harg5 hc0 hc1 x0 x1 x2).1)

theorem scover_B_0 (c : Dev nD) (i : grid1.Coords) (arg1 : Memref sig .tc .vmem S8x2048x32 .f32) (harg1 : arg1.IsWhole) (arg2 : Memref sig .tc .vmem S8x2048 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33 .f32) (harg5 : arg5.IsWhole) (hc0 : ¬cond_0 i) (hc1 : ¬cond_1 i)
    (x0 : Vec F S8x2048x32 .f32) (x1 : Vec F S8x2048 .i32) (x2 : Vec F S8x33x32 .f32) (xs0 : Vec F S8x33 .f32) (y : S8x33.Idx) :
    ∃ pc ∈ (kernelRun_B c i arg1 harg1 arg2 harg2 arg3 harg3 arg4 harg4 arg5 harg5 hc0 hc1 x0 x1 x2 xs0).1, y ∈ pc.1.set :=
  View.cover_of_tiledL (kernelRun_B c i arg1 harg1 arg2 harg2 arg3 harg3 arg4 harg4 arg5 harg5 hc0 hc1 x0 x1 x2 xs0).1 S8x33.size (by sl_kernel_rfl) y
/-- The accumulator after a middle tile, over what the tile before left. -/
def sout_B_0 (c : Dev nD) (i : grid1.Coords) (arg1 : Memref sig .tc .vmem S8x2048x32 .f32) (harg1 : arg1.IsWhole) (arg2 : Memref sig .tc .vmem S8x2048 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33 .f32) (harg5 : arg5.IsWhole) (hc0 : ¬cond_0 i) (hc1 : ¬cond_1 i)
    (x0 : Vec F S8x2048x32 .f32) (x1 : Vec F S8x2048 .i32) (x2 : Vec F S8x33x32 .f32) (xs0 : Vec F S8x33 .f32) : Vec F S8x33 .f32 :=
  VS_0.read (Elt F) (VS_0.writes (Elt F) VS_0.junk (kernelRun_B c i arg1 harg1 arg2 harg2 arg3 harg3 arg4 harg4 arg5 harg5 hc0 hc1 x0 x1 x2 xs0).1)

theorem cover_C_3 (c : Dev nD) (i : grid1.Coords) (arg1 : Memref sig .tc .vmem S8x2048x32 .f32) (harg1 : arg1.IsWhole) (arg2 : Memref sig .tc .vmem S8x2048 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33 .f32) (harg5 : arg5.IsWhole) (hc0 : ¬cond_0 i) (hc1 : cond_1 i)
    (x0 : Vec F S8x2048x32 .f32) (x1 : Vec F S8x2048 .i32) (x2 : Vec F S8x33x32 .f32) (xs0 : Vec F S8x33 .f32) (y : S8x33.Idx) :
    ∃ pc ∈ (kernelRun_C c i arg1 harg1 arg2 harg2 arg3 harg3 arg4 harg4 arg5 harg5 hc0 hc1 x0 x1 x2 xs0).1, y ∈ pc.1.set :=
  View.cover_of_tiledL (kernelRun_C c i arg1 harg1 arg2 harg2 arg3 harg3 arg4 harg4 arg5 harg5 hc0 hc1 x0 x1 x2 xs0).1 S8x33.size (by sl_kernel_rfl) y
theorem scover_C_0 (c : Dev nD) (i : grid1.Coords) (arg1 : Memref sig .tc .vmem S8x2048x32 .f32) (harg1 : arg1.IsWhole) (arg2 : Memref sig .tc .vmem S8x2048 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33 .f32) (harg5 : arg5.IsWhole) (hc0 : ¬cond_0 i) (hc1 : cond_1 i)
    (x0 : Vec F S8x2048x32 .f32) (x1 : Vec F S8x2048 .i32) (x2 : Vec F S8x33x32 .f32) (xs0 : Vec F S8x33 .f32) (y : S8x33.Idx) :
    ∃ pc ∈ (kernelRun_C c i arg1 harg1 arg2 harg2 arg3 harg3 arg4 harg4 arg5 harg5 hc0 hc1 x0 x1 x2 xs0).2.1, y ∈ pc.1.set :=
  View.cover_of_tiledL (kernelRun_C c i arg1 harg1 arg2 harg2 arg3 harg3 arg4 harg4 arg5 harg5 hc0 hc1 x0 x1 x2 xs0).2.1 S8x33.size (by sl_kernel_rfl) y
/-- The result block as the last tile stores it. -/
def out_C_3 (c : Dev nD) (i : grid1.Coords) (arg1 : Memref sig .tc .vmem S8x2048x32 .f32) (harg1 : arg1.IsWhole) (arg2 : Memref sig .tc .vmem S8x2048 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33 .f32) (harg5 : arg5.IsWhole) (hc0 : ¬cond_0 i) (hc1 : cond_1 i)
    (x0 : Vec F S8x2048x32 .f32) (x1 : Vec F S8x2048 .i32) (x2 : Vec F S8x33x32 .f32) (xs0 : Vec F S8x33 .f32) : Vec F S8x33 .f32 :=
  VO_3.read (Elt F) (VO_3.writes (Elt F) VO_3.junk (kernelRun_C c i arg1 harg1 arg2 harg2 arg3 harg3 arg4 harg4 arg5 harg5 hc0 hc1 x0 x1 x2 xs0).1)
/-- The accumulator after the last tile. -/
def sout_C_0 (c : Dev nD) (i : grid1.Coords) (arg1 : Memref sig .tc .vmem S8x2048x32 .f32) (harg1 : arg1.IsWhole) (arg2 : Memref sig .tc .vmem S8x2048 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33 .f32) (harg5 : arg5.IsWhole) (hc0 : ¬cond_0 i) (hc1 : cond_1 i)
    (x0 : Vec F S8x2048x32 .f32) (x1 : Vec F S8x2048 .i32) (x2 : Vec F S8x33x32 .f32) (xs0 : Vec F S8x33 .f32) : Vec F S8x33 .f32 :=
  VS_0.read (Elt F) (VS_0.writes (Elt F) VS_0.junk (kernelRun_C c i arg1 harg1 arg2 harg2 arg3 harg3 arg4 harg4 arg5 harg5 hc0 hc1 x0 x1 x2 xs0).2.1)

/-- Placeholder for the result block at a tile that stores nothing into it (never consulted: the block is neither
    written back there nor read later). -/
def idle_3 : Vec F S8x33 .f32 := VO_3.read (Elt F) (VO_3.writes (Elt F) VO_3.junk [])

/-! ## The accumulation, tile by tile -/

/-- After tile `n`: (the result block, the accumulator). -/
def outsAt (c : Dev nD) : (n : ℕ) → n < cfg1.N → Vec F S8x33 .f32 × Vec F S8x33 .f32
  | 0, hn => (idle_3,
      sout_A_0 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM_0 (Memref.isWhole_whole _) ((hcond_0 ⟨0, hn⟩).mpr rfl) (fun h => absurd ((hcond_1 ⟨0, hn⟩).mp h) (show ¬ (0 : ℕ) = 31 by decide)) (iblk V c 0 ⟨0, hn⟩) (iblk V c 1 ⟨0, hn⟩) (iblk V c 2 ⟨0, hn⟩))
  | n + 1, hn =>
    if h1 : n + 1 = 31 then
      (out_C_3 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) (fun h => absurd ((hcond_0 ⟨n + 1, hn⟩).mp h) (Nat.succ_ne_zero n)) ((hcond_1 ⟨n + 1, hn⟩).mpr h1) (iblk V c 0 ⟨n + 1, hn⟩) (iblk V c 1 ⟨n + 1, hn⟩) (iblk V c 2 ⟨n + 1, hn⟩) (outsAt c n (Nat.lt_of_succ_lt hn)).2,
       sout_C_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) (fun h => absurd ((hcond_0 ⟨n + 1, hn⟩).mp h) (Nat.succ_ne_zero n)) ((hcond_1 ⟨n + 1, hn⟩).mpr h1) (iblk V c 0 ⟨n + 1, hn⟩) (iblk V c 1 ⟨n + 1, hn⟩) (iblk V c 2 ⟨n + 1, hn⟩) (outsAt c n (Nat.lt_of_succ_lt hn)).2)
    else
      (idle_3,
       sout_B_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM_0 (Memref.isWhole_whole _) (fun h => absurd ((hcond_0 ⟨n + 1, hn⟩).mp h) (Nat.succ_ne_zero n)) (fun h => h1 ((hcond_1 ⟨n + 1, hn⟩).mp h)) (iblk V c 0 ⟨n + 1, hn⟩) (iblk V c 1 ⟨n + 1, hn⟩) (iblk V c 2 ⟨n + 1, hn⟩) (outsAt c n (Nat.lt_of_succ_lt hn)).2)

/-- The tile before `t` (for `t` not the first). -/
abbrev prevLt (t : Fin cfg1.N) : t.val - 1 < cfg1.N := Nat.lt_of_le_of_lt (Nat.sub_le _ _) t.isLt

theorem outsAt_A (c : Dev nD) (t : Fin cfg1.N) (h0 : t.val = 0) (h1 : ¬t.val = 31) :
    outsAt V c t.val t.isLt = (idle_3,
      sout_A_0 c (grid1.coords t) (ms_0 t) (hs_0 t) (ms_1 t) (hs_1 t) (ms_2 t) (hs_2 t) (ms_3 t) (hs_3 t) scM_0 (Memref.isWhole_whole _) ((hcond_0 t).mpr h0) (fun h => h1 ((hcond_1 t).mp h)) (iblk V c 0 t) (iblk V c 1 t) (iblk V c 2 t)) := by
  obtain ⟨n, hn⟩ := t
  cases n with
  | zero => rfl
  | succ n => exact absurd h0 (Nat.succ_ne_zero n)

theorem outsAt_B (c : Dev nD) (t : Fin cfg1.N) (h0 : ¬t.val = 0) (h1 : ¬t.val = 31) :
    outsAt V c t.val t.isLt = (idle_3,
      sout_B_0 c (grid1.coords t) (ms_0 t) (hs_0 t) (ms_1 t) (hs_1 t) (ms_2 t) (hs_2 t) (ms_3 t) (hs_3 t) scM_0 (Memref.isWhole_whole _) (fun h => h0 ((hcond_0 t).mp h)) (fun h => h1 ((hcond_1 t).mp h)) (iblk V c 0 t) (iblk V c 1 t) (iblk V c 2 t) (outsAt V c (t.val - 1) (prevLt t)).2) := by
  obtain ⟨n, hn⟩ := t
  cases n with
  | zero => exact absurd rfl h0
  | succ n => exact (dif_neg h1).trans rfl

theorem outsAt_C (c : Dev nD) (t : Fin cfg1.N) (h0 : ¬t.val = 0) (h1 : t.val = 31) :
    outsAt V c t.val t.isLt =
      (out_C_3 c (grid1.coords t) (ms_0 t) (hs_0 t) (ms_1 t) (hs_1 t) (ms_2 t) (hs_2 t) (ms_3 t) (hs_3 t) scM_0 (Memref.isWhole_whole _) (fun h => h0 ((hcond_0 t).mp h)) ((hcond_1 t).mpr h1) (iblk V c 0 t) (iblk V c 1 t) (iblk V c 2 t) (outsAt V c (t.val - 1) (prevLt t)).2,
       sout_C_0 c (grid1.coords t) (ms_0 t) (hs_0 t) (ms_1 t) (hs_1 t) (ms_2 t) (hs_2 t) (ms_3 t) (hs_3 t) scM_0 (Memref.isWhole_whole _) (fun h => h0 ((hcond_0 t).mp h)) ((hcond_1 t).mpr h1) (iblk V c 0 t) (iblk V c 1 t) (iblk V c 2 t) (outsAt V c (t.val - 1) (prevLt t)).2) := by
  obtain ⟨n, hn⟩ := t
  cases n with
  | zero => exact absurd rfl h0
  | succ n => exact (dif_pos h1).trans rfl

/-! ## The invariant between tiles -/

/-- Before tile `n`: at the first tile whatever the region was handed; afterwards the accumulator at what tile
    `n - 1` left, the other region's scoped buffers and the generator register riding along. -/
def PhiS (c : Dev nD) : (n : ℕ) → n ≤ cfg1.N → sProp 𝕄
  | 0, _ => Pipeline.ΦA spec1 c
  | n + 1, hn => iprop(iprop(otherScoped c ∗ owns (c : Thread nD τ) scM_0 fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(otherScoped c ∗ owns (c : Thread nD τ) scM_0 fullShare ((outsAt V c n hn).2)) ∗ (∃ r, prngReg c r)) := rfl
theorem PhiS_pos (c : Dev nD) (n : ℕ) (h : n ≤ cfg1.N) (hz : n ≠ 0) :
    PhiS V c n h = iprop(iprop(otherScoped c ∗ owns (c : Thread nD τ) scM_0 fullShare ((outsAt V c (n - 1) (by omega)).2)) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  have hN : t.val < 32 := lt_of_lt_of_eq t.isLt (show cfg1.N = 32 from N_1)
  by_cases h1 : t.val = 31
  · have h0 : ¬t.val = 0 := by omega
    rw [show (dat V c).leavesExact 3 t = owns (c : Thread nD τ) (ms_3 t) fullShare ((dat V c).after 3 t) from by
      unfold Dat.leavesExact; rw [liveAt_3 t ((hcond_1 t).mpr h1)], after_3]
    rw [outsAt_C V c t h0 h1]
    unfold out_C_3 sout_C_0; (try dsimp only)
    rw [PhiS_castSucc V c t, PhiS_pos V c _ _ h0]
    iintro ⟨⟨⟨Hoth, HS0⟩, Hg⟩, Ho, ⟨%d0, H0⟩, ⟨%d1, H1⟩, ⟨%d2, H2⟩, ⟨%d3, H3⟩⟩
    iapply ((kernelRun_C c (grid1.coords t) _ _ _ _ _ _ _ _ _ _ (fun h => h0 ((hcond_0 t).mp h)) ((hcond_1 t).mpr h1) (iblk V c 0 t) (iblk V c 1 t) (iblk V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hoth Hg]
    · isplitl [HS0 Hoth]
      · isplitl [Hoth]; · iexact Hoth
        unfold owns; iexists _; isplitr
        swap; · iexact HS0
        ipureintro; exact View.read_writes_of_cover _ _ _ _ _ (scover_C_0 c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover_C_3 c _ _ _ _ _ _ _ _ _ _ _ _ _ _ _ _ _)
  · rw [Dat.leavesExact_idle (dat V c) 3 t (idleAt_3 t (fun h => h1 ((hcond_1 t).mp h))) (noFlush_3 t (fun h => h1 ((hcond_1 t).mp h)))]
    by_cases h0 : t.val = 0
    · rw [outsAt_A V c t h0 h1]
      unfold sout_A_0; (try dsimp only)
      rw [PhiS_castSucc V c t, PhiS_zero V c _ _ h0, PhiA_eq]
      iintro ⟨⟨⟨Hoth, HS0⟩, Hg⟩, Ho, ⟨%d0, H0⟩, ⟨%d1, H1⟩, ⟨%d2, H2⟩, ⟨%d3, H3⟩⟩
      iapply ((kernelRun_A c (grid1.coords t) _ _ _ _ _ _ _ _ _ _ ((hcond_0 t).mpr h0) (fun h => h1 ((hcond_1 t).mp h)) (iblk V c 0 t) (iblk V c 1 t) (iblk V c 2 t)).2 Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [Hoth]; · iexact Hoth
          unfold owns; iexists _; isplitr
          swap; · iexact HS0
          ipureintro; exact View.read_writes_of_cover _ _ _ _ _ (scover_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [outsAt_B V c t h0 h1]
      unfold sout_B_0; (try dsimp only)
      rw [PhiS_castSucc V c t, PhiS_pos V c _ _ h0]
      iintro ⟨⟨⟨Hoth, HS0⟩, Hg⟩, Ho, ⟨%d0, H0⟩, ⟨%d1, H1⟩, ⟨%d2, H2⟩, ⟨%d3, H3⟩⟩
      iapply ((kernelRun_B c (grid1.coords t) _ _ _ _ _ _ _ _ _ _ (fun h => h0 ((hcond_0 t).mp h)) (fun h => h1 ((hcond_1 t).mp h)) (iblk V c 0 t) (iblk V c 1 t) (iblk V c 2 t) _).2 Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [Hoth]; · iexact Hoth
          unfold owns; iexists _; isplitr
          swap; · iexact HS0
          ipureintro; exact View.read_writes_of_cover _ _ _ _ _ (scover_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation (c : Dev nD) : BodyObligation (dat (F := F) V c) (defs₀ (F := F)) Variants.none () Set.univ := fun t => by
  rw [bigSep_W1, bigSep_W1]
  exact sound_body V c t

/-- What the region is handed is the invariant before the first tile. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last tile the invariant gives it back, the accumulator's contents forgotten. -/
theorem hout (c : Dev nD) : (dat V c).Φ (Fin.last cfg1.N) ⊢ Pipeline.ΦA spec1 c := by
  have ht : (Fin.last cfg1.N).val ≠ 0 := by rw [Fin.val_last]; have : cfg1.N = 32 := N_1; omega
  rw [show (dat V c).Φ (Fin.last cfg1.N) = PhiS V c (Fin.last cfg1.N).val (Nat.le_of_lt_succ (Fin.last cfg1.N).isLt) from rfl, PhiS_pos V c _ _ ht, PhiA_eq]
  iintro ⟨⟨Hoth, HS0⟩, Hg⟩
  isplitl [HS0 Hoth]
  · isplitl [Hoth]; · iexact Hoth
    iexists _; iexact HS0
  iexact Hg

end Cert.KernelIdeal.Reg1

end
-- ==== Proof.KI.RunCond.lean ====
/-
  The run of the whole program from the two regions' segment records. Between @main's items every unscoped buffer
  of the core is held at a valuation: the launch contents, then what region 0 leaves in its two result arrays, the
  host operations up to region 1 applied, what region 1 leaves in its result array, and the remaining host operations
  applied. At the end the result scalar and the two arguments are read off the last valuation.
-/
import proofs.«420528_j52673478918521_3_alg».proof.Proof.Gen.KernelIdeal.Regions

set_option maxRecDepth 1072

noncomputable section

namespace Cert.KernelIdeal.RunCond

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The run of @main given the two regions' segment records: as the conditional frame, with the result buffer's final
    contents (the last valuation at `main_v80`) kept in the post beside the unchanged arguments. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      r.2.mem ((c.tc : Thread nD τ).loc main_v80) = V10 m outs c main_v80
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨hpre0 c, hpost0 c, hpre1 c, hpost1 c, .rfl, .rfl, .rfl, .rfl, .rfl, .rfl, sep_mono .rfl (hE2 c)⟩)
    (hinit := ?_) (QY := fun c s => s.mem ((c.tc : Thread nD τ).loc main_v80) = V10 m outs c main_v80 ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact ⟨h (Proc.devRef .tc main_v80) (Finset.mem_filter.mpr ⟨StableHlo.devRef_mem_tcRefs main_v80, by decide⟩), (h (Proc.devRef .tc main_arg0) (Finset.mem_filter.mpr ⟨StableHlo.devRef_mem_tcRefs main_arg0, by decide⟩)).trans (V10_main_arg0 m outs c),
        (h (Proc.devRef .tc main_arg1) (Finset.mem_filter.mpr ⟨StableHlo.devRef_mem_tcRefs main_arg1, by decide⟩)).trans (V10_main_arg1 m outs c)⟩
    · iexact HSI

end Cert.KernelIdeal.RunCond

end
-- ==== Proof.KI.Run.lean ====
/-
  The two regions put together. Region 0 is entered with the launch memory and leaves the per-label segment sums
  and counts in its two result arrays; the host operations between the regions make the centers; region 1 is
  entered with those and leaves the per-label hinge sums in its result array; the remaining host operations make
  the scalar loss. The run: every weakly fair execution terminates, the result buffer ends at the last valuation's
  contents, the arguments end unchanged.
-/
import proofs.«420528_j52673478918521_3_alg».proof.Proof.KI.R0Frame
import proofs.«420528_j52673478918521_3_alg».proof.Proof.KI.R1Frame
import proofs.«420528_j52673478918521_3_alg».proof.Proof.KI.RunCond
import Idealize.ShloMosaic.Lib.Pipeline.FrameSuffix
import Idealize.ShloMosaic.Lib.Pipeline.RegionsLoop

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between @main's items -/

/-- Region 0's entry contents: the launch memory. -/
abbrev Vr0 : (c : Dev nD) → (b : Ref sig .tc) → Buf (Elt F) ((c : Thread nD τ).loc b) := fun c b => V0 m c b

/-- After region 0: its arrays at what the pipeline wrote back, every other buffer as launched. -/
def W1 (c : Dev nD) : Valuation τ sig (Elt F) :=
  Pipeline.withArrays spec0 c (V0 m c) fun w => (Reg0.dat (Vr0 m) c).arrAt w cfg0.N

/-- What region 0 leaves, as the family the valuations between the items are written over. -/
def outsA : Outs (F := F) := fun _ r c => W1 m c r

/-- Region 1's entry contents: the host operations between the regions applied. -/
abbrev Vr2 : (c : Dev nD) → (b : Ref sig .tc) → Buf (Elt F) ((c : Thread nD τ).loc b) := fun c b => V2 m (outsA m) c b

/-- After region 1: its arrays at what the pipeline wrote back, every other buffer as entered. -/
def W3 (c : Dev nD) : Valuation τ sig (Elt F) :=
  Pipeline.withArrays spec1 c (V2 m (outsA m) c) fun w => (Reg1.dat (Vr2 m) c).arrAt w cfg1.N

/-- What both regions leave: region 1's result is read at item 3, region 0's at item 1. -/
def outs : Outs (F := F) := fun J r c => if J = 3 then W3 m c r else W1 m c r

theorem outs_one (r : Ref sig .tc) (c : Dev nD) : outs m 1 r c = W1 m c r := rfl
theorem outs_three (r : Ref sig .tc) (c : Dev nD) : outs m 3 r c = W3 m c r := rfl
theorem V1_outs (c : Dev nD) : V1 m (outs m) c = V1 m (outsA m) c := rfl
theorem V2_outs (c : Dev nD) : V2 m (outs m) c = V2 m (outsA m) c := rfl

/-- Region 0's result arrays after it: the write-backs folded. -/
theorem outs_v0_0 (c : Dev nD) : outs m 1 main_v0_0 c = (Reg0.dat (Vr0 m) c).arrAt 2 cfg0.N := by
  show W1 m c (Proc.devRef .tc (Pipeline.arrRef spec0 2)) = _
  unfold W1; exact Pipeline.withArrays_arr spec0 launch0.win.arr_inj c _ _ 2
theorem outs_v0_1 (c : Dev nD) : outs m 1 main_v0_1 c = (Reg0.dat (Vr0 m) c).arrAt 3 cfg0.N := by
  show W1 m c (Proc.devRef .tc (Pipeline.arrRef spec0 3)) = _
  unfold W1; exact Pipeline.withArrays_arr spec0 launch0.win.arr_inj c _ _ 3
/-- Region 1's result array after it. -/
theorem outs_v13 (c : Dev nD) : outs m 3 main_v13 c = (Reg1.dat (Vr2 m) c).arrAt 3 cfg1.N := by
  show W3 m c (Proc.devRef .tc (Pipeline.arrRef spec1 3)) = _
  unfold W3; exact Pipeline.withArrays_arr spec1 launch1.win.arr_inj c _ _ 3

/-- At region 0's exit each of its arrays holds what the pipeline leaves, -/
theorem hF0 (c : Dev nD) (w : Fin cfg0.W) : (Reg0.dat (Vr0 m) c).arrAt w cfg0.N = V1 m (outs m) c (Pipeline.arrRef spec0 w) :=
  match w with
  | ⟨0, _⟩ => (((Reg0.dat (Vr0 m) c).arrAt_in 0 rfl _).trans (Reg0.A_eq (Vr0 m) c 0)).trans (V1_of m (outs m) c main_arg0 (by decide)).symm
  | ⟨1, _⟩ => (((Reg0.dat (Vr0 m) c).arrAt_in 1 rfl _).trans (Reg0.A_eq (Vr0 m) c 1)).trans (V1_of m (outs m) c main_arg1 (by decide)).symm
  | ⟨2, _⟩ => by
      show _ = V1 m (outs m) c main_v0_0
      simp only [V1, Function.update_of_ne (StableHlo.devRef_ne_of_ne (by decide) : (Proc.devRef .tc main_v0_0 : DevRef τ sig) ≠ Proc.devRef .tc main_v0_1), Function.update_self]
      exact (outs_v0_0 m c).symm
  | ⟨3, _⟩ => by
      show _ = V1 m (outs m) c main_v0_1
      simp only [V1, Function.update_self]
      exact (outs_v0_1 m c).symm
/-- and every other buffer what it held at entry. -/
theorem hrest0 (c : Dev nD) : ∀ b, b ∉ Finset.univ.image (Pipeline.arrRef spec0) → V1 m (outs m) c b = Vr0 m c b :=
  fun b hb => V1_of m (outs m) c b (by
    intro h
    rcases List.mem_cons.mp h with rfl | h
    · exact hb (Finset.mem_image.mpr ⟨2, Finset.mem_univ _, rfl⟩)
    · rcases List.mem_cons.mp h with rfl | h
      · exact hb (Finset.mem_image.mpr ⟨3, Finset.mem_univ _, rfl⟩)
      · exact absurd h (List.not_mem_nil))

theorem hF1 (c : Dev nD) (w : Fin cfg1.W) : (Reg1.dat (Vr2 m) c).arrAt w cfg1.N = V3 m (outs m) c (Pipeline.arrRef spec1 w) :=
  match w with
  | ⟨0, _⟩ => (((Reg1.dat (Vr2 m) c).arrAt_in 0 rfl _).trans (Reg1.A_eq (Vr2 m) c 0)).trans (V3_of m (outs m) c main_arg0 (by decide)).symm
  | ⟨1, _⟩ => (((Reg1.dat (Vr2 m) c).arrAt_in 1 rfl _).trans (Reg1.A_eq (Vr2 m) c 1)).trans (V3_of m (outs m) c main_arg1 (by decide)).symm
  | ⟨2, _⟩ => (((Reg1.dat (Vr2 m) c).arrAt_in 2 rfl _).trans (Reg1.A_eq (Vr2 m) c 2)).trans (V3_of m (outs m) c main_v5 (by decide)).symm
  | ⟨3, _⟩ => by
      show _ = V3 m (outs m) c main_v13
      simp only [V3, Function.update_self]
      exact (outs_v13 m c).symm
theorem hrest1 (c : Dev nD) : ∀ b, b ∉ Finset.univ.image (Pipeline.arrRef spec1) → V3 m (outs m) c b = Vr2 m c b :=
  fun b hb => V3_of m (outs m) c b (by
    intro h
    rcases List.mem_cons.mp h with rfl | h
    · exact hb (Finset.mem_image.mpr ⟨3, Finset.mem_univ _, rfl⟩)
    · exact absurd h (List.not_mem_nil))

/-! ## The proof data family and what rides beside the buffers -/

def pdats : (p : Fin 2) → (c : Dev nD) → Dat τ (Elt F) Unit ℕ (UR sig nD τ) ℕ (cfgs p) c
  | ⟨0, _⟩ => fun c => Reg0.dat (Vr0 m) c
  | ⟨1, _⟩ => fun c => Reg1.dat (Vr2 m) c
abbrev 𝒱₀ : Variants := Variants.none
abbrev L : GSem nD τ sig → Finset Unit := fun _ => ∅
abbrev lv : GSem nD τ sig → Unit → ℕ := fun _ _ => 0
/-- Beside the buffers through every item: the generator register at some state, and the core owing nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0 as a segment: entered with every unscoped buffer at its entry valuation, left with the region's arrays
    at what the pipeline wrote back and every other buffer as entered; the accumulators and the other region's scoped
    buffers go into the region's invariant and come back at contents not named; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (Vr0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) (Reg0.A_eq (Vr0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reg0.hin (Vr0 m) c)
    unfold Pipeline.ΦA
    iintro ⟨Hp, -, Hr⟩
    isplitl [Hr]; · iexact Hr
    iexact Hp
  hout c := by
    rw [Pipeline.ownSems0_none]
    refine BIBase.Entails.trans (Reg0.hout (Vr0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (fun b => V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at its entry valuation, left with the region's arrays
    at what the pipeline wrote back and every other buffer as entered; the accumulators and the other region's scoped
    buffers go into the region's invariant and come back at contents not named; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (Vr2 m) c).loose
  hwaits := Pipeline.hwaits_of_owed_zero _ _ _ _ L lv 1 fun _ _ => rfl
  pre c := iprop(StableHlo.held (c : Thread nD τ) (Pipeline.ucRefs τ sig) (V2 m (outsA m) c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vr2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr2 m c) (Reg1.A_eq (Vr2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Reg1.hin (Vr2 m) c)
    unfold Pipeline.ΦA
    iintro ⟨Hp, -, Hr⟩
    isplitl [Hr]; · iexact Hr
    iexact Hp
  hout c := by
    rw [Pipeline.ownSems0_none]
    refine BIBase.Entails.trans (Reg1.hout (Vr2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr2 m c) (fun b => V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
theorem run_main : θ_run defs (onTc (τ := τ) (main (F := F))) ⟨m, fun _ => 0, ρ⟩ (fun r => ∀ c : Dev nD,
      r.2.mem ((c.tc : Thread nD τ).loc main_v80) = V10 m (outs m) c main_v80
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  RunCond.run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by
      iintro ⟨-, HO⟩; iexact HO)
    (reg0 m) (fun c => .rfl) (fun c => .rfl)
    (reg1 m) (fun c => by rw [V2_outs m c]; exact .rfl) (fun c => .rfl)

end Cert.KernelIdeal.Run

end
-- ==== Proof.Tail.lean ====
/-
  The host computation both programs end with, as named functions of the three accumulated arrays: the segment sums
  `s` (8 batches × 33 labels × 32 coordinates), the segment counts `cnt` (8 × 33) and the segment sums of the hinges
  `h` (8 × 33).  Each function is the chain of the tensor operations that compute one value from the values it reads,
  in the order the program states them and with the program's own function terms; `tail` composes them to the loss.
-/
import proofs.«420528_j52673478918521_3_alg».proof.KernelIdeal
import proofs.«420528_j52673478918521_3_alg».proof.Proof.Gen.KernelIdeal

noncomputable section

namespace Cert.Tail

open Idealize.ShloMosaic Idealize.SL.Sem
open Cert.KernelIdeal Cert.KernelIdeal.Facts₀ Cert.KernelIdeal.Facts

variable {F : FTy → Type} [FloatOps F]

/-- The centers: each segment sum divided by its segment's count, the count raised to at least one. -/
def centers (s : (⟨S8x33x32, .f32⟩ : BufTy).Contents (Elt F)) (cnt : (⟨S8x33, .f32⟩ : BufTy).Contents (Elt F)) : (⟨S8x33x32, .f32⟩ : BufTy).Contents (Elt F) :=
  let cst : (⟨S_, .f32⟩ : BufTy).Contents (Elt F) := constant (F := F) S_ .f32 0x3F800000#32
  let v1 : (⟨S8x33, .f32⟩ : BufTy).Contents (Elt F) := (broadcastInDim S8x33 ![] bcast_S_S8x33 : (⟨S_, .f32⟩ : BufTy).Contents (Elt F) → (⟨S8x33, .f32⟩ : BufTy).Contents (Elt F)) cst
  let v2 : (⟨S8x33, .f32⟩ : BufTy).Contents (Elt F) := (maximumf : (⟨S8x33, .f32⟩ : BufTy).Contents (Elt F) → (⟨S8x33, .f32⟩ : BufTy).Contents (Elt F) → (⟨S8x33, .f32⟩ : BufTy).Contents (Elt F)) cnt v1
  let v3 : (⟨S8x33x1, .f32⟩ : BufTy).Contents (Elt F) := (broadcastInDim S8x33x1 ![0, 1] bcast_S8x33_S8x33x1_0_1 : (⟨S8x33, .f32⟩ : BufTy).Contents (Elt F) → (⟨S8x33x1, .f32⟩ : BufTy).Contents (Elt F)) v2
  let v4 : (⟨S8x33x32, .f32⟩ : BufTy).Contents (Elt F) := (broadcastInDim S8x33x32 ![0, 1, 2] bcast_S8x33x1_S8x33x32_0_1_2 : (⟨S8x33x1, .f32⟩ : BufTy).Contents (Elt F) → (⟨S8x33x32, .f32⟩ : BufTy).Contents (Elt F)) v3
  let v5 : (⟨S8x33x32, .f32⟩ : BufTy).Contents (Elt F) := (Host.divf : (⟨S8x33x32, .f32⟩ : BufTy).Contents (Elt F) → (⟨S8x33x32, .f32⟩ : BufTy).Contents (Elt F) → (⟨S8x33x32, .f32⟩ : BufTy).Contents (Elt F)) s v4
  v5

/-- The labels present in a batch: the count is positive; label 0, the background, is cleared. -/
def present (cnt : (⟨S8x33, .f32⟩ : BufTy).Contents (Elt F)) : (⟨S8x33, .i1⟩ : BufTy).Contents (Elt F) :=
  let cst_0 : (⟨S_, .f32⟩ : BufTy).Contents (Elt F) := constant (F := F) S_ .f32 0x00000000#32
  let v6 : (⟨S8x33, .f32⟩ : BufTy).Contents (Elt F) := (broadcastInDim S8x33 ![] bcast_S_S8x33 : (⟨S_, .f32⟩ : BufTy).Contents (Elt F) → (⟨S8x33, .f32⟩ : BufTy).Contents (Elt F)) cst_0
  let v7 : (⟨S8x33, .i1⟩ : BufTy).Contents (Elt F) := (cmpf .ogt : (⟨S8x33, .f32⟩ : BufTy).Contents (Elt F) → (⟨S8x33, .f32⟩ : BufTy).Contents (Elt F) → (⟨S8x33, .i1⟩ : BufTy).Contents (Elt F)) cnt v6
  let c : (⟨S_, .i32⟩ : BufTy).Contents (Elt F) := constantI S_ 32 0#32
  let v8 : (⟨S1, .i32⟩ : BufTy).Contents (Elt F) := (broadcastInDim S1 ![] bcast_S_S1 : (⟨S_, .i32⟩ : BufTy).Contents (Elt F) → (⟨S1, .i32⟩ : BufTy).Contents (Elt F)) c
  let c_1 : (⟨S_, .i1⟩ : BufTy).Contents (Elt F) := constantI S_ 1 0#1
  let v9 : (⟨S8, .i1⟩ : BufTy).Contents (Elt F) := (broadcastInDim S8 ![] bcast_S_S8 : (⟨S_, .i1⟩ : BufTy).Contents (Elt F) → (⟨S8, .i1⟩ : BufTy).Contents (Elt F)) c_1
  let v10 : (⟨S8x33, .i1⟩ : BufTy).Contents (Elt F) := ((fun x i u => Host.scatter scatter_S8x33_S1_S8_0_1_1_0 (fun _ b => b) x i u) : (⟨S8x33, .i1⟩ : BufTy).Contents (Elt F) → (⟨S1, .i32⟩ : BufTy).Contents (Elt F) → (⟨S8, .i1⟩ : BufTy).Contents (Elt F) → (⟨S8x33, .i1⟩ : BufTy).Contents (Elt F)) v7 v8 v9
  v10

/-- The same mask as the floats 0 and 1. -/
def presentF (p : (⟨S8x33, .i1⟩ : BufTy).Contents (Elt F)) : (⟨S8x33, .f32⟩ : BufTy).Contents (Elt F) :=
  let v11 : (⟨S8x33, .f32⟩ : BufTy).Contents (Elt F) := (uitofp .f32 : (⟨S8x33, .i1⟩ : BufTy).Contents (Elt F) → (⟨S8x33, .f32⟩ : BufTy).Contents (Elt F)) p
  v11

/-- How many instances a batch holds: the mask summed over the labels. -/
def nInst (pf : (⟨S8x33, .f32⟩ : BufTy).Contents (Elt F)) : (⟨S8, .f32⟩ : BufTy).Contents (Elt F) :=
  let cst_2 : (⟨S_, .f32⟩ : BufTy).Contents (Elt F) := constant (F := F) S_ .f32 0x00000000#32
  let v12 : (⟨S8, .f32⟩ : BufTy).Contents (Elt F) := ((fun x v => Host.reduceAdd x v reducesTo_S8x33_S8_d1 h_S_) : (⟨S8x33, .f32⟩ : BufTy).Contents (Elt F) → (⟨S_, .f32⟩ : BufTy).Contents (Elt F) → (⟨S8, .f32⟩ : BufTy).Contents (Elt F)) pf cst_2
  v12

/-- The variance term of a batch: the mean hinge of each present instance (its hinge sum over its count), averaged over the instances. -/
def varTerm (cnt : (⟨S8x33, .f32⟩ : BufTy).Contents (Elt F)) (h : (⟨S8x33, .f32⟩ : BufTy).Contents (Elt F)) (pf : (⟨S8x33, .f32⟩ : BufTy).Contents (Elt F)) (n : (⟨S8, .f32⟩ : BufTy).Contents (Elt F)) : (⟨S8, .f32⟩ : BufTy).Contents (Elt F) :=
  let cst_3 : (⟨S_, .f32⟩ : BufTy).Contents (Elt F) := constant (F := F) S_ .f32 0x3F800000#32
  let v14 : (⟨S8x33, .f32⟩ : BufTy).Contents (Elt F) := (broadcastInDim S8x33 ![] bcast_S_S8x33 : (⟨S_, .f32⟩ : BufTy).Contents (Elt F) → (⟨S8x33, .f32⟩ : BufTy).Contents (Elt F)) cst_3
  let v15 : (⟨S8x33, .f32⟩ : BufTy).Contents (Elt F) := (maximumf : (⟨S8x33, .f32⟩ : BufTy).Contents (Elt F) → (⟨S8x33, .f32⟩ : BufTy).Contents (Elt F) → (⟨S8x33, .f32⟩ : BufTy).Contents (Elt F)) cnt v14
  let v16 : (⟨S8x33, .f32⟩ : BufTy).Contents (Elt F) := (Host.divf : (⟨S8x33, .f32⟩ : BufTy).Contents (Elt F) → (⟨S8x33, .f32⟩ : BufTy).Contents (Elt F) → (⟨S8x33, .f32⟩ : BufTy).Contents (Elt F)) h v15
  let v17 : (⟨S8x33, .f32⟩ : BufTy).Contents (Elt F) := (mulf : (⟨S8x33, .f32⟩ : BufTy).Contents (Elt F) → (⟨S8x33, .f32⟩ : BufTy).Contents (Elt F) → (⟨S8x33, .f32⟩ : BufTy).Contents (Elt F)) v16 pf
  let cst_4 : (⟨S_, .f32⟩ : BufTy).Contents (Elt F) := constant (F := F) S_ .f32 0x00000000#32
  let v18 : (⟨S8, .f32⟩ : BufTy).Contents (Elt F) := ((fun x v => Host.reduceAdd x v reducesTo_S8x33_S8_d1 h_S_) : (⟨S8x33, .f32⟩ : BufTy).Contents (Elt F) → (⟨S_, .f32⟩ : BufTy).Contents (Elt F) → (⟨S8, .f32⟩ : BufTy).Contents (Elt F)) v17 cst_4
  let cst_5 : (⟨S_, .f32⟩ : BufTy).Contents (Elt F) := constant (F := F) S_ .f32 0x3F800000#32
  let v19 : (⟨S8, .f32⟩ : BufTy).Contents (Elt F) := (broadcastInDim S8 ![] bcast_S_S8 : (⟨S_, .f32⟩ : BufTy).Contents (Elt F) → (⟨S8, .f32⟩ : BufTy).Contents (Elt F)) cst_5
  let v20 : (⟨S8, .f32⟩ : BufTy).Contents (Elt F) := (maximumf : (⟨S8, .f32⟩ : BufTy).Contents (Elt F) → (⟨S8, .f32⟩ : BufTy).Contents (Elt F) → (⟨S8, .f32⟩ : BufTy).Contents (Elt F)) n v19
  let v21 : (⟨S8, .f32⟩ : BufTy).Contents (Elt F) := (Host.divf : (⟨S8, .f32⟩ : BufTy).Contents (Elt F) → (⟨S8, .f32⟩ : BufTy).Contents (Elt F) → (⟨S8, .f32⟩ : BufTy).Contents (Elt F)) v18 v20
  v21

/-- The squared distance between every two centers of a batch. -/
def pairD2 (ctr : (⟨S8x33x32, .f32⟩ : BufTy).Contents (Elt F)) : (⟨S8x33x33, .f32⟩ : BufTy).Contents (Elt F) :=
  let v22 : (⟨S8x33x1x32, .f32⟩ : BufTy).Contents (Elt F) := (broadcastInDim S8x33x1x32 ![0, 1, 3] bcast_S8x33x32_S8x33x1x32_0_1_3 : (⟨S8x33x32, .f32⟩ : BufTy).Contents (Elt F) → (⟨S8x33x1x32, .f32⟩ : BufTy).Contents (Elt F)) ctr
  let v23 : (⟨S8x1x33x32, .f32⟩ : BufTy).Contents (Elt F) := (broadcastInDim S8x1x33x32 ![0, 2, 3] bcast_S8x33x32_S8x1x33x32_0_2_3 : (⟨S8x33x32, .f32⟩ : BufTy).Contents (Elt F) → (⟨S8x1x33x32, .f32⟩ : BufTy).Contents (Elt F)) ctr
  let v24 : (⟨S8x33x33x32, .f32⟩ : BufTy).Contents (Elt F) := (broadcastInDim S8x33x33x32 ![0, 1, 2, 3] bcast_S8x33x1x32_S8x33x33x32_0_1_2_3 : (⟨S8x33x1x32, .f32⟩ : BufTy).Contents (Elt F) → (⟨S8x33x33x32, .f32⟩ : BufTy).Contents (Elt F)) v22
  let v25 : (⟨S8x33x33x32, .f32⟩ : BufTy).Contents (Elt F) := (broadcastInDim S8x33x33x32 ![0, 1, 2, 3] bcast_S8x1x33x32_S8x33x33x32_0_1_2_3 : (⟨S8x1x33x32, .f32⟩ : BufTy).Contents (Elt F) → (⟨S8x33x33x32, .f32⟩ : BufTy).Contents (Elt F)) v23
  let v26 : (⟨S8x33x33x32, .f32⟩ : BufTy).Contents (Elt F) := (subf : (⟨S8x33x33x32, .f32⟩ : BufTy).Contents (Elt F) → (⟨S8x33x33x32, .f32⟩ : BufTy).Contents (Elt F) → (⟨S8x33x33x32, .f32⟩ : BufTy).Contents (Elt F)) v24 v25
  let v27 : (⟨S8x33x33x32, .f32⟩ : BufTy).Contents (Elt F) := (mulf : (⟨S8x33x33x32, .f32⟩ : BufTy).Contents (Elt F) → (⟨S8x33x33x32, .f32⟩ : BufTy).Contents (Elt F) → (⟨S8x33x33x32, .f32⟩ : BufTy).Contents (Elt F)) v26 v26
  let cst_6 : (⟨S_, .f32⟩ : BufTy).Contents (Elt F) := constant (F := F) S_ .f32 0x00000000#32
  let v28 : (⟨S8x33x33, .f32⟩ : BufTy).Contents (Elt F) := ((fun x v => Host.reduceAdd x v reducesTo_S8x33x33x32_S8x33x33_d3 h_S_) : (⟨S8x33x33x32, .f32⟩ : BufTy).Contents (Elt F) → (⟨S_, .f32⟩ : BufTy).Contents (Elt F) → (⟨S8x33x33, .f32⟩ : BufTy).Contents (Elt F)) v27 cst_6
  v28

/-- The 33 × 33 mask that holds everywhere. -/
def allTrue : (⟨S33x33, .i1⟩ : BufTy).Contents (Elt F) :=
  let c_7 : (⟨S_, .i1⟩ : BufTy).Contents (Elt F) := constantI S_ 1 1#1
  let v29 : (⟨S33x33, .i1⟩ : BufTy).Contents (Elt F) := (broadcastInDim S33x33 ![] bcast_S_S33x33 : (⟨S_, .i1⟩ : BufTy).Contents (Elt F) → (⟨S33x33, .i1⟩ : BufTy).Contents (Elt F)) c_7
  v29

/-- A mask kept strictly above the diagonal: cleared where row ≥ column. -/
def triu (t : (⟨S33x33, .i1⟩ : BufTy).Contents (Elt F)) : (⟨S33x33, .i1⟩ : BufTy).Contents (Elt F) :=
  let call0_v0 : (⟨S33x33, .i32⟩ : BufTy).Contents (Elt F) := iotaInDim S33x33 32 0
  let call0_c : (⟨S_, .i32⟩ : BufTy).Contents (Elt F) := constantI S_ 32 0#32
  let call0_v1 : (⟨S33x33, .i32⟩ : BufTy).Contents (Elt F) := (broadcastInDim S33x33 ![] bcast_S_S33x33 : (⟨S_, .i32⟩ : BufTy).Contents (Elt F) → (⟨S33x33, .i32⟩ : BufTy).Contents (Elt F)) call0_c
  let call0_v2 : (⟨S33x33, .i32⟩ : BufTy).Contents (Elt F) := (addi : (⟨S33x33, .i32⟩ : BufTy).Contents (Elt F) → (⟨S33x33, .i32⟩ : BufTy).Contents (Elt F) → (⟨S33x33, .i32⟩ : BufTy).Contents (Elt F)) call0_v0 call0_v1
  let call0_v3 : (⟨S33x33, .i32⟩ : BufTy).Contents (Elt F) := iotaInDim S33x33 32 1
  let call0_v4 : (⟨S33x33, .i1⟩ : BufTy).Contents (Elt F) := (cmpi .sge : (⟨S33x33, .i32⟩ : BufTy).Contents (Elt F) → (⟨S33x33, .i32⟩ : BufTy).Contents (Elt F) → (⟨S33x33, .i1⟩ : BufTy).Contents (Elt F)) call0_v2 call0_v3
  let call0_c_0 : (⟨S_, .i1⟩ : BufTy).Contents (Elt F) := constantI S_ 1 0#1
  let call0_v5 : (⟨S33x33, .i1⟩ : BufTy).Contents (Elt F) := (broadcastInDim S33x33 ![] bcast_S_S33x33 : (⟨S_, .i1⟩ : BufTy).Contents (Elt F) → (⟨S33x33, .i1⟩ : BufTy).Contents (Elt F)) call0_c_0
  let v30 : (⟨S33x33, .i1⟩ : BufTy).Contents (Elt F) := (select : (⟨S33x33, .i1⟩ : BufTy).Contents (Elt F) → (⟨S33x33, .i1⟩ : BufTy).Contents (Elt F) → (⟨S33x33, .i1⟩ : BufTy).Contents (Elt F) → (⟨S33x33, .i1⟩ : BufTy).Contents (Elt F)) call0_v4 call0_v5 t
  v30

/-- The pairs of instances that count: both present, the first before the second. -/
def pairMask (p : (⟨S8x33, .i1⟩ : BufTy).Contents (Elt F)) (tr : (⟨S33x33, .i1⟩ : BufTy).Contents (Elt F)) : (⟨S8x33x33, .i1⟩ : BufTy).Contents (Elt F) :=
  let v31 : (⟨S1x33x33, .i1⟩ : BufTy).Contents (Elt F) := (broadcastInDim S1x33x33 ![1, 2] bcast_S33x33_S1x33x33_1_2 : (⟨S33x33, .i1⟩ : BufTy).Contents (Elt F) → (⟨S1x33x33, .i1⟩ : BufTy).Contents (Elt F)) tr
  let v32 : (⟨S8x33x1, .i1⟩ : BufTy).Contents (Elt F) := (broadcastInDim S8x33x1 ![0, 1] bcast_S8x33_S8x33x1_0_1 : (⟨S8x33, .i1⟩ : BufTy).Contents (Elt F) → (⟨S8x33x1, .i1⟩ : BufTy).Contents (Elt F)) p
  let v33 : (⟨S8x1x33, .i1⟩ : BufTy).Contents (Elt F) := (broadcastInDim S8x1x33 ![0, 2] bcast_S8x33_S8x1x33_0_2 : (⟨S8x33, .i1⟩ : BufTy).Contents (Elt F) → (⟨S8x1x33, .i1⟩ : BufTy).Contents (Elt F)) p
  let v34 : (⟨S8x33x33, .i1⟩ : BufTy).Contents (Elt F) := (broadcastInDim S8x33x33 ![0, 1, 2] bcast_S8x33x1_S8x33x33_0_1_2 : (⟨S8x33x1, .i1⟩ : BufTy).Contents (Elt F) → (⟨S8x33x33, .i1⟩ : BufTy).Contents (Elt F)) v32
  let v35 : (⟨S8x33x33, .i1⟩ : BufTy).Contents (Elt F) := (broadcastInDim S8x33x33 ![0, 1, 2] bcast_S8x1x33_S8x33x33_0_1_2 : (⟨S8x1x33, .i1⟩ : BufTy).Contents (Elt F) → (⟨S8x33x33, .i1⟩ : BufTy).Contents (Elt F)) v33
  let v36 : (⟨S8x33x33, .i1⟩ : BufTy).Contents (Elt F) := (andi : (⟨S8x33x33, .i1⟩ : BufTy).Contents (Elt F) → (⟨S8x33x33, .i1⟩ : BufTy).Contents (Elt F) → (⟨S8x33x33, .i1⟩ : BufTy).Contents (Elt F)) v34 v35
  let v37 : (⟨S8x33x33, .i1⟩ : BufTy).Contents (Elt F) := (broadcastInDim S8x33x33 ![0, 1, 2] bcast_S1x33x33_S8x33x33_0_1_2 : (⟨S1x33x33, .i1⟩ : BufTy).Contents (Elt F) → (⟨S8x33x33, .i1⟩ : BufTy).Contents (Elt F)) v31
  let v38 : (⟨S8x33x33, .i1⟩ : BufTy).Contents (Elt F) := (andi : (⟨S8x33x33, .i1⟩ : BufTy).Contents (Elt F) → (⟨S8x33x33, .i1⟩ : BufTy).Contents (Elt F) → (⟨S8x33x33, .i1⟩ : BufTy).Contents (Elt F)) v36 v37
  v38

/-- The constant 1. -/
def one : (⟨S_, .f32⟩ : BufTy).Contents (Elt F) :=
  let cst_8 : (⟨S_, .f32⟩ : BufTy).Contents (Elt F) := constant (F := F) S_ .f32 0x3F800000#32
  cst_8

/-- The squared distance of a pair that counts, and 1 elsewhere (so that the root below is taken of a positive number). -/
def farD2 (pm : (⟨S8x33x33, .i1⟩ : BufTy).Contents (Elt F)) (d2 : (⟨S8x33x33, .f32⟩ : BufTy).Contents (Elt F)) (o : (⟨S_, .f32⟩ : BufTy).Contents (Elt F)) : (⟨S8x33x33, .f32⟩ : BufTy).Contents (Elt F) :=
  let call1_v0 : (⟨S_, .f32⟩ : BufTy).Contents (Elt F) := (id : (⟨S_, .f32⟩ : BufTy).Contents (Elt F) → (⟨S_, .f32⟩ : BufTy).Contents (Elt F)) o
  let call1_v1 : (⟨S8x33x33, .f32⟩ : BufTy).Contents (Elt F) := (broadcastInDim S8x33x33 ![] bcast_S_S8x33x33 : (⟨S_, .f32⟩ : BufTy).Contents (Elt F) → (⟨S8x33x33, .f32⟩ : BufTy).Contents (Elt F)) call1_v0
  let v39 : (⟨S8x33x33, .f32⟩ : BufTy).Contents (Elt F) := (select : (⟨S8x33x33, .i1⟩ : BufTy).Contents (Elt F) → (⟨S8x33x33, .f32⟩ : BufTy).Contents (Elt F) → (⟨S8x33x33, .f32⟩ : BufTy).Contents (Elt F) → (⟨S8x33x33, .f32⟩ : BufTy).Contents (Elt F)) pm d2 call1_v1
  v39

/-- The loss of one batch: the variance term, plus the distance term — the mean over the counting pairs of max(3 − distance, 0), there being n(n−1)/2 of them, at least one —, plus a thousandth of the mean norm of the present centers. -/
def perBatch (w : (⟨S8x33x33, .f32⟩ : BufTy).Contents (Elt F)) (pm : (⟨S8x33x33, .i1⟩ : BufTy).Contents (Elt F)) (n : (⟨S8, .f32⟩ : BufTy).Contents (Elt F)) (ctr : (⟨S8x33x32, .f32⟩ : BufTy).Contents (Elt F)) (pf : (⟨S8x33, .f32⟩ : BufTy).Contents (Elt F)) (vt : (⟨S8, .f32⟩ : BufTy).Contents (Elt F)) : (⟨S8, .f32⟩ : BufTy).Contents (Elt F) :=
  let cst_9 : (⟨S_, .f32⟩ : BufTy).Contents (Elt F) := constant (F := F) S_ .f32 0x2B8CBCCC#32
  let v40 : (⟨S8x33x33, .f32⟩ : BufTy).Contents (Elt F) := (broadcastInDim S8x33x33 ![] bcast_S_S8x33x33 : (⟨S_, .f32⟩ : BufTy).Contents (Elt F) → (⟨S8x33x33, .f32⟩ : BufTy).Contents (Elt F)) cst_9
  let v41 : (⟨S8x33x33, .f32⟩ : BufTy).Contents (Elt F) := (maximumf : (⟨S8x33x33, .f32⟩ : BufTy).Contents (Elt F) → (⟨S8x33x33, .f32⟩ : BufTy).Contents (Elt F) → (⟨S8x33x33, .f32⟩ : BufTy).Contents (Elt F)) w v40
  let v42 : (⟨S8x33x33, .f32⟩ : BufTy).Contents (Elt F) := (Host.sqrt : (⟨S8x33x33, .f32⟩ : BufTy).Contents (Elt F) → (⟨S8x33x33, .f32⟩ : BufTy).Contents (Elt F)) v41
  let cst_10 : (⟨S_, .f32⟩ : BufTy).Contents (Elt F) := constant (F := F) S_ .f32 0x40400000#32
  let v43 : (⟨S8x33x33, .f32⟩ : BufTy).Contents (Elt F) := (broadcastInDim S8x33x33 ![] bcast_S_S8x33x33 : (⟨S_, .f32⟩ : BufTy).Contents (Elt F) → (⟨S8x33x33, .f32⟩ : BufTy).Contents (Elt F)) cst_10
  let v44 : (⟨S8x33x33, .f32⟩ : BufTy).Contents (Elt F) := (subf : (⟨S8x33x33, .f32⟩ : BufTy).Contents (Elt F) → (⟨S8x33x33, .f32⟩ : BufTy).Contents (Elt F) → (⟨S8x33x33, .f32⟩ : BufTy).Contents (Elt F)) v43 v42
  let cst_11 : (⟨S_, .f32⟩ : BufTy).Contents (Elt F) := constant (F := F) S_ .f32 0x00000000#32
  let v45 : (⟨S8x33x33, .f32⟩ : BufTy).Contents (Elt F) := (broadcastInDim S8x33x33 ![] bcast_S_S8x33x33 : (⟨S_, .f32⟩ : BufTy).Contents (Elt F) → (⟨S8x33x33, .f32⟩ : BufTy).Contents (Elt F)) cst_11
  let v46 : (⟨S8x33x33, .f32⟩ : BufTy).Contents (Elt F) := (maximumf : (⟨S8x33x33, .f32⟩ : BufTy).Contents (Elt F) → (⟨S8x33x33, .f32⟩ : BufTy).Contents (Elt F) → (⟨S8x33x33, .f32⟩ : BufTy).Contents (Elt F)) v44 v45
  let v47 : (⟨S8x33x33, .f32⟩ : BufTy).Contents (Elt F) := (uitofp .f32 : (⟨S8x33x33, .i1⟩ : BufTy).Contents (Elt F) → (⟨S8x33x33, .f32⟩ : BufTy).Contents (Elt F)) pm
  let v48 : (⟨S8x33x33, .f32⟩ : BufTy).Contents (Elt F) := (mulf : (⟨S8x33x33, .f32⟩ : BufTy).Contents (Elt F) → (⟨S8x33x33, .f32⟩ : BufTy).Contents (Elt F) → (⟨S8x33x33, .f32⟩ : BufTy).Contents (Elt F)) v46 v47
  let cst_12 : (⟨S_, .f32⟩ : BufTy).Contents (Elt F) := constant (F := F) S_ .f32 0x3F800000#32
  let v49 : (⟨S8, .f32⟩ : BufTy).Contents (Elt F) := (broadcastInDim S8 ![] bcast_S_S8 : (⟨S_, .f32⟩ : BufTy).Contents (Elt F) → (⟨S8, .f32⟩ : BufTy).Contents (Elt F)) cst_12
  let v50 : (⟨S8, .f32⟩ : BufTy).Contents (Elt F) := (subf : (⟨S8, .f32⟩ : BufTy).Contents (Elt F) → (⟨S8, .f32⟩ : BufTy).Contents (Elt F) → (⟨S8, .f32⟩ : BufTy).Contents (Elt F)) n v49
  let v51 : (⟨S8, .f32⟩ : BufTy).Contents (Elt F) := (mulf : (⟨S8, .f32⟩ : BufTy).Contents (Elt F) → (⟨S8, .f32⟩ : BufTy).Contents (Elt F) → (⟨S8, .f32⟩ : BufTy).Contents (Elt F)) n v50
  let cst_13 : (⟨S_, .f32⟩ : BufTy).Contents (Elt F) := constant (F := F) S_ .f32 0x3F000000#32
  let v52 : (⟨S8, .f32⟩ : BufTy).Contents (Elt F) := (broadcastInDim S8 ![] bcast_S_S8 : (⟨S_, .f32⟩ : BufTy).Contents (Elt F) → (⟨S8, .f32⟩ : BufTy).Contents (Elt F)) cst_13
  let v53 : (⟨S8, .f32⟩ : BufTy).Contents (Elt F) := (mulf : (⟨S8, .f32⟩ : BufTy).Contents (Elt F) → (⟨S8, .f32⟩ : BufTy).Contents (Elt F) → (⟨S8, .f32⟩ : BufTy).Contents (Elt F)) v51 v52
  let cst_14 : (⟨S_, .f32⟩ : BufTy).Contents (Elt F) := constant (F := F) S_ .f32 0x00000000#32
  let v54 : (⟨S8, .f32⟩ : BufTy).Contents (Elt F) := ((fun x v => Host.reduceAdd x v reducesTo_S8x33x33_S8_d1_2 h_S_) : (⟨S8x33x33, .f32⟩ : BufTy).Contents (Elt F) → (⟨S_, .f32⟩ : BufTy).Contents (Elt F) → (⟨S8, .f32⟩ : BufTy).Contents (Elt F)) v48 cst_14
  let cst_15 : (⟨S_, .f32⟩ : BufTy).Contents (Elt F) := constant (F := F) S_ .f32 0x3F800000#32
  let v55 : (⟨S8, .f32⟩ : BufTy).Contents (Elt F) := (broadcastInDim S8 ![] bcast_S_S8 : (⟨S_, .f32⟩ : BufTy).Contents (Elt F) → (⟨S8, .f32⟩ : BufTy).Contents (Elt F)) cst_15
  let v56 : (⟨S8, .f32⟩ : BufTy).Contents (Elt F) := (maximumf : (⟨S8, .f32⟩ : BufTy).Contents (Elt F) → (⟨S8, .f32⟩ : BufTy).Contents (Elt F) → (⟨S8, .f32⟩ : BufTy).Contents (Elt F)) v53 v55
  let v57 : (⟨S8, .f32⟩ : BufTy).Contents (Elt F) := (Host.divf : (⟨S8, .f32⟩ : BufTy).Contents (Elt F) → (⟨S8, .f32⟩ : BufTy).Contents (Elt F) → (⟨S8, .f32⟩ : BufTy).Contents (Elt F)) v54 v56
  let v58 : (⟨S8x33x32, .f32⟩ : BufTy).Contents (Elt F) := (mulf : (⟨S8x33x32, .f32⟩ : BufTy).Contents (Elt F) → (⟨S8x33x32, .f32⟩ : BufTy).Contents (Elt F) → (⟨S8x33x32, .f32⟩ : BufTy).Contents (Elt F)) ctr ctr
  let cst_16 : (⟨S_, .f32⟩ : BufTy).Contents (Elt F) := constant (F := F) S_ .f32 0x00000000#32
  let v59 : (⟨S8x33, .f32⟩ : BufTy).Contents (Elt F) := ((fun x v => Host.reduceAdd x v reducesTo_S8x33x32_S8x33_d2 h_S_) : (⟨S8x33x32, .f32⟩ : BufTy).Contents (Elt F) → (⟨S_, .f32⟩ : BufTy).Contents (Elt F) → (⟨S8x33, .f32⟩ : BufTy).Contents (Elt F)) v58 cst_16
  let cst_17 : (⟨S_, .f32⟩ : BufTy).Contents (Elt F) := constant (F := F) S_ .f32 0x2B8CBCCC#32
  let v60 : (⟨S8x33, .f32⟩ : BufTy).Contents (Elt F) := (broadcastInDim S8x33 ![] bcast_S_S8x33 : (⟨S_, .f32⟩ : BufTy).Contents (Elt F) → (⟨S8x33, .f32⟩ : BufTy).Contents (Elt F)) cst_17
  let v61 : (⟨S8x33, .f32⟩ : BufTy).Contents (Elt F) := (maximumf : (⟨S8x33, .f32⟩ : BufTy).Contents (Elt F) → (⟨S8x33, .f32⟩ : BufTy).Contents (Elt F) → (⟨S8x33, .f32⟩ : BufTy).Contents (Elt F)) v59 v60
  let v62 : (⟨S8x33, .f32⟩ : BufTy).Contents (Elt F) := (Host.sqrt : (⟨S8x33, .f32⟩ : BufTy).Contents (Elt F) → (⟨S8x33, .f32⟩ : BufTy).Contents (Elt F)) v61
  let v63 : (⟨S8x33, .f32⟩ : BufTy).Contents (Elt F) := (mulf : (⟨S8x33, .f32⟩ : BufTy).Contents (Elt F) → (⟨S8x33, .f32⟩ : BufTy).Contents (Elt F) → (⟨S8x33, .f32⟩ : BufTy).Contents (Elt F)) v62 pf
  let cst_18 : (⟨S_, .f32⟩ : BufTy).Contents (Elt F) := constant (F := F) S_ .f32 0x00000000#32
  let v64 : (⟨S8, .f32⟩ : BufTy).Contents (Elt F) := ((fun x v => Host.reduceAdd x v reducesTo_S8x33_S8_d1 h_S_) : (⟨S8x33, .f32⟩ : BufTy).Contents (Elt F) → (⟨S_, .f32⟩ : BufTy).Contents (Elt F) → (⟨S8, .f32⟩ : BufTy).Contents (Elt F)) v63 cst_18
  let cst_19 : (⟨S_, .f32⟩ : BufTy).Contents (Elt F) := constant (F := F) S_ .f32 0x3F800000#32
  let v65 : (⟨S8, .f32⟩ : BufTy).Contents (Elt F) := (broadcastInDim S8 ![] bcast_S_S8 : (⟨S_, .f32⟩ : BufTy).Contents (Elt F) → (⟨S8, .f32⟩ : BufTy).Contents (Elt F)) cst_19
  let v66 : (⟨S8, .f32⟩ : BufTy).Contents (Elt F) := (maximumf : (⟨S8, .f32⟩ : BufTy).Contents (Elt F) → (⟨S8, .f32⟩ : BufTy).Contents (Elt F) → (⟨S8, .f32⟩ : BufTy).Contents (Elt F)) n v65
  let v67 : (⟨S8, .f32⟩ : BufTy).Contents (Elt F) := (Host.divf : (⟨S8, .f32⟩ : BufTy).Contents (Elt F) → (⟨S8, .f32⟩ : BufTy).Contents (Elt F) → (⟨S8, .f32⟩ : BufTy).Contents (Elt F)) v64 v66
  let cst_20 : (⟨S_, .f32⟩ : BufTy).Contents (Elt F) := constant (F := F) S_ .f32 0x3F800000#32
  let v68 : (⟨S8, .f32⟩ : BufTy).Contents (Elt F) := (broadcastInDim S8 ![] bcast_S_S8 : (⟨S_, .f32⟩ : BufTy).Contents (Elt F) → (⟨S8, .f32⟩ : BufTy).Contents (Elt F)) cst_20
  let v69 : (⟨S8, .f32⟩ : BufTy).Contents (Elt F) := (mulf : (⟨S8, .f32⟩ : BufTy).Contents (Elt F) → (⟨S8, .f32⟩ : BufTy).Contents (Elt F) → (⟨S8, .f32⟩ : BufTy).Contents (Elt F)) v68 vt
  let cst_21 : (⟨S_, .f32⟩ : BufTy).Contents (Elt F) := constant (F := F) S_ .f32 0x3F800000#32
  let v70 : (⟨S8, .f32⟩ : BufTy).Contents (Elt F) := (broadcastInDim S8 ![] bcast_S_S8 : (⟨S_, .f32⟩ : BufTy).Contents (Elt F) → (⟨S8, .f32⟩ : BufTy).Contents (Elt F)) cst_21
  let v71 : (⟨S8, .f32⟩ : BufTy).Contents (Elt F) := (mulf : (⟨S8, .f32⟩ : BufTy).Contents (Elt F) → (⟨S8, .f32⟩ : BufTy).Contents (Elt F) → (⟨S8, .f32⟩ : BufTy).Contents (Elt F)) v70 v57
  let v72 : (⟨S8, .f32⟩ : BufTy).Contents (Elt F) := (addf : (⟨S8, .f32⟩ : BufTy).Contents (Elt F) → (⟨S8, .f32⟩ : BufTy).Contents (Elt F) → (⟨S8, .f32⟩ : BufTy).Contents (Elt F)) v69 v71
  let cst_22 : (⟨S_, .f32⟩ : BufTy).Contents (Elt F) := constant (F := F) S_ .f32 0x3A83126F#32
  let v73 : (⟨S8, .f32⟩ : BufTy).Contents (Elt F) := (broadcastInDim S8 ![] bcast_S_S8 : (⟨S_, .f32⟩ : BufTy).Contents (Elt F) → (⟨S8, .f32⟩ : BufTy).Contents (Elt F)) cst_22
  let v74 : (⟨S8, .f32⟩ : BufTy).Contents (Elt F) := (mulf : (⟨S8, .f32⟩ : BufTy).Contents (Elt F) → (⟨S8, .f32⟩ : BufTy).Contents (Elt F) → (⟨S8, .f32⟩ : BufTy).Contents (Elt F)) v73 v67
  let v75 : (⟨S8, .f32⟩ : BufTy).Contents (Elt F) := (addf : (⟨S8, .f32⟩ : BufTy).Contents (Elt F) → (⟨S8, .f32⟩ : BufTy).Contents (Elt F) → (⟨S8, .f32⟩ : BufTy).Contents (Elt F)) v72 v74
  v75

/-- The batches that hold an instance. -/
def nonEmpty (n : (⟨S8, .f32⟩ : BufTy).Contents (Elt F)) : (⟨S8, .i1⟩ : BufTy).Contents (Elt F) :=
  let cst_23 : (⟨S_, .f32⟩ : BufTy).Contents (Elt F) := constant (F := F) S_ .f32 0x00000000#32
  let v76 : (⟨S8, .f32⟩ : BufTy).Contents (Elt F) := (broadcastInDim S8 ![] bcast_S_S8 : (⟨S_, .f32⟩ : BufTy).Contents (Elt F) → (⟨S8, .f32⟩ : BufTy).Contents (Elt F)) cst_23
  let v77 : (⟨S8, .i1⟩ : BufTy).Contents (Elt F) := (cmpf .ogt : (⟨S8, .f32⟩ : BufTy).Contents (Elt F) → (⟨S8, .f32⟩ : BufTy).Contents (Elt F) → (⟨S8, .i1⟩ : BufTy).Contents (Elt F)) n v76
  v77

/-- The constant 0. -/
def zero : (⟨S_, .f32⟩ : BufTy).Contents (Elt F) :=
  let cst_24 : (⟨S_, .f32⟩ : BufTy).Contents (Elt F) := constant (F := F) S_ .f32 0x00000000#32
  cst_24

/-- A batch's loss where it holds an instance, else 0. -/
def masked (ne : (⟨S8, .i1⟩ : BufTy).Contents (Elt F)) (pb : (⟨S8, .f32⟩ : BufTy).Contents (Elt F)) (z : (⟨S_, .f32⟩ : BufTy).Contents (Elt F)) : (⟨S8, .f32⟩ : BufTy).Contents (Elt F) :=
  let call2_v0 : (⟨S_, .f32⟩ : BufTy).Contents (Elt F) := (id : (⟨S_, .f32⟩ : BufTy).Contents (Elt F) → (⟨S_, .f32⟩ : BufTy).Contents (Elt F)) z
  let call2_v1 : (⟨S8, .f32⟩ : BufTy).Contents (Elt F) := (broadcastInDim S8 ![] bcast_S_S8 : (⟨S_, .f32⟩ : BufTy).Contents (Elt F) → (⟨S8, .f32⟩ : BufTy).Contents (Elt F)) call2_v0
  let v78 : (⟨S8, .f32⟩ : BufTy).Contents (Elt F) := (select : (⟨S8, .i1⟩ : BufTy).Contents (Elt F) → (⟨S8, .f32⟩ : BufTy).Contents (Elt F) → (⟨S8, .f32⟩ : BufTy).Contents (Elt F) → (⟨S8, .f32⟩ : BufTy).Contents (Elt F)) ne pb call2_v1
  v78

/-- The mean over the 8 batches. -/
def meanLoss (x : (⟨S8, .f32⟩ : BufTy).Contents (Elt F)) : (⟨S_, .f32⟩ : BufTy).Contents (Elt F) :=
  let cst_25 : (⟨S_, .f32⟩ : BufTy).Contents (Elt F) := constant (F := F) S_ .f32 0x00000000#32
  let v79 : (⟨S_, .f32⟩ : BufTy).Contents (Elt F) := ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)) x cst_25
  let cst_26 : (⟨S_, .f32⟩ : BufTy).Contents (Elt F) := constant (F := F) S_ .f32 0x41000000#32
  let v80 : (⟨S_, .f32⟩ : BufTy).Contents (Elt F) := (Host.divf : (⟨S_, .f32⟩ : BufTy).Contents (Elt F) → (⟨S_, .f32⟩ : BufTy).Contents (Elt F) → (⟨S_, .f32⟩ : BufTy).Contents (Elt F)) v79 cst_26
  v80

/-- The loss from the three accumulated arrays. -/
def tail (s : (⟨S8x33x32, .f32⟩ : BufTy).Contents (Elt F)) (cnt : (⟨S8x33, .f32⟩ : BufTy).Contents (Elt F)) (h : (⟨S8x33, .f32⟩ : BufTy).Contents (Elt F)) : (⟨S_, .f32⟩ : BufTy).Contents (Elt F) :=
  let ctr := centers s cnt
  let p := present (F := F) cnt
  let pf := presentF (F := F) p
  let n := nInst pf
  let vt := varTerm cnt h pf n
  let d2 := pairD2 ctr
  let tr := triu (F := F) (allTrue (F := F))
  let pm := pairMask (F := F) p tr
  let w := farD2 pm d2 (one (F := F))
  let pb := perBatch w pm n ctr pf vt
  let ne := nonEmpty n
  meanLoss (masked ne pb (zero (F := F)))

end Cert.Tail

end
-- ==== Proof.KI.Result.lean ====
/-
  What the kernel program's host operations make of its two regions' results.  Between the items of @main the contents
  of the buffers are a chain of valuations: the launch contents, then the first region's two results (the segment sums
  and counts) written in, then a stretch of host operations, then the second region's result (the segment sums of the
  hinges) written in, then seven more stretches.  Each stretch is read at the buffers a later stretch needs, as one of
  the named functions of the shared host computation applied to the values the stretch itself reads; following a value
  from the stretch that makes it to the stretch that reads it (no stretch in between writes it) and composing, the
  centers and the final loss come out as `centers` and `tail` of the three accumulated arrays.
-/
import proofs.«420528_j52673478918521_3_alg».proof.Proof.Tail
import proofs.«420528_j52673478918521_3_alg».proof.Proof.Gen.KernelIdeal.Regions

-- deciding that a reference is not among the fifty a stretch writes recurses past the default depth
set_option maxRecDepth 1072

noncomputable section

namespace Cert.KernelIdeal.Result

open Idealize.ShloMosaic Idealize.ShloMosaic.TcCoe Idealize.SL.Sem
open Cert.KernelIdeal Cert.KernelIdeal.Gen

variable {F : FTy → Type} [FloatOps F]

/-! ## Each stretch, from any contents `W`: the value it leaves at a buffer, as a function of the values it reads -/

section Stretch

variable (W : Valuation τ sig (Elt F))

theorem s1_v5 : StableHlo.after (hostOps1 (F := F)) W (Proc.devRef .tc main_v5) = Tail.centers (W (Proc.devRef .tc main_v0_0)) (W (Proc.devRef .tc main_v0_1)) := by
  after_results; rfl

theorem s1_v10 : StableHlo.after (hostOps1 (F := F)) W (Proc.devRef .tc main_v10) = Tail.present (F := F) (W (Proc.devRef .tc main_v0_1)) := by
  after_results; rfl

theorem s1_v11 : StableHlo.after (hostOps1 (F := F)) W (Proc.devRef .tc main_v11) = Tail.presentF (F := F) (Tail.present (F := F) (W (Proc.devRef .tc main_v0_1))) := by
  after_results; rfl

theorem s1_v12 : StableHlo.after (hostOps1 (F := F)) W (Proc.devRef .tc main_v12) = Tail.nInst (Tail.presentF (F := F) (Tail.present (F := F) (W (Proc.devRef .tc main_v0_1)))) := by
  after_results; rfl

theorem s2_v21 : StableHlo.after (hostOps2 (F := F)) W (Proc.devRef .tc main_v21) = Tail.varTerm (W (Proc.devRef .tc main_v0_1)) (W (Proc.devRef .tc main_v13)) (W (Proc.devRef .tc main_v11)) (W (Proc.devRef .tc main_v12)) := by
  after_results; rfl

theorem s2_v28 : StableHlo.after (hostOps2 (F := F)) W (Proc.devRef .tc main_v28) = Tail.pairD2 (W (Proc.devRef .tc main_v5)) := by
  after_results; rfl

theorem s2_v29 : StableHlo.after (hostOps2 (F := F)) W (Proc.devRef .tc main_v29) = Tail.allTrue (F := F) := by
  after_results; rfl

theorem s3_v30 : StableHlo.after (hostOps2_1 (F := F)) W (Proc.devRef .tc main_v30) = Tail.triu (F := F) (W (Proc.devRef .tc main_v29)) := by
  after_results; rfl

theorem s4_v38 : StableHlo.after (hostOps2_2 (F := F)) W (Proc.devRef .tc main_v38) = Tail.pairMask (F := F) (W (Proc.devRef .tc main_v10)) (W (Proc.devRef .tc main_v30)) := by
  after_results; rfl

theorem s4_cst8 : StableHlo.after (hostOps2_2 (F := F)) W (Proc.devRef .tc main_cst_8) = Tail.one (F := F) := by
  after_results; rfl

theorem s5_v39 : StableHlo.after (hostOps2_3 (F := F)) W (Proc.devRef .tc main_v39) = Tail.farD2 (W (Proc.devRef .tc main_v38)) (W (Proc.devRef .tc main_v28)) (W (Proc.devRef .tc main_cst_8)) := by
  after_results; rfl

theorem s6_v75 : StableHlo.after (hostOps2_4 (F := F)) W (Proc.devRef .tc main_v75) = Tail.perBatch (W (Proc.devRef .tc main_v39)) (W (Proc.devRef .tc main_v38)) (W (Proc.devRef .tc main_v12)) (W (Proc.devRef .tc main_v5)) (W (Proc.devRef .tc main_v11)) (W (Proc.devRef .tc main_v21)) := by
  after_results_simp <;> rfl

theorem s6_v77 : StableHlo.after (hostOps2_4 (F := F)) W (Proc.devRef .tc main_v77) = Tail.nonEmpty (W (Proc.devRef .tc main_v12)) := by
  after_results; rfl

theorem s6_cst24 : StableHlo.after (hostOps2_4 (F := F)) W (Proc.devRef .tc main_cst_24) = Tail.zero (F := F) := by
  after_results; rfl

theorem s7_v78 : StableHlo.after (hostOps2_5 (F := F)) W (Proc.devRef .tc main_v78) = Tail.masked (W (Proc.devRef .tc main_v77)) (W (Proc.devRef .tc main_v75)) (W (Proc.devRef .tc main_cst_24)) := by
  after_results; rfl

theorem s8_v80 : StableHlo.after (hostOps2_6 (F := F)) W (Proc.devRef .tc main_v80) = Tail.meanLoss (W (Proc.devRef .tc main_v78)) := by
  after_results; rfl

end Stretch

/-! ## The three accumulated arrays, and the values made of them -/

section Values

variable (outs : Outs (F := F)) (c : Dev nD)

/-- The segment sums, the segment counts and the segment sums of the hinges: what the two regions leave. -/
abbrev sums : (⟨S8x33x32, .f32⟩ : BufTy).Contents (Elt F) := outs 1 main_v0_0 c
@[inherit_doc sums] abbrev counts : (⟨S8x33, .f32⟩ : BufTy).Contents (Elt F) := outs 1 main_v0_1 c
@[inherit_doc sums] abbrev hsums : (⟨S8x33, .f32⟩ : BufTy).Contents (Elt F) := outs 3 main_v13 c

abbrev ctrV : (⟨S8x33x32, .f32⟩ : BufTy).Contents (Elt F) := Tail.centers (sums outs c) (counts outs c)
abbrev presV : (⟨S8x33, .i1⟩ : BufTy).Contents (Elt F) := Tail.present (F := F) (counts outs c)
abbrev pfV : (⟨S8x33, .f32⟩ : BufTy).Contents (Elt F) := Tail.presentF (F := F) (presV outs c)
abbrev nV : (⟨S8, .f32⟩ : BufTy).Contents (Elt F) := Tail.nInst (pfV outs c)
abbrev vtV : (⟨S8, .f32⟩ : BufTy).Contents (Elt F) := Tail.varTerm (counts outs c) (hsums outs c) (pfV outs c) (nV outs c)
abbrev d2V : (⟨S8x33x33, .f32⟩ : BufTy).Contents (Elt F) := Tail.pairD2 (ctrV outs c)
abbrev trV : (⟨S33x33, .i1⟩ : BufTy).Contents (Elt F) := Tail.triu (F := F) (Tail.allTrue (F := F))
abbrev pmV : (⟨S8x33x33, .i1⟩ : BufTy).Contents (Elt F) := Tail.pairMask (F := F) (presV outs c) (trV (F := F))
abbrev wV : (⟨S8x33x33, .f32⟩ : BufTy).Contents (Elt F) := Tail.farD2 (pmV outs c) (d2V outs c) (Tail.one (F := F))
abbrev pbV : (⟨S8, .f32⟩ : BufTy).Contents (Elt F) := Tail.perBatch (wV outs c) (pmV outs c) (nV outs c) (ctrV outs c) (pfV outs c) (vtV outs c)
abbrev neV : (⟨S8, .i1⟩ : BufTy).Contents (Elt F) := Tail.nonEmpty (nV outs c)
abbrev mkV : (⟨S8, .f32⟩ : BufTy).Contents (Elt F) := Tail.masked (neV outs c) (pbV outs c) (Tail.zero (F := F))

/-- The loss is the mean of the masked per-batch losses: `tail` with its stages named. -/
theorem tail_eq : Tail.tail (sums outs c) (counts outs c) (hsums outs c) = Tail.meanLoss (mkV outs c) := rfl

end Values

/-! ## The values along the chain of valuations -/

section Chain

variable (m : (ℓ : Loc nD τ sig) → Buf (Elt F) ℓ) (outs : Outs (F := F)) (c : Dev nD)

-- after the first region: its two results are where it wrote them
theorem V1_sums : V1 m outs c (Proc.devRef .tc main_v0_0) = sums outs c := by
  simp only [V1, Function.update_of_ne (StableHlo.devRef_ne_of_ne (by decide) : (Proc.devRef .tc main_v0_0 : DevRef τ sig) ≠ Proc.devRef .tc main_v0_1), Function.update_self]
theorem V1_counts : V1 m outs c (Proc.devRef .tc main_v0_1) = counts outs c := by
  simp only [V1, Function.update_self]

-- the first stretch: the centers, the mask of the present labels, the number of instances
theorem V2_v5 : V2 m outs c (Proc.devRef .tc main_v5) = ctrV outs c :=
  (s1_v5 (V1 m outs c)).trans (by rw [V1_sums m outs c, V1_counts m outs c])
theorem V2_v10 : V2 m outs c (Proc.devRef .tc main_v10) = presV outs c :=
  (s1_v10 (V1 m outs c)).trans (by rw [V1_counts m outs c])
theorem V2_v11 : V2 m outs c (Proc.devRef .tc main_v11) = pfV outs c :=
  (s1_v11 (V1 m outs c)).trans (by rw [V1_counts m outs c])
theorem V2_v12 : V2 m outs c (Proc.devRef .tc main_v12) = nV outs c :=
  (s1_v12 (V1 m outs c)).trans (by rw [V1_counts m outs c])

-- after the second region: its result is where it wrote it, the rest as before
theorem V3_hsums : V3 m outs c (Proc.devRef .tc main_v13) = hsums outs c := by
  simp only [V3, Function.update_self]
theorem V3_counts : V3 m outs c (Proc.devRef .tc main_v0_1) = counts outs c :=
  (V3_of m outs c main_v0_1 (by decide)).trans <| (V2_of m outs c main_v0_1 (by decide)).trans <| V1_counts m outs c
theorem V3_v5 : V3 m outs c (Proc.devRef .tc main_v5) = ctrV outs c := (V3_of m outs c main_v5 (by decide)).trans <| V2_v5 m outs c
theorem V3_v11 : V3 m outs c (Proc.devRef .tc main_v11) = pfV outs c := (V3_of m outs c main_v11 (by decide)).trans <| V2_v11 m outs c
theorem V3_v12 : V3 m outs c (Proc.devRef .tc main_v12) = nV outs c := (V3_of m outs c main_v12 (by decide)).trans <| V2_v12 m outs c

-- the second stretch: the variance term, the squared distances between the centers, the all-true mask
theorem V4_v21 : V4 m outs c (Proc.devRef .tc main_v21) = vtV outs c :=
  (s2_v21 (V3 m outs c)).trans (by rw [V3_counts m outs c, V3_hsums m outs c, V3_v11 m outs c, V3_v12 m outs c])
theorem V4_v28 : V4 m outs c (Proc.devRef .tc main_v28) = d2V outs c :=
  (s2_v28 (V3 m outs c)).trans (by rw [V3_v5 m outs c])
theorem V4_v29 : V4 m outs c (Proc.devRef .tc main_v29) = Tail.allTrue (F := F) := s2_v29 (V3 m outs c)

-- the third stretch (the triangular mask), and the present labels carried to it
theorem V5_v30 : V5 m outs c (Proc.devRef .tc main_v30) = trV (F := F) :=
  (s3_v30 (V4 m outs c)).trans (by rw [V4_v29 m outs c])
theorem V5_v10 : V5 m outs c (Proc.devRef .tc main_v10) = presV outs c :=
  (V5_of m outs c main_v10 (by decide)).trans <| (V4_of m outs c main_v10 (by decide)).trans <| (V3_of m outs c main_v10 (by decide)).trans <| V2_v10 m outs c

-- the fourth stretch: the pairs that count, and the constant 1
theorem V6_v38 : V6 m outs c (Proc.devRef .tc main_v38) = pmV outs c :=
  (s4_v38 (V5 m outs c)).trans (by rw [V5_v10 m outs c, V5_v30 m outs c])
theorem V6_cst8 : V6 m outs c (Proc.devRef .tc main_cst_8) = Tail.one (F := F) := s4_cst8 (V5 m outs c)
theorem V6_v28 : V6 m outs c (Proc.devRef .tc main_v28) = d2V outs c :=
  (V6_of m outs c main_v28 (by decide)).trans <| (V5_of m outs c main_v28 (by decide)).trans <| V4_v28 m outs c

-- the fifth stretch: the distances of the counting pairs
theorem V7_v39 : V7 m outs c (Proc.devRef .tc main_v39) = wV outs c :=
  (s5_v39 (V6 m outs c)).trans (by rw [V6_v38 m outs c, V6_v28 m outs c, V6_cst8 m outs c])
theorem V7_v38 : V7 m outs c (Proc.devRef .tc main_v38) = pmV outs c := (V7_of m outs c main_v38 (by decide)).trans <| V6_v38 m outs c
theorem V7_v12 : V7 m outs c (Proc.devRef .tc main_v12) = nV outs c :=
  (V7_of m outs c main_v12 (by decide)).trans <| (V6_of m outs c main_v12 (by decide)).trans <| (V5_of m outs c main_v12 (by decide)).trans <| (V4_of m outs c main_v12 (by decide)).trans <| V3_v12 m outs c
theorem V7_v5 : V7 m outs c (Proc.devRef .tc main_v5) = ctrV outs c :=
  (V7_of m outs c main_v5 (by decide)).trans <| (V6_of m outs c main_v5 (by decide)).trans <| (V5_of m outs c main_v5 (by decide)).trans <| (V4_of m outs c main_v5 (by decide)).trans <| V3_v5 m outs c
theorem V7_v11 : V7 m outs c (Proc.devRef .tc main_v11) = pfV outs c :=
  (V7_of m outs c main_v11 (by decide)).trans <| (V6_of m outs c main_v11 (by decide)).trans <| (V5_of m outs c main_v11 (by decide)).trans <| (V4_of m outs c main_v11 (by decide)).trans <| V3_v11 m outs c
theorem V7_v21 : V7 m outs c (Proc.devRef .tc main_v21) = vtV outs c :=
  (V7_of m outs c main_v21 (by decide)).trans <| (V6_of m outs c main_v21 (by decide)).trans <| (V5_of m outs c main_v21 (by decide)).trans <| V4_v21 m outs c

-- the sixth stretch: the loss of each batch, the batches that hold an instance, the constant 0
theorem V8_v75 : V8 m outs c (Proc.devRef .tc main_v75) = pbV outs c :=
  (s6_v75 (V7 m outs c)).trans (by rw [V7_v39 m outs c, V7_v38 m outs c, V7_v12 m outs c, V7_v5 m outs c, V7_v11 m outs c, V7_v21 m outs c])
theorem V8_v77 : V8 m outs c (Proc.devRef .tc main_v77) = neV outs c :=
  (s6_v77 (V7 m outs c)).trans (by rw [V7_v12 m outs c])
theorem V8_cst24 : V8 m outs c (Proc.devRef .tc main_cst_24) = Tail.zero (F := F) := s6_cst24 (V7 m outs c)

-- the seventh and eighth: the masked losses, their mean
theorem V9_v78 : V9 m outs c (Proc.devRef .tc main_v78) = mkV outs c :=
  (s7_v78 (V8 m outs c)).trans (by rw [V8_v77 m outs c, V8_v75 m outs c, V8_cst24 m outs c])
theorem V10_v80 : V10 m outs c (Proc.devRef .tc main_v80) = Tail.meanLoss (mkV outs c) :=
  (s8_v80 (V9 m outs c)).trans (by rw [V9_v78 m outs c])

/-- The centers the second region reads are `centers` of the first region's two results. -/
theorem centers_eq : V2 m outs c main_v5 = Tail.centers (outs 1 main_v0_0 c) (outs 1 main_v0_1 c) :=
  V2_v5 m outs c

/-- The program's result is `tail` of the two regions' three results. -/
theorem result_eq : V10 m outs c main_v80 = Tail.tail (outs 1 main_v0_0 c) (outs 1 main_v0_1 c) (outs 3 main_v13 c) :=
  (V10_v80 m outs c).trans (tail_eq outs c).symm

end Chain

end Cert.KernelIdeal.Result

end
-- ==== Proof.KI.R0Pieces.lean ====
/-
  Region 0, the pieces each control case leaves, read back as values: at the first tile the accumulators hold the
  tile's partial sums added to the zero block just stored; at a later tile the partial sums added to what the
  accumulators held; at the last tile the result blocks hold the accumulators just updated.
-/
import proofs.«420528_j52673478918521_3_alg».proof.Proof.KI.R0Frame
import Idealize.ShloMosaic.Lib.Pipeline.Value

set_option maxRecDepth 16384

noncomputable section

namespace Cert.KernelIdeal.Reg0V

open Cert.KernelIdeal Cert.KernelIdeal.Gen Cert.KernelIdeal.Reg0
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- First tile, the sums' accumulator: the zero block, then the tile's partial sums added to it. -/
theorem sout_A_0_eq (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : cond_0 i) (hc1 : ¬cond_1 i)
    (x0 : Vec F S8x4096x32 .f32) (x1 : Vec F S8x4096 .i32) :
    sout_A_0 c i arg1 harg1 arg2 harg2 arg3 harg3 arg4 harg4 arg5 harg5 arg6 harg6 hc0 hc1 x0 x1 = k0_pay4 x0 x1 (k0_pay1 (F := F)) := by
  unfold sout_A_0
  rw [View.read_writes_eq_canon _ _ _ (scover_A_0 c i arg1 harg1 arg2 harg2 arg3 harg3 arg4 harg4 arg5 harg5 arg6 harg6 hc0 hc1 x0 x1)]
  unfold kernelRun_A
  dsimp only
  sl_unfold_words
  rw [View.canon_cons_unit_zero (S := S8x33x32) hz3, View.readCov_unit_zero (S := S8x33x32) _ hz3]
  simp only [View.readAt_eq_ld, harg1.read_unread, harg2.read_unread, harg5.read_unread, harg6.read_unread, View.ld_unit_zero (S := S8x4096x32) hz3, View.ld_unit_zero (S := S8x4096) hz2, View.ld_unit_zero (S := S8x33x32) hz3, View.ld_unit_zero (S := S8x33) hz2, View.readCov_unit_zero (S := S8x33x32) _ hz3, View.readCov_unit_zero (S := S8x33) _ hz2]

/-- First tile, the counts' accumulator. -/
theorem sout_A_1_eq (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : cond_0 i) (hc1 : ¬cond_1 i)
    (x0 : Vec F S8x4096x32 .f32) (x1 : Vec F S8x4096 .i32) :
    sout_A_1 c i arg1 harg1 arg2 harg2 arg3 harg3 arg4 harg4 arg5 harg5 arg6 harg6 hc0 hc1 x0 x1 = k0_pay5 x1 (k0_pay2 (F := F)) := by
  unfold sout_A_1
  rw [View.read_writes_eq_canon _ _ _ (scover_A_1 c i arg1 harg1 arg2 harg2 arg3 harg3 arg4 harg4 arg5 harg5 arg6 harg6 hc0 hc1 x0 x1)]
  unfold kernelRun_A
  dsimp only
  sl_unfold_words
  rw [View.canon_cons_unit_zero (S := S8x33) hz2, View.readCov_unit_zero (S := S8x33) _ hz2]
  simp only [View.readAt_eq_ld, harg1.read_unread, harg2.read_unread, harg5.read_unread, harg6.read_unread, View.ld_unit_zero (S := S8x4096x32) hz3, View.ld_unit_zero (S := S8x4096) hz2, View.ld_unit_zero (S := S8x33x32) hz3, View.ld_unit_zero (S := S8x33) hz2, View.readCov_unit_zero (S := S8x33x32) _ hz3, View.readCov_unit_zero (S := S8x33) _ hz2]

/-- A middle tile, the sums' accumulator: the tile's partial sums added to what it held. -/
theorem sout_B_0_eq (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : ¬cond_1 i)
    (x0 : Vec F S8x4096x32 .f32) (x1 : Vec F S8x4096 .i32) (xs0 : Vec F S8x33x32 .f32) (xs1 : Vec F S8x33 .f32) :
    sout_B_0 c i arg1 harg1 arg2 harg2 arg3 harg3 arg4 harg4 arg5 harg5 arg6 harg6 hc0 hc1 x0 x1 xs0 xs1 = k0_pay4 x0 x1 xs0 := by
  unfold sout_B_0
  rw [View.read_writes_eq_canon _ _ _ (scover_B_0 c i arg1 harg1 arg2 harg2 arg3 harg3 arg4 harg4 arg5 harg5 arg6 harg6 hc0 hc1 x0 x1 xs0 xs1)]
  unfold kernelRun_B
  dsimp only
  sl_unfold_words
  rw [View.canon_unit_zero hz3]
  simp only [View.readAt_eq_ld, harg1.read_unread, harg2.read_unread, harg5.read_unread, harg6.read_unread, View.ld_unit_zero (S := S8x4096x32) hz3, View.ld_unit_zero (S := S8x4096) hz2, View.ld_unit_zero (S := S8x33x32) hz3, View.ld_unit_zero (S := S8x33) hz2, View.readCov_unit_zero (S := S8x33x32) _ hz3, View.readCov_unit_zero (S := S8x33) _ hz2]

/-- A middle tile, the counts' accumulator. -/
theorem sout_B_1_eq (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : ¬cond_1 i)
    (x0 : Vec F S8x4096x32 .f32) (x1 : Vec F S8x4096 .i32) (xs0 : Vec F S8x33x32 .f32) (xs1 : Vec F S8x33 .f32) :
    sout_B_1 c i arg1 harg1 arg2 harg2 arg3 harg3 arg4 harg4 arg5 harg5 arg6 harg6 hc0 hc1 x0 x1 xs0 xs1 = k0_pay5 x1 xs1 := by
  unfold sout_B_1
  rw [View.read_writes_eq_canon _ _ _ (scover_B_1 c i arg1 harg1 arg2 harg2 arg3 harg3 arg4 harg4 arg5 harg5 arg6 harg6 hc0 hc1 x0 x1 xs0 xs1)]
  unfold kernelRun_B
  dsimp only
  sl_unfold_words
  rw [View.canon_unit_zero hz2]
  simp only [View.readAt_eq_ld, harg1.read_unread, harg2.read_unread, harg5.read_unread, harg6.read_unread, View.ld_unit_zero (S := S8x4096x32) hz3, View.ld_unit_zero (S := S8x4096) hz2, View.ld_unit_zero (S := S8x33x32) hz3, View.ld_unit_zero (S := S8x33) hz2, View.readCov_unit_zero (S := S8x33x32) _ hz3, View.readCov_unit_zero (S := S8x33) _ hz2]

/-- The last tile, the sums' accumulator. -/
theorem sout_C_0_eq (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : cond_1 i)
    (x0 : Vec F S8x4096x32 .f32) (x1 : Vec F S8x4096 .i32) (xs0 : Vec F S8x33x32 .f32) (xs1 : Vec F S8x33 .f32) :
    sout_C_0 c i arg1 harg1 arg2 harg2 arg3 harg3 arg4 harg4 arg5 harg5 arg6 harg6 hc0 hc1 x0 x1 xs0 xs1 = k0_pay4 x0 x1 xs0 := by
  unfold sout_C_0
  rw [View.read_writes_eq_canon _ _ _ (scover_C_0 c i arg1 harg1 arg2 harg2 arg3 harg3 arg4 harg4 arg5 harg5 arg6 harg6 hc0 hc1 x0 x1 xs0 xs1)]
  unfold kernelRun_C
  dsimp only
  sl_unfold_words
  rw [View.canon_unit_zero hz3]
  simp only [View.readAt_eq_ld, harg1.read_unread, harg2.read_unread, harg5.read_unread, harg6.read_unread, View.ld_unit_zero (S := S8x4096x32) hz3, View.ld_unit_zero (S := S8x4096) hz2, View.ld_unit_zero (S := S8x33x32) hz3, View.ld_unit_zero (S := S8x33) hz2, View.readCov_unit_zero (S := S8x33x32) _ hz3, View.readCov_unit_zero (S := S8x33) _ hz2]

/-- The last tile, the counts' accumulator. -/
theorem sout_C_1_eq (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : cond_1 i)
    (x0 : Vec F S8x4096x32 .f32) (x1 : Vec F S8x4096 .i32) (xs0 : Vec F S8x33x32 .f32) (xs1 : Vec F S8x33 .f32) :
    sout_C_1 c i arg1 harg1 arg2 harg2 arg3 harg3 arg4 harg4 arg5 harg5 arg6 harg6 hc0 hc1 x0 x1 xs0 xs1 = k0_pay5 x1 xs1 := by
  unfold sout_C_1
  rw [View.read_writes_eq_canon _ _ _ (scover_C_1 c i arg1 harg1 arg2 harg2 arg3 harg3 arg4 harg4 arg5 harg5 arg6 harg6 hc0 hc1 x0 x1 xs0 xs1)]
  unfold kernelRun_C
  dsimp only
  sl_unfold_words
  rw [View.canon_unit_zero hz2]
  simp only [View.readAt_eq_ld, harg1.read_unread, harg2.read_unread, harg5.read_unread, harg6.read_unread, View.ld_unit_zero (S := S8x4096x32) hz3, View.ld_unit_zero (S := S8x4096) hz2, View.ld_unit_zero (S := S8x33x32) hz3, View.ld_unit_zero (S := S8x33) hz2, View.readCov_unit_zero (S := S8x33x32) _ hz3, View.readCov_unit_zero (S := S8x33) _ hz2]

/-- The last tile, the sums' result block: the accumulator just updated, read back and stored. -/
theorem out_C_2_eq (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : cond_1 i)
    (x0 : Vec F S8x4096x32 .f32) (x1 : Vec F S8x4096 .i32) (xs0 : Vec F S8x33x32 .f32) (xs1 : Vec F S8x33 .f32) :
    out_C_2 c i arg1 harg1 arg2 harg2 arg3 harg3 arg4 harg4 arg5 harg5 arg6 harg6 hc0 hc1 x0 x1 xs0 xs1 = k0_pay4 x0 x1 xs0 := by
  unfold out_C_2
  rw [View.read_writes_eq_canon _ _ _ (cover_C_2 c i arg1 harg1 arg2 harg2 arg3 harg3 arg4 harg4 arg5 harg5 arg6 harg6 hc0 hc1 x0 x1 xs0 xs1)]
  unfold kernelRun_C
  dsimp only
  sl_unfold_words
  rw [View.canon_unit_zero hz3]
  simp only [View.readAt_eq_ld, harg1.read_unread, harg2.read_unread, harg5.read_unread, harg6.read_unread, View.ld_unit_zero (S := S8x4096x32) hz3, View.ld_unit_zero (S := S8x4096) hz2, View.ld_unit_zero (S := S8x33x32) hz3, View.ld_unit_zero (S := S8x33) hz2, View.readCov_unit_zero (S := S8x33x32) _ hz3, View.readCov_unit_zero (S := S8x33) _ hz2]

/-- The last tile, the counts' result block. -/
theorem out_C_3_eq (c : Dev nD) (i : grid0.Coords) (arg1 : Memref sig .tc .vmem S8x4096x32 .f32) (harg1 : arg1.IsWhole) (arg2 : Memref sig .tc .vmem S8x4096 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33x32 .f32) (harg5 : arg5.IsWhole) (arg6 : Memref sig .tc .vmem S8x33 .f32) (harg6 : arg6.IsWhole) (hc0 : ¬cond_0 i) (hc1 : cond_1 i)
    (x0 : Vec F S8x4096x32 .f32) (x1 : Vec F S8x4096 .i32) (xs0 : Vec F S8x33x32 .f32) (xs1 : Vec F S8x33 .f32) :
    out_C_3 c i arg1 harg1 arg2 harg2 arg3 harg3 arg4 harg4 arg5 harg5 arg6 harg6 hc0 hc1 x0 x1 xs0 xs1 = k0_pay5 x1 xs1 := by
  unfold out_C_3
  rw [View.read_writes_eq_canon _ _ _ (cover_C_3 c i arg1 harg1 arg2 harg2 arg3 harg3 arg4 harg4 arg5 harg5 arg6 harg6 hc0 hc1 x0 x1 xs0 xs1)]
  unfold kernelRun_C
  dsimp only
  sl_unfold_words
  rw [View.canon_unit_zero hz2]
  simp only [View.readAt_eq_ld, harg1.read_unread, harg2.read_unread, harg5.read_unread, harg6.read_unread, View.ld_unit_zero (S := S8x4096x32) hz3, View.ld_unit_zero (S := S8x4096) hz2, View.ld_unit_zero (S := S8x33x32) hz3, View.ld_unit_zero (S := S8x33) hz2, View.readCov_unit_zero (S := S8x33x32) _ hz3, View.readCov_unit_zero (S := S8x33) _ hz2]

end Cert.KernelIdeal.Reg0V

end
-- ==== Proof.KI.R0Payload.lean ====
/-
  Region 0's payloads read at an index, at the ideal values (extended reals; the format changes are the identity).
  With `oh x1 b r k` the one-hot of the tile's label block — 1 when point r of batch b carries label k, else 0:

    the sums' update at (b, k, e)   = what the accumulator held there + Σ_r oh(b, r, k) · x0(b, r, e)
                                      (a product of the one-hot block with the embeddings' block, contracted over
                                       the tile's points, into a zero accumulator);
    the counts' update at (b, k)    = what the accumulator held there + Σ_r oh(b, r, k)   (a sum along the points);
    the two reset blocks            = 0 everywhere.
-/
import proofs.«420528_j52673478918521_3_alg».proof.Proof.Gen.KernelIdeal.Skeleton
import Idealize.ShloMosaic.Lib.Pipeline.Value
import Idealize.ShloMosaic.Lib.ValueIdx
import Idealize.ShloMosaic.PureOps.Ideal.Laws
import Idealize.ShloMosaic.Lib.StableHlo.Predicate

set_option maxRecDepth 16384

noncomputable section

open scoped BigOperators

namespace Cert.KernelIdeal.Reg0V

open Cert.KernelIdeal Cert.KernelIdeal.Gen
open Idealize.ShloMosaic Idealize.ShloMosaic.ValueIdx

/-- The one-hot of a tile's label block at instance id `k`. -/
def oh (x1 : IVec S8x4096 32) (b : Fin 8) (r : Fin 4096) (k : Fin 33) : EReal :=
  if x1 (ix2 b r) = BitVec.ofNat 32 k.val then 1 else 0

/-- The label block, given a trailing unit axis and broadcast along the 33 instance ids, reads the label. -/
theorem lab_apply (x1 : IVec S8x4096 32) (h7 : S8x4096.ShapeCasts S8x4096x1) (h8 : S8x4096x1.Broadcasts S8x4096x33)
    (b : Fin 8) (r : Fin 4096) (k : Fin 33) :
    broadcastTo S8x4096x33 (shapeCast S8x4096x1 x1 h7) h8 (ix3 b r k) = x1 (ix2 b r) := by
  refine (broadcastTo_apply (shapeCast S8x4096x1 x1 h7) h8 (ix3 b r k) (ix3 b r (0 : Fin 1)) (fun a => ?_)).trans ?_
  · match a with
    | ⟨0, _⟩ => rfl
    | ⟨1, _⟩ => rfl
    | ⟨2, _⟩ => rfl
  · refine shapeCast_apply x1 h7 (ix3 b r (0 : Fin 1)) (ix2 b r) ?_
    rw [Shape.rowMajor_val_two, Shape.rowMajor_val_three]
    show b.val * 4096 + r.val = (b.val * 4096 + r.val) * 1 + 0
    omega

/-- The instance ids 0..32 along the last axis, broadcast over batches and points, read the id. -/
theorem ids_apply (h6 : S1x1x33.Iotas .tc 32 [2]) (h9 : S1x1x33.Broadcasts S8x4096x33)
    (b : Fin 8) (r : Fin 4096) (k : Fin 33) :
    broadcastTo S8x4096x33 (iota .tc S1x1x33 32 [2] h6) h9 (ix3 b r k) = BitVec.ofNat 32 k.val := by
  refine (broadcastTo_apply (iota .tc S1x1x33 32 [2] h6) h9 (ix3 b r k) (ix3 (0 : Fin 1) (0 : Fin 1) k) (fun a => ?_)).trans ?_
  · match a with
    | ⟨0, _⟩ => rfl
    | ⟨1, _⟩ => rfl
    | ⟨2, _⟩ => rfl
  · exact iota_single_apply .tc S1x1x33 32 2 h6 (ix3 (0 : Fin 1) (0 : Fin 1) k)

theorem one_word : (BitVec.setWidth 32 (1#1 : BitVec 1)).toInt = 1 := by decide
theorem zero_word : (BitVec.setWidth 32 (0#1 : BitVec 1)).toInt = 0 := by decide

/-- The one-hot block as the kernel makes it (compare, widen, convert) reads `oh`. -/
theorem pay3_apply (x1 : IVec S8x4096 32) (b : Fin 8) (r : Fin 4096) (k : Fin 33) :
    k0_pay3 (F := Ideal) x1 (ix3 b r k) = oh x1 b r k := by
  have e8 := lab_apply x1 shapeCasts_S8x4096_S8x4096x1 broadcasts_S8x4096x1_S8x4096x33 b r k
  have e9 := ids_apply iota_S1x1x33_d2_w32 broadcasts_S1x1x33_S8x4096x33 b r k
  show ((((IntOp.cmpi .eq
      (broadcastTo S8x4096x33 (shapeCast S8x4096x1 x1 shapeCasts_S8x4096_S8x4096x1) broadcasts_S8x4096x1_S8x4096x33 (ix3 b r k))
      (broadcastTo S8x4096x33 (iota .tc S1x1x33 32 [2] iota_S1x1x33_d2_w32) broadcasts_S1x1x33_S8x4096x33 (ix3 b r k))).setWidth 32).toInt : ℝ) : EReal) = _
  rw [e8, e9]
  unfold oh
  by_cases h : x1 (ix2 b r) = BitVec.ofNat 32 k.val
  · rw [if_pos h, StableHlo.Predicate.cmpi_eq_iff.mpr h, one_word]; norm_num
  · rw [if_neg h, eq_zero_of_ne_one (fun h' => h (StableHlo.Predicate.cmpi_eq_iff.mp h')), zero_word]; norm_num

/-! ## The product of the one-hot block with the embeddings' block -/

/-- The product's dimension numbers: batch axis 0 of both, the points (axis 1 of both) contracted. -/
abbrev D0 : DotDims S8x4096x33 S8x4096x32 S8x33x32 := dot_S8x4096x33_S8x4096x32_S8x33x32_1_1_2_2_0_0

/-- At output (b, k, e) and point r the product reads the one-hot block at (b, r, k) … -/
theorem D0_lhs (b : Fin 8) (k : Fin 33) (e : Fin 32) (r : Fin 4096) :
    D0.lhsIdx (ix3 b k e) ((contrEquiv1 D0 4096 rfl rfl).symm r) = ix3 b r k := by
  have c3 := contrEquiv1_symm_val D0 4096 rfl rfl r
  funext ax; apply Fin.ext
  match ax with
  | ⟨0, _⟩ => simp [DotDims.lhsIdx, dot_S8x4096x33_S8x4096x32_S8x33x32_1_1_2_2_0_0]; rfl
  | ⟨1, _⟩ => simp [DotDims.lhsIdx, dot_S8x4096x33_S8x4096x32_S8x33x32_1_1_2_2_0_0]; exact c3
  | ⟨2, _⟩ => simp [DotDims.lhsIdx, dot_S8x4096x33_S8x4096x32_S8x33x32_1_1_2_2_0_0]; rfl

/-- … and the embeddings' block at (b, r, e). -/
theorem D0_rhs (b : Fin 8) (k : Fin 33) (e : Fin 32) (r : Fin 4096) :
    D0.rhsIdx (ix3 b k e) ((contrEquiv1 D0 4096 rfl rfl).symm r) = ix3 b r e := by
  have c3 := contrEquiv1_symm_val D0 4096 rfl rfl r
  funext ax; apply Fin.ext
  match ax with
  | ⟨0, _⟩ => simp [DotDims.rhsIdx, dot_S8x4096x33_S8x4096x32_S8x33x32_1_1_2_2_0_0]; rfl
  | ⟨1, _⟩ => simp [DotDims.rhsIdx, dot_S8x4096x33_S8x4096x32_S8x33x32_1_1_2_2_0_0]; exact c3
  | ⟨2, _⟩ => simp [DotDims.rhsIdx, dot_S8x4096x33_S8x4096x32_S8x33x32_1_1_2_2_0_0]; rfl

/-- The sums' update at (b, k, e). -/
theorem pay4_apply (x0 : FVec Ideal S8x4096x32 .f32) (x1 : IVec S8x4096 32) (acc : FVec Ideal S8x33x32 .f32)
    (b : Fin 8) (k : Fin 33) (e : Fin 32) :
    k0_pay4 (F := Ideal) x0 x1 acc (ix3 b k e) = acc (ix3 b k e) + ∑ r : Fin 4096, oh x1 b r k * x0 (ix3 b r e) := by
  unfold k0_pay4
  refine (congrFun (shapeCast_self _ _) (ix3 b k e)).trans ?_
  show acc (ix3 b k e) + FloatOps.matmul D0 none (truncf .bf16 (k0_pay3 (F := Ideal) x1) bitsLt_bf16_f32) (truncf .bf16 x0 bitsLt_bf16_f32)
      (constant S8x33x32 .f32 0x00000000#32) (ix3 b k e) = _
  refine congrArg (acc (ix3 b k e) + ·) ?_
  refine (Ideal.matmul_constant_zero_apply D0 none _ _ (ix3 b k e)).trans ?_
  rw [← Equiv.sum_comp (contrEquiv1 D0 4096 rfl rfl).symm]
  refine Finset.sum_congr rfl fun r _ => ?_
  rw [D0_lhs, D0_rhs]
  show k0_pay3 (F := Ideal) x1 (ix3 b r k) * x0 (ix3 b r e) = _
  rw [pay3_apply]

/-! ## The sum of the one-hot block along the points -/

theorem lift_apply (h : S8x4096x33.Reduces [1] S8x33) (b : Fin 8) (k : Fin 33) (r : Fin 4096) :
    h.lift (ix2 b k) r = ix3 b r k := by
  funext a; apply Fin.ext
  match a with
  | ⟨0, _⟩ => rfl
  | ⟨1, _⟩ => rfl
  | ⟨2, _⟩ => rfl

/-- The counts' update at (b, k). -/
theorem pay5_apply (x1 : IVec S8x4096 32) (acc : FVec Ideal S8x33 .f32) (b : Fin 8) (k : Fin 33) :
    k0_pay5 (F := Ideal) x1 acc (ix2 b k) = acc (ix2 b k) + ∑ r : Fin 4096, oh x1 b r k := by
  unfold k0_pay5
  refine (congrFun (shapeCast_self _ _) (ix2 b k)).trans ?_
  show acc (ix2 b k) + multiReduction .add [1] S8x33 (k0_pay3 (F := Ideal) x1) 0x00000000#32 reduces_S8x4096x33_S8x33 (.inl rfl) rfl (ix2 b k) = _
  refine congrArg (acc (ix2 b k) + ·) ?_
  refine (Ideal.multiReduction_add_single (k0_pay3 (F := Ideal) x1) 0x00000000#32 reduces_S8x4096x33_S8x33 (.inl rfl) rfl (ix2 b k)).trans ?_
  show ∑ r : Fin 4096, k0_pay3 (F := Ideal) x1 (reduces_S8x4096x33_S8x33.lift (ix2 b k) r) = _
  refine Finset.sum_congr rfl fun r _ => ?_
  rw [lift_apply, pay3_apply]

/-! ## The reset blocks -/

theorem pay1_apply (j : S8x33x32.Idx) : k0_pay1 (F := Ideal) j = 0 := by
  unfold k0_pay1
  refine (congrFun (shapeCast_self _ _) j).trans ?_
  exact Ideal.ofBits_zero_f32

theorem pay2_apply (j : S8x33.Idx) : k0_pay2 (F := Ideal) j = 0 := by
  unfold k0_pay2
  refine (congrFun (shapeCast_self _ _) j).trans ?_
  exact Ideal.ofBits_zero_f32

end Cert.KernelIdeal.Reg0V

end
-- ==== Proof.Spec.lean ====
/-
  The mathematics both programs compute, index by index over the extended reals, as functions of the embeddings
  `E` (8 batches × 65536 points × 32 coordinates) and the labels `L` (8 × 65536 integer words, instance ids 0..32):

  * `ind L b n k`    — 1 when point n of batch b carries label k, else 0 (the one-hot);
  * `sumAt`, `countAt` — per batch and label, the sum of the embeddings of the points carrying the label, and their number;
  * `ownCenter`      — a point's own center: the one-hot combination of the 33 centers of its batch;
  * `hingeAt`        — the point's hinge: 0 for the background label, else max(√max(‖x − center‖², ε) − ½, 0);
  * `hsumAt`         — per batch and label, the sum of the hinges of the points carrying the label.

  Then the law that lets a sum over all 65536 points be accumulated tile by tile.
-/
import Idealize.ShloMosaic.PureOps.Ideal
import Idealize.ShloMosaic.Lib.ValueIdx

noncomputable section

open scoped BigOperators

namespace Cert.Spec

open Idealize.ShloMosaic Idealize.ShloMosaic.ValueIdx

abbrev SE : Shape := ⟨3, ![8, 65536, 32]⟩
abbrev SL : Shape := ⟨2, ![8, 65536]⟩
abbrev SC : Shape := ⟨3, ![8, 33, 32]⟩
abbrev SK : Shape := ⟨2, ![8, 33]⟩

/-- The one-hot of a point's label at instance id `k`, as an extended real. -/
def ind (L : SL.Idx → BitVec 32) (b : Fin 8) (n : Fin 65536) (k : Fin 33) : EReal :=
  if L (ix2 b n) = BitVec.ofNat 32 k.val then 1 else 0

/-- The segment sum: coordinate `e` summed over the points of batch `b` labelled `k`. -/
def sumAt (E : SE.Idx → EReal) (L : SL.Idx → BitVec 32) (b : Fin 8) (k : Fin 33) (e : Fin 32) : EReal :=
  ∑ n : Fin 65536, ind L b n k * E (ix3 b n e)

/-- The segment count: how many points of batch `b` are labelled `k`. -/
def countAt (L : SL.Idx → BitVec 32) (b : Fin 8) (k : Fin 33) : EReal :=
  ∑ n : Fin 65536, ind L b n k

def sums (E : SE.Idx → EReal) (L : SL.Idx → BitVec 32) : SC.Idx → EReal := fun j => sumAt E L (j 0) (j 1) (j 2)
def counts (L : SL.Idx → BitVec 32) : SK.Idx → EReal := fun j => countAt L (j 0) (j 1)

/-- Coordinate `e` of the center a point is compared with: the one-hot combination of its batch's centers. -/
def ownCenter (L : SL.Idx → BitVec 32) (C : SC.Idx → EReal) (b : Fin 8) (n : Fin 65536) (e : Fin 32) : EReal :=
  ∑ k : Fin 33, ind L b n k * C (ix3 b k e)

/-- The squared distance of a point to its own center. -/
def d2At (E : SE.Idx → EReal) (L : SL.Idx → BitVec 32) (C : SC.Idx → EReal) (b : Fin 8) (n : Fin 65536) : EReal :=
  ∑ e : Fin 32, (E (ix3 b n e) - ownCenter L C b n e) * (E (ix3 b n e) - ownCenter L C b n e)

/-- ε = the f32 nearest 1e-12 and ½, as both programs spell them. -/
abbrev eps : EReal := Ideal.ofBits .f32 0x2B8CBCCC#32
abbrev half : EReal := Ideal.ofBits .f32 0x3F000000#32
abbrev zero : EReal := Ideal.ofBits .f32 0x00000000#32

/-- The hinge of a point: nothing for the background label 0 (or a negative word), else its distance to its
    own center beyond ½. -/
def hingeAt (E : SE.Idx → EReal) (L : SL.Idx → BitVec 32) (C : SC.Idx → EReal) (b : Fin 8) (n : Fin 65536) : EReal :=
  Scalar.select (Scalar.cmpi .sgt (L (ix2 b n)) 0#32) (max (Ideal.sqrt (max (d2At E L C b n) eps) - half) zero) zero

/-- The segment sum of the hinges. -/
def hsumAt (E : SE.Idx → EReal) (L : SL.Idx → BitVec 32) (C : SC.Idx → EReal) (b : Fin 8) (k : Fin 33) : EReal :=
  ∑ n : Fin 65536, ind L b n k * hingeAt E L C b n

def hsums (E : SE.Idx → EReal) (L : SL.Idx → BitVec 32) (C : SC.Idx → EReal) : SK.Idx → EReal :=
  fun j => hsumAt E L C (j 0) (j 1)

/-! ## Accumulating a sum over the points tile by tile -/

/-- Point `r` of tile `t` when the 65536 points are cut into `T` tiles of `R`. -/
def pt {T R : Nat} (h : T * R = 65536) (t : Fin T) (r : Fin R) : Fin 65536 :=
  ⟨t.val * R + r.val, by
    have ht := t.isLt; have hr := r.isLt
    calc t.val * R + r.val < t.val * R + R := by omega
      _ = (t.val + 1) * R := by ring
      _ ≤ T * R := Nat.mul_le_mul_right R ht
      _ = 65536 := h⟩

/-- The partial sum of `f` over tiles `0 .. n` (inclusive), by recursion on the tile: what an accumulator that
    starts from zero at the first tile holds after tile `n`. -/
def accUpTo {T R : Nat} (h : T * R = 65536) (f : Fin 65536 → EReal) : (n : ℕ) → n < T → EReal
  | 0, hn => 0 + ∑ r : Fin R, f (pt h ⟨0, hn⟩ r)
  | n + 1, hn => accUpTo h f n (Nat.lt_of_succ_lt hn) + ∑ r : Fin R, f (pt h ⟨n + 1, hn⟩ r)

end Cert.Spec

end
-- ==== Proof.KI.R0Acc.lean ====
/-
  Accumulating a sum over the 65536 points tile by tile: the partial sums `accUpTo` of a function of the point,
  taken over tiles 0..n, are the double sum over (tile, point in the tile); after the last tile that is the sum
  over all points. Addition on the extended reals is commutative and associative, so no finiteness is needed.
-/
import proofs.«420528_j52673478918521_3_alg».proof.Proof.Spec
import Mathlib.Algebra.BigOperators.Fin
import Mathlib.Logic.Equiv.Fin.Basic

noncomputable section

open scoped BigOperators

namespace Cert.KernelIdeal.Reg0V

open Cert.Spec

/-- After tile `n` the accumulator holds the double sum over the tiles `0..n` and the points of each. -/
theorem accUpTo_eq_sum {T R : Nat} (h : T * R = 65536) (f : Fin 65536 → EReal) :
    ∀ (n : ℕ) (hn : n < T), accUpTo h f n hn
      = ∑ t : Fin (n + 1), ∑ r : Fin R, f (pt h ⟨t.val, lt_of_lt_of_le t.isLt hn⟩ r)
  | 0, hn => by
    rw [accUpTo, zero_add, Fin.sum_univ_one]
    rfl
  | n + 1, hn => by
    rw [accUpTo, accUpTo_eq_sum h f n (Nat.lt_of_succ_lt hn), Fin.sum_univ_castSucc (n := n + 1)]
    rfl

/-- The double sum over (tile, point in the tile) is the sum over all points: point `r` of tile `t` is
    point `t * R + r`, and every point is one of these exactly once. -/
theorem sum_tiles {T R : Nat} (h : T * R = 65536) (f : Fin 65536 → EReal) :
    ∑ t : Fin T, ∑ r : Fin R, f (pt h t r) = ∑ p : Fin 65536, f p := by
  rw [← Fintype.sum_prod_type']
  refine Fintype.sum_equiv (finProdFinEquiv.trans (finCongr h)) _ _ (fun x => congrArg f (Fin.ext ?_))
  simp [pt, finProdFinEquiv, Nat.mul_comm, Nat.add_comm]

/-- After the last tile the accumulator holds the sum over all 65536 points. -/
theorem accUpTo_last {T R : Nat} (h : T * R = 65536) (f : Fin 65536 → EReal) (n : ℕ) (hn : n < T) (hl : n + 1 = T) :
    accUpTo h f n hn = ∑ p : Fin 65536, f p := by
  subst hl
  rw [accUpTo_eq_sum h f n hn]
  exact sum_tiles h f

end Cert.KernelIdeal.Reg0V

end
-- ==== Proof.KI.R0Value.lean ====
/-
  Region 0's value at the ideal instance: after the last tile the two result arrays hold the segment sums and the
  segment counts of the specification. Tile t's blocks are points t·4096 .. t·4096 + 4095 of the arrays; each tile
  adds to the accumulators the one-hot-weighted sum over its own points; by induction on the tile the accumulators
  hold the partial sums over tiles 0..n, and after tile 15 the sum over all 65536 points; the last tile stores both
  accumulators into the result blocks, each of which is its whole array.
-/
import proofs.«420528_j52673478918521_3_alg».proof.Proof.KI.R0Pieces
import proofs.«420528_j52673478918521_3_alg».proof.Proof.KI.R0Payload
import proofs.«420528_j52673478918521_3_alg».proof.Proof.KI.R0Acc

set_option maxRecDepth 16384

noncomputable section

open scoped BigOperators

namespace Cert.KernelIdeal.Reg0V

open Cert.KernelIdeal Cert.KernelIdeal.Gen Cert.KernelIdeal.Reg0
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The embeddings and the labels as the region finds them, and a tile's blocks of each. -/
abbrev Earr (c : Dev nD) : FVec Ideal S8x65536x32 .f32 := V c main_arg0
abbrev Larr (c : Dev nD) : IVec S8x65536 32 := V c main_arg1
abbrev xblk (c : Dev nD) (t : Fin cfg0.N) : FVec Ideal S8x4096x32 .f32 := iblk V c 0 t
abbrev lblk (c : Dev nD) (t : Fin cfg0.N) : IVec S8x4096 32 := iblk V c 1 t

theorem lt16 {n : ℕ} (hn : n < cfg0.N) : n < 16 := lt_of_lt_of_eq hn (show cfg0.N = 16 from N_0)

/-- Point `r` of tile `t`. -/
abbrev ptOf (t : Fin cfg0.N) (r : Fin 4096) : Fin 65536 := Spec.pt (T := 16) (R := 4096) rfl ⟨t.val, lt16 t.isLt⟩ r

/-! ## A tile's blocks read off the arrays -/

theorem idx_0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem idx_1 : ∀ t : Fin cfg0.N, win0_1.index t 0 = 0 ∧ win0_1.index t 1 = t.val :=
  (by decide +kernel : ∀ t : Fin grid0.N, win0_1.index t 0 = 0 ∧ win0_1.index t 1 = t.val)

/-- The embeddings' block of tile `t` at (b, r, e) is the array at (b, t·4096 + r, e). -/
theorem xblk_apply (c : Dev nD) (t : Fin cfg0.N) (b : Fin 8) (r : Fin 4096) (e : Fin 32) :
    xblk V c t (ix3 b r e) = Earr V c (ix3 b (ptOf t r) e) := by
  obtain ⟨h0, h1, h2⟩ := idx_0 t
  show iblk V c 0 t (ix3 b r e) = V c main_arg0 (ix3 b (ptOf t r) e)
  unfold iblk
  rw [View.read_apply]
  show V c main_arg0 _ = V c main_arg0 _
  refine congrArg (V c main_arg0) (funext fun a => Fin.ext ?_)
  match a with
  | ⟨0, _⟩ => show win0_0.index t 0 * 8 + 1 * b.val = b.val; rw [h0]; omega
  | ⟨1, _⟩ => show win0_0.index t 1 * 4096 + 1 * r.val = t.val * 4096 + r.val; rw [h1]; omega
  | ⟨2, _⟩ => show win0_0.index t 2 * 32 + 1 * e.val = e.val; rw [h2]; omega

/-- The labels' block of tile `t` at (b, r) is the array at (b, t·4096 + r). -/
theorem lblk_apply (c : Dev nD) (t : Fin cfg0.N) (b : Fin 8) (r : Fin 4096) :
    lblk V c t (ix2 b r) = Larr V c (ix2 b (ptOf t r)) := by
  obtain ⟨h0, h1⟩ := idx_1 t
  show iblk V c 1 t (ix2 b r) = V c main_arg1 (ix2 b (ptOf t r))
  unfold iblk
  rw [View.read_apply]
  show V c main_arg1 _ = V c main_arg1 _
  refine congrArg (V c main_arg1) (funext fun a => Fin.ext ?_)
  match a with
  | ⟨0, _⟩ => show win0_1.index t 0 * 8 + 1 * b.val = b.val; rw [h0]; omega
  | ⟨1, _⟩ => show win0_1.index t 1 * 4096 + 1 * r.val = t.val * 4096 + r.val; rw [h1]; omega

/-- So the one-hot of a tile's label block is the specification's one-hot of the point. -/
theorem oh_eq (c : Dev nD) (t : Fin cfg0.N) (b : Fin 8) (r : Fin 4096) (k : Fin 33) :
    oh (lblk V c t) b r k = Spec.ind (Larr V c) b (ptOf t r) k := by
  unfold oh Spec.ind
  rw [lblk_apply]

/-! ## What each tile leaves in the accumulators, as payloads of the tile's blocks -/

theorem accA_0 (c : Dev nD) (t : Fin cfg0.N) (h0 : t.val = 0) (h1 : ¬t.val = 15) :
    (outsAt V c t.val t.isLt).2.1 = k0_pay4 (F := Ideal) (xblk V c t) (lblk V c t) (k0_pay1 (F := Ideal)) := by
  rw [outsAt_A V c t h0 h1]; dsimp only
  exact sout_A_0_eq (F := Ideal) c (grid0.coords t) (ms_0 t) (hs_0 t) (ms_1 t) (hs_1 t) (ms_2 t) (hs_2 t) (ms_3 t) (hs_3 t) scM_0 (Memref.isWhole_whole _) scM_1 (Memref.isWhole_whole _) ((hcond_0 t).mpr h0) (fun h => h1 ((hcond_1 t).mp h)) (iblk V c 0 t) (iblk V c 1 t)

theorem accA_1 (c : Dev nD) (t : Fin cfg0.N) (h0 : t.val = 0) (h1 : ¬t.val = 15) :
    (outsAt V c t.val t.isLt).2.2 = k0_pay5 (F := Ideal) (lblk V c t) (k0_pay2 (F := Ideal)) := by
  rw [outsAt_A V c t h0 h1]; dsimp only
  exact sout_A_1_eq (F := Ideal) c (grid0.coords t) (ms_0 t) (hs_0 t) (ms_1 t) (hs_1 t) (ms_2 t) (hs_2 t) (ms_3 t) (hs_3 t) scM_0 (Memref.isWhole_whole _) scM_1 (Memref.isWhole_whole _) ((hcond_0 t).mpr h0) (fun h => h1 ((hcond_1 t).mp h)) (iblk V c 0 t) (iblk V c 1 t)

theorem accB_0 (c : Dev nD) (t : Fin cfg0.N) (h0 : ¬t.val = 0) (h1 : ¬t.val = 15) :
    (outsAt V c t.val t.isLt).2.1 = k0_pay4 (F := Ideal) (xblk V c t) (lblk V c t) (outsAt V c (t.val - 1) (prevLt t)).2.1 := by
  rw [outsAt_B V c t h0 h1]; dsimp only
  exact sout_B_0_eq (F := Ideal) c (grid0.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) (fun h => h1 ((hcond_1 t).mp h)) (iblk V c 0 t) (iblk V c 1 t) (outsAt V c (t.val - 1) (prevLt t)).2.1 (outsAt V c (t.val - 1) (prevLt t)).2.2

theorem accB_1 (c : Dev nD) (t : Fin cfg0.N) (h0 : ¬t.val = 0) (h1 : ¬t.val = 15) :
    (outsAt V c t.val t.isLt).2.2 = k0_pay5 (F := Ideal) (lblk V c t) (outsAt V c (t.val - 1) (prevLt t)).2.2 := by
  rw [outsAt_B V c t h0 h1]; dsimp only
  exact sout_B_1_eq (F := Ideal) c (grid0.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) (fun h => h1 ((hcond_1 t).mp h)) (iblk V c 0 t) (iblk V c 1 t) (outsAt V c (t.val - 1) (prevLt t)).2.1 (outsAt V c (t.val - 1) (prevLt t)).2.2

theorem accC_0 (c : Dev nD) (t : Fin cfg0.N) (h0 : ¬t.val = 0) (h1 : t.val = 15) :
    (outsAt V c t.val t.isLt).2.1 = k0_pay4 (F := Ideal) (xblk V c t) (lblk V c t) (outsAt V c (t.val - 1) (prevLt t)).2.1 := by
  rw [outsAt_C V c t h0 h1]; dsimp only
  exact sout_C_0_eq (F := Ideal) c (grid0.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) ((hcond_1 t).mpr h1) (iblk V c 0 t) (iblk V c 1 t) (outsAt V c (t.val - 1) (prevLt t)).2.1 (outsAt V c (t.val - 1) (prevLt t)).2.2

theorem accC_1 (c : Dev nD) (t : Fin cfg0.N) (h0 : ¬t.val = 0) (h1 : t.val = 15) :
    (outsAt V c t.val t.isLt).2.2 = k0_pay5 (F := Ideal) (lblk V c t) (outsAt V c (t.val - 1) (prevLt t)).2.2 := by
  rw [outsAt_C V c t h0 h1]; dsimp only
  exact sout_C_1_eq (F := Ideal) c (grid0.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) ((hcond_1 t).mpr h1) (iblk V c 0 t) (iblk V c 1 t) (outsAt V c (t.val - 1) (prevLt t)).2.1 (outsAt V c (t.val - 1) (prevLt t)).2.2

/-- The last tile's result blocks are the accumulators it leaves. -/
theorem outC_2 (c : Dev nD) (t : Fin cfg0.N) (h0 : ¬t.val = 0) (h1 : t.val = 15) :
    (outsAt V c t.val t.isLt).1.1 = (outsAt V c t.val t.isLt).2.1 := by
  rw [accC_0 V c t h0 h1, outsAt_C V c t h0 h1]; dsimp only
  exact out_C_2_eq (F := Ideal) c (grid0.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) ((hcond_1 t).mpr h1) (iblk V c 0 t) (iblk V c 1 t) (outsAt V c (t.val - 1) (prevLt t)).2.1 (outsAt V c (t.val - 1) (prevLt t)).2.2

theorem outC_3 (c : Dev nD) (t : Fin cfg0.N) (h0 : ¬t.val = 0) (h1 : t.val = 15) :
    (outsAt V c t.val t.isLt).1.2 = (outsAt V c t.val t.isLt).2.2 := by
  rw [accC_1 V c t h0 h1, outsAt_C V c t h0 h1]; dsimp only
  exact out_C_3_eq (F := Ideal) c (grid0.coords t) (ms_0 t) (hs_0 t) (ms_1 t) (hs_1 t) (ms_2 t) (hs_2 t) (ms_3 t) (hs_3 t) scM_0 (Memref.isWhole_whole _) scM_1 (Memref.isWhole_whole _) (fun h => h0 ((hcond_0 t).mp h)) ((hcond_1 t).mpr h1) (iblk V c 0 t) (iblk V c 1 t) (outsAt V c (t.val - 1) (prevLt t)).2.1 (outsAt V c (t.val - 1) (prevLt t)).2.2

/-! ## The accumulators after tile n: the partial sums over tiles 0..n -/

/-- The summand of the segment sum at (b, k, e), and of the segment count at (b, k), as functions of the point. -/
abbrev fS (c : Dev nD) (b : Fin 8) (k : Fin 33) (e : Fin 32) : Fin 65536 → EReal :=
  fun p => Spec.ind (Larr V c) b p k * Earr V c (ix3 b p e)
abbrev fC (c : Dev nD) (b : Fin 8) (k : Fin 33) : Fin 65536 → EReal :=
  fun p => Spec.ind (Larr V c) b p k

/-- A tile's addend to the sums' accumulator is the specification's summand over the tile's points. -/
theorem tile_sums (c : Dev nD) (t : Fin cfg0.N) (b : Fin 8) (k : Fin 33) (e : Fin 32) :
    ∑ r : Fin 4096, oh (lblk V c t) b r k * xblk V c t (ix3 b r e) = ∑ r : Fin 4096, fS V c b k e (ptOf t r) :=
  Finset.sum_congr rfl fun r _ => by rw [oh_eq, xblk_apply]

theorem tile_counts (c : Dev nD) (t : Fin cfg0.N) (b : Fin 8) (k : Fin 33) :
    ∑ r : Fin 4096, oh (lblk V c t) b r k = ∑ r : Fin 4096, fC V c b k (ptOf t r) :=
  Finset.sum_congr rfl fun r _ => by rw [oh_eq]

theorem inv_sums (c : Dev nD) (b : Fin 8) (k : Fin 33) (e : Fin 32) : ∀ (n : ℕ) (hn : n < cfg0.N),
    ((outsAt V c n hn).2.1 : FVec Ideal S8x33x32 .f32) (ix3 b k e)
      = Spec.accUpTo (T := 16) (R := 4096) rfl (fS V c b k e) n (lt16 hn)
  | 0, hn => by
    rw [accA_0 V c ⟨0, hn⟩ rfl (show ¬(0 : ℕ) = 15 by decide)]
    refine (pay4_apply (xblk V c ⟨0, hn⟩) (lblk V c ⟨0, hn⟩) (k0_pay1 (F := Ideal)) b k e).trans ?_
    rw [pay1_apply, tile_sums V c ⟨0, hn⟩ b k e, Spec.accUpTo]
  | n + 1, hn => by
    have ih := inv_sums c b k e n (Nat.lt_of_succ_lt hn)
    have hstep : ((outsAt V c (n + 1) hn).2.1 : FVec Ideal S8x33x32 .f32)
        = k0_pay4 (F := Ideal) (xblk V c ⟨n + 1, hn⟩) (lblk V c ⟨n + 1, hn⟩) (outsAt V c n (Nat.lt_of_succ_lt hn)).2.1 := by
      by_cases h15 : n + 1 = 15
      · exact accC_0 V c ⟨n + 1, hn⟩ (Nat.succ_ne_zero n) h15
      · exact accB_0 V c ⟨n + 1, hn⟩ (Nat.succ_ne_zero n) h15
    rw [hstep]
    refine (pay4_apply (xblk V c ⟨n + 1, hn⟩) (lblk V c ⟨n + 1, hn⟩) (outsAt V c n (Nat.lt_of_succ_lt hn)).2.1 b k e).trans ?_
    rw [ih, tile_sums V c ⟨n + 1, hn⟩ b k e, Spec.accUpTo]

theorem inv_counts (c : Dev nD) (b : Fin 8) (k : Fin 33) : ∀ (n : ℕ) (hn : n < cfg0.N),
    ((outsAt V c n hn).2.2 : FVec Ideal S8x33 .f32) (ix2 b k)
      = Spec.accUpTo (T := 16) (R := 4096) rfl (fC V c b k) n (lt16 hn)
  | 0, hn => by
    rw [accA_1 V c ⟨0, hn⟩ rfl (show ¬(0 : ℕ) = 15 by decide)]
    refine (pay5_apply (lblk V c ⟨0, hn⟩) (k0_pay2 (F := Ideal)) b k).trans ?_
    rw [pay2_apply, tile_counts V c ⟨0, hn⟩ b k, Spec.accUpTo]
  | n + 1, hn => by
    have ih := inv_counts c b k n (Nat.lt_of_succ_lt hn)
    have hstep : ((outsAt V c (n + 1) hn).2.2 : FVec Ideal S8x33 .f32)
        = k0_pay5 (F := Ideal) (lblk V c ⟨n + 1, hn⟩) (outsAt V c n (Nat.lt_of_succ_lt hn)).2.2 := by
      by_cases h15 : n + 1 = 15
      · exact accC_1 V c ⟨n + 1, hn⟩ (Nat.succ_ne_zero n) h15
      · exact accB_1 V c ⟨n + 1, hn⟩ (Nat.succ_ne_zero n) h15
    rw [hstep]
    refine (pay5_apply (lblk V c ⟨n + 1, hn⟩) (outsAt V c n (Nat.lt_of_succ_lt hn)).2.2 b k).trans ?_
    rw [ih, tile_counts V c ⟨n + 1, hn⟩ b k, Spec.accUpTo]

/-! ## After the last tile: the segment sums and counts, stored into the result arrays -/

/-- The specification's segment sums and counts as contents of the two result arrays. -/
abbrev sumsG (c : Dev nD) : Buf (Elt Ideal) ((c : Thread nD τ).loc main_v0_0) := Spec.sums (Earr V c) (Larr V c)
abbrev countsG (c : Dev nD) : Buf (Elt Ideal) ((c : Thread nD τ).loc main_v0_1) := Spec.counts (Larr V c)

theorem last_sums (c : Dev nD) : ((outsAt V c t0_15.val t0_15.isLt).1.1 : FVec Ideal S8x33x32 .f32) = sumsG V c := by
  rw [outC_2 V c t0_15 (by decide) rfl]
  funext j
  obtain ⟨b, k, e, rfl⟩ : ∃ (b : Fin 8) (k : Fin 33) (e : Fin 32), j = ix3 b k e := ⟨j 0, j 1, j 2, eq_ix3 j⟩
  rw [inv_sums V c b k e t0_15.val t0_15.isLt]
  exact accUpTo_last rfl (fS V c b k e) 15 _ rfl

theorem last_counts (c : Dev nD) : ((outsAt V c t0_15.val t0_15.isLt).1.2 : FVec Ideal S8x33 .f32) = countsG V c := by
  rw [outC_3 V c t0_15 (by decide) rfl]
  funext j
  obtain ⟨b, k, rfl⟩ : ∃ (b : Fin 8) (k : Fin 33), j = ix2 b k := ⟨j 0, j 1, eq_ix2 j⟩
  rw [inv_counts V c b k t0_15.val t0_15.isLt]
  exact accUpTo_last rfl (fC V c b k) 15 _ rfl

/-- The one write-back of the sums' window, at the last tile, writes the segment sums: its block is the whole array. -/
theorem flushed_2 (c : Dev nD) (t : Fin cfg0.N) (hf : (cfg0.win 2).flush t = true) :
    (dat V c).flushed 2 t = ((cfg0.win 2).blk t).view.read (Elt Ideal) (sumsG V c) := by
  have hN : cfg0.N = 16 := N_0
  have h15 : t.val = 15 := by have := (flush0_2 t).mp hf; have := t.isLt; omega
  obtain rfl : t = t0_15 := Fin.ext h15
  show (cfg0.win 2).cut (grid0.coords t0_15) ((dat V c).after 2 t0_15) = _
  rw [after_2, last_sums]
  have hz' : (fun a => win0_2.index t0_15 a * main_v0_0.ty.shape.size a) = fun _ => 0 := funext fun a => by fin_cases a <;> decide
  exact (Memref.read_access_unit_zero (Elt Ideal) main_v0_0 hz' (fun a => by rw [congrFun hz' a]; simp) (sumsG V c)).symm

theorem flushed_3 (c : Dev nD) (t : Fin cfg0.N) (hf : (cfg0.win 3).flush t = true) :
    (dat V c).flushed 3 t = ((cfg0.win 3).blk t).view.read (Elt Ideal) (countsG V c) := by
  have hN : cfg0.N = 16 := N_0
  have h15 : t.val = 15 := by have := (flush0_3 t).mp hf; have := t.isLt; omega
  obtain rfl : t = t0_15 := Fin.ext h15
  show (cfg0.win 3).cut (grid0.coords t0_15) ((dat V c).after 3 t0_15) = _
  rw [after_3, last_counts]
  have hz' : (fun a => win0_3.index t0_15 a * main_v0_1.ty.shape.size a) = fun _ => 0 := funext fun a => by fin_cases a <;> decide
  exact (Memref.read_access_unit_zero (Elt Ideal) main_v0_1 hz' (fun a => by rw [congrFun hz' a]; simp) (countsG V c)).symm

/-- Region 0 leaves the segment sums in its first result array … -/
theorem arrAt_sums (c : Dev nD) :
    (dat (F := Ideal) V c).arrAt 2 cfg0.N = Cert.Spec.sums (V c main_arg0) (V c main_arg1) :=
  (dat V c).arrAt_eq_of_cover 2 (sumsG V c) (flushed_2 V c) fun i =>
    ⟨t0_15, (flush0_2 t0_15).mpr rfl, by
      show i ∈ ((View.whole main_v0_0).slice (win0_2.rect t0_15)).set
      rw [View.set_slice_whole, Rect.mem_set_unit]
      intro a
      have h0 : (i 0 : Nat) < 8 := (i 0).isLt
      have h1 : (i 1 : Nat) < 33 := (i 1).isLt
      have h2 : (i 2 : Nat) < 32 := (i 2).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 8 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 33 from by decide +kernel]; omega
      | ⟨2, _⟩ => show win0_2.index t0_15 2 * win0_2.size 2 ≤ (i 2 : Nat) ∧ (i 2 : Nat) < win0_2.index t0_15 2 * win0_2.size 2 + win0_2.xsize (grid0.coords t0_15) 2
                  rw [show win0_2.index t0_15 2 * win0_2.size 2 = 0 from by decide +kernel, show win0_2.xsize (grid0.coords t0_15) 2 = 32 from by decide +kernel]; omega⟩

/-- … and the segment counts in its second. -/
theorem arrAt_counts (c : Dev nD) :
    (dat (F := Ideal) V c).arrAt 3 cfg0.N = Cert.Spec.counts (V c main_arg1) :=
  (dat V c).arrAt_eq_of_cover 3 (countsG V c) (flushed_3 V c) fun i =>
    ⟨t0_15, (flush0_3 t0_15).mpr rfl, by
      show i ∈ ((View.whole main_v0_1).slice (win0_3.rect t0_15)).set
      rw [View.set_slice_whole, Rect.mem_set_unit]
      intro a
      have h0 : (i 0 : Nat) < 8 := (i 0).isLt
      have h1 : (i 1 : Nat) < 33 := (i 1).isLt
      match a with
      | ⟨0, _⟩ => show win0_3.index t0_15 0 * win0_3.size 0 ≤ (i 0 : Nat) ∧ (i 0 : Nat) < win0_3.index t0_15 0 * win0_3.size 0 + win0_3.xsize (grid0.coords t0_15) 0
                  rw [show win0_3.index t0_15 0 * win0_3.size 0 = 0 from by decide +kernel, show win0_3.xsize (grid0.coords t0_15) 0 = 8 from by decide +kernel]; omega
      | ⟨1, _⟩ => show win0_3.index t0_15 1 * win0_3.size 1 ≤ (i 1 : Nat) ∧ (i 1 : Nat) < win0_3.index t0_15 1 * win0_3.size 1 + win0_3.xsize (grid0.coords t0_15) 1
                  rw [show win0_3.index t0_15 1 * win0_3.size 1 = 0 from by decide +kernel, show win0_3.xsize (grid0.coords t0_15) 1 = 33 from by decide +kernel]; omega⟩

end Cert.KernelIdeal.Reg0V

end
-- ==== Proof.KI.R1Pieces.lean ====
/-
  Region 1, the pieces each control case leaves, read back as values: at the first tile the accumulator holds the
  tile's partial sums of the hinge terms added to the zero block just stored; at a later tile the partial sums added
  to what the accumulator held; at the last tile the result block holds the accumulator just updated.
-/
import proofs.«420528_j52673478918521_3_alg».proof.Proof.KI.R1Frame
import Idealize.ShloMosaic.Lib.Pipeline.Value

set_option maxRecDepth 16384

noncomputable section

namespace Cert.KernelIdeal.Reg1V

open Cert.KernelIdeal Cert.KernelIdeal.Gen Cert.KernelIdeal.Reg1
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- First tile, the accumulator: the zero block, then the tile's partial sums added to it. -/
theorem sout_A_0_eq (c : Dev nD) (i : grid1.Coords) (arg1 : Memref sig .tc .vmem S8x2048x32 .f32) (harg1 : arg1.IsWhole) (arg2 : Memref sig .tc .vmem S8x2048 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33 .f32) (harg5 : arg5.IsWhole) (hc0 : cond_0 i) (hc1 : ¬cond_1 i)
    (x0 : Vec F S8x2048x32 .f32) (x1 : Vec F S8x2048 .i32) (x2 : Vec F S8x33x32 .f32) :
    sout_A_0 c i arg1 harg1 arg2 harg2 arg3 harg3 arg4 harg4 arg5 harg5 hc0 hc1 x0 x1 x2 = k1_pay1 (k1_pay3 x0 x1 x2 (k1_pay2 (F := F))) := by
  unfold sout_A_0
  rw [View.read_writes_eq_canon _ _ _ (scover_A_0 c i arg1 harg1 arg2 harg2 arg3 harg3 arg4 harg4 arg5 harg5 hc0 hc1 x0 x1 x2)]
  unfold kernelRun_A
  dsimp only
  sl_unfold_words
  rw [View.canon_cons_unit_zero (S := S8x33) hz2, View.readCov_unit_zero (S := S8x33) _ hz2]
  simp only [View.readAt_eq_ld, harg1.read_unread, harg2.read_unread, harg3.read_unread, harg5.read_unread, View.ld_unit_zero (S := S8x2048x32) hz3, View.ld_unit_zero (S := S8x2048) hz2, View.ld_unit_zero (S := S8x33x32) hz3, View.ld_unit_zero (S := S8x33) hz2, View.readCov_unit_zero (S := S8x33x32) _ hz3, View.readCov_unit_zero (S := S8x33) _ hz2]

/-- A middle tile, the accumulator: the tile's partial sums added to what it held. -/
theorem sout_B_0_eq (c : Dev nD) (i : grid1.Coords) (arg1 : Memref sig .tc .vmem S8x2048x32 .f32) (harg1 : arg1.IsWhole) (arg2 : Memref sig .tc .vmem S8x2048 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33 .f32) (harg5 : arg5.IsWhole) (hc0 : ¬cond_0 i) (hc1 : ¬cond_1 i)
    (x0 : Vec F S8x2048x32 .f32) (x1 : Vec F S8x2048 .i32) (x2 : Vec F S8x33x32 .f32) (xs0 : Vec F S8x33 .f32) :
    sout_B_0 c i arg1 harg1 arg2 harg2 arg3 harg3 arg4 harg4 arg5 harg5 hc0 hc1 x0 x1 x2 xs0 = k1_pay1 (k1_pay3 x0 x1 x2 xs0) := by
  unfold sout_B_0
  rw [View.read_writes_eq_canon _ _ _ (scover_B_0 c i arg1 harg1 arg2 harg2 arg3 harg3 arg4 harg4 arg5 harg5 hc0 hc1 x0 x1 x2 xs0)]
  unfold kernelRun_B
  dsimp only
  sl_unfold_words
  rw [View.canon_unit_zero hz2]
  simp only [View.readAt_eq_ld, harg1.read_unread, harg2.read_unread, harg3.read_unread, harg5.read_unread, View.ld_unit_zero (S := S8x2048x32) hz3, View.ld_unit_zero (S := S8x2048) hz2, View.ld_unit_zero (S := S8x33x32) hz3, View.ld_unit_zero (S := S8x33) hz2, View.readCov_unit_zero (S := S8x33x32) _ hz3, View.readCov_unit_zero (S := S8x33) _ hz2]

/-- The last tile, the accumulator. -/
theorem sout_C_0_eq (c : Dev nD) (i : grid1.Coords) (arg1 : Memref sig .tc .vmem S8x2048x32 .f32) (harg1 : arg1.IsWhole) (arg2 : Memref sig .tc .vmem S8x2048 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33 .f32) (harg5 : arg5.IsWhole) (hc0 : ¬cond_0 i) (hc1 : cond_1 i)
    (x0 : Vec F S8x2048x32 .f32) (x1 : Vec F S8x2048 .i32) (x2 : Vec F S8x33x32 .f32) (xs0 : Vec F S8x33 .f32) :
    sout_C_0 c i arg1 harg1 arg2 harg2 arg3 harg3 arg4 harg4 arg5 harg5 hc0 hc1 x0 x1 x2 xs0 = k1_pay1 (k1_pay3 x0 x1 x2 xs0) := by
  unfold sout_C_0
  rw [View.read_writes_eq_canon _ _ _ (scover_C_0 c i arg1 harg1 arg2 harg2 arg3 harg3 arg4 harg4 arg5 harg5 hc0 hc1 x0 x1 x2 xs0)]
  unfold kernelRun_C
  dsimp only
  sl_unfold_words
  rw [View.canon_unit_zero hz2]
  simp only [View.readAt_eq_ld, harg1.read_unread, harg2.read_unread, harg3.read_unread, harg5.read_unread, View.ld_unit_zero (S := S8x2048x32) hz3, View.ld_unit_zero (S := S8x2048) hz2, View.ld_unit_zero (S := S8x33x32) hz3, View.ld_unit_zero (S := S8x33) hz2, View.readCov_unit_zero (S := S8x33x32) _ hz3, View.readCov_unit_zero (S := S8x33) _ hz2]

/-- The last tile, the result block: the accumulator just updated, read back and stored. -/
theorem out_C_3_eq (c : Dev nD) (i : grid1.Coords) (arg1 : Memref sig .tc .vmem S8x2048x32 .f32) (harg1 : arg1.IsWhole) (arg2 : Memref sig .tc .vmem S8x2048 .i32) (harg2 : arg2.IsWhole) (arg3 : Memref sig .tc .vmem S8x33x32 .f32) (harg3 : arg3.IsWhole) (arg4 : Memref sig .tc .vmem S8x33 .f32) (harg4 : arg4.IsWhole) (arg5 : Memref sig .tc .vmem S8x33 .f32) (harg5 : arg5.IsWhole) (hc0 : ¬cond_0 i) (hc1 : cond_1 i)
    (x0 : Vec F S8x2048x32 .f32) (x1 : Vec F S8x2048 .i32) (x2 : Vec F S8x33x32 .f32) (xs0 : Vec F S8x33 .f32) :
    out_C_3 c i arg1 harg1 arg2 harg2 arg3 harg3 arg4 harg4 arg5 harg5 hc0 hc1 x0 x1 x2 xs0 = k1_pay1 (k1_pay3 x0 x1 x2 xs0) := by
  unfold out_C_3
  rw [View.read_writes_eq_canon _ _ _ (cover_C_3 c i arg1 harg1 arg2 harg2 arg3 harg3 arg4 harg4 arg5 harg5 hc0 hc1 x0 x1 x2 xs0)]
  unfold kernelRun_C
  dsimp only
  sl_unfold_words
  rw [View.canon_unit_zero hz2]
  simp only [View.readAt_eq_ld, harg1.read_unread, harg2.read_unread, harg3.read_unread, harg5.read_unread, View.ld_unit_zero (S := S8x2048x32) hz3, View.ld_unit_zero (S := S8x2048) hz2, View.ld_unit_zero (S := S8x33x32) hz3, View.ld_unit_zero (S := S8x33) hz2, View.readCov_unit_zero (S := S8x33x32) _ hz3, View.readCov_unit_zero (S := S8x33) _ hz2]

end Cert.KernelIdeal.Reg1V

end
-- ==== Proof.KI.R1Blocks.lean ====
/-
  Region 1's blocks read off the arrays the region is entered with. Tile t of the 32 tiles holds points
  t·2048 .. t·2048 + 2047 of every batch: the embeddings' block at (b, r, e) is the embeddings at (b, t·2048 + r, e), the
  labels' block at (b, r) is the labels at (b, t·2048 + r), and the centers' block is the whole centers array at every
  tile (its block index never moves).
-/
import proofs.«420528_j52673478918521_3_alg».proof.Proof.KI.R1Frame
import proofs.«420528_j52673478918521_3_alg».proof.Proof.Spec

set_option maxRecDepth 16384

noncomputable section

namespace Cert.KernelIdeal.Reg1V

open Cert.KernelIdeal Cert.KernelIdeal.Gen Cert.KernelIdeal.Reg1
open Idealize.ShloMosaic Idealize.ShloMosaic.TcCoe Idealize.ShloMosaic.ValueIdx
open Idealize.SL Idealize.SL.Sem

variable {F : FTy → Type} [FloatOps F]

variable (V : (c : Dev nD) → (b : Ref sig .tc) → Buf (Elt F) ((c : Thread nD τ).loc b))

theorem lt32 {n : ℕ} (hn : n < cfg1.N) : n < 32 := lt_of_lt_of_eq hn (show cfg1.N = 32 from N_1)

/-- A tile's number, as one of the 32. -/
abbrev tile (t : Fin cfg1.N) : Fin 32 := ⟨t.val, lt32 t.isLt⟩

/-- Point `r` of tile `t`. -/
abbrev ptOf (t : Fin cfg1.N) (r : Fin 2048) : Fin 65536 := Cert.Spec.pt (T := 32) (R := 2048) rfl (tile t) r

/-! ## Where each window's block lies, decided once over the 32 tiles -/

theorem idx_0 : ∀ t : Fin cfg1.N, win1_0.index t 0 = 0 ∧ win1_0.index t 1 = t.val ∧ win1_0.index t 2 = 0 :=
  (by decide +kernel : ∀ t : Fin grid1.N, win1_0.index t 0 = 0 ∧ win1_0.index t 1 = t.val ∧ win1_0.index t 2 = 0)
theorem idx_1 : ∀ t : Fin cfg1.N, win1_1.index t 0 = 0 ∧ win1_1.index t 1 = t.val :=
  (by decide +kernel : ∀ t : Fin grid1.N, win1_1.index t 0 = 0 ∧ win1_1.index t 1 = t.val)
theorem idx_2 : ∀ t : Fin cfg1.N, win1_2.index t 0 = 0 ∧ win1_2.index t 1 = 0 ∧ win1_2.index t 2 = 0 :=
  (by decide +kernel : ∀ t : Fin grid1.N, win1_2.index t 0 = 0 ∧ win1_2.index t 1 = 0 ∧ win1_2.index t 2 = 0)

/-! ## The blocks -/

/-- The embeddings' block of tile `t` at (b, r, e) is the array at (b, t·2048 + r, e). -/
theorem iblk0_apply (c : Dev nD) (t : Fin cfg1.N) (b : Fin 8) (r : Fin 2048) (e : Fin 32) :
    (iblk V c 0 t : Vec F S8x2048x32 .f32) (ix3 b r e)
      = (V c main_arg0 : Vec F S8x65536x32 .f32) (ix3 b (ptOf t r) e) := by
  obtain ⟨h0, h1, h2⟩ := idx_0 t
  unfold iblk
  rw [View.read_apply]
  show V c main_arg0 _ = V c main_arg0 _
  refine congrArg (V c main_arg0) (funext fun a => Fin.ext ?_)
  match a with
  | ⟨0, _⟩ => show win1_0.index t 0 * 8 + 1 * b.val = b.val; rw [h0]; omega
  | ⟨1, _⟩ => show win1_0.index t 1 * 2048 + 1 * r.val = t.val * 2048 + r.val; rw [h1]; omega
  | ⟨2, _⟩ => show win1_0.index t 2 * 32 + 1 * e.val = e.val; rw [h2]; omega

/-- The labels' block of tile `t` at (b, r) is the array at (b, t·2048 + r). -/
theorem iblk1_apply (c : Dev nD) (t : Fin cfg1.N) (b : Fin 8) (r : Fin 2048) :
    (iblk V c 1 t : Vec F S8x2048 .i32) (ix2 b r) = (V c main_arg1 : Vec F S8x65536 .i32) (ix2 b (ptOf t r)) := by
  obtain ⟨h0, h1⟩ := idx_1 t
  unfold iblk
  rw [View.read_apply]
  show V c main_arg1 _ = V c main_arg1 _
  refine congrArg (V c main_arg1) (funext fun a => Fin.ext ?_)
  match a with
  | ⟨0, _⟩ => show win1_1.index t 0 * 8 + 1 * b.val = b.val; rw [h0]; omega
  | ⟨1, _⟩ => show win1_1.index t 1 * 2048 + 1 * r.val = t.val * 2048 + r.val; rw [h1]; omega

/-- The centers' block at (b, k, e) is the centers array there, at every tile. -/
theorem iblk2_apply (c : Dev nD) (t : Fin cfg1.N) (b : Fin 8) (k : Fin 33) (e : Fin 32) :
    (iblk V c 2 t : Vec F S8x33x32 .f32) (ix3 b k e) = (V c main_v5 : Vec F S8x33x32 .f32) (ix3 b k e) := by
  obtain ⟨h0, h1, h2⟩ := idx_2 t
  unfold iblk
  rw [View.read_apply]
  show V c main_v5 _ = V c main_v5 _
  refine congrArg (V c main_v5) (funext fun a => Fin.ext ?_)
  match a with
  | ⟨0, _⟩ => show win1_2.index t 0 * 8 + 1 * b.val = b.val; rw [h0]; omega
  | ⟨1, _⟩ => show win1_2.index t 1 * 33 + 1 * k.val = k.val; rw [h1]; omega
  | ⟨2, _⟩ => show win1_2.index t 2 * 32 + 1 * e.val = e.val; rw [h2]; omega

/-- The centers' block is the whole centers array, at every tile. -/
theorem iblk2_eq (c : Dev nD) (t : Fin cfg1.N) : (iblk V c 2 t : Vec F S8x33x32 .f32) = V c main_v5 := by
  funext y
  obtain ⟨b, k, e, rfl⟩ : ∃ (b : Fin 8) (k : Fin 33) (e : Fin 32), y = ix3 b k e := ⟨y 0, y 1, y 2, eq_ix3 y⟩
  exact iblk2_apply V c t b k e

end Cert.KernelIdeal.Reg1V

end
-- ==== Proof.KI.R1Payload.lean ====
import proofs.«420528_j52673478918521_3_alg».proof.Proof.Gen.KernelIdeal.Skeleton
import proofs.«420528_j52673478918521_3_alg».proof.Proof.Spec
import Idealize.ShloMosaic.PureOps.Ideal.Laws
import Idealize.ShloMosaic.Lib.ValueIdx
import Idealize.ShloMosaic.Lib.IdealHost
import Idealize.ShloMosaic.Lib.Pipeline.Value

/-!
# The arithmetic of the hinge accumulation, at one tile

One tile of the second region holds 2048 points of each of the 8 batches: their embeddings `x0`, their labels `x1`,
the 33 centers `x2` of each batch, and the accumulator `acc` (8 × 33). The body forms the one-hot of the labels
(8 × 2048 × 33), multiplies it into the centers to get each point's own center, takes the squared distance of the point
to that center, the hinge `max(√max(d², ε) − ½, 0)` (nothing for the background label), and adds to the accumulator,
per batch and label, the sum over the tile's points of one-hot × hinge. This file reads that value at an index.
-/

noncomputable section

open scoped BigOperators

namespace Cert.KernelIdeal.Reg1P

open Idealize.ShloMosaic Idealize.ShloMosaic.ValueIdx Cert.KernelIdeal Cert.KernelIdeal.Gen

/-! ## Layout operations at explicit coordinates -/

/-- A [8 × 2048] array viewed as [8 × 2048 × 1] reads, at (b, r, 0), the array at (b, r). -/
theorem cast_col_apply {α : Type} (v : S8x2048.Idx → α) (h : S8x2048.ShapeCasts S8x2048x1) (b : Fin 8) (r : Fin 2048)
    (z : Fin 1) : shapeCast S8x2048x1 v h (ix3 b r z) = v (ix2 b r) := by
  refine shapeCast_apply v h (ix3 b r z) (ix2 b r) ?_
  rw [Shape.rowMajor_val_two, Shape.rowMajor_val_three]
  have hz : z.val = 0 := by omega
  show b.val * 2048 + r.val = (b.val * 2048 + r.val) * 1 + z.val
  omega

/-- A [8 × 2048 × 1] column broadcast along a third axis of 33 reads, at (b, r, k), the column at (b, r, 0). -/
theorem bcast_col_apply {α : Type} (v : S8x2048x1.Idx → α) (h : S8x2048x1.Broadcasts S8x2048x33) (b : Fin 8)
    (r : Fin 2048) (k : Fin 33) : broadcastTo S8x2048x33 v h (ix3 b r k) = v (ix3 b r (0 : Fin 1)) := by
  refine broadcastTo_apply v h (ix3 b r k) (ix3 b r (0 : Fin 1)) ?_
  intro a
  match a with
  | ⟨0, _⟩ => rfl
  | ⟨1, _⟩ => rfl
  | ⟨2, _⟩ => rfl

/-- A [1 × 1 × 33] row broadcast over 8 batches and 2048 points reads, at (b, r, k), the row at (0, 0, k). -/
theorem bcast_row_apply {α : Type} (v : S1x1x33.Idx → α) (h : S1x1x33.Broadcasts S8x2048x33) (b : Fin 8)
    (r : Fin 2048) (k : Fin 33) : broadcastTo S8x2048x33 v h (ix3 b r k) = v (ix3 (0 : Fin 1) (0 : Fin 1) k) := by
  refine broadcastTo_apply v h (ix3 b r k) (ix3 (0 : Fin 1) (0 : Fin 1) k) ?_
  intro a
  match a with
  | ⟨0, _⟩ => rfl
  | ⟨1, _⟩ => rfl
  | ⟨2, _⟩ => rfl

/-- The lane counter along the third axis of a [1 × 1 × 33] row is the position. -/
theorem iota_row_apply (h : S1x1x33.Iotas .tc 32 [2]) (k : Fin 33) :
    iota .tc S1x1x33 32 [2] h (ix3 (0 : Fin 1) (0 : Fin 1) k) = BitVec.ofNat 32 k.val := by
  show BitVec.ofNat 32 (0 * 33 + k.val) = BitVec.ofNat 32 k.val
  rw [Nat.zero_mul, Nat.zero_add]

/-! ## The one-hot of the labels -/

/-- A compared pair of words, widened and converted, is 1 where they are equal and 0 elsewhere. -/
theorem onehot_word (a c : BitVec 32) :
    (FloatOps.sitofp (F := Ideal) .f32 ((IntOp.cmpi .eq a c).setWidth 32) : EReal) = if a = c then 1 else 0 := by
  show (((((BitVec.ofBool (a == c)).setWidth 32).toInt : ℤ) : ℝ) : EReal) = _
  by_cases hac : a = c
  · rw [if_pos hac, show (a == c) = true from by simpa using hac]
    rw [show ((BitVec.ofBool true).setWidth 32).toInt = 1 from by decide]
    norm_num
  · rw [if_neg hac, show (a == c) = false from by simpa using hac]
    rw [show ((BitVec.ofBool false).setWidth 32).toInt = 0 from by decide]
    norm_num

/-- The one-hot of a tile's labels, as the body spells it: the labels as a column, broadcast along 33 lanes, compared
    with the lane counter, the bit widened and converted. -/
def ohv (x1 : Vec Ideal S8x2048 .i32) : FVec Ideal S8x2048x33 .f32 :=
  sitofp .f32 (extui 32 (cmpi .eq
    (broadcastTo S8x2048x33 (shapeCast S8x2048x1 x1 shapeCasts_S8x2048_S8x2048x1) broadcasts_S8x2048x1_S8x2048x33)
    (broadcastTo S8x2048x33 (iota .tc S1x1x33 32 [2] iota_S1x1x33_d2_w32) broadcasts_S1x1x33_S8x2048x33)) natLt_1_32)

/-- At (b, r, k) the one-hot is 1 when point r of batch b carries label k, else 0. -/
theorem ohv_apply (x1 : Vec Ideal S8x2048 .i32) (b : Fin 8) (r : Fin 2048) (k : Fin 33) :
    ohv x1 (ix3 b r k) = if x1 (ix2 b r) = BitVec.ofNat 32 k.val then 1 else 0 := by
  show FloatOps.sitofp (F := Ideal) .f32 ((IntOp.cmpi .eq
    (broadcastTo S8x2048x33 (shapeCast S8x2048x1 x1 shapeCasts_S8x2048_S8x2048x1) broadcasts_S8x2048x1_S8x2048x33 (ix3 b r k))
    (broadcastTo S8x2048x33 (iota .tc S1x1x33 32 [2] iota_S1x1x33_d2_w32) broadcasts_S1x1x33_S8x2048x33 (ix3 b r k))).setWidth 32) = _
  rw [bcast_col_apply, cast_col_apply, bcast_row_apply, iota_row_apply]
  exact onehot_word _ _

/-! ## The product of the one-hot with the centers -/

/-- The dimension numbers of the product: batch axis 0 of both, the one-hot's lane axis against the centers' label axis. -/
abbrev D : DotDims S8x2048x33 S8x33x32 S8x2048x32 := dot_S8x2048x33_S8x33x32_S8x2048x32_2_1_1_2_0_0

theorem lhs_ax0 (j : S8x2048x32.Idx) (q : D.contr.Idx) : (D.lhsIdx j q (0 : Fin 3)).val = (j (0 : Fin 3)).val := by
  unfold DotDims.lhsIdx
  rw [dif_pos (show (0 : Fin S8x2048x33.rank) ∈ D.lhsBatch from by decide)]
  rfl

theorem lhs_ax1 (j : S8x2048x32.Idx) (q : D.contr.Idx) : (D.lhsIdx j q (1 : Fin 3)).val = (j (1 : Fin 3)).val := by
  unfold DotDims.lhsIdx
  rw [dif_neg (show ¬ (1 : Fin S8x2048x33.rank) ∈ D.lhsBatch from by decide),
    dif_pos (show (1 : Fin S8x2048x33.rank) ∈ D.lhsNonContracting from by decide)]
  rfl

theorem lhs_ax2 (j : S8x2048x32.Idx) (q : D.contr.Idx) :
    (D.lhsIdx j q (2 : Fin 3)).val = (q ⟨0, by decide⟩).val :=
  DotDims.lhsIdx_val_of_single D (cl := (2 : Fin 3)) rfl j q

theorem rhs_ax0 (j : S8x2048x32.Idx) (q : D.contr.Idx) : (D.rhsIdx j q (0 : Fin 3)).val = (j (0 : Fin 3)).val := by
  unfold DotDims.rhsIdx
  rw [dif_pos (show (0 : Fin S8x33x32.rank) ∈ D.rhsBatch from by decide)]
  rfl

theorem rhs_ax1 (j : S8x2048x32.Idx) (q : D.contr.Idx) :
    (D.rhsIdx j q (1 : Fin 3)).val = (q ⟨0, by decide⟩).val :=
  DotDims.rhsIdx_val_of_single D (cr := (1 : Fin 3)) rfl j q

theorem rhs_ax2 (j : S8x2048x32.Idx) (q : D.contr.Idx) : (D.rhsIdx j q (2 : Fin 3)).val = (j (2 : Fin 3)).val := by
  unfold DotDims.rhsIdx
  rw [dif_neg (show ¬ (2 : Fin S8x33x32.rank) ∈ D.rhsBatch from by decide),
    dif_pos (show (2 : Fin S8x33x32.rank) ∈ D.rhsNonContracting from by decide)]
  rfl

/-- The batched product into a zero accumulator, at (b, r, e): the sum over the 33 labels of left (b, r, k) times
    right (b, k, e). -/
theorem matmul_zero_apply {φ₁ φ₂ : FTy} (lhs : FVec Ideal S8x2048x33 φ₁) (rhs : FVec Ideal S8x33x32 φ₂) (b : Fin 8)
    (r : Fin 2048) (e : Fin 32) :
    matmul D none lhs rhs (constant (F := Ideal) S8x2048x32 .f32 0x00000000#32) (ix3 b r e)
      = ∑ k : Fin 33, lhs (ix3 b r k) * rhs (ix3 b k e) := by
  refine (Ideal.matmul_constant_zero_apply D none lhs rhs (ix3 b r e)).trans ?_
  refine (Equiv.sum_comp (contrEquiv1 D 33 rfl rfl).symm _).symm.trans ?_
  refine Finset.sum_congr rfl fun k _ => ?_
  have hl : D.lhsIdx (ix3 b r e) ((contrEquiv1 D 33 rfl rfl).symm k) = ix3 b r k := by
    funext a
    match a with
    | ⟨0, _⟩ => exact Fin.ext (lhs_ax0 _ _)
    | ⟨1, _⟩ => exact Fin.ext (lhs_ax1 _ _)
    | ⟨2, _⟩ => exact Fin.ext ((lhs_ax2 _ _).trans (contrEquiv1_symm_val D 33 rfl rfl k))
  have hr : D.rhsIdx (ix3 b r e) ((contrEquiv1 D 33 rfl rfl).symm k) = ix3 b k e := by
    funext a
    match a with
    | ⟨0, _⟩ => exact Fin.ext (rhs_ax0 _ _)
    | ⟨1, _⟩ => exact Fin.ext ((rhs_ax1 _ _).trans (contrEquiv1_symm_val D 33 rfl rfl k))
    | ⟨2, _⟩ => exact Fin.ext (rhs_ax2 _ _)
  rw [hl, hr]

/-! ## The two lane sums -/

/-- Summing a [8 × 2048 × 32] block over its coordinate axis: at (b, r), the sum over the 32 coordinates. -/
theorem sum_coord_apply (v : FVec Ideal S8x2048x32 .f32) (h : S8x2048x32.Reduces [2] S8x2048) (hφ : FKind.Formats .f32)
    (hacc : (0x00000000#32 : BitVec 32) = 0x00000000#32) (b : Fin 8) (r : Fin 2048) :
    multiReduction .add [2] S8x2048 v 0x00000000#32 h hφ hacc (ix2 b r) = ∑ e : Fin 32, v (ix3 b r e) := by
  refine (Ideal.multiReduction_add_single v 0x00000000#32 h hφ hacc (ix2 b r)).trans ?_
  refine Finset.sum_congr rfl fun e _ => congrArg v ?_
  funext c
  match c with
  | ⟨0, _⟩ => rfl
  | ⟨1, _⟩ => rfl
  | ⟨2, _⟩ => rfl

/-- Summing a [8 × 2048 × 33] block over its point axis: at (b, k), the sum over the 2048 points. -/
theorem sum_point_apply (v : FVec Ideal S8x2048x33 .f32) (h : S8x2048x33.Reduces [1] S8x33) (hφ : FKind.Formats .f32)
    (hacc : (0x00000000#32 : BitVec 32) = 0x00000000#32) (b : Fin 8) (k : Fin 33) :
    multiReduction .add [1] S8x33 v 0x00000000#32 h hφ hacc (ix2 b k) = ∑ r : Fin 2048, v (ix3 b r k) := by
  refine (Ideal.multiReduction_add_single v 0x00000000#32 h hφ hacc (ix2 b k)).trans ?_
  refine Finset.sum_congr rfl fun r _ => congrArg v ?_
  funext c
  match c with
  | ⟨0, _⟩ => rfl
  | ⟨1, _⟩ => rfl
  | ⟨2, _⟩ => rfl

/-! ## The block-local mathematics -/

/-- Coordinate `e` of the center that point `r` of batch `b` is compared with: the one-hot combination of the batch's
    33 centers. -/
def ownLoc (x1 : Vec Ideal S8x2048 .i32) (x2 : Vec Ideal S8x33x32 .f32) (b : Fin 8) (r : Fin 2048) (e : Fin 32) : EReal :=
  ∑ k : Fin 33, (if x1 (ix2 b r) = BitVec.ofNat 32 k.val then 1 else 0) * x2 (ix3 b k e)

/-- The squared distance of point `r` of batch `b` to its own center. -/
def d2Loc (x0 : Vec Ideal S8x2048x32 .f32) (x1 : Vec Ideal S8x2048 .i32) (x2 : Vec Ideal S8x33x32 .f32) (b : Fin 8)
    (r : Fin 2048) : EReal :=
  ∑ e : Fin 32, (x0 (ix3 b r e) - ownLoc x1 x2 b r e) * (x0 (ix3 b r e) - ownLoc x1 x2 b r e)

/-- The hinge of point `r` of batch `b`: nothing for the background label, else the distance beyond ½. -/
def hingeLoc (x0 : Vec Ideal S8x2048x32 .f32) (x1 : Vec Ideal S8x2048 .i32) (x2 : Vec Ideal S8x33x32 .f32) (b : Fin 8)
    (r : Fin 2048) : EReal :=
  Scalar.select (Scalar.cmpi .sgt (x1 (ix2 b r)) 0#32)
    (max (Ideal.sqrt (max (d2Loc x0 x1 x2 b r) Cert.Spec.eps) - Cert.Spec.half) Cert.Spec.zero) Cert.Spec.zero

/-! ## The body's intermediate blocks -/

/-- Each point's own center, as the body forms it: the one-hot times the centers. -/
def ownv (x1 : Vec Ideal S8x2048 .i32) (x2 : Vec Ideal S8x33x32 .f32) : FVec Ideal S8x2048x32 .f32 :=
  matmul D none (truncf .bf16 (ohv x1) bitsLt_bf16_f32)
    (truncf .bf16 (shapeCast S8x33x32 x2 shapeCasts_S8x33x32_S8x33x32) bitsLt_bf16_f32)
    (constant (F := Ideal) S8x2048x32 .f32 0x00000000#32)

theorem ownv_apply (x1 : Vec Ideal S8x2048 .i32) (x2 : Vec Ideal S8x33x32 .f32) (b : Fin 8) (r : Fin 2048) (e : Fin 32) :
    ownv x1 x2 (ix3 b r e) = ownLoc x1 x2 b r e := by
  unfold ownv ownLoc
  refine (matmul_zero_apply _ _ b r e).trans ?_
  refine Finset.sum_congr rfl fun k _ => ?_
  rw [shapeCast_self]
  show ohv x1 (ix3 b r k) * x2 (ix3 b k e) = _
  rw [ohv_apply]

/-- Each point's squared distance to its own center, as the body forms it. -/
def d2v (x0 : Vec Ideal S8x2048x32 .f32) (x1 : Vec Ideal S8x2048 .i32) (x2 : Vec Ideal S8x33x32 .f32) :
    FVec Ideal S8x2048 .f32 :=
  multiReduction .add [2] S8x2048 (mulf (subf x0 (ownv x1 x2)) (subf x0 (ownv x1 x2))) 0x00000000#32
    reduces_S8x2048x32_S8x2048 (.inl rfl) rfl

theorem d2v_apply (x0 : Vec Ideal S8x2048x32 .f32) (x1 : Vec Ideal S8x2048 .i32) (x2 : Vec Ideal S8x33x32 .f32)
    (b : Fin 8) (r : Fin 2048) : d2v x0 x1 x2 (ix2 b r) = d2Loc x0 x1 x2 b r := by
  unfold d2v d2Loc
  refine (sum_coord_apply _ _ _ _ b r).trans ?_
  refine Finset.sum_congr rfl fun e _ => ?_
  show (x0 (ix3 b r e) - ownv x1 x2 (ix3 b r e)) * (x0 (ix3 b r e) - ownv x1 x2 (ix3 b r e)) = _
  rw [ownv_apply]

/-- Each point's hinge, as the body forms it. -/
def hingev (x0 : Vec Ideal S8x2048x32 .f32) (x1 : Vec Ideal S8x2048 .i32) (x2 : Vec Ideal S8x33x32 .f32) :
    FVec Ideal S8x2048 .f32 :=
  select (cmpi .sgt x1 (broadcast S8x2048 (0#32 : BitVec 32)))
    (maximumf
      (subf (sqrt (maximumf (d2v x0 x1 x2) (broadcast S8x2048 (Scalar.ofBits (F := Ideal) .f32 0x2B8CBCCC#32))))
        (broadcast S8x2048 (Scalar.ofBits (F := Ideal) .f32 0x3F000000#32)))
      (broadcast S8x2048 (Scalar.ofBits (F := Ideal) .f32 0x00000000#32)))
    (broadcast S8x2048 (Scalar.ofBits (F := Ideal) .f32 0x00000000#32))

theorem hingev_apply (x0 : Vec Ideal S8x2048x32 .f32) (x1 : Vec Ideal S8x2048 .i32) (x2 : Vec Ideal S8x33x32 .f32)
    (b : Fin 8) (r : Fin 2048) : hingev x0 x1 x2 (ix2 b r) = hingeLoc x0 x1 x2 b r := by
  show Scalar.select (Scalar.cmpi .sgt (x1 (ix2 b r)) 0#32)
    (max (Ideal.sqrt (max (d2v x0 x1 x2 (ix2 b r)) Cert.Spec.eps) - Cert.Spec.half) Cert.Spec.zero) Cert.Spec.zero = _
  rw [d2v_apply]
  rfl

/-! ## The three payloads at an index -/

/-- The accumulator written back: a cast to the same shape. -/
theorem pay1_apply (v : FVec Ideal S8x33 .f32) (j : S8x33.Idx) : k1_pay1 v j = v j := by
  unfold k1_pay1
  rw [shapeCast_self]

/-- The accumulator's reset: zero everywhere. -/
theorem pay2_apply (b : Fin 8) (k : Fin 33) : k1_pay2 (F := Ideal) (ix2 b k) = 0 := by
  unfold k1_pay2
  rw [shapeCast_self]
  exact Ideal.ofBits_zero_f32

/-- The body's new accumulator, as one expression over the intermediate blocks. -/
theorem pay3_eq (x0 : Vec Ideal S8x2048x32 .f32) (x1 : Vec Ideal S8x2048 .i32) (x2 : Vec Ideal S8x33x32 .f32)
    (acc : Vec Ideal S8x33 .f32) :
    k1_pay3 x0 x1 x2 acc = addf acc (multiReduction .add [1] S8x33
      (mulf (ohv x1) (broadcastTo S8x2048x33 (shapeCast S8x2048x1 (hingev x0 x1 x2) shapeCasts_S8x2048_S8x2048x1)
        broadcasts_S8x2048x1_S8x2048x33)) 0x00000000#32 reduces_S8x2048x33_S8x33 (.inl rfl) rfl) := rfl

/-- The body's new accumulator at (b, k): the old one plus, over the tile's 2048 points, one-hot × hinge. -/
theorem pay3_apply (x0 : Vec Ideal S8x2048x32 .f32) (x1 : Vec Ideal S8x2048 .i32) (x2 : Vec Ideal S8x33x32 .f32)
    (acc : Vec Ideal S8x33 .f32) (b : Fin 8) (k : Fin 33) :
    k1_pay3 x0 x1 x2 acc (ix2 b k) = acc (ix2 b k)
      + ∑ r : Fin 2048, (if x1 (ix2 b r) = BitVec.ofNat 32 k.val then (1 : EReal) else 0) * hingeLoc x0 x1 x2 b r := by
  rw [pay3_eq]
  show acc (ix2 b k) + _ = _
  refine congrArg (acc (ix2 b k) + ·) ?_
  refine (sum_point_apply _ _ _ _ b k).trans ?_
  refine Finset.sum_congr rfl fun r _ => ?_
  show ohv x1 (ix3 b r k) * broadcastTo S8x2048x33 (shapeCast S8x2048x1 (hingev x0 x1 x2) shapeCasts_S8x2048_S8x2048x1)
    broadcasts_S8x2048x1_S8x2048x33 (ix3 b r k) = _
  rw [ohv_apply, bcast_col_apply, cast_col_apply, hingev_apply]

/-! ## From the tile to the whole arrays -/

/-- When the tile's embeddings and labels are those of points `pt t r` of the whole arrays, and its centers are the whole
    centers, the block-local hinge is the hinge of that point. -/
theorem hingeLoc_eq_hingeAt (E : Cert.Spec.SE.Idx → EReal) (L : Cert.Spec.SL.Idx → BitVec 32) (C : Cert.Spec.SC.Idx → EReal)
    (t : Fin 32) (x0 : Vec Ideal S8x2048x32 .f32) (x1 : Vec Ideal S8x2048 .i32) (x2 : Vec Ideal S8x33x32 .f32)
    (h0 : ∀ (b : Fin 8) (r : Fin 2048) (e : Fin 32),
      x0 (ix3 b r e) = E (ix3 b (Cert.Spec.pt (T := 32) (R := 2048) rfl t r) e))
    (h1 : ∀ (b : Fin 8) (r : Fin 2048), x1 (ix2 b r) = L (ix2 b (Cert.Spec.pt (T := 32) (R := 2048) rfl t r)))
    (h2 : x2 = C) :
    ∀ (b : Fin 8) (r : Fin 2048),
      hingeLoc x0 x1 x2 b r = Cert.Spec.hingeAt E L C b (Cert.Spec.pt (T := 32) (R := 2048) rfl t r) := by
  intro b r
  subst h2
  have hown : ∀ e : Fin 32, ownLoc x1 x2 b r e
      = Cert.Spec.ownCenter L x2 b (Cert.Spec.pt (T := 32) (R := 2048) rfl t r) e := by
    intro e
    unfold ownLoc Cert.Spec.ownCenter Cert.Spec.ind
    rw [h1]
  have hd2 : d2Loc x0 x1 x2 b r = Cert.Spec.d2At E L x2 b (Cert.Spec.pt (T := 32) (R := 2048) rfl t r) := by
    unfold d2Loc Cert.Spec.d2At
    refine Finset.sum_congr rfl fun e _ => ?_
    rw [h0, hown]
  unfold hingeLoc Cert.Spec.hingeAt
  rw [hd2, h1]

end Cert.KernelIdeal.Reg1P

end
-- ==== Proof.KI.R1Value.lean ====
/-
  Region 1's value at the ideal instance: after the last tile the result array holds the per-label sums of the hinge
  terms of the specification, taken against the centers array the region is entered with. Tile t's blocks are points
  t·2048 .. t·2048 + 2047 of the embeddings and the labels, and the whole centers; each tile adds to the accumulator,
  at (b, k), the sum over its own points of one-hot × hinge; by induction on the tile the accumulator holds the partial
  sums over tiles 0..n, and after tile 31 the sum over all 65536 points; the last tile stores the accumulator into the
  result block, which is its whole array.
-/
import proofs.«420528_j52673478918521_3_alg».proof.Proof.KI.R1Pieces
import proofs.«420528_j52673478918521_3_alg».proof.Proof.KI.R1Blocks
import proofs.«420528_j52673478918521_3_alg».proof.Proof.KI.R1Payload
import proofs.«420528_j52673478918521_3_alg».proof.Proof.KI.R0Acc

set_option maxRecDepth 16384

noncomputable section

open scoped BigOperators

namespace Cert.KernelIdeal.Reg1V

open Cert.KernelIdeal Cert.KernelIdeal.Gen Cert.KernelIdeal.Reg1
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The embeddings, the labels and the centers as the region finds them, and a tile's blocks of each. -/
abbrev Earr (c : Dev nD) : FVec Ideal S8x65536x32 .f32 := V c main_arg0
abbrev Larr (c : Dev nD) : IVec S8x65536 32 := V c main_arg1
abbrev Carr (c : Dev nD) : FVec Ideal S8x33x32 .f32 := V c main_v5
abbrev xblk (c : Dev nD) (t : Fin cfg1.N) : Vec Ideal S8x2048x32 .f32 := iblk V c 0 t
abbrev lblk (c : Dev nD) (t : Fin cfg1.N) : Vec Ideal S8x2048 .i32 := iblk V c 1 t
abbrev cblk (c : Dev nD) (t : Fin cfg1.N) : Vec Ideal S8x33x32 .f32 := iblk V c 2 t

/-! ## What each tile leaves in the accumulator, as payloads of the tile's blocks -/

theorem accA (c : Dev nD) (t : Fin cfg1.N) (h0 : t.val = 0) (h1 : ¬t.val = 31) :
    (outsAt V c t.val t.isLt).2 = k1_pay1 (k1_pay3 (F := Ideal) (xblk V c t) (lblk V c t) (cblk V c t) (k1_pay2 (F := Ideal))) := by
  rw [outsAt_A V c t h0 h1]; dsimp only
  exact sout_A_0_eq (F := Ideal) c (grid1.coords t) (ms_0 t) (hs_0 t) (ms_1 t) (hs_1 t) (ms_2 t) (hs_2 t) (ms_3 t) (hs_3 t) scM_0 (Memref.isWhole_whole _) ((hcond_0 t).mpr h0) (fun h => h1 ((hcond_1 t).mp h)) (iblk V c 0 t) (iblk V c 1 t) (iblk V c 2 t)

theorem accB (c : Dev nD) (t : Fin cfg1.N) (h0 : ¬t.val = 0) (h1 : ¬t.val = 31) :
    (outsAt V c t.val t.isLt).2 = k1_pay1 (k1_pay3 (F := Ideal) (xblk V c t) (lblk V c t) (cblk V c t) (outsAt V c (t.val - 1) (prevLt t)).2) := by
  rw [outsAt_B V c t h0 h1]; dsimp only
  exact sout_B_0_eq (F := Ideal) c (grid1.coords t) (ms_0 t) (hs_0 t) (ms_1 t) (hs_1 t) (ms_2 t) (hs_2 t) (ms_3 t) (hs_3 t) scM_0 (Memref.isWhole_whole _) (fun h => h0 ((hcond_0 t).mp h)) (fun h => h1 ((hcond_1 t).mp h)) (iblk V c 0 t) (iblk V c 1 t) (iblk V c 2 t) (outsAt V c (t.val - 1) (prevLt t)).2

theorem accC (c : Dev nD) (t : Fin cfg1.N) (h0 : ¬t.val = 0) (h1 : t.val = 31) :
    (outsAt V c t.val t.isLt).2 = k1_pay1 (k1_pay3 (F := Ideal) (xblk V c t) (lblk V c t) (cblk V c t) (outsAt V c (t.val - 1) (prevLt t)).2) := by
  rw [outsAt_C V c t h0 h1]; dsimp only
  exact sout_C_0_eq (F := Ideal) c (grid1.coords t) (ms_0 t) (hs_0 t) (ms_1 t) (hs_1 t) (ms_2 t) (hs_2 t) (ms_3 t) (hs_3 t) scM_0 (Memref.isWhole_whole _) (fun h => h0 ((hcond_0 t).mp h)) ((hcond_1 t).mpr h1) (iblk V c 0 t) (iblk V c 1 t) (iblk V c 2 t) (outsAt V c (t.val - 1) (prevLt t)).2

/-- The last tile's result block is the accumulator it leaves. -/
theorem outC (c : Dev nD) (t : Fin cfg1.N) (h0 : ¬t.val = 0) (h1 : t.val = 31) :
    (outsAt V c t.val t.isLt).1 = (outsAt V c t.val t.isLt).2 := by
  rw [accC V c t h0 h1, outsAt_C V c t h0 h1]; dsimp only
  exact out_C_3_eq (F := Ideal) c (grid1.coords t) (ms_0 t) (hs_0 t) (ms_1 t) (hs_1 t) (ms_2 t) (hs_2 t) (ms_3 t) (hs_3 t) scM_0 (Memref.isWhole_whole _) (fun h => h0 ((hcond_0 t).mp h)) ((hcond_1 t).mpr h1) (iblk V c 0 t) (iblk V c 1 t) (iblk V c 2 t) (outsAt V c (t.val - 1) (prevLt t)).2

/-! ## The accumulator after tile n: the partial sums over tiles 0..n -/

/-- The summand of the hinge sum at (b, k), as a function of the point: the one-hot of the point's label at k times
    the point's hinge. -/
abbrev fH (c : Dev nD) (b : Fin 8) (k : Fin 33) : Fin 65536 → EReal :=
  fun p => Spec.ind (Larr V c) b p k * Spec.hingeAt (Earr V c) (Larr V c) (Carr V c) b p

/-- A tile's addend to the accumulator is the specification's summand over the tile's points. -/
theorem tile_hinge (c : Dev nD) (t : Fin cfg1.N) (b : Fin 8) (k : Fin 33) :
    ∑ r : Fin 2048, (if lblk V c t (ix2 b r) = BitVec.ofNat 32 k.val then (1 : EReal) else 0)
        * Reg1P.hingeLoc (xblk V c t) (lblk V c t) (cblk V c t) b r
      = ∑ r : Fin 2048, fH V c b k (ptOf t r) :=
  Finset.sum_congr rfl fun r _ => by
    rw [Reg1P.hingeLoc_eq_hingeAt (Earr V c) (Larr V c) (Carr V c) (tile t) (xblk V c t) (lblk V c t) (cblk V c t)
      (iblk0_apply V c t) (iblk1_apply V c t) (iblk2_eq V c t) b r]
    show (if iblk V c 1 t (ix2 b r) = BitVec.ofNat 32 k.val then (1 : EReal) else 0) * _ = _
    rw [iblk1_apply V c t b r]
    rfl

theorem inv_hinge (c : Dev nD) (b : Fin 8) (k : Fin 33) : ∀ (n : ℕ) (hn : n < cfg1.N),
    ((outsAt V c n hn).2 : FVec Ideal S8x33 .f32) (ix2 b k)
      = Spec.accUpTo (T := 32) (R := 2048) rfl (fH V c b k) n (lt32 hn)
  | 0, hn => by
    rw [Spec.accUpTo]
    refine (congrFun (accA V c ⟨0, hn⟩ rfl (show ¬(0 : ℕ) = 31 by decide)) (ix2 b k)).trans ?_
    refine (Reg1P.pay1_apply _ _).trans ((Reg1P.pay3_apply (xblk V c ⟨0, hn⟩) (lblk V c ⟨0, hn⟩) (cblk V c ⟨0, hn⟩) (k1_pay2 (F := Ideal)) b k).trans ?_)
    exact congrArg₂ (· + ·) (Reg1P.pay2_apply b k) (tile_hinge V c ⟨0, hn⟩ b k)
  | n + 1, hn => by
    have ih := inv_hinge c b k n (Nat.lt_of_succ_lt hn)
    have hstep : ((outsAt V c (n + 1) hn).2 : FVec Ideal S8x33 .f32)
        = k1_pay1 (k1_pay3 (F := Ideal) (xblk V c ⟨n + 1, hn⟩) (lblk V c ⟨n + 1, hn⟩) (cblk V c ⟨n + 1, hn⟩) (outsAt V c n (Nat.lt_of_succ_lt hn)).2) := by
      by_cases h31 : n + 1 = 31
      · exact accC V c ⟨n + 1, hn⟩ (Nat.succ_ne_zero n) h31
      · exact accB V c ⟨n + 1, hn⟩ (Nat.succ_ne_zero n) h31
    rw [Spec.accUpTo]
    refine (congrFun hstep (ix2 b k)).trans ?_
    refine (Reg1P.pay1_apply _ _).trans ((Reg1P.pay3_apply (xblk V c ⟨n + 1, hn⟩) (lblk V c ⟨n + 1, hn⟩) (cblk V c ⟨n + 1, hn⟩) (outsAt V c n (Nat.lt_of_succ_lt hn)).2 b k).trans ?_)
    exact congrArg₂ (· + ·) ih (tile_hinge V c ⟨n + 1, hn⟩ b k)

/-! ## After the last tile: the hinge sums, stored into the result array -/

/-- The specification's hinge sums as contents of the result array. -/
abbrev hsumsG (c : Dev nD) : Buf (Elt Ideal) ((c : Thread nD τ).loc main_v13) := Spec.hsums (Earr V c) (Larr V c) (Carr V c)

/-- The last of the 32 tiles. -/
def tLast : Fin cfg1.N := ⟨31, by show 31 < grid1.N; rw [N_1]; decide⟩

theorem last_hinge (c : Dev nD) : ((outsAt V c tLast.val tLast.isLt).1 : FVec Ideal S8x33 .f32) = hsumsG V c := by
  rw [outC V c tLast (by decide) rfl]
  funext j
  obtain ⟨b, k, rfl⟩ : ∃ (b : Fin 8) (k : Fin 33), j = ix2 b k := ⟨j 0, j 1, eq_ix2 j⟩
  rw [inv_hinge V c b k tLast.val tLast.isLt]
  exact Reg0V.accUpTo_last rfl (fH V c b k) 31 _ rfl

/-- The one write-back of the result window, at the last tile, writes the hinge sums: its block is the whole array. -/
theorem flushed_3 (c : Dev nD) (t : Fin cfg1.N) (hf : (cfg1.win 3).flush t = true) :
    (dat V c).flushed 3 t = ((cfg1.win 3).blk t).view.read (Elt Ideal) (hsumsG V c) := by
  have hN : cfg1.N = 32 := N_1
  have h31 : t.val = 31 := by have := (flush1_3 t).mp hf; have := t.isLt; omega
  obtain rfl : t = tLast := Fin.ext h31
  show (cfg1.win 3).cut (grid1.coords tLast) ((dat V c).after 3 tLast) = _
  rw [after_3, last_hinge]
  have hz' : (fun a => win1_3.index tLast a * main_v13.ty.shape.size a) = fun _ => 0 := funext fun a => by fin_cases a <;> decide +kernel
  exact (Memref.read_access_unit_zero (Elt Ideal) main_v13 hz' (fun a => by rw [congrFun hz' a]; simp) (hsumsG V c)).symm

/-- Region 1 leaves the hinge sums in its result array. -/
theorem arrAt_hsums (c : Dev nD) :
    (dat (F := Ideal) V c).arrAt 3 cfg1.N = Cert.Spec.hsums (V c main_arg0) (V c main_arg1) (V c main_v5) :=
  (dat V c).arrAt_eq_of_cover 3 (hsumsG V c) (flushed_3 V c) fun i =>
    ⟨tLast, (flush1_3 tLast).mpr rfl, by
      show i ∈ ((View.whole main_v13).slice (win1_3.rect tLast)).set
      rw [View.set_slice_whole, Rect.mem_set_unit]
      intro a
      have h0 : (i 0 : Nat) < 8 := (i 0).isLt
      have h1 : (i 1 : Nat) < 33 := (i 1).isLt
      match a with
      | ⟨0, _⟩ => show win1_3.index tLast 0 * win1_3.size 0 ≤ (i 0 : Nat) ∧ (i 0 : Nat) < win1_3.index tLast 0 * win1_3.size 0 + win1_3.xsize (grid1.coords tLast) 0
                  rw [show win1_3.index tLast 0 * win1_3.size 0 = 0 from by decide +kernel, show win1_3.xsize (grid1.coords tLast) 0 = 8 from by decide +kernel]; omega
      | ⟨1, _⟩ => show win1_3.index tLast 1 * win1_3.size 1 ≤ (i 1 : Nat) ∧ (i 1 : Nat) < win1_3.index tLast 1 * win1_3.size 1 + win1_3.xsize (grid1.coords tLast) 1
                  rw [show win1_3.index tLast 1 * win1_3.size 1 = 0 from by decide +kernel, show win1_3.xsize (grid1.coords tLast) 1 = 33 from by decide +kernel]; omega⟩

end Cert.KernelIdeal.Reg1V

end
-- ==== Proof.KI.KernelValue.lean ====
/-
  The idealized kernel program's result as a function of its arguments: the shared host chain applied to the
  per-label segment sums and counts of region 0 and the per-label hinge sums of region 1 (taken against the centers
  the host operations between the regions make from those sums and counts).
-/
import proofs.«420528_j52673478918521_3_alg».proof.Proof.KI.Run
import proofs.«420528_j52673478918521_3_alg».proof.Proof.KI.Result
import proofs.«420528_j52673478918521_3_alg».proof.Proof.KI.R0Value
import proofs.«420528_j52673478918521_3_alg».proof.Proof.KI.R1Value

set_option maxRecDepth 16384

noncomputable section

namespace Cert.KernelIdeal.KernelValue

open Cert.KernelIdeal Cert.KernelIdeal.Gen
open Idealize.ShloMosaic Idealize.ShloMosaic.TcCoe
open Idealize.SL Idealize.SL.Sem

variable (m : (ℓ : Loc nD τ sig) → Buf (Elt Ideal) ℓ)

/-- The embeddings and labels reach region 1 as launched. -/
theorem Vr2_arg0 (c : Dev nD) : Run.Vr2 m c main_arg0 = m ((c.tc : Thread nD τ).loc main_arg0) :=
  (V2_of m (Run.outsA m) c main_arg0 (by decide)).trans (V1_of m (Run.outsA m) c main_arg0 (by decide))
theorem Vr2_arg1 (c : Dev nD) : Run.Vr2 m c main_arg1 = m ((c.tc : Thread nD τ).loc main_arg1) :=
  (V2_of m (Run.outsA m) c main_arg1 (by decide)).trans (V1_of m (Run.outsA m) c main_arg1 (by decide))

theorem kernel_value (c : Dev nD) :
    V10 m (Run.outs m) c main_v80
      = Cert.Tail.tail (F := Ideal) (Cert.Spec.sums (m ((c.tc : Thread nD τ).loc main_arg0)) (m ((c.tc : Thread nD τ).loc main_arg1)))
          (Cert.Spec.counts (m ((c.tc : Thread nD τ).loc main_arg1)))
          (Cert.Spec.hsums (m ((c.tc : Thread nD τ).loc main_arg0)) (m ((c.tc : Thread nD τ).loc main_arg1))
            (Cert.Tail.centers (F := Ideal) (Cert.Spec.sums (m ((c.tc : Thread nD τ).loc main_arg0)) (m ((c.tc : Thread nD τ).loc main_arg1)))
              (Cert.Spec.counts (m ((c.tc : Thread nD τ).loc main_arg1))))) := by
  have hs : Run.outs m 1 main_v0_0 c = Cert.Spec.sums (m ((c.tc : Thread nD τ).loc main_arg0)) (m ((c.tc : Thread nD τ).loc main_arg1)) :=
    (Run.outs_v0_0 m c).trans (Reg0V.arrAt_sums (Run.Vr0 m) c)
  have hc : Run.outs m 1 main_v0_1 c = Cert.Spec.counts (m ((c.tc : Thread nD τ).loc main_arg1)) :=
    (Run.outs_v0_1 m c).trans (Reg0V.arrAt_counts (Run.Vr0 m) c)
  have h5 : Run.Vr2 m c main_v5 = Cert.Tail.centers (F := Ideal) (Cert.Spec.sums (m ((c.tc : Thread nD τ).loc main_arg0)) (m ((c.tc : Thread nD τ).loc main_arg1))) (Cert.Spec.counts (m ((c.tc : Thread nD τ).loc main_arg1))) := by
    have := Result.centers_eq m (Run.outs m) c
    rw [hs, hc] at this
    exact this
  have hh : Run.outs m 3 main_v13 c = Cert.Spec.hsums (m ((c.tc : Thread nD τ).loc main_arg0)) (m ((c.tc : Thread nD τ).loc main_arg1))
      (Cert.Tail.centers (F := Ideal) (Cert.Spec.sums (m ((c.tc : Thread nD τ).loc main_arg0)) (m ((c.tc : Thread nD τ).loc main_arg1))) (Cert.Spec.counts (m ((c.tc : Thread nD τ).loc main_arg1)))) := by
    rw [Run.outs_v13 m c, Reg1V.arrAt_hsums (Run.Vr2 m) c, Vr2_arg0, Vr2_arg1, h5]
  rw [Result.result_eq m (Run.outs m) c, hs, hc, hh]

end Cert.KernelIdeal.KernelValue

end
-- ==== Proof.RefImports.lean ====
/- The reference's run and its read-at-an-index lemmas, gathered under one name for the modules that speak about the reference. -/
import proofs.«420528_j52673478918521_3_alg».proof.Proof.RefRun
import proofs.«420528_j52673478918521_3_alg».proof.Proof.RefRead
-- ==== Proof.LibScatterAddRows.lean ====
/-
  THE ACCUMULATING SCATTER BY ROWS, at the ideal instance.

  The scatter considered has an add body, scatter indices that are an [n × 1] column of row positions, operand axis 0
  inserted and start-indexed, and the remaining operand axes (none for a vector, axis 1 for a matrix of rows) as window
  axes: the accumulation x[idx[p]] += v[p] over all rows p. At the ideal instance the result is the exact sum: every
  operand element plus the sum of the update elements that land on it. An update element (p) resp. (p, q) lands on
  operand element (r) resp. (r, q) exactly when the start index of row p, read SIGNED and NOT clamped, is r; a start
  index outside the operand drops the update. So

    scatterAdd x idx upd (r)    = x (r)    + ∑ over rows p with idx[p] = r of upd (p),
    scatterAdd x idx upd (r, q) = x (r, q) + ∑ over rows p with idx[p] = r of upd (p, q).

  The proof: (1) for any dimension numbers, an update index lands on operand index i iff on every axis the start plus the
  window coordinate is i's coordinate; (2) at these dimension numbers the start on axis 0 is the row's start index and
  the window coordinate is 0 there, and on axis 1 (rows) the start is 0 and the window coordinate is the update's column;
  (3) the sum over the landing update indices is re-indexed by the row.
-/
import Idealize.ShloMosaic.PureOps.Ideal
import Idealize.ShloMosaic.Lib.ValueIdx
import Idealize.ShloMosaic.Lib.StableHlo.Predicate

open scoped BigOperators

namespace Cert.LibScatterAddRows

open Idealize.ShloMosaic Idealize.ShloMosaic.ValueIdx Idealize.ShloMosaic.StableHlo.Predicate

/-! ## Any dimension numbers: landing on an operand index, axis by axis -/

/-- An update index lands on operand index i exactly when, on every operand axis, the (signed, unclamped) start plus
    the window coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · next hc =>
      have h2 := congrArg Fin.val (congrFun (Option.some.inj h) a)
      simp only at h2
      have := hc a
      omega
    · cases h
  · intro h
    have hc : ∀ a, 0 ≤ d.start j idx a + (d.window j a : ℤ) ∧ d.start j idx a + (d.window j a : ℤ) < s.size a := fun a => by
      rw [h a]
      exact ⟨Int.natCast_nonneg _, by exact_mod_cast (i a).isLt⟩
    rw [dif_pos hc]
    congr 1
    funext a
    apply Fin.ext
    show (d.start j idx a + (d.window j a : ℤ)).toNat = (i a).val
    rw [h a]
    exact Int.toNat_natCast _

/-- The one entry of a one-element list. -/
theorem getElem_of_eq_singleton {α : Type} {l : List α} {x : α} (h : l = [x]) (k : Nat) (hk : k < l.length) :
    l[k] = x := by
  subst h
  have : k = 0 := by simpa using hk
  subst this
  rfl

/-! ## A vector scattered by a column of start indices -/

section Vec
variable {N n w : Nat} (d : ScatterDims ⟨1, ![N]⟩ ⟨2, ![n, 1]⟩ ⟨1, ![n]⟩)

/-- The start on the operand's one axis for update index j: row (j 0)'s start index, read signed. -/
theorem start_vec (hsd : d.scatterDimsToOperandDims = [0]) (hivd : d.indexVectorDim = 1)
    (j : (⟨1, ![n]⟩ : Shape).Idx) (idx : IVec ⟨2, ![n, 1]⟩ w) (a : Fin 1) :
    d.start j idx a = (idx (ixP (j 0))).toInt := by
  have ha0 : a = 0 := Subsingleton.elim _ _
  subst ha0
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    show List.idxOf (0 : Fin 1) d.scatterDimsToOperandDims = 0
    rw [hsd]; simp

/-- The operand's one axis is inserted: no window coordinate. -/
theorem window_vec (hiw : d.insertedWindowDims = [0]) (j : (⟨1, ![n]⟩ : Shape).Idx) (a : Fin 1) : d.window j a = 0 := by
  have hk : a ∉ d.sKept := by
    have ha0 : a = 0 := Subsingleton.elim _ _
    subst ha0
    simp [ScatterDims.sKept, Shape.kept, hiw]
  unfold ScatterDims.window
  rw [dif_neg hk]

/-- Update index j lands on operand index i exactly when row (j 0)'s start index is i's coordinate. -/
theorem resultIdx?_vec (hiw : d.insertedWindowDims = [0]) (hsd : d.scatterDimsToOperandDims = [0])
    (hivd : d.indexVectorDim = 1) (j : (⟨1, ![n]⟩ : Shape).Idx) (idx : IVec ⟨2, ![n, 1]⟩ w) (i : (⟨1, ![N]⟩ : Shape).Idx) :
    d.resultIdx? j idx = some i ↔ (idx (ixP (j 0))).toInt = ((i 0).val : ℤ) := by
  rw [resultIdx?_eq_some_iff]
  constructor
  · intro h
    have := h 0
    rw [start_vec d hsd hivd, window_vec d hiw] at this
    simpa using this
  · intro h a
    have ha0 : a = 0 := Subsingleton.elim _ _
    subst ha0
    rw [start_vec d hsd hivd, window_vec d hiw]
    simpa using h

end Vec

section VecSum
variable {N n w : Nat} {φ : FTy}

/-- The accumulating scatter of a vector: entry r ends at its old value plus the sum of the updates whose (signed,
    unclamped) start index is r. -/
theorem scatterAdd_vec (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![n, 1]⟩ w) (upd : FVec Ideal ⟨1, ![n]⟩ φ) (r : Fin N) :
    Host.scatterAdd d x idx upd (ix1 r)
      = x (ix1 r) + ∑ p ∈ Finset.univ.filter (fun p : Fin n => (idx (ixP p)).toInt = (r.val : ℤ)), upd (ix1 p) := by
  show x (ix1 r) + ∑ j ∈ Finset.univ.filter (fun j => d.resultIdx? j idx = some (ix1 r)), upd j = _
  congr 1
  refine Finset.sum_bij' (fun j _ => (j 0 : Fin n)) (fun p _ => ix1 p) ?_ ?_ ?_ ?_ ?_
  · intro j hj
    exact Finset.mem_filter.2 ⟨Finset.mem_univ _,
      (resultIdx?_vec d hiw hsd hivd j idx (ix1 r)).1 (Finset.mem_filter.1 hj).2⟩
  · intro p _hp
    exact Finset.mem_filter.2 ⟨Finset.mem_univ _,
      (resultIdx?_vec d hiw hsd hivd (ix1 p) idx (ix1 r)).2 (Finset.mem_filter.1 _hp).2⟩
  · intro j _; exact (eq_ix1 j).symm
  · intro p _; rfl
  · intro j _; exact congrArg upd (eq_ix1 j)

end VecSum

/-! ## Rows scattered by a column of start indices -/

section Rows
variable {N C n w : Nat} (d : ScatterDims ⟨2, ![N, C]⟩ ⟨2, ![n, 1]⟩ ⟨2, ![n, C]⟩)

/-- The updates' one scatter axis is their axis 0 (axis 1 is the window axis). -/
theorem uScatter_rows (huw : d.updateWindowDims = [1]) : d.uScatter = [0] := by
  simp [ScatterDims.uScatter, Shape.kept, huw, List.finRange_succ]

/-- The operand's one kept axis is its axis 1 (axis 0 is inserted). -/
theorem sKept_rows (hiw : d.insertedWindowDims = [0]) : d.sKept = [1] := by
  simp [ScatterDims.sKept, Shape.kept, hiw, List.finRange_succ]

/-- The start on operand axis 0 for update index j: row (j 0)'s start index, read signed. -/
theorem start_rows_zero (huw : d.updateWindowDims = [1]) (hsd : d.scatterDimsToOperandDims = [0])
    (hivd : d.indexVectorDim = 1) (j : (⟨2, ![n, C]⟩ : Shape).Idx) (idx : IVec ⟨2, ![n, 1]⟩ w) :
    d.start j idx 0 = (idx (ixP (j 0))).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    exact congrArg (fun a => (j a).val) (getElem_of_eq_singleton (uScatter_rows d huw) _ _)
  | ⟨1, _⟩ =>
    unfold ScatterDims.siIdx
    rw [dif_pos (by rw [hivd])]
    apply Fin.ext
    show List.idxOf (0 : Fin 2) d.scatterDimsToOperandDims = 0
    rw [hsd]; simp

/-- Operand axis 1 is not start-indexed: the start there is 0. -/
theorem start_rows_one (hsd : d.scatterDimsToOperandDims = [0]) (j : (⟨2, ![n, C]⟩ : Shape).Idx)
    (idx : IVec ⟨2, ![n, 1]⟩ w) : d.start j idx 1 = 0 := by
  unfold ScatterDims.start
  rw [dif_neg (by rw [hsd]; simp)]

/-- Operand axis 0 is inserted: no window coordinate. -/
theorem window_rows_zero (hiw : d.insertedWindowDims = [0]) (j : (⟨2, ![n, C]⟩ : Shape).Idx) : d.window j 0 = 0 := by
  unfold ScatterDims.window
  rw [dif_neg (by rw [sKept_rows d hiw]; simp)]

/-- On operand axis 1 the window coordinate is the update's column. -/
theorem window_rows_one (huw : d.updateWindowDims = [1]) (hiw : d.insertedWindowDims = [0])
    (j : (⟨2, ![n, C]⟩ : Shape).Idx) : d.window j 1 = (j 1).val := by
  unfold ScatterDims.window
  rw [dif_pos (by rw [sKept_rows d hiw]; simp)]
  exact congrArg (fun a => (j a).val) (getElem_of_eq_singleton huw _ _)

/-- Update index j lands on operand index i exactly when row (j 0)'s start index is i's row and j's column is i's. -/
theorem resultIdx?_rows (huw : d.updateWindowDims = [1]) (hiw : d.insertedWindowDims = [0])
    (hsd : d.scatterDimsToOperandDims = [0]) (hivd : d.indexVectorDim = 1)
    (j : (⟨2, ![n, C]⟩ : Shape).Idx) (idx : IVec ⟨2, ![n, 1]⟩ w) (i : (⟨2, ![N, C]⟩ : Shape).Idx) :
    d.resultIdx? j idx = some i ↔ (idx (ixP (j 0))).toInt = ((i 0).val : ℤ) ∧ (j 1).val = (i 1).val := by
  rw [resultIdx?_eq_some_iff]
  constructor
  · intro h
    have h0 := h 0
    have h1 := h 1
    rw [start_rows_zero d huw hsd hivd, window_rows_zero d hiw] at h0
    rw [start_rows_one d hsd, window_rows_one d huw hiw] at h1
    exact ⟨by simpa using h0, by exact_mod_cast (by simpa using h1 : ((j 1).val : ℤ) = ((i 1).val : ℤ))⟩
  · intro h a
    match a with
    | ⟨0, _⟩ =>
      show d.start j idx 0 + (d.window j 0 : ℤ) = ((i 0).val : ℤ)
      rw [start_rows_zero d huw hsd hivd, window_rows_zero d hiw]
      simpa using h.1
    | ⟨1, _⟩ =>
      show d.start j idx 1 + (d.window j 1 : ℤ) = ((i 1).val : ℤ)
      rw [start_rows_one d hsd, window_rows_one d huw hiw, h.2]
      simp

end Rows

section RowsSum
variable {N C n w : Nat} {φ : FTy}

/-- The accumulating scatter of rows: entry (r, q) ends at its old value plus the sum over the update rows whose start
    index is r of their entry in column q. -/
theorem scatterAdd_rows (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![n, 1]⟩ w) (upd : FVec Ideal ⟨2, ![n, C]⟩ φ) (r : Fin N) (q : Fin C) :
    Host.scatterAdd d x idx upd (ix2 r q)
      = x (ix2 r q) + ∑ p ∈ Finset.univ.filter (fun p : Fin n => (idx (ixP p)).toInt = (r.val : ℤ)), upd (ix2 p q) := by
  show x (ix2 r q) + ∑ j ∈ Finset.univ.filter (fun j => d.resultIdx? j idx = some (ix2 r q)), upd j = _
  congr 1
  have hback : ∀ j : (⟨2, ![n, C]⟩ : Shape).Idx, d.resultIdx? j idx = some (ix2 r q) → ix2 (j 0 : Fin n) q = j := by
    intro j hj
    have h1 := ((resultIdx?_rows d huw hiw hsd hivd j idx (ix2 r q)).1 hj).2
    funext a
    match a with
    | ⟨0, _⟩ => rfl
    | ⟨1, _⟩ => exact Fin.ext h1.symm
  refine Finset.sum_bij' (fun j _ => (j 0 : Fin n)) (fun p _ => ix2 p q) ?_ ?_ ?_ ?_ ?_
  · intro j hj
    exact Finset.mem_filter.2 ⟨Finset.mem_univ _,
      ((resultIdx?_rows d huw hiw hsd hivd j idx (ix2 r q)).1 (Finset.mem_filter.1 hj).2).1⟩
  · intro p hp
    exact Finset.mem_filter.2 ⟨Finset.mem_univ _,
      (resultIdx?_rows d huw hiw hsd hivd (ix2 p q) idx (ix2 r q)).2 ⟨(Finset.mem_filter.1 hp).2, rfl⟩⟩
  · intro j hj; exact hback j (Finset.mem_filter.1 hj).2
  · intro p _; rfl
  · intro j hj; exact congrArg upd (hback j (Finset.mem_filter.1 hj).2).symm

end RowsSum

end Cert.LibScatterAddRows
-- ==== Proof.RefSeg.lean ====
/-
  SEGMENT SUMS AS FILTERED SUMS OVER THE FLATTENED POINTS.

  The 8 × 65536 points are numbered row-major, point n of batch b getting the flat row 65536·b + n, and each point is
  given the segment id 33·b + (its label). When every label is one of 0 … 32, distinct (batch, label) pairs have
  distinct segment ids, so the sum of g over the flat rows whose segment id is 33·b + k is the sum over the points n
  of batch b alone of [label of (b, n) is k] · g(flat row of (b, n)).

  Also here: under the same hypothesis the one-hot combination of a batch's 33 centers is the center of the point's
  own label.
-/
import proofs.«420528_j52673478918521_3_alg».proof.Proof.Spec

noncomputable section

open scoped BigOperators

namespace Cert.RefValue

open Idealize.ShloMosaic Idealize.ShloMosaic.ValueIdx Cert.Spec

/-- The flat row of point n of batch b. -/
def flat (b : Fin 8) (n : Fin 65536) : Fin 524288 :=
  ⟨b.val * 65536 + n.val, by have := b.isLt; have := n.isLt; omega⟩

theorem flat_val (b : Fin 8) (n : Fin 65536) : (flat b n).val = b.val * 65536 + n.val := rfl

/-- The flat rows are exactly the (batch, point) pairs. -/
def flatEquiv : Fin 8 × Fin 65536 ≃ Fin 524288 where
  toFun q := flat q.1 q.2
  invFun p := (⟨p.val / 65536, by have := p.isLt; omega⟩, ⟨p.val % 65536, by omega⟩)
  left_inv q := by
    obtain ⟨b, n⟩ := q
    have hb := b.isLt; have hn := n.isLt
    refine Prod.ext (Fin.ext ?_) (Fin.ext ?_)
    · show (b.val * 65536 + n.val) / 65536 = b.val
      omega
    · show (b.val * 65536 + n.val) % 65536 = n.val
      omega
  right_inv p := by
    apply Fin.ext
    show p.val / 65536 * 65536 + p.val % 65536 = p.val
    omega

/-- A sum over the flat rows is the double sum over batches and points. -/
theorem sum_flat {M : Type*} [AddCommMonoid M] (f : Fin 524288 → M) :
    ∑ p, f p = ∑ b : Fin 8, ∑ n : Fin 65536, f (flat b n) := by
  rw [← Equiv.sum_comp flatEquiv f, Fintype.sum_prod_type]
  rfl

/-- A word is the label k (below 33) exactly when its value is k. -/
theorem label_eq_iff (w : BitVec 32) (k : Fin 33) : w = BitVec.ofNat 32 k.val ↔ w.toNat = k.val := by
  have hk := k.isLt
  have hmod : k.val % 2 ^ 32 = k.val := Nat.mod_eq_of_lt (by omega)
  constructor
  · rintro rfl
    rw [BitVec.toNat_ofNat, hmod]
  · intro h
    apply BitVec.eq_of_toNat_eq
    rw [h, BitVec.toNat_ofNat, hmod]

/-- A label among 0 … 32 has a value below 33. -/
theorem label_lt {w : BitVec 32} (h : ∃ k : Fin 33, w = BitVec.ofNat 32 k.val) : w.toNat < 33 := by
  obtain ⟨k, rfl⟩ := h
  have hk := k.isLt
  rw [BitVec.toNat_ofNat, Nat.mod_eq_of_lt (by omega)]
  exact hk

/-- The one-hot of a point's label, by the label's value. -/
theorem ind_eq (L : SL.Idx → BitVec 32) (b : Fin 8) (n : Fin 65536) (k : Fin 33) :
    ind L b n k = if (L (ix2 b n)).toNat = k.val then 1 else 0 := by
  unfold ind
  by_cases h : L (ix2 b n) = BitVec.ofNat 32 k.val
  · rw [if_pos h, if_pos ((label_eq_iff _ k).1 h)]
  · rw [if_neg h, if_neg (fun h' => h ((label_eq_iff _ k).2 h'))]

/-- THE FILTERED SUM: when the flat row of (b, n) has segment id 33·b + label(b, n) and every label is below 33, the
    sum of g over the flat rows of segment 33·b + k is the sum over batch b's points of the one-hot times g. -/
theorem sum_filter_seg (L : SL.Idx → BitVec 32) (hL : ∀ p, ∃ k : Fin 33, L p = BitVec.ofNat 32 k.val)
    (seg : Fin 524288 → ℤ)
    (hseg : ∀ b n, seg (flat b n) = ((33 * b.val + (L (ix2 b n)).toNat : ℕ) : ℤ))
    (g : Fin 524288 → EReal) (b : Fin 8) (k : Fin 33) :
    ∑ p ∈ Finset.univ.filter (fun p => seg p = ((33 * b.val + k.val : ℕ) : ℤ)), g p
      = ∑ n : Fin 65536, ind L b n k * g (flat b n) := by
  have hk := k.isLt
  rw [Finset.sum_filter, sum_flat, Finset.sum_eq_single b]
  · refine Finset.sum_congr rfl fun n _ => ?_
    rw [ind_eq, hseg]
    by_cases h : (L (ix2 b n)).toNat = k.val
    · rw [if_pos h, if_pos (by rw [h]), one_mul]
    · rw [if_neg h, if_neg (fun h' => h (by have := Int.ofNat_inj.1 h'; omega)), zero_mul]
  · intro b' _ hb'
    refine Finset.sum_eq_zero fun n _ => ?_
    rw [hseg, if_neg]
    intro h'
    have h1 := Int.ofNat_inj.1 h'
    have h2 := label_lt (hL (ix2 b' n))
    exact hb' (Fin.ext (by omega))
  · intro h
    exact absurd (Finset.mem_univ _) h

/-- The one-hot combination of the batch's centers is the center of the point's own label. -/
theorem ownCenter_eq (L : SL.Idx → BitVec 32) (C : SC.Idx → EReal) (b : Fin 8) (n : Fin 65536) (e : Fin 32)
    (k : Fin 33) (hk : L (ix2 b n) = BitVec.ofNat 32 k.val) :
    ownCenter L C b n e = C (ix3 b k e) := by
  unfold ownCenter
  rw [Finset.sum_eq_single k]
  · unfold ind
    rw [if_pos hk, one_mul]
  · intro k' _ hk'
    rw [ind_eq, if_neg, zero_mul]
    rw [(label_eq_iff _ k).1 hk]
    intro h
    exact hk' (Fin.ext h.symm)
  · intro h
    exact absurd (Finset.mem_univ _) h

end Cert.RefValue

end
-- ==== Proof.RefWords.lean ====
/-
  WORDS: the batch index and the label as 32-bit words.

  The reference wraps a negative index by adding the axis length (a select on "index < 0"); a batch index 0 … 7 and a
  label 0 … 32 are not negative, so the select returns the word itself, and the gather's clamp into the axis leaves
  its value alone. The segment id 33·b + k of batch b and label k does not wrap and is not negative.
-/
import Idealize.ShloMosaic.PureOps.Ideal
import Idealize.ShloMosaic.Lib.StableHlo.Predicate

namespace Cert.RefValue

open Idealize.ShloMosaic Idealize.ShloMosaic.StableHlo.Predicate

/-- A batch index is not negative: the wrap-around select returns it. -/
theorem batch_word : ∀ b : Fin 8,
    Scalar.select (IntOp.cmpi .slt (BitVec.ofNat 32 b.val) 0#32) (IntOp.addi (BitVec.ofNat 32 b.val) 8#32)
      (BitVec.ofNat 32 b.val) = BitVec.ofNat 32 b.val := by decide

/-- A label is not negative: the wrap-around select returns it. -/
theorem label_word : ∀ k : Fin 33,
    Scalar.select (IntOp.cmpi .slt (BitVec.ofNat 32 k.val) 0#32) (IntOp.addi (BitVec.ofNat 32 k.val) 33#32)
      (BitVec.ofNat 32 k.val) = BitVec.ofNat 32 k.val := by decide

/-- A batch index read signed and clamped into 0 … 7 is itself. -/
theorem batch_clamp : ∀ b : Fin 8, min (BitVec.ofNat 32 b.val).toInt.toNat (8 - 1) = b.val := by decide

/-- A label read signed and clamped into 0 … 32 is itself. -/
theorem label_clamp : ∀ k : Fin 33, min (BitVec.ofNat 32 k.val).toInt.toNat (33 - 1) = k.val := by decide

/-- The segment id of batch b and a label word of value below 33, read signed, is 33·b + that value. -/
theorem seg_word (b : Fin 8) (w : BitVec 32) (hw : w.toNat < 33) :
    (IntOp.addi w (IntOp.muli (BitVec.ofNat 32 b.val) 33#32)).toInt = ((33 * b.val + w.toNat : ℕ) : ℤ) := by
  have hb := b.isLt
  have hnat : (IntOp.addi w (IntOp.muli (BitVec.ofNat 32 b.val) 33#32)).toNat = 33 * b.val + w.toNat := by
    unfold IntOp.addi IntOp.muli
    simp only [BitVec.toNat_add, BitVec.toNat_mul, BitVec.toNat_ofNat]
    omega
  rw [toInt_eq_toNat_of_lt (by rw [hnat]; omega), hnat]

end Cert.RefValue
-- ==== Proof.RefSums.lean ====
/-
  THE REFERENCE'S SEGMENT SUMS AND COUNTS.

  The reference gives point n of batch b the segment id 33·b + label(b, n), flattens the 8 × 65536 points row-major
  and scatter-adds, by segment id, the 524288 embedding rows into a zero [264 × 32] array and 524288 ones into a zero
  [264] vector; reshaped to [8 × 33 × 32] and [8 × 33] these are the segment sums and the segment counts. Entry
  (33·b + k, e) of the first is the sum over the rows whose segment id is 33·b + k of their coordinate e: when every
  label is one of 0 … 32 that is the sum over the points of batch b labelled k.
-/
import proofs.«420528_j52673478918521_3_alg».proof.Proof.RefImports
import proofs.«420528_j52673478918521_3_alg».proof.Proof.LibScatterAddRows
import proofs.«420528_j52673478918521_3_alg».proof.Proof.RefSeg
import proofs.«420528_j52673478918521_3_alg».proof.Proof.RefWords
import Idealize.ShloMosaic.Lib.IdealHost

noncomputable section

open scoped BigOperators

namespace Cert.RefValue

open Cert.ReferenceIdeal Cert.ReferenceIdeal.Gen Cert.ReferenceIdeal.Read Idealize.ShloMosaic Idealize.ShloMosaic.ValueIdx
  Idealize.ShloMosaic.StableHlo.Predicate Cert.Spec Cert.LibScatterAddRows

/-- The embeddings and the labels as the reference reads them. -/
abbrev EmbT : Type := (⟨S8x65536x32, .f32⟩ : BufTy).Contents (Elt Ideal)
abbrev LabT : Type := (⟨S8x65536, .i32⟩ : BufTy).Contents (Elt Ideal)
abbrev CenT : Type := (⟨S8x33x32, .f32⟩ : BufTy).Contents (Elt Ideal)

/-- The row of (b, n) in the flattened label array is the pair (b, n). -/
theorem unflat (b : Fin 8) (n : Fin 65536) : idx_main_v6 (ix1 (flat b n)) = ix2 b n := by
  have hb := b.isLt; have hn := n.isLt
  funext a
  match a with
  | ⟨0, _⟩ => exact Fin.ext (by show (b.val * 65536 + n.val) / 65536 = b.val; omega)
  | ⟨1, _⟩ => exact Fin.ext (by show (b.val * 65536 + n.val) % 65536 = n.val; omega)

/-- THE SEGMENT ID of the flat row of (b, n), read signed: 33·b + label(b, n). -/
theorem seg_flat (L : LabT) (hL : ∀ p, ∃ k : Fin 33, L p = BitVec.ofNat 32 k.val) (b : Fin 8) (n : Fin 65536) :
    (val_main_v9 (F := Ideal) L (ixP (flat b n))).toInt = ((33 * b.val + (L (ix2 b n)).toNat : ℕ) : ℤ) := by
  have hidx : idx_main_v9 (ixP (flat b n)) = ix1 (flat b n) := by
    funext a
    match a with
    | ⟨0, _⟩ => rfl
  rw [val_main_v9_apply, hidx, val_main_v6_apply, unflat, val_main_v5_apply, val_main_v4_apply, val_main_v3_apply,
    val_main_v1_apply, val_main_v0_apply, val_main_v2_apply, val_main_c_apply]
  exact seg_word b (L (ix2 b n)) (label_lt (hL (ix2 b n)))

/-- The three scatters read the same column of segment ids. -/
theorem v14_eq (L : LabT) : val_main_v14 (F := Ideal) L = val_main_v9 (F := Ideal) L := rfl
theorem v61_eq (L : LabT) : val_main_v61 (F := Ideal) L = val_main_v9 (F := Ideal) L := rfl

/-- Entry (b, k) of an [8 × 33] array is entry 33·b + k of the [264] vector it reshapes. -/
theorem seg_idx16 (b : Fin 8) (k : Fin 33) :
    idx_main_v16 (ix2 b k) = ix1 (⟨33 * b.val + k.val, by have := b.isLt; have := k.isLt; omega⟩ : Fin 264) := by
  funext a
  match a with
  | ⟨0, _⟩ => exact Fin.ext (by show b.val * 33 + k.val = 33 * b.val + k.val; omega)

/-- (2) THE REFERENCE'S COUNTS are the segment counts. -/
theorem ref_counts (L : LabT) (hL : ∀ p, ∃ k : Fin 33, L p = BitVec.ofNat 32 k.val) :
    val_main_v16 (F := Ideal) L = counts L := by
  funext j
  obtain ⟨b, k, rfl⟩ : ∃ b k, j = ix2 b k := ⟨j 0, j 1, eq_ix2 j⟩
  rw [val_main_v16_apply, seg_idx16]
  unfold val_main_v15
  refine (scatterAdd_vec scatter_S264_S524288x1_S524288_n_0_0_1 rfl rfl rfl rfl _ _ _ _).trans ?_
  rw [val_main_v13_apply, val_main_cst_1_apply, Ideal.ofBits_def, Ideal.ofBits_zero_f32, zero_add, v14_eq]
  refine (sum_filter_seg L hL (fun p => (val_main_v9 (F := Ideal) L (ixP p)).toInt) (seg_flat L hL)
    (fun p => val_main_v12 (F := Ideal) (ix1 p)) b k).trans ?_
  show _ = ∑ n : Fin 65536, ind L b n k
  refine Finset.sum_congr rfl fun n _ => ?_
  rw [val_main_v12_apply, val_main_cst_0_apply, Ideal.ofBits_def, Ideal.ofBits_one_f32, mul_one]

/-- (1) THE REFERENCE'S SUMS are the segment sums. -/
theorem ref_sums (E : EmbT) (L : LabT) (hL : ∀ p, ∃ k : Fin 33, L p = BitVec.ofNat 32 k.val) :
    val_main_v11 (F := Ideal) E L = sums E L := by
  funext j
  obtain ⟨b, k, e, rfl⟩ : ∃ b k e, j = ix3 b k e := ⟨j 0, j 1, j 2, eq_ix3 j⟩
  have hb := b.isLt; have hk := k.isLt; have he := e.isLt
  have hidx : idx_main_v11 (ix3 b k e) = ix2 (⟨33 * b.val + k.val, by omega⟩ : Fin 264) e := by
    funext a
    match a with
    | ⟨0, _⟩ => exact Fin.ext (by show ((b.val * 33 + k.val) * 32 + e.val) / 32 = 33 * b.val + k.val; omega)
    | ⟨1, _⟩ => exact Fin.ext (by show ((b.val * 33 + k.val) * 32 + e.val) % 32 = e.val; omega)
  rw [val_main_v11_apply, hidx]
  unfold val_main_v10
  refine (scatterAdd_rows scatter_S264x32_S524288x1_S524288x32_1_0_0_1 rfl rfl rfl rfl _ _ _ _ _).trans ?_
  rw [val_main_v8_apply, val_main_cst_apply, Ideal.ofBits_def, Ideal.ofBits_zero_f32, zero_add]
  refine (sum_filter_seg L hL (fun p => (val_main_v9 (F := Ideal) L (ixP p)).toInt) (seg_flat L hL)
    (fun p => val_main_v7 (F := Ideal) E (ix2 p e)) b k).trans ?_
  show _ = ∑ n : Fin 65536, ind L b n k * E (ix3 b n e)
  refine Finset.sum_congr rfl fun n _ => ?_
  have hn := n.isLt
  have hidx7 : idx_main_v7 (ix2 (flat b n) e) = ix3 b n e := by
    funext a
    match a with
    | ⟨0, _⟩ => exact Fin.ext (by show ((b.val * 65536 + n.val) * 32 + e.val) / 2097152 = b.val; omega)
    | ⟨1, _⟩ => exact Fin.ext (by show ((b.val * 65536 + n.val) * 32 + e.val) / 32 % 65536 = n.val; omega)
    | ⟨2, _⟩ => exact Fin.ext (by show ((b.val * 65536 + n.val) * 32 + e.val) % 32 = e.val; omega)
  rw [val_main_v7_apply, hidx7]

/-! ## The scatter-add of any per-point array by segment id -/

/-- The reshape [8 × 65536] → [524288] read at the flat row of (b, n) is the array at (b, n). -/
theorem flatten_apply {α : Type} (H : S8x65536.Idx → α) (b : Fin 8) (n : Fin 65536) :
    shapeCast S524288 H shapeCasts_S8x65536_S524288 (ix1 (flat b n)) = H (ix2 b n) := by
  refine shapeCast_apply H _ (ix1 (flat b n)) (ix2 b n) ?_
  rewrite [Shape.rowMajor_val_two, Shape.rowMajor_val_one]
  rfl

/-- The reshape [264] → [8 × 33] read at (b, k) is the vector at 33·b + k. -/
theorem unflatten_apply {α : Type} (y : S264.Idx → α) (b : Fin 8) (k : Fin 33) :
    shapeCast S8x33 y shapeCasts_S264_S8x33 (ix2 b k)
      = y (ix1 (⟨33 * b.val + k.val, by have := b.isLt; have := k.isLt; omega⟩ : Fin 264)) := by
  refine shapeCast_apply y _ (ix2 b k) _ ?_
  rewrite [Shape.rowMajor_val_one, Shape.rowMajor_val_two]
  show 33 * b.val + k.val = b.val * 33 + k.val
  omega

/-- (3') THE SCATTER-ADD BY SEGMENT ID of any per-point array H, flattened, into a zero [264] vector, reshaped to
    [8 × 33]: entry (b, k) is the sum of H over the points of batch b labelled k. -/
theorem ref_segsum (H : (⟨S8x65536, .f32⟩ : BufTy).Contents (Elt Ideal)) (L : LabT)
    (hL : ∀ p, ∃ k : Fin 33, L p = BitVec.ofNat 32 k.val) :
    (shapeCast S8x33 (Host.scatterAdd (F := Ideal) (φ := .f32) scatter_S264_S524288x1_S524288_n_0_0_1 (val_main_v60 (F := Ideal))
        (val_main_v61 (F := Ideal) L)
        (shapeCast S524288 H shapeCasts_S8x65536_S524288 : (⟨S524288, .f32⟩ : BufTy).Contents (Elt Ideal)))
      shapeCasts_S264_S8x33 : (⟨S8x33, .f32⟩ : BufTy).Contents (Elt Ideal))
      = fun j => ∑ n : Fin 65536, ind L (j 0) n (j 1) * H (ix2 (j 0) n) := by
  funext j
  obtain ⟨b, k, rfl⟩ : ∃ b k, j = ix2 b k := ⟨j 0, j 1, eq_ix2 j⟩
  rw [unflatten_apply]
  refine (scatterAdd_vec scatter_S264_S524288x1_S524288_n_0_0_1 rfl rfl rfl rfl _ _ _ _).trans ?_
  rw [val_main_v60_apply, val_main_cst_17_apply, Ideal.ofBits_def, Ideal.ofBits_zero_f32, zero_add, v61_eq]
  refine (sum_filter_seg L hL (fun p => (val_main_v9 (F := Ideal) L (ixP p)).toInt) (seg_flat L hL)
    (fun p => shapeCast S524288 H shapeCasts_S8x65536_S524288 (ix1 p)) b k).trans ?_
  show _ = ∑ n : Fin 65536, ind L b n k * H (ix2 b n)
  refine Finset.sum_congr rfl fun n _ => ?_
  rw [flatten_apply]

end Cert.RefValue

end
-- ==== Proof.RefGather.lean ====
/-
  GATHERING ONE ROW PER (BATCH, LABEL) PAIR.

  The gather of a rank-3 operand [B × K × C] at an array of index PAIRS [B' × N × 2]: operand axes 0 and 1 are
  collapsed and start-indexed (slice size 1), operand axis 2 is kept whole as the result's one offset axis (axis 2),
  there are no batching axes and the index vector lies on the last axis of the indices. Result element (b, n, e) is the
  operand at (first component of pair (b, n), second component of pair (b, n), e), each component read as a signed
  integer and clamped into its axis.
-/
import Idealize.ShloMosaic.PureOps.Ideal
import Idealize.ShloMosaic.Lib.ValueIdx

namespace Cert.RefValue

open Idealize.ShloMosaic Idealize.ShloMosaic.ValueIdx

/-- Those dimension numbers for an operand [B, K, C], index pairs [B', N, 2] and a result [B', N, C]. -/
abbrev pairDims (B K C B' N : Nat)
    (wf : GatherDims.WF ⟨3, ![B, K, C]⟩ ⟨3, ![B', N, 2]⟩ ⟨3, ![B', N, C]⟩ [2] [0, 1] [] [0, 1] [] 2 ![1, 1, C]) :
    GatherDims ⟨3, ![B, K, C]⟩ ⟨3, ![B', N, 2]⟩ ⟨3, ![B', N, C]⟩ where
  offsetDims := [2]
  collapsedSliceDims := [0, 1]
  operandBatchingDims := []
  startIndicesBatchingDims := []
  startIndexMap := [0, 1]
  indexVectorDim := 2
  sliceSizes := ![1, 1, C]
  wf := wf

/-- THE GATHER READ AT (b, n, e): the operand at the pair's two components, read signed and clamped, and e. -/
theorem gather_pairs_apply {α : Type} {B K C B' N w : Nat} (hB : 0 < B) (hK : 0 < K)
    (wf : GatherDims.WF ⟨3, ![B, K, C]⟩ ⟨3, ![B', N, 2]⟩ ⟨3, ![B', N, C]⟩ [2] [0, 1] [] [0, 1] [] 2 ![1, 1, C])
    (x : (⟨3, ![B, K, C]⟩ : Shape).Idx → α) (idx : IVec ⟨3, ![B', N, 2]⟩ w) (b : Fin B') (n : Fin N) (e : Fin C) :
    Host.gather (pairDims B K C B' N wf) x idx (ix3 b n e)
      = x (ix3 (⟨min (idx (ix3 b n (0 : Fin 2))).toInt.toNat (B - 1), by omega⟩ : Fin B)
              (⟨min (idx (ix3 b n (1 : Fin 2))).toInt.toNat (K - 1), by omega⟩ : Fin K) e) := by
  unfold Host.gather
  congr 1
  funext a
  refine Fin.ext ?_
  have hnb : ∀ a : Fin 3, a ∉ (pairDims B K C B' N wf).operandBatchingDims := fun _ => List.not_mem_nil
  match a with
  | ⟨0, _⟩ =>
    have hcoll : (0 : Fin 3) ∈ (pairDims B K C B' N wf).collapsedSliceDims := by
      show (0 : Fin 3) ∈ ([0, 1] : List (Fin 3)); decide
    have hmem : (0 : Fin 3) ∈ (pairDims B K C B' N wf).startIndexMap := by
      show (0 : Fin 3) ∈ ([0, 1] : List (Fin 3)); decide
    show (pairDims B K C B' N wf).start (ix3 b n e) idx 0 + (pairDims B K C B' N wf).batchCoord (ix3 b n e) 0
        + (pairDims B K C B' N wf).offCoord (ix3 b n e) 0 = min (idx (ix3 b n (0 : Fin 2))).toInt.toNat (B - 1)
    rw [GatherDims.batchCoord_eq_zero _ _ _ (hnb _),
      GatherDims.offCoord_eq_zero _ _ _ (fun h => ((GatherDims.mem_sKept _ _).mp h).1 hcoll)]
    simp only [Nat.add_zero]
    unfold GatherDims.start
    rw [dif_pos hmem]
    have hsi : (pairDims B K C B' N wf).siIdx (ix3 b n e) ⟨List.idxOf (0 : Fin 3) (pairDims B K C B' N wf).startIndexMap,
        List.idxOf_lt_length_iff.2 hmem⟩ = ix3 b n (0 : Fin 2) := by
      funext c; refine Fin.ext ?_
      match c with
      | ⟨0, _⟩ => rfl
      | ⟨1, _⟩ => rfl
      | ⟨2, _⟩ => rfl
    rw [hsi]
    rfl
  | ⟨1, _⟩ =>
    have hcoll : (1 : Fin 3) ∈ (pairDims B K C B' N wf).collapsedSliceDims := by
      show (1 : Fin 3) ∈ ([0, 1] : List (Fin 3)); decide
    have hmem : (1 : Fin 3) ∈ (pairDims B K C B' N wf).startIndexMap := by
      show (1 : Fin 3) ∈ ([0, 1] : List (Fin 3)); decide
    show (pairDims B K C B' N wf).start (ix3 b n e) idx 1 + (pairDims B K C B' N wf).batchCoord (ix3 b n e) 1
        + (pairDims B K C B' N wf).offCoord (ix3 b n e) 1 = min (idx (ix3 b n (1 : Fin 2))).toInt.toNat (K - 1)
    rw [GatherDims.batchCoord_eq_zero _ _ _ (hnb _),
      GatherDims.offCoord_eq_zero _ _ _ (fun h => ((GatherDims.mem_sKept _ _).mp h).1 hcoll)]
    simp only [Nat.add_zero]
    unfold GatherDims.start
    rw [dif_pos hmem]
    have hsi : (pairDims B K C B' N wf).siIdx (ix3 b n e) ⟨List.idxOf (1 : Fin 3) (pairDims B K C B' N wf).startIndexMap,
        List.idxOf_lt_length_iff.2 hmem⟩ = ix3 b n (1 : Fin 2) := by
      funext c; refine Fin.ext ?_
      match c with
      | ⟨0, _⟩ => rfl
      | ⟨1, _⟩ => rfl
      | ⟨2, _⟩ => rfl
    rw [hsi]
    rfl
  | ⟨2, _⟩ =>
    have hnmem : (2 : Fin 3) ∉ (pairDims B K C B' N wf).startIndexMap := by
      show (2 : Fin 3) ∉ ([0, 1] : List (Fin 3)); decide
    have hkept : (2 : Fin 3) ∈ (pairDims B K C B' N wf).sKept :=
      (GatherDims.mem_sKept _ _).2 ⟨by show (2 : Fin 3) ∉ ([0, 1] : List (Fin 3)); decide, List.not_mem_nil⟩
    show (pairDims B K C B' N wf).start (ix3 b n e) idx 2 + (pairDims B K C B' N wf).batchCoord (ix3 b n e) 2
        + (pairDims B K C B' N wf).offCoord (ix3 b n e) 2 = e.val
    rw [GatherDims.batchCoord_eq_zero _ _ _ (hnb _)]
    simp only [Nat.add_zero]
    unfold GatherDims.start GatherDims.offCoord
    rw [dif_neg hnmem, dif_pos hkept, Nat.zero_add]
    rfl

end Cert.RefValue
-- ==== Proof.RefPoint.lean ====
/-
  THE REFERENCE'S HINGES AND THEIR SEGMENT SUMS.

  For every point the reference builds the index pair (batch, label) — each with the wrap-around select "add the axis
  length if negative", which returns a non-negative word unchanged —, gathers the centers' row at that pair, and takes
  hinge = 0 for the background label, else max(√max(‖x − row‖², ε) − ½, 0). When every label is one of 0 … 32 the
  gathered row is the one-hot combination of the batch's 33 centers, so this is the point's hinge; the scatter-add of
  the 524288 hinges by segment id is then the segment sum of the hinges, as for the counts.
-/
import proofs.«420528_j52673478918521_3_alg».proof.Proof.RefSums
import proofs.«420528_j52673478918521_3_alg».proof.Proof.RefGather

noncomputable section

open scoped BigOperators

namespace Cert.RefValue

open Cert.ReferenceIdeal Cert.ReferenceIdeal.Read Idealize.ShloMosaic Idealize.ShloMosaic.ValueIdx
  Idealize.ShloMosaic.StableHlo.Predicate Cert.Spec Cert.LibScatterAddRows

/-- The first component of point (b, n)'s index pair is its batch index. -/
theorem v44_zero (L : LabT) (b : Fin 8) (n : Fin 65536) :
    val_main_v44 (F := Ideal) L (ix3 b n (0 : Fin 2)) = BitVec.ofNat 32 b.val := by
  unfold val_main_v44
  refine (concatenate_pair_apply_left (t := S8x65536x2) (s₁ := S8x65536x1) (s₂ := S8x65536x1) (2 : Fin S8x65536x2.rank) _ _ _ (ix3 b n (0 : Fin 2)) rfl
    (ix3 b n (0 : Fin 1)) (fun c => ?_)).trans ?_
  · match c with
    | ⟨0, _⟩ => rfl
    | ⟨1, _⟩ => rfl
    | ⟨2, _⟩ => rfl
  · rw [val_main_v42_apply, val_main_v41_apply, val_main_v35_apply, val_main_v32_apply, val_main_v34_apply,
      val_main_v30_apply, val_main_v29_apply, val_main_v31_apply, val_main_c_7_apply, val_main_v33_apply,
      val_main_c_8_apply]
    exact batch_word b

/-- The second component of point (b, n)'s index pair is its label. -/
theorem v44_one (L : LabT) (b : Fin 8) (n : Fin 65536) (k : Fin 33) (hk : L (ix2 b n) = BitVec.ofNat 32 k.val) :
    val_main_v44 (F := Ideal) L (ix3 b n (1 : Fin 2)) = BitVec.ofNat 32 k.val := by
  unfold val_main_v44
  refine (concatenate_pair_apply_right (t := S8x65536x2) (s₁ := S8x65536x1) (s₂ := S8x65536x1) (2 : Fin S8x65536x2.rank) _ _ _ (ix3 b n (1 : Fin 2)) rfl rfl
    (ix3 b n (0 : Fin 1)) (fun c hc => ?_) rfl).trans ?_
  · match c with
    | ⟨0, _⟩ => rfl
    | ⟨1, _⟩ => rfl
    | ⟨2, _⟩ => exact absurd rfl hc
  · have hidx : idx_main_v43 (ix3 b n (0 : Fin 1)) = ix2 b n := by
      funext a
      match a with
      | ⟨0, _⟩ => rfl
      | ⟨1, _⟩ => rfl
    rw [val_main_v43_apply, hidx, val_main_v40_apply, val_main_v37_apply, val_main_v39_apply, val_main_v36_apply,
      val_main_c_9_apply, val_main_v38_apply, val_main_c_10_apply, hk]
    exact label_word k

/-- THE GATHER at point (b, n), coordinate e, of any centers array: the row of the point's batch and label. -/
theorem gather_own (Cen : CenT) (L : LabT) (b : Fin 8) (n : Fin 65536) (e : Fin 32) (k : Fin 33)
    (hk : L (ix2 b n) = BitVec.ofNat 32 k.val) :
    Host.gather gather_S8x33x32_S8x65536x2_S8x65536x32_2_01_n_n_01_2_1132 Cen (val_main_v44 (F := Ideal) L) (ix3 b n e)
      = Cen (ix3 b k e) := by
  show Host.gather (pairDims 8 33 32 8 65536 gather_S8x33x32_S8x65536x2_S8x65536x32_2_01_n_n_01_2_1132.wf) Cen
    (val_main_v44 (F := Ideal) L) (ix3 b n e) = _
  refine (gather_pairs_apply (by decide) (by decide) _ Cen (val_main_v44 (F := Ideal) L) b n e).trans ?_
  refine congrArg Cen ?_
  funext a
  match a with
  | ⟨0, _⟩ =>
    exact Fin.ext (by
      show min (val_main_v44 (F := Ideal) L (ix3 b n (0 : Fin 2))).toInt.toNat (8 - 1) = b.val
      rw [v44_zero]; exact batch_clamp b)
  | ⟨1, _⟩ =>
    exact Fin.ext (by
      show min (val_main_v44 (F := Ideal) L (ix3 b n (1 : Fin 2))).toInt.toNat (33 - 1) = k.val
      rw [v44_one L b n k hk]; exact label_clamp k)
  | ⟨2, _⟩ => rfl

/-- The gathered center of a point is the one-hot combination of its batch's centers. -/
theorem v45_at (E : EmbT) (L : LabT) (hL : ∀ p, ∃ k : Fin 33, L p = BitVec.ofNat 32 k.val)
    (b : Fin 8) (n : Fin 65536) (e : Fin 32) :
    val_main_v45 (F := Ideal) E L (ix3 b n e) = ownCenter L (val_main_v21 (F := Ideal) E L) b n e := by
  obtain ⟨k, hk⟩ := hL (ix2 b n)
  unfold val_main_v45
  rw [gather_own _ L b n e k hk, ownCenter_eq L _ b n e k hk]

/-- THE REFERENCE'S HINGE of point (b, n). -/
theorem v58_at (E : EmbT) (L : LabT) (hL : ∀ p, ∃ k : Fin 33, L p = BitVec.ofNat 32 k.val)
    (b : Fin 8) (n : Fin 65536) :
    val_main_v58 (F := Ideal) E L (ix2 b n) = hingeAt E L (val_main_v21 (F := Ideal) E L) b n := by
  have hsum : (val_main_cst_11 (F := Ideal)) (Shape.Idx.first Cert.ReferenceIdeal.Gen.h_S_)
        + ∑ k : Fin 32, (val_main_v47 (F := Ideal) E L) (idx_main_v48 (ix2 b n) k)
      = d2At E L (val_main_v21 (F := Ideal) E L) b n := by
    rw [val_main_cst_11_apply, Ideal.ofBits_def, Ideal.ofBits_zero_f32, zero_add]
    unfold d2At
    refine Finset.sum_congr rfl fun e _ => ?_
    have hi : idx_main_v48 (ix2 b n) e = ix3 b n e := by
      funext a
      match a with
      | ⟨0, _⟩ => rfl
      | ⟨1, _⟩ => rfl
      | ⟨2, _⟩ => rfl
    rw [hi, val_main_v47_apply, val_main_v46_apply, v45_at E L hL]
    rfl
  rw [val_main_v58_apply, val_main_v53_apply, val_main_v52_apply, val_main_c_13_apply, val_main_v57_apply,
    val_main_v55_apply, val_main_v51_apply, val_main_v50_apply, val_main_v48_apply, hsum, val_main_v49_apply,
    val_main_cst_12_apply, val_main_v54_apply, val_main_cst_14_apply, val_main_v56_apply, val_main_cst_15_apply,
    val_main_call0_v1_apply, val_main_call0_v0_apply, val_main_cst_16_apply]
  rfl

/-- (3) THE REFERENCE'S HINGE SUMS are the segment sums of the hinges taken against its own centers. -/
theorem ref_hsums (E : EmbT) (L : LabT) (hL : ∀ p, ∃ k : Fin 33, L p = BitVec.ofNat 32 k.val) :
    val_main_v63 (F := Ideal) E L = hsums E L (val_main_v21 (F := Ideal) E L) := by
  funext j
  obtain ⟨b, k, rfl⟩ : ∃ b k, j = ix2 b k := ⟨j 0, j 1, eq_ix2 j⟩
  have hidx : idx_main_v63 (ix2 b k) = idx_main_v16 (ix2 b k) := rfl
  rw [val_main_v63_apply, hidx, seg_idx16]
  unfold val_main_v62
  refine (scatterAdd_vec scatter_S264_S524288x1_S524288_n_0_0_1 rfl rfl rfl rfl _ _ _ _).trans ?_
  rw [val_main_v60_apply, val_main_cst_17_apply, Ideal.ofBits_def, Ideal.ofBits_zero_f32, zero_add, v61_eq]
  refine (sum_filter_seg L hL (fun p => (val_main_v9 (F := Ideal) L (ixP p)).toInt) (seg_flat L hL)
    (fun p => val_main_v59 (F := Ideal) E L (ix1 p)) b k).trans ?_
  show _ = ∑ n : Fin 65536, ind L b n k * hingeAt E L (val_main_v21 (F := Ideal) E L) b n
  refine Finset.sum_congr rfl fun n _ => ?_
  have hidx59 : idx_main_v59 (ix1 (flat b n)) = idx_main_v6 (ix1 (flat b n)) := rfl
  rw [val_main_v59_apply, hidx59, unflat, v58_at E L hL]

end Cert.RefValue

end
-- ==== Proof.RefValue.lean ====
/-
  THE REFERENCE'S RESULT.

  After its three scatter-adds the reference applies, operation for operation, the host computation the kernel's program
  ends with: each of its later stages is the corresponding named function of the shared chain applied to the
  reference's own earlier stages. So its result is the chain applied to its sums, counts and hinge sums, which are the
  segment sums, the segment counts and the segment sums of the hinges taken against the centers the chain itself
  makes from the first two.
-/
import proofs.«420528_j52673478918521_3_alg».proof.Proof.RefPoint
import proofs.«420528_j52673478918521_3_alg».proof.Proof.Tail

noncomputable section

namespace Cert.RefValue

open Cert.ReferenceIdeal Cert.ReferenceIdeal.Read Idealize.ShloMosaic Idealize.ShloMosaic.TcCoe Idealize.SL.Sem
  Idealize.ShloMosaic.StableHlo

/-! ## The reference's stages after the scatter-adds, as the shared chain's named functions -/

theorem st_centers (E : EmbT) (L : LabT) : val_main_v21 (F := Ideal) E L
    = Cert.Tail.centers (val_main_v11 (F := Ideal) E L) (val_main_v16 (F := Ideal) L) := rfl
theorem st_present (L : LabT) : val_main_v26 (F := Ideal) L = Cert.Tail.present (val_main_v16 (F := Ideal) L) := rfl
theorem st_presentF (L : LabT) : val_main_v27 (F := Ideal) L = Cert.Tail.presentF (val_main_v26 (F := Ideal) L) := rfl
theorem st_nInst (L : LabT) : val_main_v28 (F := Ideal) L = Cert.Tail.nInst (val_main_v27 (F := Ideal) L) := rfl
theorem st_varTerm (E : EmbT) (L : LabT) : val_main_v71 (F := Ideal) E L
    = Cert.Tail.varTerm (val_main_v16 (F := Ideal) L) (val_main_v63 (F := Ideal) E L) (val_main_v27 (F := Ideal) L)
        (val_main_v28 (F := Ideal) L) := rfl
theorem st_pairD2 (E : EmbT) (L : LabT) : val_main_v78 (F := Ideal) E L
    = Cert.Tail.pairD2 (val_main_v21 (F := Ideal) E L) := rfl
theorem st_allTrue : val_main_v79 (F := Ideal) = Cert.Tail.allTrue := rfl
theorem st_triu : val_main_v80 (F := Ideal) = Cert.Tail.triu (val_main_v79 (F := Ideal)) := rfl
theorem st_pairMask (L : LabT) : val_main_v88 (F := Ideal) L
    = Cert.Tail.pairMask (val_main_v26 (F := Ideal) L) (val_main_v80 (F := Ideal)) := rfl
theorem st_one : val_main_cst_23 (F := Ideal) = Cert.Tail.one := rfl
theorem st_farD2 (E : EmbT) (L : LabT) : val_main_v89 (F := Ideal) E L
    = Cert.Tail.farD2 (val_main_v88 (F := Ideal) L) (val_main_v78 (F := Ideal) E L) (val_main_cst_23 (F := Ideal)) := rfl
theorem st_perBatch (E : EmbT) (L : LabT) : val_main_v125 (F := Ideal) E L
    = Cert.Tail.perBatch (val_main_v89 (F := Ideal) E L) (val_main_v88 (F := Ideal) L) (val_main_v28 (F := Ideal) L)
        (val_main_v21 (F := Ideal) E L) (val_main_v27 (F := Ideal) L) (val_main_v71 (F := Ideal) E L) := rfl
theorem st_nonEmpty (L : LabT) : val_main_v127 (F := Ideal) L = Cert.Tail.nonEmpty (val_main_v28 (F := Ideal) L) := rfl
theorem st_zero : val_main_cst_39 (F := Ideal) = Cert.Tail.zero := rfl
theorem st_masked (E : EmbT) (L : LabT) : val_main_v128 (F := Ideal) E L
    = Cert.Tail.masked (val_main_v127 (F := Ideal) L) (val_main_v125 (F := Ideal) E L) (val_main_cst_39 (F := Ideal)) := rfl
theorem st_meanLoss (E : EmbT) (L : LabT) : val_main_v130 (F := Ideal) E L
    = Cert.Tail.meanLoss (val_main_v128 (F := Ideal) E L) := rfl

/-- The reference's result is the shared chain applied to its own sums, counts and hinge sums. -/
theorem v130_eq_tail (E : EmbT) (L : LabT) : val_main_v130 (F := Ideal) E L
    = Cert.Tail.tail (val_main_v11 (F := Ideal) E L) (val_main_v16 (F := Ideal) L) (val_main_v63 (F := Ideal) E L) := by
  rw [st_meanLoss, st_masked, st_nonEmpty, st_perBatch, st_farD2, st_pairMask, st_triu, st_allTrue, st_one, st_zero,
    st_pairD2, st_varTerm, st_nInst, st_presentF, st_present, st_centers]
  rfl

/-! ## The result -/

/-- The reference's two arguments, as it reads them off the launch contents. -/
abbrev argE (m : (ℓ : Loc nD τ sig) → Buf (Elt Ideal) ℓ) (c : Dev nD) : EmbT := m ((c.tc : Thread nD τ).loc main_arg0)
abbrev argL (m : (ℓ : Loc nD τ sig) → Buf (Elt Ideal) ℓ) (c : Dev nD) : LabT := m ((c.tc : Thread nD τ).loc main_arg1)

/-- THE REFERENCE'S RESULT, when every label is one of 0 … 32: the shared chain applied to the segment sums, the segment
    counts and the segment sums of the hinges against the chain's own centers. -/
theorem ref_result (m : (ℓ : Loc nD τ sig) → Buf (Elt Ideal) ℓ) (c : Dev nD)
    (hL : ∀ p, ∃ k : Fin 33, argL m c p = BitVec.ofNat 32 k.val) :
    Cert.ReferenceIdeal.Value.res_main_v130 (F := Ideal) m c
      = Cert.Tail.tail (F := Ideal) (Cert.Spec.sums (argE m c) (argL m c)) (Cert.Spec.counts (argL m c))
          (Cert.Spec.hsums (argE m c) (argL m c)
            (Cert.Tail.centers (F := Ideal) (Cert.Spec.sums (argE m c) (argL m c)) (Cert.Spec.counts (argL m c)))) := by
  rw [val_main_v130_eq]
  show val_main_v130 (F := Ideal) (argE m c) (argL m c) = _
  rw [v130_eq_tail, ref_hsums _ _ hL, st_centers, ref_sums _ _ hL, ref_counts _ hL]

end Cert.RefValue

end
-- ==== Proof.PreDecode.lean ====
import proofs.«420528_j52673478918521_3_alg».proof.Pre_finite_inputs
import proofs.«420528_j52673478918521_3_alg».proof.Proof.Gen.Pre_finite_inputs
import Idealize.ShloMosaic.Lib.ReduceAll
import Idealize.ShloMosaic.Lib.IdealHost
import Idealize.ShloMosaic.Lib.StableHlo.Predicate

/-!
# The precondition, decoded

The precondition is a conjunction of three "for all" statements over the two inputs:
every embedding has absolute value below `+∞`, every label is at least `0` (signed), and every
label is below `33` (signed). Each "for all" is a reduction by `and` from the constant `1`,
so the whole predicate being `1` gives each element fact at every index. From these:
every embedding is a real number, and every label is the word of some `k < 33`.
-/

namespace Cert.PreDecode

open Idealize.ShloMosaic
open Cert.Pre_finite_inputs

/-- The result of a full reduction has exactly one index. -/
instance : Subsingleton S_.Idx := ⟨fun a b => funext fun d => d.elim0⟩

/-- The f32 pattern `0x7F800000` is `+∞`. -/
theorem ofBits_inf_f32 : Ideal.ofBits .f32 0x7F800000#32 = (⊤ : EReal) := by
  simp [Ideal.ofBits, Ideal.ieee]

/-- An extended real whose absolute value `max x (-x)` is below `+∞` is a real. -/
theorem real_of_abs_lt_top (x : EReal) (hx : max x (-x) < ⊤) : ∃ r : ℝ, x = (r : EReal) := by
  induction x using EReal.rec with
  | bot => exact absurd hx (by simp)
  | coe r => exact ⟨r, rfl⟩
  | top => exact absurd hx (by simp)

/-- The three "for all"s of the precondition, each read at every index. -/
theorem decode (E : FVec Ideal S8x65536x32 .f32) (L : IVec S8x65536 32)
    (h : fn (F := Ideal) E L = fun _ => 1#1) :
    (∀ i, Ideal.cmp .olt (max (E i) (-(E i))) (Ideal.ofBits .f32 0x7F800000#32) = 1#1) ∧
    (∀ p, IntOp.cmpi .sge (L p) 0#32 = 1#1) ∧ (∀ p, IntOp.cmpi .slt (L p) 33#32 = 1#1) := by
  have h0 := congrFun h ValueIdx.ix0
  dsimp only [fn] at h0
  obtain ⟨h12, h3⟩ := IntOp.andi_eq_one.1 h0
  obtain ⟨h1, h2⟩ := IntOp.andi_eq_one.1 h12
  refine ⟨fun i => ?_, fun p => ?_, fun p => ?_⟩
  · exact Host.reduce_andi_all _ _ _ _ _ h1 i
  · exact Host.reduce_andi_all _ _ _ _ _ h2 p
  · exact Host.reduce_andi_all _ _ _ _ _ h3 p

/-- A word that is signed at least `0` and signed below `33` has a value below `33`. -/
theorem toNat_lt_of_signed (a : BitVec 32) (h0 : IntOp.cmpi .sge a 0#32 = 1#1)
    (h1 : IntOp.cmpi .slt a 33#32 = 1#1) : a.toNat < 33 := by
  simp only [IntOp.cmpi, StableHlo.Predicate.ofBool_eq_one_iff, BitVec.sle, BitVec.slt,
    decide_eq_true_eq] at h0 h1
  have e0 : (0#32 : BitVec 32).toInt = 0 := by decide
  have e33 : (33#32 : BitVec 32).toInt = 33 := by decide
  rw [e0] at h0
  rw [e33] at h1
  have hlt := a.isLt
  rw [BitVec.toInt_eq_toNat_cond] at h0 h1
  split at h0 <;> omega

/-- Every label is signed at least `0` and signed below `33`. -/
theorem labels_range (E : FVec Ideal S8x65536x32 .f32) (L : IVec S8x65536 32)
    (h : fn (F := Ideal) E L = fun _ => 1#1) :
    ∀ p, IntOp.cmpi .sge (L p) 0#32 = 1#1 ∧ IntOp.cmpi .slt (L p) 33#32 = 1#1 :=
  fun p => ⟨(decode E L h).2.1 p, (decode E L h).2.2 p⟩

/-- Every label is the word of some `k < 33`. -/
theorem labels_nat (E : FVec Ideal S8x65536x32 .f32) (L : IVec S8x65536 32)
    (h : fn (F := Ideal) E L = fun _ => 1#1) :
    ∀ p, ∃ k : Fin 33, L p = BitVec.ofNat 32 k.val := by
  intro p
  obtain ⟨h0, h1⟩ := labels_range E L h p
  refine ⟨⟨(L p).toNat, toNat_lt_of_signed (L p) h0 h1⟩, BitVec.eq_of_toNat_eq ?_⟩
  have hlt := (L p).isLt
  simp only [BitVec.toNat_ofNat]
  omega

/-- Every embedding is a real number. -/
theorem emb_finite (E : FVec Ideal S8x65536x32 .f32) (L : IVec S8x65536 32)
    (h : fn (F := Ideal) E L = fun _ => 1#1) :
    ∀ i, ∃ r : ℝ, E i = (r : EReal) := by
  intro i
  have hi := (decode E L h).1 i
  rw [ofBits_inf_f32] at hi
  have hlt : max (E i) (-(E i)) < ⊤ := by
    simpa only [Ideal.cmp, StableHlo.Predicate.ofBool_eq_one_iff, decide_eq_true_eq] using hi
  exact real_of_abs_lt_top (E i) hlt

end Cert.PreDecode
-- ==== Proof.lean ====
/-
  The certificate's five claims.

  Both programs compute a discriminative loss from embeddings E[8, 65536, 32] and instance labels L[8, 65536]:
  per batch and label the segment sums and counts of the embeddings, the centers sums / max(counts, 1), per point the
  hinge max(√max(‖x − own center‖², ε) − ½, 0) (nothing for label 0), its per-label segment sums, and a chain of
  small reductions over the 33 labels that both programs spell operation for operation the same.
  The kernel forms each segment sum as a one-hot product accumulated tile by tile over the point axis (two pipelined
  regions, each keeping its accumulators in scratch memory across tiles); the reference scatters every point into its
  segment 33·b + label and gathers each point's center by its label. With every label in 0..32 the two agree:
  a point's one-hot row has its single 1 at its own label, so the one-hot sum over labels is the gathered center and
  the one-hot sum over points is the scatter's segment sum; sums over the point axis do not depend on the tiling.
  Outside that range the reference's segment of one batch runs into the next batch's, so the label range is part
  of the precondition.

  The frames: each program runs to its end without a fault and leaves its two arguments as they were — the kernel
  programs by the launch of their two regions (every tile's body run by symbolic execution, the accumulators carried
  in the regions' invariants), the reference by its run. The idealization replaces one widening of a narrowed one-hot by
  the one-hot itself, exact at the ideal instance.
-/
import proofs.«420528_j52673478918521_3_alg».proof.Defs
import proofs.«420528_j52673478918521_3_alg».proof.Proof.K.Run
import proofs.«420528_j52673478918521_3_alg».proof.Proof.KI.KernelValue
import proofs.«420528_j52673478918521_3_alg».proof.Proof.RefValue
import proofs.«420528_j52673478918521_3_alg».proof.Proof.PreDecode

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) := fun m ρ _ =>
  (θ_run Cert.Kernel.defs _ _).mono (fun _ h c => (h c).2) (Cert.Kernel.Run.run_main (F := Bits) m ρ)

theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2) (Cert.KernelIdeal.Run.run_main (F := Ideal) m ρ)

theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- The one rewrite of the idealization: widening the narrowed one-hot back is the identity on the extended reals. -/
theorem preserves : Cert.preserves_Kernel_KernelIdeal := IdealRules.truncf_extf.statement _ .f32 .bf16

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Gen.V10 m (Cert.KernelIdeal.Run.outs m) c Cert.KernelIdeal.main_v80, Cert.KernelIdeal.Run.run_main (F := Ideal) m ρ, ?_⟩
  refine (θ_run Cert.ReferenceIdeal.defs _ _).mono (fun _ h c => ⟨(h c).1.trans ?_, (h c).2⟩)
    (Cert.ReferenceIdeal.Value.run (F := Ideal) m' ρ')
  have hL := Cert.PreDecode.labels_nat _ _ (hpre c)
  have hE : Cert.RefValue.argE m' c = m ((c.tc : Thread Cert.KernelIdeal.nD Cert.KernelIdeal.τ).loc Cert.KernelIdeal.main_arg0) := (hagree c).1
  have hLL : Cert.RefValue.argL m' c = m ((c.tc : Thread Cert.KernelIdeal.nD Cert.KernelIdeal.τ).loc Cert.KernelIdeal.main_arg1) := (hagree c).2
  rw [Cert.RefValue.ref_result m' c (by rw [hLL]; exact hL), hE, hLL]
  exact (Cert.KernelIdeal.KernelValue.kernel_value m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
